-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x8192x2048 : Shape := ⟨3, ![1, 8192, 2048]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel

variable [Facts]

def fn {F : FTy → Type} [FloatOps F] (main_arg0 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  main_v3
-- ==== Pre_finite_inputs_ReferenceIdeal.lean ====
abbrev S2x8192x2048 : Shape := ⟨3, ![2, 8192, 2048]⟩
abbrev S_ : Shape := ⟨0, ![]⟩

class Facts : Prop where
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel

variable [Facts]

def fn {F : FTy → Type} [FloatOps F] (main_arg0 : FVec F S2x8192x2048 .f32) : IVec S_ 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_c : IVec S_ 1 := constantI S_ 1 1#1
  let main_v3 : IVec S_ 1 := (fun x v => Host.reduce IntOp.andi x v reducesTo_S2x8192x2048_S_d0_1_2 h_S_) main_v2 main_c
  main_v3
-- ==== Kernel.lean ====
abbrev S1x8192x2048 : Shape := ⟨3, ![1, 8192, 2048]⟩
abbrev S8192x1024 : Shape := ⟨2, ![8192, 1024]⟩
abbrev S4096x1024 : Shape := ⟨2, ![4096, 1024]⟩
abbrev S_ : Shape := ⟨0, ![]⟩
abbrev S64 : Shape := ⟨1, ![64]⟩
abbrev S1x4096x1024 : Shape := ⟨3, ![1, 4096, 1024]⟩
abbrev S1 : Shape := ⟨1, ![1]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .local _ .vmem, ⟨0, _⟩ => ⟨S4096x1024, .f32⟩
  | .local _ .vmem, ⟨1, _⟩ => ⟨S4096x1024, .f32⟩
  | _, _ => ⟨S1x8192x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 32 := Scalar.subi c1_i32_4 v2
  let c2_i32_6 : BitVec 32 := 2#32
  let v12 : BitVec 32 := Scalar.muli v11 c2_i32_6
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7 : BitVec 32 := 1#32
  let v14 : BitVec 32 := Scalar.muli v5 c1_i32_7
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v17 : BitVec 32 := Scalar.muli v2 c2_i32_10
  let v18 : BitVec 32 := Scalar.addi c0_i32_11 v17
  let c1_i32_8 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v16 : BitVec 32 := Scalar.subi c1_i32_8 v5
  let c1_i32_12 : BitVec 32 := 1#32
  let v19 : BitVec 32 := Scalar.muli v16 c1_i32_12
  let v20 : BitVec 32 := Scalar.addi v18 v19
  v20.toNat
def k0_off1 (d0 : Dev nD) : Fin 3 → Nat :=
  let c0_i32_14 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v6 : BitVec 32 := Scalar.muli v5 c4096_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v7 : BitVec 32 := Scalar.muli v2 c1024_i32
  ![0, v6.toNat, v7.toNat]
def k0_off2 (d0 : Dev nD) (c0_i32_15 : BitVec 32) : Fin 3 → Nat :=
  let c0_i32_17 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v6 : BitVec 32 := Scalar.muli v5 c4096_i32
  let v23 : BitVec 32 := Scalar.addi v6 c0_i32_15
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_2 v2
  let c1024_i32_3 : BitVec 32 := 1024#32
  let v9 : BitVec 32 := Scalar.muli v8 c1024_i32_3
  ![0, v23.toNat, v9.toNat]
def k0_dev3 (d0 : Dev nD) : Nat :=
  let c0_i32_20 : BitVec 32 := 0#32
  let c1_i32_16 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v24 : BitVec 32 := Scalar.subi c1_i32_16 v2
  let c2_i32_19 : BitVec 32 := 2#32
  let v25 : BitVec 32 := Scalar.muli v24 c2_i32_19
  let v26 : BitVec 32 := Scalar.addi c0_i32_20 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v27 : BitVec 32 := Scalar.muli v5 c1_i32_21
  let v28 : BitVec 32 := Scalar.addi v26 v27
  v28.toNat
def k0_dev4 (d0 : Dev nD) : Nat :=
  let c0_i32_28 : BitVec 32 := 0#32
  let c1_i32_24 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v35 : BitVec 32 := Scalar.subi c1_i32_24 v2
  let c2_i32_27 : BitVec 32 := 2#32
  let v36 : BitVec 32 := Scalar.muli v35 c2_i32_27
  let v37 : BitVec 32 := Scalar.addi c0_i32_28 v36
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v38 : BitVec 32 := Scalar.muli v5 c1_i32_29
  let v39 : BitVec 32 := Scalar.addi v37 v38
  v39.toNat
def k0_dev5 (d0 : Dev nD) : Nat :=
  let c0_i32_36 : BitVec 32 := 0#32
  let c1_i32_32 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v46 : BitVec 32 := Scalar.subi c1_i32_32 v2
  let c2_i32_35 : BitVec 32 := 2#32
  let v47 : BitVec 32 := Scalar.muli v46 c2_i32_35
  let v48 : BitVec 32 := Scalar.addi c0_i32_36 v47
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v49 : BitVec 32 := Scalar.muli v5 c1_i32_37
  let v50 : BitVec 32 := Scalar.addi v48 v49
  v50.toNat
def k0_dev6 (d0 : Dev nD) : Nat :=
  let c0_i32_43 : BitVec 32 := 0#32
  let c1_i32_40 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v57 : BitVec 32 := Scalar.subi c1_i32_40 v2
  let c2_i32_42 : BitVec 32 := 2#32
  let v58 : BitVec 32 := Scalar.muli v57 c2_i32_42
  let v59 : BitVec 32 := Scalar.addi c0_i32_43 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v60 : BitVec 32 := Scalar.muli v5 c1_i32_44
  let v61 : BitVec 32 := Scalar.addi v59 v60
  v61.toNat
def k0_dev7 (d0 : Dev nD) : Nat :=
  let c0_i32_50 : BitVec 32 := 0#32
  let c1_i32_47 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v68 : BitVec 32 := Scalar.subi c1_i32_47 v2
  let c2_i32_49 : BitVec 32 := 2#32
  let v69 : BitVec 32 := Scalar.muli v68 c2_i32_49
  let v70 : BitVec 32 := Scalar.addi c0_i32_50 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v71 : BitVec 32 := Scalar.muli v5 c1_i32_51
  let v72 : BitVec 32 := Scalar.addi v70 v71
  v72.toNat
def k0_dev8 (d0 : Dev nD) : Nat :=
  let c0_i32_57 : BitVec 32 := 0#32
  let c1_i32_54 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v79 : BitVec 32 := Scalar.subi c1_i32_54 v2
  let c2_i32_56 : BitVec 32 := 2#32
  let v80 : BitVec 32 := Scalar.muli v79 c2_i32_56
  let v81 : BitVec 32 := Scalar.addi c0_i32_57 v80
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v82 : BitVec 32 := Scalar.muli v5 c1_i32_58
  let v83 : BitVec 32 := Scalar.addi v81 v82
  v83.toNat
def k0_dev9 (d0 : Dev nD) : Nat :=
  let c0_i32_64 : BitVec 32 := 0#32
  let c1_i32_61 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v90 : BitVec 32 := Scalar.subi c1_i32_61 v2
  let c2_i32_63 : BitVec 32 := 2#32
  let v91 : BitVec 32 := Scalar.muli v90 c2_i32_63
  let v92 : BitVec 32 := Scalar.addi c0_i32_64 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v93 : BitVec 32 := Scalar.muli v5 c1_i32_65
  let v94 : BitVec 32 := Scalar.addi v92 v93
  v94.toNat
def k0_dev10 (d0 : Dev nD) : Nat :=
  let c0_i32_71 : BitVec 32 := 0#32
  let c1_i32_68 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v101 : BitVec 32 := Scalar.subi c1_i32_68 v2
  let c2_i32_70 : BitVec 32 := 2#32
  let v102 : BitVec 32 := Scalar.muli v101 c2_i32_70
  let v103 : BitVec 32 := Scalar.addi c0_i32_71 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v104 : BitVec 32 := Scalar.muli v5 c1_i32_72
  let v105 : BitVec 32 := Scalar.addi v103 v104
  v105.toNat
def k0_dev11 (d0 : Dev nD) : Nat :=
  let c0_i32_78 : BitVec 32 := 0#32
  let c1_i32_75 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v112 : BitVec 32 := Scalar.subi c1_i32_75 v2
  let c2_i32_77 : BitVec 32 := 2#32
  let v113 : BitVec 32 := Scalar.muli v112 c2_i32_77
  let v114 : BitVec 32 := Scalar.addi c0_i32_78 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v115 : BitVec 32 := Scalar.muli v5 c1_i32_79
  let v116 : BitVec 32 := Scalar.addi v114 v115
  v116.toNat
def k0_dev12 (d0 : Dev nD) : Nat :=
  let c0_i32_85 : BitVec 32 := 0#32
  let c1_i32_82 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v123 : BitVec 32 := Scalar.subi c1_i32_82 v2
  let c2_i32_84 : BitVec 32 := 2#32
  let v124 : BitVec 32 := Scalar.muli v123 c2_i32_84
  let v125 : BitVec 32 := Scalar.addi c0_i32_85 v124
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v126 : BitVec 32 := Scalar.muli v5 c1_i32_86
  let v127 : BitVec 32 := Scalar.addi v125 v126
  v127.toNat
def k0_dev13 (d0 : Dev nD) : Nat :=
  let c0_i32_92 : BitVec 32 := 0#32
  let c1_i32_89 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v134 : BitVec 32 := Scalar.subi c1_i32_89 v2
  let c2_i32_91 : BitVec 32 := 2#32
  let v135 : BitVec 32 := Scalar.muli v134 c2_i32_91
  let v136 : BitVec 32 := Scalar.addi c0_i32_92 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v137 : BitVec 32 := Scalar.muli v5 c1_i32_93
  let v138 : BitVec 32 := Scalar.addi v136 v137
  v138.toNat
def k0_dev14 (d0 : Dev nD) : Nat :=
  let c0_i32_99 : BitVec 32 := 0#32
  let c1_i32_96 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v145 : BitVec 32 := Scalar.subi c1_i32_96 v2
  let c2_i32_98 : BitVec 32 := 2#32
  let v146 : BitVec 32 := Scalar.muli v145 c2_i32_98
  let v147 : BitVec 32 := Scalar.addi c0_i32_99 v146
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v148 : BitVec 32 := Scalar.muli v5 c1_i32_100
  let v149 : BitVec 32 := Scalar.addi v147 v148
  v149.toNat
def k0_dev15 (d0 : Dev nD) : Nat :=
  let c0_i32_106 : BitVec 32 := 0#32
  let c1_i32_103 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v156 : BitVec 32 := Scalar.subi c1_i32_103 v2
  let c2_i32_105 : BitVec 32 := 2#32
  let v157 : BitVec 32 := Scalar.muli v156 c2_i32_105
  let v158 : BitVec 32 := Scalar.addi c0_i32_106 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v159 : BitVec 32 := Scalar.muli v5 c1_i32_107
  let v160 : BitVec 32 := Scalar.addi v158 v159
  v160.toNat
def k0_dev16 (d0 : Dev nD) : Nat :=
  let c0_i32_113 : BitVec 32 := 0#32
  let c1_i32_110 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v167 : BitVec 32 := Scalar.subi c1_i32_110 v2
  let c2_i32_112 : BitVec 32 := 2#32
  let v168 : BitVec 32 := Scalar.muli v167 c2_i32_112
  let v169 : BitVec 32 := Scalar.addi c0_i32_113 v168
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v170 : BitVec 32 := Scalar.muli v5 c1_i32_114
  let v171 : BitVec 32 := Scalar.addi v169 v170
  v171.toNat
def k0_dev17 (d0 : Dev nD) : Nat :=
  let c0_i32_120 : BitVec 32 := 0#32
  let c1_i32_117 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v178 : BitVec 32 := Scalar.subi c1_i32_117 v2
  let c2_i32_119 : BitVec 32 := 2#32
  let v179 : BitVec 32 := Scalar.muli v178 c2_i32_119
  let v180 : BitVec 32 := Scalar.addi c0_i32_120 v179
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v181 : BitVec 32 := Scalar.muli v5 c1_i32_121
  let v182 : BitVec 32 := Scalar.addi v180 v181
  v182.toNat
def k0_dev18 (d0 : Dev nD) : Nat :=
  let c0_i32_127 : BitVec 32 := 0#32
  let c1_i32_124 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v189 : BitVec 32 := Scalar.subi c1_i32_124 v2
  let c2_i32_126 : BitVec 32 := 2#32
  let v190 : BitVec 32 := Scalar.muli v189 c2_i32_126
  let v191 : BitVec 32 := Scalar.addi c0_i32_127 v190
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v192 : BitVec 32 := Scalar.muli v5 c1_i32_128
  let v193 : BitVec 32 := Scalar.addi v191 v192
  v193.toNat
def k0_dev19 (d0 : Dev nD) : Nat :=
  let c0_i32_135 : BitVec 32 := 0#32
  let c1_i32_132 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v200 : BitVec 32 := Scalar.subi c1_i32_132 v2
  let c2_i32_134 : BitVec 32 := 2#32
  let v201 : BitVec 32 := Scalar.muli v200 c2_i32_134
  let v202 : BitVec 32 := Scalar.addi c0_i32_135 v201
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v203 : BitVec 32 := Scalar.muli v5 c1_i32_136
  let v204 : BitVec 32 := Scalar.addi v202 v203
  v204.toNat
def k0_dev20 (d0 : Dev nD) : Nat :=
  let c0_i32_142 : BitVec 32 := 0#32
  let c1_i32_139 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v211 : BitVec 32 := Scalar.subi c1_i32_139 v2
  let c2_i32_141 : BitVec 32 := 2#32
  let v212 : BitVec 32 := Scalar.muli v211 c2_i32_141
  let v213 : BitVec 32 := Scalar.addi c0_i32_142 v212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_143 : BitVec 32 := 1#32
  let v214 : BitVec 32 := Scalar.muli v5 c1_i32_143
  let v215 : BitVec 32 := Scalar.addi v213 v214
  v215.toNat
def k0_dev21 (d0 : Dev nD) : Nat :=
  let c0_i32_149 : BitVec 32 := 0#32
  let c1_i32_146 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v222 : BitVec 32 := Scalar.subi c1_i32_146 v2
  let c2_i32_148 : BitVec 32 := 2#32
  let v223 : BitVec 32 := Scalar.muli v222 c2_i32_148
  let v224 : BitVec 32 := Scalar.addi c0_i32_149 v223
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v225 : BitVec 32 := Scalar.muli v5 c1_i32_150
  let v226 : BitVec 32 := Scalar.addi v224 v225
  v226.toNat
def k0_dev22 (d0 : Dev nD) : Nat :=
  let c0_i32_156 : BitVec 32 := 0#32
  let c1_i32_153 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v233 : BitVec 32 := Scalar.subi c1_i32_153 v2
  let c2_i32_155 : BitVec 32 := 2#32
  let v234 : BitVec 32 := Scalar.muli v233 c2_i32_155
  let v235 : BitVec 32 := Scalar.addi c0_i32_156 v234
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v236 : BitVec 32 := Scalar.muli v5 c1_i32_157
  let v237 : BitVec 32 := Scalar.addi v235 v236
  v237.toNat
def k0_dev23 (d0 : Dev nD) : Nat :=
  let c0_i32_163 : BitVec 32 := 0#32
  let c1_i32_160 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v244 : BitVec 32 := Scalar.subi c1_i32_160 v2
  let c2_i32_162 : BitVec 32 := 2#32
  let v245 : BitVec 32 := Scalar.muli v244 c2_i32_162
  let v246 : BitVec 32 := Scalar.addi c0_i32_163 v245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v247 : BitVec 32 := Scalar.muli v5 c1_i32_164
  let v248 : BitVec 32 := Scalar.addi v246 v247
  v248.toNat
def k0_dev24 (d0 : Dev nD) : Nat :=
  let c0_i32_170 : BitVec 32 := 0#32
  let c1_i32_167 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v255 : BitVec 32 := Scalar.subi c1_i32_167 v2
  let c2_i32_169 : BitVec 32 := 2#32
  let v256 : BitVec 32 := Scalar.muli v255 c2_i32_169
  let v257 : BitVec 32 := Scalar.addi c0_i32_170 v256
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v258 : BitVec 32 := Scalar.muli v5 c1_i32_171
  let v259 : BitVec 32 := Scalar.addi v257 v258
  v259.toNat
def k0_dev25 (d0 : Dev nD) : Nat :=
  let c0_i32_177 : BitVec 32 := 0#32
  let c1_i32_174 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v266 : BitVec 32 := Scalar.subi c1_i32_174 v2
  let c2_i32_176 : BitVec 32 := 2#32
  let v267 : BitVec 32 := Scalar.muli v266 c2_i32_176
  let v268 : BitVec 32 := Scalar.addi c0_i32_177 v267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v269 : BitVec 32 := Scalar.muli v5 c1_i32_178
  let v270 : BitVec 32 := Scalar.addi v268 v269
  v270.toNat
def k0_dev26 (d0 : Dev nD) : Nat :=
  let c0_i32_184 : BitVec 32 := 0#32
  let c1_i32_181 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v277 : BitVec 32 := Scalar.subi c1_i32_181 v2
  let c2_i32_183 : BitVec 32 := 2#32
  let v278 : BitVec 32 := Scalar.muli v277 c2_i32_183
  let v279 : BitVec 32 := Scalar.addi c0_i32_184 v278
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_185 : BitVec 32 := 1#32
  let v280 : BitVec 32 := Scalar.muli v5 c1_i32_185
  let v281 : BitVec 32 := Scalar.addi v279 v280
  v281.toNat
def k0_dev27 (d0 : Dev nD) : Nat :=
  let c0_i32_191 : BitVec 32 := 0#32
  let c1_i32_188 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v288 : BitVec 32 := Scalar.subi c1_i32_188 v2
  let c2_i32_190 : BitVec 32 := 2#32
  let v289 : BitVec 32 := Scalar.muli v288 c2_i32_190
  let v290 : BitVec 32 := Scalar.addi c0_i32_191 v289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_192 : BitVec 32 := 1#32
  let v291 : BitVec 32 := Scalar.muli v5 c1_i32_192
  let v292 : BitVec 32 := Scalar.addi v290 v291
  v292.toNat
def k0_dev28 (d0 : Dev nD) : Nat :=
  let c0_i32_198 : BitVec 32 := 0#32
  let c1_i32_195 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v299 : BitVec 32 := Scalar.subi c1_i32_195 v2
  let c2_i32_197 : BitVec 32 := 2#32
  let v300 : BitVec 32 := Scalar.muli v299 c2_i32_197
  let v301 : BitVec 32 := Scalar.addi c0_i32_198 v300
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_199 : BitVec 32 := 1#32
  let v302 : BitVec 32 := Scalar.muli v5 c1_i32_199
  let v303 : BitVec 32 := Scalar.addi v301 v302
  v303.toNat
def k0_dev29 (d0 : Dev nD) : Nat :=
  let c0_i32_205 : BitVec 32 := 0#32
  let c1_i32_202 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v310 : BitVec 32 := Scalar.subi c1_i32_202 v2
  let c2_i32_204 : BitVec 32 := 2#32
  let v311 : BitVec 32 := Scalar.muli v310 c2_i32_204
  let v312 : BitVec 32 := Scalar.addi c0_i32_205 v311
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_206 : BitVec 32 := 1#32
  let v313 : BitVec 32 := Scalar.muli v5 c1_i32_206
  let v314 : BitVec 32 := Scalar.addi v312 v313
  v314.toNat
def k0_dev30 (d0 : Dev nD) : Nat :=
  let c0_i32_212 : BitVec 32 := 0#32
  let c1_i32_209 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v321 : BitVec 32 := Scalar.subi c1_i32_209 v2
  let c2_i32_211 : BitVec 32 := 2#32
  let v322 : BitVec 32 := Scalar.muli v321 c2_i32_211
  let v323 : BitVec 32 := Scalar.addi c0_i32_212 v322
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_213 : BitVec 32 := 1#32
  let v324 : BitVec 32 := Scalar.muli v5 c1_i32_213
  let v325 : BitVec 32 := Scalar.addi v323 v324
  v325.toNat
def k0_dev31 (d0 : Dev nD) : Nat :=
  let c0_i32_219 : BitVec 32 := 0#32
  let c1_i32_216 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v332 : BitVec 32 := Scalar.subi c1_i32_216 v2
  let c2_i32_218 : BitVec 32 := 2#32
  let v333 : BitVec 32 := Scalar.muli v332 c2_i32_218
  let v334 : BitVec 32 := Scalar.addi c0_i32_219 v333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v335 : BitVec 32 := Scalar.muli v5 c1_i32_220
  let v336 : BitVec 32 := Scalar.addi v334 v335
  v336.toNat
def k0_dev32 (d0 : Dev nD) : Nat :=
  let c0_i32_226 : BitVec 32 := 0#32
  let c1_i32_223 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v343 : BitVec 32 := Scalar.subi c1_i32_223 v2
  let c2_i32_225 : BitVec 32 := 2#32
  let v344 : BitVec 32 := Scalar.muli v343 c2_i32_225
  let v345 : BitVec 32 := Scalar.addi c0_i32_226 v344
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_227 : BitVec 32 := 1#32
  let v346 : BitVec 32 := Scalar.muli v5 c1_i32_227
  let v347 : BitVec 32 := Scalar.addi v345 v346
  v347.toNat
def k0_dev33 (d0 : Dev nD) : Nat :=
  let c0_i32_233 : BitVec 32 := 0#32
  let c1_i32_230 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v354 : BitVec 32 := Scalar.subi c1_i32_230 v2
  let c2_i32_232 : BitVec 32 := 2#32
  let v355 : BitVec 32 := Scalar.muli v354 c2_i32_232
  let v356 : BitVec 32 := Scalar.addi c0_i32_233 v355
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_234 : BitVec 32 := 1#32
  let v357 : BitVec 32 := Scalar.muli v5 c1_i32_234
  let v358 : BitVec 32 := Scalar.addi v356 v357
  v358.toNat
def k0_dev34 (d0 : Dev nD) : Nat :=
  let c0_i32_240 : BitVec 32 := 0#32
  let c1_i32_237 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v365 : BitVec 32 := Scalar.subi c1_i32_237 v2
  let c2_i32_239 : BitVec 32 := 2#32
  let v366 : BitVec 32 := Scalar.muli v365 c2_i32_239
  let v367 : BitVec 32 := Scalar.addi c0_i32_240 v366
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_241 : BitVec 32 := 1#32
  let v368 : BitVec 32 := Scalar.muli v5 c1_i32_241
  let v369 : BitVec 32 := Scalar.addi v367 v368
  v369.toNat
def k0_dev35 (d0 : Dev nD) : Nat :=
  let c0_i32_247 : BitVec 32 := 0#32
  let c1_i32_244 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v376 : BitVec 32 := Scalar.subi c1_i32_244 v2
  let c2_i32_246 : BitVec 32 := 2#32
  let v377 : BitVec 32 := Scalar.muli v376 c2_i32_246
  let v378 : BitVec 32 := Scalar.addi c0_i32_247 v377
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_248 : BitVec 32 := 1#32
  let v379 : BitVec 32 := Scalar.muli v5 c1_i32_248
  let v380 : BitVec 32 := Scalar.addi v378 v379
  v380.toNat
def k0_dev36 (d0 : Dev nD) : Nat :=
  let c0_i32_254 : BitVec 32 := 0#32
  let c1_i32_251 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v387 : BitVec 32 := Scalar.subi c1_i32_251 v2
  let c2_i32_253 : BitVec 32 := 2#32
  let v388 : BitVec 32 := Scalar.muli v387 c2_i32_253
  let v389 : BitVec 32 := Scalar.addi c0_i32_254 v388
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_255 : BitVec 32 := 1#32
  let v390 : BitVec 32 := Scalar.muli v5 c1_i32_255
  let v391 : BitVec 32 := Scalar.addi v389 v390
  v391.toNat
def k0_dev37 (d0 : Dev nD) : Nat :=
  let c0_i32_261 : BitVec 32 := 0#32
  let c1_i32_258 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v398 : BitVec 32 := Scalar.subi c1_i32_258 v2
  let c2_i32_260 : BitVec 32 := 2#32
  let v399 : BitVec 32 := Scalar.muli v398 c2_i32_260
  let v400 : BitVec 32 := Scalar.addi c0_i32_261 v399
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let v401 : BitVec 32 := Scalar.muli v5 c1_i32_262
  let v402 : BitVec 32 := Scalar.addi v400 v401
  v402.toNat
def k0_dev38 (d0 : Dev nD) : Nat :=
  let c0_i32_268 : BitVec 32 := 0#32
  let c1_i32_265 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v409 : BitVec 32 := Scalar.subi c1_i32_265 v2
  let c2_i32_267 : BitVec 32 := 2#32
  let v410 : BitVec 32 := Scalar.muli v409 c2_i32_267
  let v411 : BitVec 32 := Scalar.addi c0_i32_268 v410
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_269 : BitVec 32 := 1#32
  let v412 : BitVec 32 := Scalar.muli v5 c1_i32_269
  let v413 : BitVec 32 := Scalar.addi v411 v412
  v413.toNat
def k0_dev39 (d0 : Dev nD) : Nat :=
  let c0_i32_275 : BitVec 32 := 0#32
  let c1_i32_272 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v420 : BitVec 32 := Scalar.subi c1_i32_272 v2
  let c2_i32_274 : BitVec 32 := 2#32
  let v421 : BitVec 32 := Scalar.muli v420 c2_i32_274
  let v422 : BitVec 32 := Scalar.addi c0_i32_275 v421
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_276 : BitVec 32 := 1#32
  let v423 : BitVec 32 := Scalar.muli v5 c1_i32_276
  let v424 : BitVec 32 := Scalar.addi v422 v423
  v424.toNat
def k0_dev40 (d0 : Dev nD) : Nat :=
  let c0_i32_282 : BitVec 32 := 0#32
  let c1_i32_279 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v431 : BitVec 32 := Scalar.subi c1_i32_279 v2
  let c2_i32_281 : BitVec 32 := 2#32
  let v432 : BitVec 32 := Scalar.muli v431 c2_i32_281
  let v433 : BitVec 32 := Scalar.addi c0_i32_282 v432
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_283 : BitVec 32 := 1#32
  let v434 : BitVec 32 := Scalar.muli v5 c1_i32_283
  let v435 : BitVec 32 := Scalar.addi v433 v434
  v435.toNat
def k0_dev41 (d0 : Dev nD) : Nat :=
  let c0_i32_289 : BitVec 32 := 0#32
  let c1_i32_286 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v442 : BitVec 32 := Scalar.subi c1_i32_286 v2
  let c2_i32_288 : BitVec 32 := 2#32
  let v443 : BitVec 32 := Scalar.muli v442 c2_i32_288
  let v444 : BitVec 32 := Scalar.addi c0_i32_289 v443
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_290 : BitVec 32 := 1#32
  let v445 : BitVec 32 := Scalar.muli v5 c1_i32_290
  let v446 : BitVec 32 := Scalar.addi v444 v445
  v446.toNat
def k0_dev42 (d0 : Dev nD) : Nat :=
  let c0_i32_296 : BitVec 32 := 0#32
  let c1_i32_293 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v453 : BitVec 32 := Scalar.subi c1_i32_293 v2
  let c2_i32_295 : BitVec 32 := 2#32
  let v454 : BitVec 32 := Scalar.muli v453 c2_i32_295
  let v455 : BitVec 32 := Scalar.addi c0_i32_296 v454
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_297 : BitVec 32 := 1#32
  let v456 : BitVec 32 := Scalar.muli v5 c1_i32_297
  let v457 : BitVec 32 := Scalar.addi v455 v456
  v457.toNat
def k0_dev43 (d0 : Dev nD) : Nat :=
  let c0_i32_303 : BitVec 32 := 0#32
  let c1_i32_300 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v464 : BitVec 32 := Scalar.subi c1_i32_300 v2
  let c2_i32_302 : BitVec 32 := 2#32
  let v465 : BitVec 32 := Scalar.muli v464 c2_i32_302
  let v466 : BitVec 32 := Scalar.addi c0_i32_303 v465
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_304 : BitVec 32 := 1#32
  let v467 : BitVec 32 := Scalar.muli v5 c1_i32_304
  let v468 : BitVec 32 := Scalar.addi v466 v467
  v468.toNat
def k0_dev44 (d0 : Dev nD) : Nat :=
  let c0_i32_310 : BitVec 32 := 0#32
  let c1_i32_307 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v475 : BitVec 32 := Scalar.subi c1_i32_307 v2
  let c2_i32_309 : BitVec 32 := 2#32
  let v476 : BitVec 32 := Scalar.muli v475 c2_i32_309
  let v477 : BitVec 32 := Scalar.addi c0_i32_310 v476
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_311 : BitVec 32 := 1#32
  let v478 : BitVec 32 := Scalar.muli v5 c1_i32_311
  let v479 : BitVec 32 := Scalar.addi v477 v478
  v479.toNat
def k0_dev45 (d0 : Dev nD) : Nat :=
  let c0_i32_317 : BitVec 32 := 0#32
  let c1_i32_314 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v486 : BitVec 32 := Scalar.subi c1_i32_314 v2
  let c2_i32_316 : BitVec 32 := 2#32
  let v487 : BitVec 32 := Scalar.muli v486 c2_i32_316
  let v488 : BitVec 32 := Scalar.addi c0_i32_317 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_318 : BitVec 32 := 1#32
  let v489 : BitVec 32 := Scalar.muli v5 c1_i32_318
  let v490 : BitVec 32 := Scalar.addi v488 v489
  v490.toNat
def k0_dev46 (d0 : Dev nD) : Nat :=
  let c0_i32_324 : BitVec 32 := 0#32
  let c1_i32_321 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v497 : BitVec 32 := Scalar.subi c1_i32_321 v2
  let c2_i32_323 : BitVec 32 := 2#32
  let v498 : BitVec 32 := Scalar.muli v497 c2_i32_323
  let v499 : BitVec 32 := Scalar.addi c0_i32_324 v498
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_325 : BitVec 32 := 1#32
  let v500 : BitVec 32 := Scalar.muli v5 c1_i32_325
  let v501 : BitVec 32 := Scalar.addi v499 v500
  v501.toNat
def k0_dev47 (d0 : Dev nD) : Nat :=
  let c0_i32_331 : BitVec 32 := 0#32
  let c1_i32_328 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v508 : BitVec 32 := Scalar.subi c1_i32_328 v2
  let c2_i32_330 : BitVec 32 := 2#32
  let v509 : BitVec 32 := Scalar.muli v508 c2_i32_330
  let v510 : BitVec 32 := Scalar.addi c0_i32_331 v509
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_332 : BitVec 32 := 1#32
  let v511 : BitVec 32 := Scalar.muli v5 c1_i32_332
  let v512 : BitVec 32 := Scalar.addi v510 v511
  v512.toNat
def k0_dev48 (d0 : Dev nD) : Nat :=
  let c0_i32_338 : BitVec 32 := 0#32
  let c1_i32_335 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v519 : BitVec 32 := Scalar.subi c1_i32_335 v2
  let c2_i32_337 : BitVec 32 := 2#32
  let v520 : BitVec 32 := Scalar.muli v519 c2_i32_337
  let v521 : BitVec 32 := Scalar.addi c0_i32_338 v520
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_339 : BitVec 32 := 1#32
  let v522 : BitVec 32 := Scalar.muli v5 c1_i32_339
  let v523 : BitVec 32 := Scalar.addi v521 v522
  v523.toNat
def k0_dev49 (d0 : Dev nD) : Nat :=
  let c0_i32_345 : BitVec 32 := 0#32
  let c1_i32_342 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v530 : BitVec 32 := Scalar.subi c1_i32_342 v2
  let c2_i32_344 : BitVec 32 := 2#32
  let v531 : BitVec 32 := Scalar.muli v530 c2_i32_344
  let v532 : BitVec 32 := Scalar.addi c0_i32_345 v531
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_346 : BitVec 32 := 1#32
  let v533 : BitVec 32 := Scalar.muli v5 c1_i32_346
  let v534 : BitVec 32 := Scalar.addi v532 v533
  v534.toNat
def k0_dev50 (d0 : Dev nD) : Nat :=
  let c0_i32_352 : BitVec 32 := 0#32
  let c1_i32_349 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v541 : BitVec 32 := Scalar.subi c1_i32_349 v2
  let c2_i32_351 : BitVec 32 := 2#32
  let v542 : BitVec 32 := Scalar.muli v541 c2_i32_351
  let v543 : BitVec 32 := Scalar.addi c0_i32_352 v542
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_353 : BitVec 32 := 1#32
  let v544 : BitVec 32 := Scalar.muli v5 c1_i32_353
  let v545 : BitVec 32 := Scalar.addi v543 v544
  v545.toNat
def k0_dev51 (d0 : Dev nD) : Nat :=
  let c0_i32_359 : BitVec 32 := 0#32
  let c1_i32_356 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v552 : BitVec 32 := Scalar.subi c1_i32_356 v2
  let c2_i32_358 : BitVec 32 := 2#32
  let v553 : BitVec 32 := Scalar.muli v552 c2_i32_358
  let v554 : BitVec 32 := Scalar.addi c0_i32_359 v553
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_360 : BitVec 32 := 1#32
  let v555 : BitVec 32 := Scalar.muli v5 c1_i32_360
  let v556 : BitVec 32 := Scalar.addi v554 v555
  v556.toNat
def k0_dev52 (d0 : Dev nD) : Nat :=
  let c0_i32_366 : BitVec 32 := 0#32
  let c1_i32_363 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v563 : BitVec 32 := Scalar.subi c1_i32_363 v2
  let c2_i32_365 : BitVec 32 := 2#32
  let v564 : BitVec 32 := Scalar.muli v563 c2_i32_365
  let v565 : BitVec 32 := Scalar.addi c0_i32_366 v564
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_367 : BitVec 32 := 1#32
  let v566 : BitVec 32 := Scalar.muli v5 c1_i32_367
  let v567 : BitVec 32 := Scalar.addi v565 v566
  v567.toNat
def k0_dev53 (d0 : Dev nD) : Nat :=
  let c0_i32_373 : BitVec 32 := 0#32
  let c1_i32_370 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v574 : BitVec 32 := Scalar.subi c1_i32_370 v2
  let c2_i32_372 : BitVec 32 := 2#32
  let v575 : BitVec 32 := Scalar.muli v574 c2_i32_372
  let v576 : BitVec 32 := Scalar.addi c0_i32_373 v575
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_374 : BitVec 32 := 1#32
  let v577 : BitVec 32 := Scalar.muli v5 c1_i32_374
  let v578 : BitVec 32 := Scalar.addi v576 v577
  v578.toNat
def k0_dev54 (d0 : Dev nD) : Nat :=
  let c0_i32_380 : BitVec 32 := 0#32
  let c1_i32_377 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v585 : BitVec 32 := Scalar.subi c1_i32_377 v2
  let c2_i32_379 : BitVec 32 := 2#32
  let v586 : BitVec 32 := Scalar.muli v585 c2_i32_379
  let v587 : BitVec 32 := Scalar.addi c0_i32_380 v586
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v588 : BitVec 32 := Scalar.muli v5 c1_i32_381
  let v589 : BitVec 32 := Scalar.addi v587 v588
  v589.toNat
def k0_dev55 (d0 : Dev nD) : Nat :=
  let c0_i32_387 : BitVec 32 := 0#32
  let c1_i32_384 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v596 : BitVec 32 := Scalar.subi c1_i32_384 v2
  let c2_i32_386 : BitVec 32 := 2#32
  let v597 : BitVec 32 := Scalar.muli v596 c2_i32_386
  let v598 : BitVec 32 := Scalar.addi c0_i32_387 v597
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_388 : BitVec 32 := 1#32
  let v599 : BitVec 32 := Scalar.muli v5 c1_i32_388
  let v600 : BitVec 32 := Scalar.addi v598 v599
  v600.toNat
def k0_dev56 (d0 : Dev nD) : Nat :=
  let c0_i32_394 : BitVec 32 := 0#32
  let c1_i32_391 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v607 : BitVec 32 := Scalar.subi c1_i32_391 v2
  let c2_i32_393 : BitVec 32 := 2#32
  let v608 : BitVec 32 := Scalar.muli v607 c2_i32_393
  let v609 : BitVec 32 := Scalar.addi c0_i32_394 v608
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_395 : BitVec 32 := 1#32
  let v610 : BitVec 32 := Scalar.muli v5 c1_i32_395
  let v611 : BitVec 32 := Scalar.addi v609 v610
  v611.toNat
def k0_dev57 (d0 : Dev nD) : Nat :=
  let c0_i32_401 : BitVec 32 := 0#32
  let c1_i32_398 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v618 : BitVec 32 := Scalar.subi c1_i32_398 v2
  let c2_i32_400 : BitVec 32 := 2#32
  let v619 : BitVec 32 := Scalar.muli v618 c2_i32_400
  let v620 : BitVec 32 := Scalar.addi c0_i32_401 v619
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_402 : BitVec 32 := 1#32
  let v621 : BitVec 32 := Scalar.muli v5 c1_i32_402
  let v622 : BitVec 32 := Scalar.addi v620 v621
  v622.toNat
def k0_dev58 (d0 : Dev nD) : Nat :=
  let c0_i32_408 : BitVec 32 := 0#32
  let c1_i32_405 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v629 : BitVec 32 := Scalar.subi c1_i32_405 v2
  let c2_i32_407 : BitVec 32 := 2#32
  let v630 : BitVec 32 := Scalar.muli v629 c2_i32_407
  let v631 : BitVec 32 := Scalar.addi c0_i32_408 v630
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_409 : BitVec 32 := 1#32
  let v632 : BitVec 32 := Scalar.muli v5 c1_i32_409
  let v633 : BitVec 32 := Scalar.addi v631 v632
  v633.toNat
def k0_dev59 (d0 : Dev nD) : Nat :=
  let c0_i32_415 : BitVec 32 := 0#32
  let c1_i32_412 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v640 : BitVec 32 := Scalar.subi c1_i32_412 v2
  let c2_i32_414 : BitVec 32 := 2#32
  let v641 : BitVec 32 := Scalar.muli v640 c2_i32_414
  let v642 : BitVec 32 := Scalar.addi c0_i32_415 v641
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_416 : BitVec 32 := 1#32
  let v643 : BitVec 32 := Scalar.muli v5 c1_i32_416
  let v644 : BitVec 32 := Scalar.addi v642 v643
  v644.toNat
def k0_dev60 (d0 : Dev nD) : Nat :=
  let c0_i32_422 : BitVec 32 := 0#32
  let c1_i32_419 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v651 : BitVec 32 := Scalar.subi c1_i32_419 v2
  let c2_i32_421 : BitVec 32 := 2#32
  let v652 : BitVec 32 := Scalar.muli v651 c2_i32_421
  let v653 : BitVec 32 := Scalar.addi c0_i32_422 v652
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_423 : BitVec 32 := 1#32
  let v654 : BitVec 32 := Scalar.muli v5 c1_i32_423
  let v655 : BitVec 32 := Scalar.addi v653 v654
  v655.toNat
def k0_dev61 (d0 : Dev nD) : Nat :=
  let c0_i32_429 : BitVec 32 := 0#32
  let c1_i32_426 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v662 : BitVec 32 := Scalar.subi c1_i32_426 v2
  let c2_i32_428 : BitVec 32 := 2#32
  let v663 : BitVec 32 := Scalar.muli v662 c2_i32_428
  let v664 : BitVec 32 := Scalar.addi c0_i32_429 v663
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_430 : BitVec 32 := 1#32
  let v665 : BitVec 32 := Scalar.muli v5 c1_i32_430
  let v666 : BitVec 32 := Scalar.addi v664 v665
  v666.toNat
def k0_dev62 (d0 : Dev nD) : Nat :=
  let c0_i32_436 : BitVec 32 := 0#32
  let c1_i32_433 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v673 : BitVec 32 := Scalar.subi c1_i32_433 v2
  let c2_i32_435 : BitVec 32 := 2#32
  let v674 : BitVec 32 := Scalar.muli v673 c2_i32_435
  let v675 : BitVec 32 := Scalar.addi c0_i32_436 v674
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_437 : BitVec 32 := 1#32
  let v676 : BitVec 32 := Scalar.muli v5 c1_i32_437
  let v677 : BitVec 32 := Scalar.addi v675 v676
  v677.toNat
def k0_dev63 (d0 : Dev nD) : Nat :=
  let c0_i32_443 : BitVec 32 := 0#32
  let c1_i32_440 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v684 : BitVec 32 := Scalar.subi c1_i32_440 v2
  let c2_i32_442 : BitVec 32 := 2#32
  let v685 : BitVec 32 := Scalar.muli v684 c2_i32_442
  let v686 : BitVec 32 := Scalar.addi c0_i32_443 v685
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_444 : BitVec 32 := 1#32
  let v687 : BitVec 32 := Scalar.muli v5 c1_i32_444
  let v688 : BitVec 32 := Scalar.addi v686 v687
  v688.toNat
def k0_dev64 (d0 : Dev nD) : Nat :=
  let c0_i32_450 : BitVec 32 := 0#32
  let c1_i32_447 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v695 : BitVec 32 := Scalar.subi c1_i32_447 v2
  let c2_i32_449 : BitVec 32 := 2#32
  let v696 : BitVec 32 := Scalar.muli v695 c2_i32_449
  let v697 : BitVec 32 := Scalar.addi c0_i32_450 v696
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_451 : BitVec 32 := 1#32
  let v698 : BitVec 32 := Scalar.muli v5 c1_i32_451
  let v699 : BitVec 32 := Scalar.addi v697 v698
  v699.toNat
def k0_dev65 (d0 : Dev nD) : Nat :=
  let c0_i32_457 : BitVec 32 := 0#32
  let c1_i32_454 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v706 : BitVec 32 := Scalar.subi c1_i32_454 v2
  let c2_i32_456 : BitVec 32 := 2#32
  let v707 : BitVec 32 := Scalar.muli v706 c2_i32_456
  let v708 : BitVec 32 := Scalar.addi c0_i32_457 v707
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_458 : BitVec 32 := 1#32
  let v709 : BitVec 32 := Scalar.muli v5 c1_i32_458
  let v710 : BitVec 32 := Scalar.addi v708 v709
  v710.toNat
def k0_dev66 (d0 : Dev nD) : Nat :=
  let c0_i32_464 : BitVec 32 := 0#32
  let c1_i32_461 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v717 : BitVec 32 := Scalar.subi c1_i32_461 v2
  let c2_i32_463 : BitVec 32 := 2#32
  let v718 : BitVec 32 := Scalar.muli v717 c2_i32_463
  let v719 : BitVec 32 := Scalar.addi c0_i32_464 v718
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_465 : BitVec 32 := 1#32
  let v720 : BitVec 32 := Scalar.muli v5 c1_i32_465
  let v721 : BitVec 32 := Scalar.addi v719 v720
  v721.toNat
def k0_off3 (d0 : Dev nD) (c0_i32_481 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v6 : BitVec 32 := Scalar.muli v5 c4096_i32
  let v744 : BitVec 32 := Scalar.addi v6 c0_i32_481
  let c0_i32_486 : BitVec 32 := 0#32
  ![v744.toNat, 0]
def k0_dev67 (d0 : Dev nD) : Nat :=
  let c0_i32_484 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_483 : BitVec 32 := 2#32
  let v746 : BitVec 32 := Scalar.muli v2 c2_i32_483
  let v747 : BitVec 32 := Scalar.addi c0_i32_484 v746
  let c1_i32_482 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v745 : BitVec 32 := Scalar.subi c1_i32_482 v5
  let c1_i32_485 : BitVec 32 := 1#32
  let v748 : BitVec 32 := Scalar.muli v745 c1_i32_485
  let v749 : BitVec 32 := Scalar.addi v747 v748
  v749.toNat
def k0_dev68 (d0 : Dev nD) : Nat :=
  let c0_i32_508 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_507 : BitVec 32 := 2#32
  let v772 : BitVec 32 := Scalar.muli v2 c2_i32_507
  let v773 : BitVec 32 := Scalar.addi c0_i32_508 v772
  let c1_i32_506 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v771 : BitVec 32 := Scalar.subi c1_i32_506 v5
  let c1_i32_509 : BitVec 32 := 1#32
  let v774 : BitVec 32 := Scalar.muli v771 c1_i32_509
  let v775 : BitVec 32 := Scalar.addi v773 v774
  v775.toNat
def k0_dev69 (d0 : Dev nD) : Nat :=
  let c0_i32_532 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_531 : BitVec 32 := 2#32
  let v798 : BitVec 32 := Scalar.muli v2 c2_i32_531
  let v799 : BitVec 32 := Scalar.addi c0_i32_532 v798
  let c1_i32_530 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v797 : BitVec 32 := Scalar.subi c1_i32_530 v5
  let c1_i32_533 : BitVec 32 := 1#32
  let v800 : BitVec 32 := Scalar.muli v797 c1_i32_533
  let v801 : BitVec 32 := Scalar.addi v799 v800
  v801.toNat
def k0_dev70 (d0 : Dev nD) : Nat :=
  let c0_i32_556 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_555 : BitVec 32 := 2#32
  let v824 : BitVec 32 := Scalar.muli v2 c2_i32_555
  let v825 : BitVec 32 := Scalar.addi c0_i32_556 v824
  let c1_i32_554 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v823 : BitVec 32 := Scalar.subi c1_i32_554 v5
  let c1_i32_557 : BitVec 32 := 1#32
  let v826 : BitVec 32 := Scalar.muli v823 c1_i32_557
  let v827 : BitVec 32 := Scalar.addi v825 v826
  v827.toNat
def k0_dev71 (d0 : Dev nD) : Nat :=
  let c0_i32_580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_579 : BitVec 32 := 2#32
  let v850 : BitVec 32 := Scalar.muli v2 c2_i32_579
  let v851 : BitVec 32 := Scalar.addi c0_i32_580 v850
  let c1_i32_578 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v849 : BitVec 32 := Scalar.subi c1_i32_578 v5
  let c1_i32_581 : BitVec 32 := 1#32
  let v852 : BitVec 32 := Scalar.muli v849 c1_i32_581
  let v853 : BitVec 32 := Scalar.addi v851 v852
  v853.toNat
def k0_dev72 (d0 : Dev nD) : Nat :=
  let c0_i32_604 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_603 : BitVec 32 := 2#32
  let v876 : BitVec 32 := Scalar.muli v2 c2_i32_603
  let v877 : BitVec 32 := Scalar.addi c0_i32_604 v876
  let c1_i32_602 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v875 : BitVec 32 := Scalar.subi c1_i32_602 v5
  let c1_i32_605 : BitVec 32 := 1#32
  let v878 : BitVec 32 := Scalar.muli v875 c1_i32_605
  let v879 : BitVec 32 := Scalar.addi v877 v878
  v879.toNat
def k0_dev73 (d0 : Dev nD) : Nat :=
  let c0_i32_628 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_627 : BitVec 32 := 2#32
  let v902 : BitVec 32 := Scalar.muli v2 c2_i32_627
  let v903 : BitVec 32 := Scalar.addi c0_i32_628 v902
  let c1_i32_626 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v901 : BitVec 32 := Scalar.subi c1_i32_626 v5
  let c1_i32_629 : BitVec 32 := 1#32
  let v904 : BitVec 32 := Scalar.muli v901 c1_i32_629
  let v905 : BitVec 32 := Scalar.addi v903 v904
  v905.toNat
def k0_dev74 (d0 : Dev nD) : Nat :=
  let c0_i32_652 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_651 : BitVec 32 := 2#32
  let v928 : BitVec 32 := Scalar.muli v2 c2_i32_651
  let v929 : BitVec 32 := Scalar.addi c0_i32_652 v928
  let c1_i32_650 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v927 : BitVec 32 := Scalar.subi c1_i32_650 v5
  let c1_i32_653 : BitVec 32 := 1#32
  let v930 : BitVec 32 := Scalar.muli v927 c1_i32_653
  let v931 : BitVec 32 := Scalar.addi v929 v930
  v931.toNat
def k0_dev75 (d0 : Dev nD) : Nat :=
  let c0_i32_676 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_675 : BitVec 32 := 2#32
  let v954 : BitVec 32 := Scalar.muli v2 c2_i32_675
  let v955 : BitVec 32 := Scalar.addi c0_i32_676 v954
  let c1_i32_674 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v953 : BitVec 32 := Scalar.subi c1_i32_674 v5
  let c1_i32_677 : BitVec 32 := 1#32
  let v956 : BitVec 32 := Scalar.muli v953 c1_i32_677
  let v957 : BitVec 32 := Scalar.addi v955 v956
  v957.toNat
def k0_dev76 (d0 : Dev nD) : Nat :=
  let c0_i32_700 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_699 : BitVec 32 := 2#32
  let v980 : BitVec 32 := Scalar.muli v2 c2_i32_699
  let v981 : BitVec 32 := Scalar.addi c0_i32_700 v980
  let c1_i32_698 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v979 : BitVec 32 := Scalar.subi c1_i32_698 v5
  let c1_i32_701 : BitVec 32 := 1#32
  let v982 : BitVec 32 := Scalar.muli v979 c1_i32_701
  let v983 : BitVec 32 := Scalar.addi v981 v982
  v983.toNat
def k0_dev77 (d0 : Dev nD) : Nat :=
  let c0_i32_724 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_723 : BitVec 32 := 2#32
  let v1006 : BitVec 32 := Scalar.muli v2 c2_i32_723
  let v1007 : BitVec 32 := Scalar.addi c0_i32_724 v1006
  let c1_i32_722 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1005 : BitVec 32 := Scalar.subi c1_i32_722 v5
  let c1_i32_725 : BitVec 32 := 1#32
  let v1008 : BitVec 32 := Scalar.muli v1005 c1_i32_725
  let v1009 : BitVec 32 := Scalar.addi v1007 v1008
  v1009.toNat
def k0_dev78 (d0 : Dev nD) : Nat :=
  let c0_i32_748 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_747 : BitVec 32 := 2#32
  let v1032 : BitVec 32 := Scalar.muli v2 c2_i32_747
  let v1033 : BitVec 32 := Scalar.addi c0_i32_748 v1032
  let c1_i32_746 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1031 : BitVec 32 := Scalar.subi c1_i32_746 v5
  let c1_i32_749 : BitVec 32 := 1#32
  let v1034 : BitVec 32 := Scalar.muli v1031 c1_i32_749
  let v1035 : BitVec 32 := Scalar.addi v1033 v1034
  v1035.toNat
def k0_dev79 (d0 : Dev nD) : Nat :=
  let c0_i32_772 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_771 : BitVec 32 := 2#32
  let v1058 : BitVec 32 := Scalar.muli v2 c2_i32_771
  let v1059 : BitVec 32 := Scalar.addi c0_i32_772 v1058
  let c1_i32_770 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1057 : BitVec 32 := Scalar.subi c1_i32_770 v5
  let c1_i32_773 : BitVec 32 := 1#32
  let v1060 : BitVec 32 := Scalar.muli v1057 c1_i32_773
  let v1061 : BitVec 32 := Scalar.addi v1059 v1060
  v1061.toNat
def k0_dev80 (d0 : Dev nD) : Nat :=
  let c0_i32_796 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_795 : BitVec 32 := 2#32
  let v1084 : BitVec 32 := Scalar.muli v2 c2_i32_795
  let v1085 : BitVec 32 := Scalar.addi c0_i32_796 v1084
  let c1_i32_794 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1083 : BitVec 32 := Scalar.subi c1_i32_794 v5
  let c1_i32_797 : BitVec 32 := 1#32
  let v1086 : BitVec 32 := Scalar.muli v1083 c1_i32_797
  let v1087 : BitVec 32 := Scalar.addi v1085 v1086
  v1087.toNat
def k0_dev81 (d0 : Dev nD) : Nat :=
  let c0_i32_820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_819 : BitVec 32 := 2#32
  let v1110 : BitVec 32 := Scalar.muli v2 c2_i32_819
  let v1111 : BitVec 32 := Scalar.addi c0_i32_820 v1110
  let c1_i32_818 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1109 : BitVec 32 := Scalar.subi c1_i32_818 v5
  let c1_i32_821 : BitVec 32 := 1#32
  let v1112 : BitVec 32 := Scalar.muli v1109 c1_i32_821
  let v1113 : BitVec 32 := Scalar.addi v1111 v1112
  v1113.toNat
def k0_dev82 (d0 : Dev nD) : Nat :=
  let c0_i32_844 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_843 : BitVec 32 := 2#32
  let v1136 : BitVec 32 := Scalar.muli v2 c2_i32_843
  let v1137 : BitVec 32 := Scalar.addi c0_i32_844 v1136
  let c1_i32_842 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1135 : BitVec 32 := Scalar.subi c1_i32_842 v5
  let c1_i32_845 : BitVec 32 := 1#32
  let v1138 : BitVec 32 := Scalar.muli v1135 c1_i32_845
  let v1139 : BitVec 32 := Scalar.addi v1137 v1138
  v1139.toNat
def k0_dev83 (d0 : Dev nD) : Nat :=
  let c0_i32_868 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_867 : BitVec 32 := 2#32
  let v1162 : BitVec 32 := Scalar.muli v2 c2_i32_867
  let v1163 : BitVec 32 := Scalar.addi c0_i32_868 v1162
  let c1_i32_866 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1161 : BitVec 32 := Scalar.subi c1_i32_866 v5
  let c1_i32_869 : BitVec 32 := 1#32
  let v1164 : BitVec 32 := Scalar.muli v1161 c1_i32_869
  let v1165 : BitVec 32 := Scalar.addi v1163 v1164
  v1165.toNat
def k0_dev84 (d0 : Dev nD) : Nat :=
  let c0_i32_892 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_891 : BitVec 32 := 2#32
  let v1188 : BitVec 32 := Scalar.muli v2 c2_i32_891
  let v1189 : BitVec 32 := Scalar.addi c0_i32_892 v1188
  let c1_i32_890 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1187 : BitVec 32 := Scalar.subi c1_i32_890 v5
  let c1_i32_893 : BitVec 32 := 1#32
  let v1190 : BitVec 32 := Scalar.muli v1187 c1_i32_893
  let v1191 : BitVec 32 := Scalar.addi v1189 v1190
  v1191.toNat
def k0_dev85 (d0 : Dev nD) : Nat :=
  let c0_i32_916 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_915 : BitVec 32 := 2#32
  let v1214 : BitVec 32 := Scalar.muli v2 c2_i32_915
  let v1215 : BitVec 32 := Scalar.addi c0_i32_916 v1214
  let c1_i32_914 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1213 : BitVec 32 := Scalar.subi c1_i32_914 v5
  let c1_i32_917 : BitVec 32 := 1#32
  let v1216 : BitVec 32 := Scalar.muli v1213 c1_i32_917
  let v1217 : BitVec 32 := Scalar.addi v1215 v1216
  v1217.toNat
def k0_dev86 (d0 : Dev nD) : Nat :=
  let c0_i32_940 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_939 : BitVec 32 := 2#32
  let v1240 : BitVec 32 := Scalar.muli v2 c2_i32_939
  let v1241 : BitVec 32 := Scalar.addi c0_i32_940 v1240
  let c1_i32_938 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1239 : BitVec 32 := Scalar.subi c1_i32_938 v5
  let c1_i32_941 : BitVec 32 := 1#32
  let v1242 : BitVec 32 := Scalar.muli v1239 c1_i32_941
  let v1243 : BitVec 32 := Scalar.addi v1241 v1242
  v1243.toNat
def k0_dev87 (d0 : Dev nD) : Nat :=
  let c0_i32_964 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_963 : BitVec 32 := 2#32
  let v1266 : BitVec 32 := Scalar.muli v2 c2_i32_963
  let v1267 : BitVec 32 := Scalar.addi c0_i32_964 v1266
  let c1_i32_962 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1265 : BitVec 32 := Scalar.subi c1_i32_962 v5
  let c1_i32_965 : BitVec 32 := 1#32
  let v1268 : BitVec 32 := Scalar.muli v1265 c1_i32_965
  let v1269 : BitVec 32 := Scalar.addi v1267 v1268
  v1269.toNat
def k0_dev88 (d0 : Dev nD) : Nat :=
  let c0_i32_988 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_987 : BitVec 32 := 2#32
  let v1292 : BitVec 32 := Scalar.muli v2 c2_i32_987
  let v1293 : BitVec 32 := Scalar.addi c0_i32_988 v1292
  let c1_i32_986 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1291 : BitVec 32 := Scalar.subi c1_i32_986 v5
  let c1_i32_989 : BitVec 32 := 1#32
  let v1294 : BitVec 32 := Scalar.muli v1291 c1_i32_989
  let v1295 : BitVec 32 := Scalar.addi v1293 v1294
  v1295.toNat
def k0_dev89 (d0 : Dev nD) : Nat :=
  let c0_i32_1012 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1011 : BitVec 32 := 2#32
  let v1318 : BitVec 32 := Scalar.muli v2 c2_i32_1011
  let v1319 : BitVec 32 := Scalar.addi c0_i32_1012 v1318
  let c1_i32_1010 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1317 : BitVec 32 := Scalar.subi c1_i32_1010 v5
  let c1_i32_1013 : BitVec 32 := 1#32
  let v1320 : BitVec 32 := Scalar.muli v1317 c1_i32_1013
  let v1321 : BitVec 32 := Scalar.addi v1319 v1320
  v1321.toNat
def k0_dev90 (d0 : Dev nD) : Nat :=
  let c0_i32_1036 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1035 : BitVec 32 := 2#32
  let v1344 : BitVec 32 := Scalar.muli v2 c2_i32_1035
  let v1345 : BitVec 32 := Scalar.addi c0_i32_1036 v1344
  let c1_i32_1034 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1343 : BitVec 32 := Scalar.subi c1_i32_1034 v5
  let c1_i32_1037 : BitVec 32 := 1#32
  let v1346 : BitVec 32 := Scalar.muli v1343 c1_i32_1037
  let v1347 : BitVec 32 := Scalar.addi v1345 v1346
  v1347.toNat
def k0_dev91 (d0 : Dev nD) : Nat :=
  let c0_i32_1060 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1059 : BitVec 32 := 2#32
  let v1370 : BitVec 32 := Scalar.muli v2 c2_i32_1059
  let v1371 : BitVec 32 := Scalar.addi c0_i32_1060 v1370
  let c1_i32_1058 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1369 : BitVec 32 := Scalar.subi c1_i32_1058 v5
  let c1_i32_1061 : BitVec 32 := 1#32
  let v1372 : BitVec 32 := Scalar.muli v1369 c1_i32_1061
  let v1373 : BitVec 32 := Scalar.addi v1371 v1372
  v1373.toNat
def k0_dev92 (d0 : Dev nD) : Nat :=
  let c0_i32_1084 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1083 : BitVec 32 := 2#32
  let v1396 : BitVec 32 := Scalar.muli v2 c2_i32_1083
  let v1397 : BitVec 32 := Scalar.addi c0_i32_1084 v1396
  let c1_i32_1082 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1395 : BitVec 32 := Scalar.subi c1_i32_1082 v5
  let c1_i32_1085 : BitVec 32 := 1#32
  let v1398 : BitVec 32 := Scalar.muli v1395 c1_i32_1085
  let v1399 : BitVec 32 := Scalar.addi v1397 v1398
  v1399.toNat
def k0_dev93 (d0 : Dev nD) : Nat :=
  let c0_i32_1108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1107 : BitVec 32 := 2#32
  let v1422 : BitVec 32 := Scalar.muli v2 c2_i32_1107
  let v1423 : BitVec 32 := Scalar.addi c0_i32_1108 v1422
  let c1_i32_1106 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1421 : BitVec 32 := Scalar.subi c1_i32_1106 v5
  let c1_i32_1109 : BitVec 32 := 1#32
  let v1424 : BitVec 32 := Scalar.muli v1421 c1_i32_1109
  let v1425 : BitVec 32 := Scalar.addi v1423 v1424
  v1425.toNat
def k0_dev94 (d0 : Dev nD) : Nat :=
  let c0_i32_1132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1131 : BitVec 32 := 2#32
  let v1448 : BitVec 32 := Scalar.muli v2 c2_i32_1131
  let v1449 : BitVec 32 := Scalar.addi c0_i32_1132 v1448
  let c1_i32_1130 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1447 : BitVec 32 := Scalar.subi c1_i32_1130 v5
  let c1_i32_1133 : BitVec 32 := 1#32
  let v1450 : BitVec 32 := Scalar.muli v1447 c1_i32_1133
  let v1451 : BitVec 32 := Scalar.addi v1449 v1450
  v1451.toNat
def k0_dev95 (d0 : Dev nD) : Nat :=
  let c0_i32_1156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1155 : BitVec 32 := 2#32
  let v1474 : BitVec 32 := Scalar.muli v2 c2_i32_1155
  let v1475 : BitVec 32 := Scalar.addi c0_i32_1156 v1474
  let c1_i32_1154 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1473 : BitVec 32 := Scalar.subi c1_i32_1154 v5
  let c1_i32_1157 : BitVec 32 := 1#32
  let v1476 : BitVec 32 := Scalar.muli v1473 c1_i32_1157
  let v1477 : BitVec 32 := Scalar.addi v1475 v1476
  v1477.toNat
def k0_dev96 (d0 : Dev nD) : Nat :=
  let c0_i32_1180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1179 : BitVec 32 := 2#32
  let v1500 : BitVec 32 := Scalar.muli v2 c2_i32_1179
  let v1501 : BitVec 32 := Scalar.addi c0_i32_1180 v1500
  let c1_i32_1178 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1499 : BitVec 32 := Scalar.subi c1_i32_1178 v5
  let c1_i32_1181 : BitVec 32 := 1#32
  let v1502 : BitVec 32 := Scalar.muli v1499 c1_i32_1181
  let v1503 : BitVec 32 := Scalar.addi v1501 v1502
  v1503.toNat
def k0_dev97 (d0 : Dev nD) : Nat :=
  let c0_i32_1204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1203 : BitVec 32 := 2#32
  let v1526 : BitVec 32 := Scalar.muli v2 c2_i32_1203
  let v1527 : BitVec 32 := Scalar.addi c0_i32_1204 v1526
  let c1_i32_1202 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1525 : BitVec 32 := Scalar.subi c1_i32_1202 v5
  let c1_i32_1205 : BitVec 32 := 1#32
  let v1528 : BitVec 32 := Scalar.muli v1525 c1_i32_1205
  let v1529 : BitVec 32 := Scalar.addi v1527 v1528
  v1529.toNat
def k0_dev98 (d0 : Dev nD) : Nat :=
  let c0_i32_1228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1227 : BitVec 32 := 2#32
  let v1552 : BitVec 32 := Scalar.muli v2 c2_i32_1227
  let v1553 : BitVec 32 := Scalar.addi c0_i32_1228 v1552
  let c1_i32_1226 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1551 : BitVec 32 := Scalar.subi c1_i32_1226 v5
  let c1_i32_1229 : BitVec 32 := 1#32
  let v1554 : BitVec 32 := Scalar.muli v1551 c1_i32_1229
  let v1555 : BitVec 32 := Scalar.addi v1553 v1554
  v1555.toNat
def k0_dev99 (d0 : Dev nD) : Nat :=
  let c0_i32_1252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1251 : BitVec 32 := 2#32
  let v1578 : BitVec 32 := Scalar.muli v2 c2_i32_1251
  let v1579 : BitVec 32 := Scalar.addi c0_i32_1252 v1578
  let c1_i32_1250 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1577 : BitVec 32 := Scalar.subi c1_i32_1250 v5
  let c1_i32_1253 : BitVec 32 := 1#32
  let v1580 : BitVec 32 := Scalar.muli v1577 c1_i32_1253
  let v1581 : BitVec 32 := Scalar.addi v1579 v1580
  v1581.toNat
def k0_dev100 (d0 : Dev nD) : Nat :=
  let c0_i32_1276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1275 : BitVec 32 := 2#32
  let v1604 : BitVec 32 := Scalar.muli v2 c2_i32_1275
  let v1605 : BitVec 32 := Scalar.addi c0_i32_1276 v1604
  let c1_i32_1274 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1603 : BitVec 32 := Scalar.subi c1_i32_1274 v5
  let c1_i32_1277 : BitVec 32 := 1#32
  let v1606 : BitVec 32 := Scalar.muli v1603 c1_i32_1277
  let v1607 : BitVec 32 := Scalar.addi v1605 v1606
  v1607.toNat
def k0_dev101 (d0 : Dev nD) : Nat :=
  let c0_i32_1300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1299 : BitVec 32 := 2#32
  let v1630 : BitVec 32 := Scalar.muli v2 c2_i32_1299
  let v1631 : BitVec 32 := Scalar.addi c0_i32_1300 v1630
  let c1_i32_1298 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1629 : BitVec 32 := Scalar.subi c1_i32_1298 v5
  let c1_i32_1301 : BitVec 32 := 1#32
  let v1632 : BitVec 32 := Scalar.muli v1629 c1_i32_1301
  let v1633 : BitVec 32 := Scalar.addi v1631 v1632
  v1633.toNat
def k0_dev102 (d0 : Dev nD) : Nat :=
  let c0_i32_1324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1323 : BitVec 32 := 2#32
  let v1656 : BitVec 32 := Scalar.muli v2 c2_i32_1323
  let v1657 : BitVec 32 := Scalar.addi c0_i32_1324 v1656
  let c1_i32_1322 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1655 : BitVec 32 := Scalar.subi c1_i32_1322 v5
  let c1_i32_1325 : BitVec 32 := 1#32
  let v1658 : BitVec 32 := Scalar.muli v1655 c1_i32_1325
  let v1659 : BitVec 32 := Scalar.addi v1657 v1658
  v1659.toNat
def k0_dev103 (d0 : Dev nD) : Nat :=
  let c0_i32_1348 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1347 : BitVec 32 := 2#32
  let v1682 : BitVec 32 := Scalar.muli v2 c2_i32_1347
  let v1683 : BitVec 32 := Scalar.addi c0_i32_1348 v1682
  let c1_i32_1346 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1681 : BitVec 32 := Scalar.subi c1_i32_1346 v5
  let c1_i32_1349 : BitVec 32 := 1#32
  let v1684 : BitVec 32 := Scalar.muli v1681 c1_i32_1349
  let v1685 : BitVec 32 := Scalar.addi v1683 v1684
  v1685.toNat
def k0_dev104 (d0 : Dev nD) : Nat :=
  let c0_i32_1372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1371 : BitVec 32 := 2#32
  let v1708 : BitVec 32 := Scalar.muli v2 c2_i32_1371
  let v1709 : BitVec 32 := Scalar.addi c0_i32_1372 v1708
  let c1_i32_1370 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1707 : BitVec 32 := Scalar.subi c1_i32_1370 v5
  let c1_i32_1373 : BitVec 32 := 1#32
  let v1710 : BitVec 32 := Scalar.muli v1707 c1_i32_1373
  let v1711 : BitVec 32 := Scalar.addi v1709 v1710
  v1711.toNat
def k0_dev105 (d0 : Dev nD) : Nat :=
  let c0_i32_1396 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1395 : BitVec 32 := 2#32
  let v1734 : BitVec 32 := Scalar.muli v2 c2_i32_1395
  let v1735 : BitVec 32 := Scalar.addi c0_i32_1396 v1734
  let c1_i32_1394 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1733 : BitVec 32 := Scalar.subi c1_i32_1394 v5
  let c1_i32_1397 : BitVec 32 := 1#32
  let v1736 : BitVec 32 := Scalar.muli v1733 c1_i32_1397
  let v1737 : BitVec 32 := Scalar.addi v1735 v1736
  v1737.toNat
def k0_dev106 (d0 : Dev nD) : Nat :=
  let c0_i32_1420 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1419 : BitVec 32 := 2#32
  let v1760 : BitVec 32 := Scalar.muli v2 c2_i32_1419
  let v1761 : BitVec 32 := Scalar.addi c0_i32_1420 v1760
  let c1_i32_1418 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1759 : BitVec 32 := Scalar.subi c1_i32_1418 v5
  let c1_i32_1421 : BitVec 32 := 1#32
  let v1762 : BitVec 32 := Scalar.muli v1759 c1_i32_1421
  let v1763 : BitVec 32 := Scalar.addi v1761 v1762
  v1763.toNat
def k0_dev107 (d0 : Dev nD) : Nat :=
  let c0_i32_1444 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1443 : BitVec 32 := 2#32
  let v1786 : BitVec 32 := Scalar.muli v2 c2_i32_1443
  let v1787 : BitVec 32 := Scalar.addi c0_i32_1444 v1786
  let c1_i32_1442 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1785 : BitVec 32 := Scalar.subi c1_i32_1442 v5
  let c1_i32_1445 : BitVec 32 := 1#32
  let v1788 : BitVec 32 := Scalar.muli v1785 c1_i32_1445
  let v1789 : BitVec 32 := Scalar.addi v1787 v1788
  v1789.toNat
def k0_dev108 (d0 : Dev nD) : Nat :=
  let c0_i32_1468 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1467 : BitVec 32 := 2#32
  let v1812 : BitVec 32 := Scalar.muli v2 c2_i32_1467
  let v1813 : BitVec 32 := Scalar.addi c0_i32_1468 v1812
  let c1_i32_1466 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1811 : BitVec 32 := Scalar.subi c1_i32_1466 v5
  let c1_i32_1469 : BitVec 32 := 1#32
  let v1814 : BitVec 32 := Scalar.muli v1811 c1_i32_1469
  let v1815 : BitVec 32 := Scalar.addi v1813 v1814
  v1815.toNat
def k0_dev109 (d0 : Dev nD) : Nat :=
  let c0_i32_1492 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1491 : BitVec 32 := 2#32
  let v1838 : BitVec 32 := Scalar.muli v2 c2_i32_1491
  let v1839 : BitVec 32 := Scalar.addi c0_i32_1492 v1838
  let c1_i32_1490 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1837 : BitVec 32 := Scalar.subi c1_i32_1490 v5
  let c1_i32_1493 : BitVec 32 := 1#32
  let v1840 : BitVec 32 := Scalar.muli v1837 c1_i32_1493
  let v1841 : BitVec 32 := Scalar.addi v1839 v1840
  v1841.toNat
def k0_dev110 (d0 : Dev nD) : Nat :=
  let c0_i32_1516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1515 : BitVec 32 := 2#32
  let v1864 : BitVec 32 := Scalar.muli v2 c2_i32_1515
  let v1865 : BitVec 32 := Scalar.addi c0_i32_1516 v1864
  let c1_i32_1514 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1863 : BitVec 32 := Scalar.subi c1_i32_1514 v5
  let c1_i32_1517 : BitVec 32 := 1#32
  let v1866 : BitVec 32 := Scalar.muli v1863 c1_i32_1517
  let v1867 : BitVec 32 := Scalar.addi v1865 v1866
  v1867.toNat
def k0_dev111 (d0 : Dev nD) : Nat :=
  let c0_i32_1540 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1539 : BitVec 32 := 2#32
  let v1890 : BitVec 32 := Scalar.muli v2 c2_i32_1539
  let v1891 : BitVec 32 := Scalar.addi c0_i32_1540 v1890
  let c1_i32_1538 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1889 : BitVec 32 := Scalar.subi c1_i32_1538 v5
  let c1_i32_1541 : BitVec 32 := 1#32
  let v1892 : BitVec 32 := Scalar.muli v1889 c1_i32_1541
  let v1893 : BitVec 32 := Scalar.addi v1891 v1892
  v1893.toNat
def k0_dev112 (d0 : Dev nD) : Nat :=
  let c0_i32_1564 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1563 : BitVec 32 := 2#32
  let v1916 : BitVec 32 := Scalar.muli v2 c2_i32_1563
  let v1917 : BitVec 32 := Scalar.addi c0_i32_1564 v1916
  let c1_i32_1562 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1915 : BitVec 32 := Scalar.subi c1_i32_1562 v5
  let c1_i32_1565 : BitVec 32 := 1#32
  let v1918 : BitVec 32 := Scalar.muli v1915 c1_i32_1565
  let v1919 : BitVec 32 := Scalar.addi v1917 v1918
  v1919.toNat
def k0_dev113 (d0 : Dev nD) : Nat :=
  let c0_i32_1588 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1587 : BitVec 32 := 2#32
  let v1942 : BitVec 32 := Scalar.muli v2 c2_i32_1587
  let v1943 : BitVec 32 := Scalar.addi c0_i32_1588 v1942
  let c1_i32_1586 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1941 : BitVec 32 := Scalar.subi c1_i32_1586 v5
  let c1_i32_1589 : BitVec 32 := 1#32
  let v1944 : BitVec 32 := Scalar.muli v1941 c1_i32_1589
  let v1945 : BitVec 32 := Scalar.addi v1943 v1944
  v1945.toNat
def k0_dev114 (d0 : Dev nD) : Nat :=
  let c0_i32_1612 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1611 : BitVec 32 := 2#32
  let v1968 : BitVec 32 := Scalar.muli v2 c2_i32_1611
  let v1969 : BitVec 32 := Scalar.addi c0_i32_1612 v1968
  let c1_i32_1610 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1967 : BitVec 32 := Scalar.subi c1_i32_1610 v5
  let c1_i32_1613 : BitVec 32 := 1#32
  let v1970 : BitVec 32 := Scalar.muli v1967 c1_i32_1613
  let v1971 : BitVec 32 := Scalar.addi v1969 v1970
  v1971.toNat
def k0_dev115 (d0 : Dev nD) : Nat :=
  let c0_i32_1636 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1635 : BitVec 32 := 2#32
  let v1994 : BitVec 32 := Scalar.muli v2 c2_i32_1635
  let v1995 : BitVec 32 := Scalar.addi c0_i32_1636 v1994
  let c1_i32_1634 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1993 : BitVec 32 := Scalar.subi c1_i32_1634 v5
  let c1_i32_1637 : BitVec 32 := 1#32
  let v1996 : BitVec 32 := Scalar.muli v1993 c1_i32_1637
  let v1997 : BitVec 32 := Scalar.addi v1995 v1996
  v1997.toNat
def k0_dev116 (d0 : Dev nD) : Nat :=
  let c0_i32_1660 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1659 : BitVec 32 := 2#32
  let v2020 : BitVec 32 := Scalar.muli v2 c2_i32_1659
  let v2021 : BitVec 32 := Scalar.addi c0_i32_1660 v2020
  let c1_i32_1658 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2019 : BitVec 32 := Scalar.subi c1_i32_1658 v5
  let c1_i32_1661 : BitVec 32 := 1#32
  let v2022 : BitVec 32 := Scalar.muli v2019 c1_i32_1661
  let v2023 : BitVec 32 := Scalar.addi v2021 v2022
  v2023.toNat
def k0_dev117 (d0 : Dev nD) : Nat :=
  let c0_i32_1684 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1683 : BitVec 32 := 2#32
  let v2046 : BitVec 32 := Scalar.muli v2 c2_i32_1683
  let v2047 : BitVec 32 := Scalar.addi c0_i32_1684 v2046
  let c1_i32_1682 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2045 : BitVec 32 := Scalar.subi c1_i32_1682 v5
  let c1_i32_1685 : BitVec 32 := 1#32
  let v2048 : BitVec 32 := Scalar.muli v2045 c1_i32_1685
  let v2049 : BitVec 32 := Scalar.addi v2047 v2048
  v2049.toNat
def k0_dev118 (d0 : Dev nD) : Nat :=
  let c0_i32_1708 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1707 : BitVec 32 := 2#32
  let v2072 : BitVec 32 := Scalar.muli v2 c2_i32_1707
  let v2073 : BitVec 32 := Scalar.addi c0_i32_1708 v2072
  let c1_i32_1706 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2071 : BitVec 32 := Scalar.subi c1_i32_1706 v5
  let c1_i32_1709 : BitVec 32 := 1#32
  let v2074 : BitVec 32 := Scalar.muli v2071 c1_i32_1709
  let v2075 : BitVec 32 := Scalar.addi v2073 v2074
  v2075.toNat
def k0_dev119 (d0 : Dev nD) : Nat :=
  let c0_i32_1732 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1731 : BitVec 32 := 2#32
  let v2098 : BitVec 32 := Scalar.muli v2 c2_i32_1731
  let v2099 : BitVec 32 := Scalar.addi c0_i32_1732 v2098
  let c1_i32_1730 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2097 : BitVec 32 := Scalar.subi c1_i32_1730 v5
  let c1_i32_1733 : BitVec 32 := 1#32
  let v2100 : BitVec 32 := Scalar.muli v2097 c1_i32_1733
  let v2101 : BitVec 32 := Scalar.addi v2099 v2100
  v2101.toNat
def k0_dev120 (d0 : Dev nD) : Nat :=
  let c0_i32_1756 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1755 : BitVec 32 := 2#32
  let v2124 : BitVec 32 := Scalar.muli v2 c2_i32_1755
  let v2125 : BitVec 32 := Scalar.addi c0_i32_1756 v2124
  let c1_i32_1754 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2123 : BitVec 32 := Scalar.subi c1_i32_1754 v5
  let c1_i32_1757 : BitVec 32 := 1#32
  let v2126 : BitVec 32 := Scalar.muli v2123 c1_i32_1757
  let v2127 : BitVec 32 := Scalar.addi v2125 v2126
  v2127.toNat
def k0_dev121 (d0 : Dev nD) : Nat :=
  let c0_i32_1780 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1779 : BitVec 32 := 2#32
  let v2150 : BitVec 32 := Scalar.muli v2 c2_i32_1779
  let v2151 : BitVec 32 := Scalar.addi c0_i32_1780 v2150
  let c1_i32_1778 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2149 : BitVec 32 := Scalar.subi c1_i32_1778 v5
  let c1_i32_1781 : BitVec 32 := 1#32
  let v2152 : BitVec 32 := Scalar.muli v2149 c1_i32_1781
  let v2153 : BitVec 32 := Scalar.addi v2151 v2152
  v2153.toNat
def k0_dev122 (d0 : Dev nD) : Nat :=
  let c0_i32_1804 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1803 : BitVec 32 := 2#32
  let v2176 : BitVec 32 := Scalar.muli v2 c2_i32_1803
  let v2177 : BitVec 32 := Scalar.addi c0_i32_1804 v2176
  let c1_i32_1802 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2175 : BitVec 32 := Scalar.subi c1_i32_1802 v5
  let c1_i32_1805 : BitVec 32 := 1#32
  let v2178 : BitVec 32 := Scalar.muli v2175 c1_i32_1805
  let v2179 : BitVec 32 := Scalar.addi v2177 v2178
  v2179.toNat
def k0_dev123 (d0 : Dev nD) : Nat :=
  let c0_i32_1828 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1827 : BitVec 32 := 2#32
  let v2202 : BitVec 32 := Scalar.muli v2 c2_i32_1827
  let v2203 : BitVec 32 := Scalar.addi c0_i32_1828 v2202
  let c1_i32_1826 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2201 : BitVec 32 := Scalar.subi c1_i32_1826 v5
  let c1_i32_1829 : BitVec 32 := 1#32
  let v2204 : BitVec 32 := Scalar.muli v2201 c1_i32_1829
  let v2205 : BitVec 32 := Scalar.addi v2203 v2204
  v2205.toNat
def k0_dev124 (d0 : Dev nD) : Nat :=
  let c0_i32_1852 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1851 : BitVec 32 := 2#32
  let v2228 : BitVec 32 := Scalar.muli v2 c2_i32_1851
  let v2229 : BitVec 32 := Scalar.addi c0_i32_1852 v2228
  let c1_i32_1850 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2227 : BitVec 32 := Scalar.subi c1_i32_1850 v5
  let c1_i32_1853 : BitVec 32 := 1#32
  let v2230 : BitVec 32 := Scalar.muli v2227 c1_i32_1853
  let v2231 : BitVec 32 := Scalar.addi v2229 v2230
  v2231.toNat
def k0_dev125 (d0 : Dev nD) : Nat :=
  let c0_i32_1876 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1875 : BitVec 32 := 2#32
  let v2254 : BitVec 32 := Scalar.muli v2 c2_i32_1875
  let v2255 : BitVec 32 := Scalar.addi c0_i32_1876 v2254
  let c1_i32_1874 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2253 : BitVec 32 := Scalar.subi c1_i32_1874 v5
  let c1_i32_1877 : BitVec 32 := 1#32
  let v2256 : BitVec 32 := Scalar.muli v2253 c1_i32_1877
  let v2257 : BitVec 32 := Scalar.addi v2255 v2256
  v2257.toNat
def k0_dev126 (d0 : Dev nD) : Nat :=
  let c0_i32_1900 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1899 : BitVec 32 := 2#32
  let v2280 : BitVec 32 := Scalar.muli v2 c2_i32_1899
  let v2281 : BitVec 32 := Scalar.addi c0_i32_1900 v2280
  let c1_i32_1898 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2279 : BitVec 32 := Scalar.subi c1_i32_1898 v5
  let c1_i32_1901 : BitVec 32 := 1#32
  let v2282 : BitVec 32 := Scalar.muli v2279 c1_i32_1901
  let v2283 : BitVec 32 := Scalar.addi v2281 v2282
  v2283.toNat
def k0_dev127 (d0 : Dev nD) : Nat :=
  let c0_i32_1924 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1923 : BitVec 32 := 2#32
  let v2306 : BitVec 32 := Scalar.muli v2 c2_i32_1923
  let v2307 : BitVec 32 := Scalar.addi c0_i32_1924 v2306
  let c1_i32_1922 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2305 : BitVec 32 := Scalar.subi c1_i32_1922 v5
  let c1_i32_1925 : BitVec 32 := 1#32
  let v2308 : BitVec 32 := Scalar.muli v2305 c1_i32_1925
  let v2309 : BitVec 32 := Scalar.addi v2307 v2308
  v2309.toNat
def k0_dev128 (d0 : Dev nD) : Nat :=
  let c0_i32_1948 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1947 : BitVec 32 := 2#32
  let v2332 : BitVec 32 := Scalar.muli v2 c2_i32_1947
  let v2333 : BitVec 32 := Scalar.addi c0_i32_1948 v2332
  let c1_i32_1946 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2331 : BitVec 32 := Scalar.subi c1_i32_1946 v5
  let c1_i32_1949 : BitVec 32 := 1#32
  let v2334 : BitVec 32 := Scalar.muli v2331 c1_i32_1949
  let v2335 : BitVec 32 := Scalar.addi v2333 v2334
  v2335.toNat
def k0_dev129 (d0 : Dev nD) : Nat :=
  let c0_i32_1972 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1971 : BitVec 32 := 2#32
  let v2358 : BitVec 32 := Scalar.muli v2 c2_i32_1971
  let v2359 : BitVec 32 := Scalar.addi c0_i32_1972 v2358
  let c1_i32_1970 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2357 : BitVec 32 := Scalar.subi c1_i32_1970 v5
  let c1_i32_1973 : BitVec 32 := 1#32
  let v2360 : BitVec 32 := Scalar.muli v2357 c1_i32_1973
  let v2361 : BitVec 32 := Scalar.addi v2359 v2360
  v2361.toNat
def k0_dev130 (d0 : Dev nD) : Nat :=
  let c0_i32_1996 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1995 : BitVec 32 := 2#32
  let v2384 : BitVec 32 := Scalar.muli v2 c2_i32_1995
  let v2385 : BitVec 32 := Scalar.addi c0_i32_1996 v2384
  let c1_i32_1994 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2383 : BitVec 32 := Scalar.subi c1_i32_1994 v5
  let c1_i32_1997 : BitVec 32 := 1#32
  let v2386 : BitVec 32 := Scalar.muli v2383 c1_i32_1997
  let v2387 : BitVec 32 := Scalar.addi v2385 v2386
  v2387.toNat

class Facts₀ : Prop where
  hamt_1 : (1#32 : BitVec 32).msb = false
  hamt_2 : (2#32 : BitVec 32).msb = false
  squeezes_S1x4096x1024_S4096x1024 : S1x4096x1024.Squeezes S4096x1024
  inb_S64_S1_0 : ∀ a, (![0] : Fin 1 → Nat) a + S1.size a ≤ S64.size a
  squeezes_S1_S_ : S1.Squeezes S_
  inb_S4096x1024_S64x1024_0_0 : ∀ a, (![0, 0] : Fin 2 → Nat) a + S64x1024.size a ≤ S4096x1024.size a
  squeezes_S1x64x1024_S64x1024 : S1x64x1024.Squeezes S64x1024
  inb_S64_S1_1 : ∀ a, (![1] : Fin 1 → Nat) a + S1.size a ≤ S64.size a
  inb_S4096x1024_S64x1024_64_0 : ∀ a, (![64, 0] : Fin 2 → Nat) a + S64x1024.size a ≤ S4096x1024.size a
  inb_S64_S1_2 : ∀ a, (![2] : Fin 1 → Nat) a + S1.size a ≤ S64.size a
  inb_S4096x1024_S64x1024_128_0 : ∀ a, (![128, 0] : Fin 2 → Nat) a + S64x1024.size a ≤ S4096x1024.size a
  inb_S64_S1_3 : ∀ a, (![3] : Fin 1 → Nat) a + S1.size a ≤ S64.size a
  inb_S4096x1024_S64x1024_192_0 : ∀ a, (![192, 0] : Fin 2 → Nat) a + S64x1024.size a ≤ S4096x1024.size a
  inb_S64_S1_4 : ∀ a, (![4] : Fin 1 → Nat) a + S1.size a ≤ S64.size a
  inb_S4096x1024_S64x1024_256_0 : ∀ a, (![256, 0] : Fin 2 → Nat) a + S64x1024.size a ≤ S4096x1024.size a
  inb_S64_S1_5 : ∀ a, (![5] : Fin 1 → Nat) a + S1.size a ≤ S64.size a
  inb_S4096x1024_S64x1024_320_0 : ∀ a, (![320, 0] : Fin 2 → Nat) a + S64x1024.size a ≤ S4096x1024.size a
  inb_S64_S1_6 : ∀ a, (![6] : Fin 1 → Nat) a + S1.size a ≤ S64.size a
  inb_S4096x1024_S64x1024_384_0 : ∀ a, (![384, 0] : Fin 2 → Nat) a + S64x1024.size a ≤ S4096x1024.size a
  inb_S64_S1_7 : ∀ a, (![7] : Fin 1 → Nat) a + S1.size a ≤ S64.size a
  inb_S4096x1024_S64x1024_448_0 : ∀ a, (![448, 0] : Fin 2 → Nat) a + S64x1024.size a ≤ S4096x1024.size a
  inb_S64_S1_8 : ∀ a, (![8] : Fin 1 → Nat) a + S1.size a ≤ S64.size a
  inb_S4096x1024_S64x1024_512_0 : ∀ a, (![512, 0] : Fin 2 → Nat) a + S64x1024.size a ≤ S4096x1024.size a
  inb_S64_S1_9 : ∀ a, (![9] : Fin 1 → Nat) a + S1.size a ≤ S64.size a
  inb_S4096x1024_S64x1024_576_0 : ∀ a, (![576, 0] : Fin 2 → Nat) a + S64x1024.size a ≤ S4096x1024.size a
  inb_S64_S1_10 : ∀ a, (![10] : Fin 1 → Nat) a + S1.size a ≤ S64.size a
  inb_S4096x1024_S64x1024_640_0 : ∀ a, (![640, 0] : Fin 2 → Nat) a + S64x1024.size a ≤ S4096x1024.size a
  inb_S64_S1_11 : ∀ a, (![11] : Fin 1 → Nat) a + S1.size a ≤ S64.size a
  inb_S4096x1024_S64x1024_704_0 : ∀ a, (![704, 0] : Fin 2 → Nat) a + S64x1024.size a ≤ S4096x1024.size a
  inb_S64_S1_12 : ∀ a, (![12] : Fin 1 → Nat) a + S1.size a ≤ S64.size a
  inb_S4096x1024_S64x1024_768_0 : ∀ a, (![768, 0] : Fin 2 → Nat) a + S64x1024.size a ≤ S4096x1024.size a
  inb_S64_S1_13 : ∀ a, (![13] : Fin 1 → Nat) a + S1.size a ≤ S64.size a
  inb_S4096x1024_S64x1024_832_0 : ∀ a, (![832, 0] : Fin 2 → Nat) a + S64x1024.size a ≤ S4096x1024.size a
  inb_S64_S1_14 : ∀ a, (![14] : Fin 1 → Nat) a + S1.size a ≤ S64.size a
  inb_S4096x1024_S64x1024_896_0 : ∀ a, (![896, 0] : Fin 2 → Nat) a + S64x1024.size a ≤ S4096x1024.size a
  inb_S64_S1_15 : ∀ a, (![15] : Fin 1 → Nat) a + S1.size a ≤ S64.size a
  inb_S4096x1024_S64x1024_960_0 : ∀ a, (![960, 0] : Fin 2 → Nat) a + S64x1024.size a ≤ S4096x1024.size a
  inb_S64_S1_16 : ∀ a, (![16] : Fin 1 → Nat) a + S1.size a ≤ S64.size a
  inb_S4096x1024_S64x1024_1024_0 : ∀ a, (![1024, 0] : Fin 2 → Nat) a + S64x1024.size a ≤ S4096x1024.size a
  inb_S64_S1_17 : ∀ a, (![17] : Fin 1 → Nat) a + S1.size a ≤ S64.size a
  inb_S4096x1024_S64x1024_1088_0 : ∀ a, (![1088, 0] : Fin 2 → Nat) a + S64x1024.size a ≤ S4096x1024.size a
  inb_S64_S1_18 : ∀ a, (![18] : Fin 1 → Nat) a + S1.size a ≤ S64.size a
  inb_S4096x1024_S64x1024_1152_0 : ∀ a, (![1152, 0] : Fin 2 → Nat) a + S64x1024.size a ≤ S4096x1024.size a
  inb_S64_S1_19 : ∀ a, (![19] : Fin 1 → Nat) a + S1.size a ≤ S64.size a
  inb_S4096x1024_S64x1024_1216_0 : ∀ a, (![1216, 0] : Fin 2 → Nat) a + S64x1024.size a ≤ S4096x1024.size a
  inb_S64_S1_20 : ∀ a, (![20] : Fin 1 → Nat) a + S1.size a ≤ S64.size a
  inb_S4096x1024_S64x1024_1280_0 : ∀ a, (![1280, 0] : Fin 2 → Nat) a + S64x1024.size a ≤ S4096x1024.size a
  inb_S64_S1_21 : ∀ a, (![21] : Fin 1 → Nat) a + S1.size a ≤ S64.size a
  inb_S4096x1024_S64x1024_1344_0 : ∀ a, (![1344, 0] : Fin 2 → Nat) a + S64x1024.size a ≤ S4096x1024.size a
  inb_S64_S1_22 : ∀ a, (![22] : Fin 1 → Nat) a + S1.size a ≤ S64.size a
  inb_S4096x1024_S64x1024_1408_0 : ∀ a, (![1408, 0] : Fin 2 → Nat) a + S64x1024.size a ≤ S4096x1024.size a
  inb_S64_S1_23 : ∀ a, (![23] : Fin 1 → Nat) a + S1.size a ≤ S64.size a
  inb_S4096x1024_S64x1024_1472_0 : ∀ a, (![1472, 0] : Fin 2 → Nat) a + S64x1024.size a ≤ S4096x1024.size a
  inb_S64_S1_24 : ∀ a, (![24] : Fin 1 → Nat) a + S1.size a ≤ S64.size a
  inb_S4096x1024_S64x1024_1536_0 : ∀ a, (![1536, 0] : Fin 2 → Nat) a + S64x1024.size a ≤ S4096x1024.size a
  inb_S64_S1_25 : ∀ a, (![25] : Fin 1 → Nat) a + S1.size a ≤ S64.size a
  inb_S4096x1024_S64x1024_1600_0 : ∀ a, (![1600, 0] : Fin 2 → Nat) a + S64x1024.size a ≤ S4096x1024.size a
  inb_S64_S1_26 : ∀ a, (![26] : Fin 1 → Nat) a + S1.size a ≤ S64.size a
  inb_S4096x1024_S64x1024_1664_0 : ∀ a, (![1664, 0] : Fin 2 → Nat) a + S64x1024.size a ≤ S4096x1024.size a
  inb_S64_S1_27 : ∀ a, (![27] : Fin 1 → Nat) a + S1.size a ≤ S64.size a
  inb_S4096x1024_S64x1024_1728_0 : ∀ a, (![1728, 0] : Fin 2 → Nat) a + S64x1024.size a ≤ S4096x1024.size a
  inb_S64_S1_28 : ∀ a, (![28] : Fin 1 → Nat) a + S1.size a ≤ S64.size a
  inb_S4096x1024_S64x1024_1792_0 : ∀ a, (![1792, 0] : Fin 2 → Nat) a + S64x1024.size a ≤ S4096x1024.size a
  inb_S64_S1_29 : ∀ a, (![29] : Fin 1 → Nat) a + S1.size a ≤ S64.size a
  inb_S4096x1024_S64x1024_1856_0 : ∀ a, (![1856, 0] : Fin 2 → Nat) a + S64x1024.size a ≤ S4096x1024.size a
  inb_S64_S1_30 : ∀ a, (![30] : Fin 1 → Nat) a + S1.size a ≤ S64.size a
  inb_S4096x1024_S64x1024_1920_0 : ∀ a, (![1920, 0] : Fin 2 → Nat) a + S64x1024.size a ≤ S4096x1024.size a
  inb_S64_S1_31 : ∀ a, (![31] : Fin 1 → Nat) a + S1.size a ≤ S64.size a
  inb_S4096x1024_S64x1024_1984_0 : ∀ a, (![1984, 0] : Fin 2 → Nat) a + S64x1024.size a ≤ S4096x1024.size a
  inb_S64_S1_32 : ∀ a, (![32] : Fin 1 → Nat) a + S1.size a ≤ S64.size a
  inb_S4096x1024_S64x1024_2048_0 : ∀ a, (![2048, 0] : Fin 2 → Nat) a + S64x1024.size a ≤ S4096x1024.size a
  inb_S64_S1_33 : ∀ a, (![33] : Fin 1 → Nat) a + S1.size a ≤ S64.size a
  inb_S4096x1024_S64x1024_2112_0 : ∀ a, (![2112, 0] : Fin 2 → Nat) a + S64x1024.size a ≤ S4096x1024.size a
  inb_S64_S1_34 : ∀ a, (![34] : Fin 1 → Nat) a + S1.size a ≤ S64.size a
  inb_S4096x1024_S64x1024_2176_0 : ∀ a, (![2176, 0] : Fin 2 → Nat) a + S64x1024.size a ≤ S4096x1024.size a
  inb_S64_S1_35 : ∀ a, (![35] : Fin 1 → Nat) a + S1.size a ≤ S64.size a
  inb_S4096x1024_S64x1024_2240_0 : ∀ a, (![2240, 0] : Fin 2 → Nat) a + S64x1024.size a ≤ S4096x1024.size a
  inb_S64_S1_36 : ∀ a, (![36] : Fin 1 → Nat) a + S1.size a ≤ S64.size a
  inb_S4096x1024_S64x1024_2304_0 : ∀ a, (![2304, 0] : Fin 2 → Nat) a + S64x1024.size a ≤ S4096x1024.size a
  inb_S64_S1_37 : ∀ a, (![37] : Fin 1 → Nat) a + S1.size a ≤ S64.size a
  inb_S4096x1024_S64x1024_2368_0 : ∀ a, (![2368, 0] : Fin 2 → Nat) a + S64x1024.size a ≤ S4096x1024.size a
  inb_S64_S1_38 : ∀ a, (![38] : Fin 1 → Nat) a + S1.size a ≤ S64.size a
  inb_S4096x1024_S64x1024_2432_0 : ∀ a, (![2432, 0] : Fin 2 → Nat) a + S64x1024.size a ≤ S4096x1024.size a
  inb_S64_S1_39 : ∀ a, (![39] : Fin 1 → Nat) a + S1.size a ≤ S64.size a
  inb_S4096x1024_S64x1024_2496_0 : ∀ a, (![2496, 0] : Fin 2 → Nat) a + S64x1024.size a ≤ S4096x1024.size a
  inb_S64_S1_40 : ∀ a, (![40] : Fin 1 → Nat) a + S1.size a ≤ S64.size a
  inb_S4096x1024_S64x1024_2560_0 : ∀ a, (![2560, 0] : Fin 2 → Nat) a + S64x1024.size a ≤ S4096x1024.size a
  inb_S64_S1_41 : ∀ a, (![41] : Fin 1 → Nat) a + S1.size a ≤ S64.size a
  inb_S4096x1024_S64x1024_2624_0 : ∀ a, (![2624, 0] : Fin 2 → Nat) a + S64x1024.size a ≤ S4096x1024.size a
  inb_S64_S1_42 : ∀ a, (![42] : Fin 1 → Nat) a + S1.size a ≤ S64.size a
  inb_S4096x1024_S64x1024_2688_0 : ∀ a, (![2688, 0] : Fin 2 → Nat) a + S64x1024.size a ≤ S4096x1024.size a
  inb_S64_S1_43 : ∀ a, (![43] : Fin 1 → Nat) a + S1.size a ≤ S64.size a
  inb_S4096x1024_S64x1024_2752_0 : ∀ a, (![2752, 0] : Fin 2 → Nat) a + S64x1024.size a ≤ S4096x1024.size a
  inb_S64_S1_44 : ∀ a, (![44] : Fin 1 → Nat) a + S1.size a ≤ S64.size a
  inb_S4096x1024_S64x1024_2816_0 : ∀ a, (![2816, 0] : Fin 2 → Nat) a + S64x1024.size a ≤ S4096x1024.size a
  inb_S64_S1_45 : ∀ a, (![45] : Fin 1 → Nat) a + S1.size a ≤ S64.size a
  inb_S4096x1024_S64x1024_2880_0 : ∀ a, (![2880, 0] : Fin 2 → Nat) a + S64x1024.size a ≤ S4096x1024.size a
  inb_S64_S1_46 : ∀ a, (![46] : Fin 1 → Nat) a + S1.size a ≤ S64.size a
  inb_S4096x1024_S64x1024_2944_0 : ∀ a, (![2944, 0] : Fin 2 → Nat) a + S64x1024.size a ≤ S4096x1024.size a
  inb_S64_S1_47 : ∀ a, (![47] : Fin 1 → Nat) a + S1.size a ≤ S64.size a
  inb_S4096x1024_S64x1024_3008_0 : ∀ a, (![3008, 0] : Fin 2 → Nat) a + S64x1024.size a ≤ S4096x1024.size a
  inb_S64_S1_48 : ∀ a, (![48] : Fin 1 → Nat) a + S1.size a ≤ S64.size a
  inb_S4096x1024_S64x1024_3072_0 : ∀ a, (![3072, 0] : Fin 2 → Nat) a + S64x1024.size a ≤ S4096x1024.size a
  inb_S64_S1_49 : ∀ a, (![49] : Fin 1 → Nat) a + S1.size a ≤ S64.size a
  inb_S4096x1024_S64x1024_3136_0 : ∀ a, (![3136, 0] : Fin 2 → Nat) a + S64x1024.size a ≤ S4096x1024.size a
  inb_S64_S1_50 : ∀ a, (![50] : Fin 1 → Nat) a + S1.size a ≤ S64.size a
  inb_S4096x1024_S64x1024_3200_0 : ∀ a, (![3200, 0] : Fin 2 → Nat) a + S64x1024.size a ≤ S4096x1024.size a
  inb_S64_S1_51 : ∀ a, (![51] : Fin 1 → Nat) a + S1.size a ≤ S64.size a
  inb_S4096x1024_S64x1024_3264_0 : ∀ a, (![3264, 0] : Fin 2 → Nat) a + S64x1024.size a ≤ S4096x1024.size a
  inb_S64_S1_52 : ∀ a, (![52] : Fin 1 → Nat) a + S1.size a ≤ S64.size a
  inb_S4096x1024_S64x1024_3328_0 : ∀ a, (![3328, 0] : Fin 2 → Nat) a + S64x1024.size a ≤ S4096x1024.size a
  inb_S64_S1_53 : ∀ a, (![53] : Fin 1 → Nat) a + S1.size a ≤ S64.size a
  inb_S4096x1024_S64x1024_3392_0 : ∀ a, (![3392, 0] : Fin 2 → Nat) a + S64x1024.size a ≤ S4096x1024.size a
  inb_S64_S1_54 : ∀ a, (![54] : Fin 1 → Nat) a + S1.size a ≤ S64.size a
  inb_S4096x1024_S64x1024_3456_0 : ∀ a, (![3456, 0] : Fin 2 → Nat) a + S64x1024.size a ≤ S4096x1024.size a
  inb_S64_S1_55 : ∀ a, (![55] : Fin 1 → Nat) a + S1.size a ≤ S64.size a
  inb_S4096x1024_S64x1024_3520_0 : ∀ a, (![3520, 0] : Fin 2 → Nat) a + S64x1024.size a ≤ S4096x1024.size a
  inb_S64_S1_56 : ∀ a, (![56] : Fin 1 → Nat) a + S1.size a ≤ S64.size a
  inb_S4096x1024_S64x1024_3584_0 : ∀ a, (![3584, 0] : Fin 2 → Nat) a + S64x1024.size a ≤ S4096x1024.size a
  inb_S64_S1_57 : ∀ a, (![57] : Fin 1 → Nat) a + S1.size a ≤ S64.size a
  inb_S4096x1024_S64x1024_3648_0 : ∀ a, (![3648, 0] : Fin 2 → Nat) a + S64x1024.size a ≤ S4096x1024.size a
  inb_S64_S1_58 : ∀ a, (![58] : Fin 1 → Nat) a + S1.size a ≤ S64.size a
  inb_S4096x1024_S64x1024_3712_0 : ∀ a, (![3712, 0] : Fin 2 → Nat) a + S64x1024.size a ≤ S4096x1024.size a
  inb_S64_S1_59 : ∀ a, (![59] : Fin 1 → Nat) a + S1.size a ≤ S64.size a
  inb_S4096x1024_S64x1024_3776_0 : ∀ a, (![3776, 0] : Fin 2 → Nat) a + S64x1024.size a ≤ S4096x1024.size a
  inb_S64_S1_60 : ∀ a, (![60] : Fin 1 → Nat) a + S1.size a ≤ S64.size a
  inb_S4096x1024_S64x1024_3840_0 : ∀ a, (![3840, 0] : Fin 2 → Nat) a + S64x1024.size a ≤ S4096x1024.size a
  inb_S64_S1_61 : ∀ a, (![61] : Fin 1 → Nat) a + S1.size a ≤ S64.size a
  inb_S4096x1024_S64x1024_3904_0 : ∀ a, (![3904, 0] : Fin 2 → Nat) a + S64x1024.size a ≤ S4096x1024.size a
  inb_S64_S1_62 : ∀ a, (![62] : Fin 1 → Nat) a + S1.size a ≤ S64.size a
  inb_S4096x1024_S64x1024_3968_0 : ∀ a, (![3968, 0] : Fin 2 → Nat) a + S64x1024.size a ≤ S4096x1024.size a
  inb_S64_S1_63 : ∀ a, (![63] : Fin 1 → Nat) a + S1.size a ≤ S64.size a
  inb_S4096x1024_S64x1024_4032_0 : ∀ a, (![4032, 0] : Fin 2 → Nat) a + S64x1024.size a ≤ S4096x1024.size a
  h_S64x1024 : 0 < S64x1024.numel
  shapeCasts_S64x1024_S64x1024 : S64x1024.ShapeCasts S64x1024
  hcc0_scratch2 : 0 + S_.numel ≤ 69
  hcc0_scratch3 : 1 + S64.numel ≤ 69
  hcc0_scratch4 : 65 + S_.numel ≤ 69
  hcc0_scratch5 : 66 + S_.numel ≤ 69
  hcc0_scratch6 : 67 + S_.numel ≤ 69
  hcc0_scratch7 : 68 + S_.numel ≤ 69
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1x4096x1024.size a ≤ S1x8192x2048.size a
  k0_off2_inb : ∀ d0 : Dev nD, ∀ (r : Fin 64), ∀ a, (k0_off2 d0 (BitVec.ofNat 32 (64 * r.val))) a + S1x64x1024.size a ≤ S1x8192x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off3_inb : ∀ d0 : Dev nD, ∀ (r : Fin 64), ∀ a, (k0_off3 d0 (BitVec.ofNat 32 (64 * r.val))) a + S64x1024.size a ≤ S8192x1024.size a
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD

variable [Facts₀]

abbrev cc0_scratch2 : DmaSems sig S_ := SemArray.consecutive 0 S_ hcc0_scratch2
abbrev cc0_scratch3 : DmaSems sig S64 := SemArray.consecutive 1 S64 hcc0_scratch3
abbrev cc0_scratch4 : DmaSems sig S_ := SemArray.consecutive 65 S_ hcc0_scratch4
abbrev cc0_scratch5 : DmaSems sig S_ := SemArray.consecutive 66 S_ hcc0_scratch5
abbrev cc0_scratch6 : DmaSems sig S_ := SemArray.consecutive 67 S_ hcc0_scratch6
abbrev cc0_scratch7 : DmaSems sig S_ := SemArray.consecutive 68 S_ hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x8192x2048_S8192x2048_d0 : S2x8192x2048.ReducesTo [0] S8192x2048
  h_S_ : 0 < S_.numel

variable [Facts₀]

class Facts : Prop extends Facts₀ where

variable [Facts]
-- ==== Proof.Loop.lean ====
import proofs.«900299_g7700000000000300_dist_rs_v7x_xy2x2_x_m8192_n1024_f32_1_alg».proof.KernelIdeal
import Idealize.ShloMosaic.Lib.Pipeline.Regions

/-!
The kernel's body is straight-line text: the chunk loops of the source are printed trip by trip. This module
writes the same operations as three counted passes over the 64 row chunks (the sends of the peer's column
block; receive, add, forward down the column and copy out; the closing waits) and shows that the printed body
IS that program, by unfolding both sides.
-/

noncomputable section

namespace Cert.KernelIdeal

open Idealize.ShloMosaic Idealize.SL.Sem

variable {F : FTy → Type} [FloatOps F] [Facts]
open Facts₀ Facts

namespace Loop

theorem inbSem (i : Fin 64) : ∀ a, (![i.val] : Fin 1 → Nat) a + S1.size a ≤ S64.size a := by
  intro a; have := i.isLt; fin_cases a; show i.val + 1 ≤ 64; omega

theorem inbChunk (i : Fin 64) : ∀ a, (![64 * i.val, 0] : Fin 2 → Nat) a + S64x1024.size a ≤ S4096x1024.size a := by
  intro a; have := i.isLt; fin_cases a
  · show 64 * i.val + 64 ≤ 4096; omega
  · show 0 + 1024 ≤ 1024; omega

section
variable (arg0 : Memref sig .tc .hbm S1x8192x2048 .f32) (arg1 : Memref sig .tc .hbm S8192x1024 .f32)
  (arg2 arg3 : Memref sig .tc .vmem S4096x1024 .f32) (harg3 : arg3.IsWhole)
  (arg4 : DmaSems sig S_) (arg5 : DmaSems sig S64) (arg6 arg7 arg8 arg9 : DmaSems sig S_) (d0 : Dev nD)

/-- The receive semaphore of chunk `i`. -/
abbrev xsem (i : Fin 64) : DmaSems sig S_ :=
  (arg5.slice (Rect.unit (s := S64) ![i.val] S1.size (inbSem i))).squeeze S_ squeezes_S1_S_
/-- Rows `[64 i, 64 i + 64)` of a 4096-row scratch buffer. -/
abbrev chunk (m : Memref sig .tc .vmem S4096x1024 .f32) (i : Fin 64) : Memref sig .tc .vmem S64x1024 .f32 :=
  m.slice (Rect.unit (s := S4096x1024) ![64 * i.val, 0] S64x1024.size (inbChunk i)) (fun _ => rfl)
/-- The chunk's rectangle in the scratch buffer. -/
abbrev crect (i : Fin 64) : Rect S4096x1024 := Rect.unit (s := S4096x1024) ![64 * i.val, 0] S64x1024.size (inbChunk i)
/-- Chunk `i` of this device's row half, in the PEER's column block of the input. -/
abbrev xsrc (i : Fin 64) : Memref sig .tc .hbm S64x1024 .f32 :=
  (arg0.slice (Rect.unit (s := S1x8192x2048) (k0_off2 d0 (BitVec.ofNat 32 (64 * i.val))) S1x64x1024.size (k0_off2_inb d0 i)) (fun _ => rfl)).squeeze S64x1024 squeezes_S1x64x1024_S64x1024
/-- This device's row half in its OWN column block of the input. -/
abbrev lsrc : Memref sig .tc .hbm S4096x1024 .f32 :=
  (arg0.slice (Rect.unit (s := S1x8192x2048) (k0_off1 d0) S1x4096x1024.size (k0_off1_inb d0)) (fun _ => rfl)).squeeze S4096x1024 squeezes_S1x4096x1024_S4096x1024
/-- Chunk `i` of this device's row half of the result. -/
abbrev oslice (i : Fin 64) : Memref sig .tc .hbm S64x1024 .f32 :=
  arg1.slice (Rect.unit (s := S8192x1024) (k0_off3 d0 (BitVec.ofNat 32 (64 * i.val))) S64x1024.size (k0_off3_inb d0 i)) (fun _ => rfl)
/-- The neighbour along mesh axis x, and along y. -/
abbrev xpeer : Dev nD := ⟨k0_dev1 d0, k0_dev1_lt d0⟩
abbrev ypeer : Dev nD := ⟨k0_dev2 d0, k0_dev2_lt d0⟩
abbrev bar : Sems sig S_ := SemArray.scalar (sig.barrier 0 rfl)

/-- Pass 1, chunk `i`: send the peer its column block's chunk. -/
def iter1 (i : Fin 64) : Prog (TpuEff nD τ sig (Elt F) Λ₀ .tc) PUnit :=
  Prog.lift (.enqueueDma (xsrc arg0 d0 i) (.remote (Dev.tc (xpeer d0)) (chunk arg2 i) (.dma arg4.sem)) (.dma (xsem arg5 i).sem) ((View.wordExact_bits rfl).reshape _ _) (View.wordExact_bits rfl) ⟨⟨rfl, Or.inl rfl⟩, trivial⟩)

/-- Pass 2, chunk `i`: the peer's chunk has landed; add this device's own; forward the sum down the column and copy it out. -/
def iter2 (i : Fin 64) : Prog (TpuEff nD τ sig (Elt F) Λ₀ .tc) PUnit := do
  Prog.lift (.waitDma2 (xsem arg5 i).sem (xsrc arg0 d0 i) (chunk arg2 i) ((View.wordExact_bits rfl).reshape _ _) (View.wordExact_bits rfl))
  let a : Vec F S64x1024 .f32 ← Prog.lift (.load arg2 (crect i).toLoadRect (View.loadsAt_vmem h_S64x1024))
  let b : Vec F S64x1024 .f32 ← Prog.lift (.load arg3 (crect i).toLoadRect (View.loadsAt_vmem h_S64x1024))
  let _a' : Vec F S64x1024 .f32 ← Prog.lift (.load arg2 (crect i).toLoadRect (View.loadsAt_vmem h_S64x1024))
  Prog.lift (.store arg2 (crect i) (shapeCast S64x1024 (addf a b) shapeCasts_S64x1024_S64x1024) Finset.univ (View.stores_vmem_bits_univ h_S64x1024 rfl) (.inl rfl))
  Prog.lift (.enqueueDma (chunk arg2 i) (.remote (Dev.tc (ypeer d0)) (oslice arg1 d0 i) (.dma arg6.sem)) (.dma arg7.sem) (View.wordExact_bits rfl) (View.wordExact_bits rfl) ⟨⟨rfl, Or.inl rfl⟩, trivial⟩)
  Prog.lift (.enqueueDma (chunk arg2 i) (.here (oslice arg1 d0 i)) (.dma arg9.sem) (View.wordExact_bits rfl) (View.wordExact_bits rfl) ⟨Or.inl rfl, trivial⟩)

/-- Pass 3, chunk `i`: the four closing waits. -/
def iter3 (i : Fin 64) : Prog (TpuEff nD τ sig (Elt F) Λ₀ .tc) PUnit := do
  Prog.lift (.waitDma2 arg4.sem (chunk arg2 i) (xsrc arg0 d0 i) (View.wordExact_bits rfl) ((View.wordExact_bits rfl).reshape _ _))
  Prog.lift (.waitDma2 arg6.sem (oslice arg1 d0 i) (chunk arg2 i) (View.wordExact_bits rfl) (View.wordExact_bits rfl))
  Prog.lift (.waitDma2 arg7.sem (chunk arg2 i) (oslice arg1 d0 i) (View.wordExact_bits rfl) (View.wordExact_bits rfl))
  Prog.lift (.waitDma2 arg9.sem (chunk arg2 i) (oslice arg1 d0 i) (View.wordExact_bits rfl) (View.wordExact_bits rfl))

end

/-- `body (64 - n), …, body 63` in order, then `k`. -/
def loopFrom {α : Type} (body : Fin 64 → Prog (TpuEff nD τ sig (Elt F) Λ₀ .tc) PUnit) :
    (n : ℕ) → n ≤ 64 → Prog (TpuEff nD τ sig (Elt F) Λ₀ .tc) α → Prog (TpuEff nD τ sig (Elt F) Λ₀ .tc) α
  | 0, _, k => k
  | n + 1, h, k => body ⟨64 - (n + 1), by omega⟩ >>= fun _ => loopFrom body n (by omega) k

/-- The kernel's body as three passes over the chunks. -/
def body (arg0 : Memref sig .tc .hbm S1x8192x2048 .f32) (arg1 : Memref sig .tc .hbm S8192x1024 .f32)
    (arg2 arg3 : Memref sig .tc .vmem S4096x1024 .f32) (harg3 : arg3.IsWhole)
    (arg4 : DmaSems sig S_) (arg5 : DmaSems sig S64) (arg6 arg7 arg8 arg9 : DmaSems sig S_) :
    Prog (TpuEff nD τ sig (Elt F) Λ₀ .tc) PUnit := do
  let d0 : Dev nD ← Prog.lift .deviceId
  semSignalWord (xpeer d0) bar.sem 1#32 hamt_1
  semSignalWord (ypeer d0) bar.sem 1#32 hamt_1
  semWaitWord bar.sem 2#32 hamt_2
  Prog.lift (.enqueueDma (lsrc arg0 d0) (.here arg3) (.dma arg8.sem) ((View.wordExact_bits rfl).reshape _ _) harg3.wordExact ⟨Or.inl rfl, trivial⟩)
  loopFrom (iter1 arg0 arg2 arg4 arg5 d0) 64 (Nat.le_refl _)
    (Prog.lift (.waitDma2 arg8.sem (lsrc arg0 d0) arg3 ((View.wordExact_bits rfl).reshape _ _) harg3.wordExact) >>= fun _ =>
      loopFrom (iter2 arg0 arg1 arg2 arg3 arg5 arg6 arg7 arg9 d0) 64 (Nat.le_refl _)
        (loopFrom (iter3 arg0 arg1 arg2 arg4 arg6 arg7 arg9 d0) 64 (Nat.le_refl _) (pure ⟨⟩)))

/-- The printed body is the three-pass program: both sides unfold to the same sequence of operations. -/
theorem body_eq (arg0 : Memref sig .tc .hbm S1x8192x2048 .f32) (harg0 : arg0.IsWhole) (arg1 : Memref sig .tc .hbm S8192x1024 .f32) (harg1 : arg1.IsWhole)
    (arg2 : Memref sig .tc .vmem S4096x1024 .f32) (harg2 : arg2.IsWhole) (arg3 : Memref sig .tc .vmem S4096x1024 .f32) (harg3 : arg3.IsWhole)
    (arg4 : DmaSems sig S_) (arg5 : DmaSems sig S64) (arg6 arg7 arg8 arg9 : DmaSems sig S_) :
    cc0_body (F := F) arg0 harg0 arg1 harg1 arg2 harg2 arg3 harg3 arg4 arg5 arg6 arg7 arg8 arg9
      = body (F := F) arg0 arg1 arg2 arg3 harg3 arg4 arg5 arg6 arg7 arg8 arg9 := by
  chain_rfl

end Loop

end Cert.KernelIdeal

end
-- ==== Proof.GeoDefs.lean ====
import proofs.«900299_g7700000000000300_dist_rs_v7x_xy2x2_x_m8192_n1024_f32_1_alg».proof.Proof.Loop
import proofs.«900299_g7700000000000300_dist_rs_v7x_xy2x2_x_m8192_n1024_f32_1_alg».proof.Proof.Gen.KernelIdeal
import Idealize.ShloMosaic.Rules.PointsTo
import Idealize.ShloMosaic.Lib.Pipeline.Value

/-!
Names for the buffers, their row chunks and the whole-buffer value functions of the reduce-scatter:
what a device receives from its neighbour along x, what it adds, and what its result holds.
-/

noncomputable section

namespace Cert.KernelIdeal.Geo

open Cert.KernelIdeal Cert.KernelIdeal.Loop
open Idealize.ShloMosaic Idealize.ShloMosaic.TcCoe Idealize.SL.Sem

variable {F : FTy → Type} [FloatOps F]
open Facts₀ Facts

abbrev A0 : Memref sig .tc .hbm S1x8192x2048 .f32 := Memref.whole main_arg0
abbrev A1 : Memref sig .tc .hbm S8192x1024 .f32 := Memref.whole main_v1
abbrev R0 : Memref sig .tc .vmem S4096x1024 .f32 := Memref.whole cc0_scratch0
abbrev R1 : Memref sig .tc .vmem S4096x1024 .f32 := Memref.whole cc0_scratch1

/-- The neighbours of device `c` (numbered `2 x + y`): along x and along y. -/
abbrev xp (c : Dev nD) : Dev nD := Loop.xpeer c
abbrev yp (c : Dev nD) : Dev nD := Loop.ypeer c

theorem xp_xp (c : Dev nD) : xp (xp c) = c := by revert c; decide +kernel
theorem yp_yp (c : Dev nD) : yp (yp c) = c := by revert c; decide +kernel
theorem xp_ne (c : Dev nD) : xp c ≠ c := by revert c; decide +kernel
theorem yp_ne (c : Dev nD) : yp c ≠ c := by revert c; decide +kernel
theorem xp_ne_yp (c : Dev nD) : xp c ≠ yp c := by revert c; decide +kernel
theorem xp_val (c : Dev nD) : (xp c).val = (c.val % 2) + 2 - 2 * (c.val / 2) := Gen.k0_dev1_eq c
theorem yp_val (c : Dev nD) : (yp c).val = (2 * (c.val / 2) + 1) - (c.val % 2) := Gen.k0_dev2_eq c

theorem psrc_inb (d0 : Dev nD) : ∀ a, (![0, 4096 * (d0.val % 2), 1024 - 1024 * (d0.val / 2)] : Fin 3 → Nat) a + S1x4096x1024.size a ≤ S1x8192x2048.size a := by
  revert d0; decide +kernel

/-- Device `d0`'s row half in the column block of its neighbour along x: the union of the 64 chunks it sends. -/
abbrev psrc (d0 : Dev nD) : Memref sig .tc .hbm S4096x1024 .f32 :=
  (A0.slice (Rect.unit (s := S1x8192x2048) ![0, 4096 * (d0.val % 2), 1024 - 1024 * (d0.val / 2)] S1x4096x1024.size (psrc_inb d0)) (fun _ => rfl)).squeeze S4096x1024 squeezes_S1x4096x1024_S4096x1024

variable (m : (ℓ : Loc nD τ sig) → Buf (Elt F) ℓ)

/-- Device `c`'s input block. -/
def X (c : Dev nD) : Buf (Elt F) ((c : Thread nD τ).loc main_arg0) := m ((c : Thread nD τ).loc main_arg0)
/-- What lands in `c`'s receive buffer: its neighbour's rows of `c`'s column block. -/
def Grecv (c : Dev nD) : Buf (Elt F) ((c : Thread nD τ).loc cc0_scratch0) := (psrc (xp c)).view.read (Elt F) (X m (xp c))
/-- What `c` copies into its second scratch buffer: its own rows of its own column block. -/
def Glocal (c : Dev nD) : Buf (Elt F) ((c : Thread nD τ).loc cc0_scratch1) := (lsrc A0 c).view.read (Elt F) (X m c)
/-- The sum `c` forwards: its row half of the reduced column block. -/
def Gsum (c : Dev nD) : Buf (Elt F) ((c : Thread nD τ).loc cc0_scratch0) := addf (Grecv m c) (Glocal m c)

end Cert.KernelIdeal.Geo

end
-- ==== Proof.GeoOut.lean ====
import proofs.«900299_g7700000000000300_dist_rs_v7x_xy2x2_x_m8192_n1024_f32_1_alg».proof.Proof.GeoDefs
import Idealize.ShloMosaic.Lib.ValueIdx

/-!
The result as one whole-array function: row `r` of the result of a device in mesh column `x` is computed by
device `(x, r / 4096)`, at row `r % 4096` of its row half.
-/

noncomputable section

namespace Cert.KernelIdeal.Geo

open Cert.KernelIdeal Cert.KernelIdeal.Loop
open Idealize.ShloMosaic Idealize.ShloMosaic.TcCoe Idealize.SL.Sem

/-- The device of `c`'s mesh column whose row half holds result row `r`. -/
def outDev (c : Dev nD) (r : Fin 8192) : Dev nD :=
  ⟨2 * (c.val / 2) + r.val / 4096, by show 2 * (c.val / 2) + r.val / 4096 < 4; have h : c.val < 4 := c.isLt; have := r.isLt; omega⟩

/-- The result array of `c` from the devices' row-half sums. -/
def outOf {Val : EltTy → Type} (c : Dev nD) (gs : (d : Dev nD) → Buf Val ((d : Thread nD τ).loc cc0_scratch0)) :
    Buf Val ((c : Thread nD τ).loc main_v1) :=
  fun idx => gs (outDev c (idx 0)) (ValueIdx.ix2 ⟨(idx 0).val % 4096, Nat.mod_lt _ (by decide)⟩ (idx 1))

end Cert.KernelIdeal.Geo

end
-- ==== Proof.GeoVals.lean ====
import proofs.«900299_g7700000000000300_dist_rs_v7x_xy2x2_x_m8192_n1024_f32_1_alg».proof.Proof.GeoOut
import Idealize.ShloMosaic.Lib.Pipeline.Value

/-!
Value facts of the reduce-scatter's copies and of its one store, index by index.

* `xland`: chunk `i` sent along x lands, on the receiver's rows `[64 i, 64 i + 64)`, the sender's row half of the
  receiver's column block (`psrc`) at the same rows.
* `inland`: the local copy fills the second scratch buffer with the device's row half of its own column block.
* `store_sum`: the load, load, add, store sequence leaves on the chunk's rows the sum of the two buffers.
* `oland`: chunk `i` of a device's sum, copied to rows `4096 (c % 2) + 64 i` of the result of the device itself or of
  its neighbour along y, is what `outOf` names there: result row `r` of a device of mesh column `x` is row `r % 4096`
  of the sum of device `(x, r / 4096)`.

A block's coordinate is its offset plus the coordinate inside the block; every proof ends in that arithmetic.
-/

noncomputable section

namespace Cert.KernelIdeal.Geo

open Cert.KernelIdeal Cert.KernelIdeal.Loop
open Idealize.ShloMosaic Idealize.ShloMosaic.TcCoe Idealize.SL.Sem
open Facts₀ Facts

variable {Val : EltTy → Type}

/-- A load through the whole input at a rectangle reads the contents at the rectangle's placement. -/
theorem readAt_A0 (f : A0.view.ty.Contents Val) (R : Rect S1x8192x2048) (x : R.shape.Idx) :
    View.readAt Val A0.view R.toLoadRect f x = f (R.emb x) := rfl

/-- The chunk the send along x lands is the sender's row half of the receiver's column block, at the chunk's rows:
    row `y` of chunk `i` is row `4096 (c % 2) + 64 i + y` of the input, and row `64 i + y` of the row half. -/
theorem xland (c : Dev nD) (i : Fin 64) (fd : (chunk R0 i).view.ty.Contents Val) (f : A0.view.ty.Contents Val) :
    ∀ idx ∈ (chunk R0 i).view.set,
      (chunk R0 i).view.write Val fd ((xsrc A0 c i).view.read Val f) Finset.univ idx = (psrc c).view.read Val f idx := by
  intro idx hidx
  obtain ⟨y, rfl⟩ := View.exists_emb_of_mem_set _ hidx
  rw [View.write_emb_of_mem _ _ (Finset.mem_univ y)]
  show View.read Val (xsrc A0 c i).view f y = View.read Val (psrc c).view f ((crect i).emb y)
  rw [Memref.read_squeeze_slice A0 _ _ _ squeezes_S1x64x1024_S64x1024.numel_eq,
    Memref.read_squeeze_slice A0 _ _ _ squeezes_S1x4096x1024_S4096x1024.numel_eq,
    shapeCast_dropUnit_apply, shapeCast_dropUnit_apply, readAt_A0, readAt_A0]
  refine congrArg f (funext fun a => Fin.ext ?_)
  rw [Rect.emb_apply, Rect.emb_apply, Rect.off_unit, Rect.off_unit, Rect.stride_unit, Rect.stride_unit,
    congrFun (Gen.k0_off2_eq c i) a]
  fin_cases a
  · rfl
  · show 4096 * (c.val % 2) + 64 * i.val + 1 * (y 0).val = 4096 * (c.val % 2) + 1 * (64 * i.val + 1 * (y 0).val); omega
  · show 1024 - 1024 * (c.val / 2) + 1 * (y 1).val = 1024 - 1024 * (c.val / 2) + 1 * (0 + 1 * (y 1).val); omega

/-- The local copy writes the whole second scratch buffer: it ends holding what the copy read. -/
theorem inland (c : Dev nD) (fd : R1.view.ty.Contents Val) (f : A0.view.ty.Contents Val) :
    R1.view.write Val fd ((lsrc A0 c).view.read Val f) Finset.univ = (lsrc A0 c).view.read Val f :=
  View.write_whole_univ _ _ _

section Sum
variable {F : FTy → Type} [FloatOps F]

/-- What the load of the chunk's rows from each scratch buffer, the addition and the store through the same rows
    leave on those rows: the sum of the two buffers. -/
theorem store_sum (i : Fin 64) (f g : S4096x1024.Idx → Elt F .f32) :
    ∀ idx ∈ (chunk R0 i).view.set,
      (R0.access (crect i)).write (Elt F) f
        (shapeCast S64x1024
          (addf (R0.view.readAt (Elt F) (crect i).toLoadRect f : Vec F S64x1024 .f32)
            (R1.view.readAt (Elt F) (crect i).toLoadRect g : Vec F S64x1024 .f32))
          shapeCasts_S64x1024_S64x1024)
        Finset.univ idx = addf f g idx := by
  intro idx hidx
  obtain ⟨y, rfl⟩ := View.exists_emb_of_mem_set _ hidx
  refine (View.write_emb_of_mem (v := R0.access (crect i)) f _ (Finset.mem_univ y)).trans ?_
  exact congrFun (shapeCast_self (s := S64x1024)
    (addf (R0.view.readAt (Elt F) (crect i).toLoadRect f : Vec F S64x1024 .f32)
      (R1.view.readAt (Elt F) (crect i).toLoadRect g : Vec F S64x1024 .f32)) shapeCasts_S64x1024_S64x1024) y

end Sum

/-- The sums of the devices read at a device given up to equality. -/
theorem gs_congr (gs : (d : Dev nD) → Buf Val ((d : Thread nD τ).loc cc0_scratch0)) {d d' : Dev nD} (h : d = d')
    {x x' : S4096x1024.Idx} (hx : x = x') : (gs d x : Val .f32) = gs d' x' := by
  subst h hx; rfl

/-- Chunk `i` of device `c`'s sum, copied to rows `4096 (c % 2) + 64 i` of the result of `c` or of its neighbour along
    y, is the result `outOf` names: those rows belong to the device of the mesh column with `c`'s parity, `c` itself,
    at its rows `64 i + y`. -/
theorem oland (c c' : Dev nD) (hc : c' = c ∨ c' = yp c) (i : Fin 64) (fd : (oslice A1 c i).view.ty.Contents Val)
    (gs : (d : Dev nD) → Buf Val ((d : Thread nD τ).loc cc0_scratch0)) :
    ∀ idx ∈ (oslice A1 c i).view.set,
      (oslice A1 c i).view.write Val fd ((chunk R0 i).view.read Val (gs c)) Finset.univ idx = outOf c' gs idx := by
  intro idx hidx
  obtain ⟨y, rfl⟩ := View.exists_emb_of_mem_set _ hidx
  rw [View.write_emb_of_mem _ _ (Finset.mem_univ y)]
  have he : ∀ a, (((oslice A1 c i).view.emb y : S8192x1024.Idx) a).val
      = (![4096 * (c.val % 2) + 64 * i.val, 0] : Fin 2 → Nat) a + 1 * (y a).val := fun a => by
    rw [← congrFun (Gen.k0_off3_eq c i) a]; rfl
  have he0 : (((oslice A1 c i).view.emb y : S8192x1024.Idx) 0).val = 4096 * (c.val % 2) + 64 * i.val + (y 0).val :=
    (he 0).trans (by
      show 4096 * (c.val % 2) + 64 * i.val + 1 * (y 0).val = 4096 * (c.val % 2) + 64 * i.val + (y 0).val; omega)
  have he1 : (((oslice A1 c i).view.emb y : S8192x1024.Idx) 1).val = (y 1).val :=
    (he 1).trans (by show 0 + 1 * (y 1).val = (y 1).val; omega)
  have hy0 : (y 0).val < 64 := (y 0).isLt
  have hcl : c.val < 4 := c.isLt
  have hhalf : c'.val / 2 = c.val / 2 := by
    rcases hc with rfl | rfl
    · rfl
    · rw [yp_val]; omega
  show (gs c ((crect i).emb y) : Val .f32) = gs (outDev c' (((oslice A1 c i).view.emb y : S8192x1024.Idx) 0)) _
  refine gs_congr gs (Fin.ext ?_) (funext fun a => Fin.ext ?_)
  · show c.val = 2 * (c'.val / 2) + (((oslice A1 c i).view.emb y : S8192x1024.Idx) 0).val / 4096
    rw [he0, hhalf]; omega
  · fin_cases a
    · show 64 * i.val + 1 * (y 0).val = (((oslice A1 c i).view.emb y : S8192x1024.Idx) 0).val % 4096
      rw [he0]; omega
    · show 0 + 1 * (y 1).val = (((oslice A1 c i).view.emb y : S8192x1024.Idx) 1).val
      rw [he1]; omega

/-- info: 'Cert.KernelIdeal.Geo.xland' depends on axioms: [propext, Classical.choice, Quot.sound] -/
#guard_msgs in #print axioms xland

/-- info: 'Cert.KernelIdeal.Geo.store_sum' depends on axioms: [propext, Classical.choice, Quot.sound] -/
#guard_msgs in #print axioms store_sum

/-- info: 'Cert.KernelIdeal.Geo.oland' depends on axioms: [propext, Classical.choice, Quot.sound] -/
#guard_msgs in #print axioms oland

end Cert.KernelIdeal.Geo

end
-- ==== Proof.Value.lean ====
import proofs.«900299_g7700000000000300_dist_rs_v7x_xy2x2_x_m8192_n1024_f32_1_alg».proof.Proof.GeoVals
import proofs.«900299_g7700000000000300_dist_rs_v7x_xy2x2_x_m8192_n1024_f32_1_alg».proof.Proof.Gen.ReferenceIdeal.Read
import Idealize.ShloMosaic.Lib.Layout
import Idealize.ShloMosaic.Lib.ValueIdx
import Idealize.ShloMosaic.PureOps.Ideal.Laws

/-!
The reduce-scatter's result against the reference's, index by index, over the extended reals.

Device `c = 2 x + y` holds block `x` of the whole input (its first axis cut in two) and must end holding column block `x`
of the whole result. Result entry `(r, j)` of device `c` was computed by device `(x, r / 4096)` as the entry
`(r, 1024 x + j)` of the OTHER input block (what its neighbour along x sent) plus the same entry of its own input block;
the reference's entry `(r, 1024 x + j)` is zero plus the sum of the two input blocks' entries there. Addition of
extended reals is commutative, and that is all the proof uses.
-/

noncomputable section

namespace Cert.KernelIdealProof

open Cert.KernelIdeal Cert.KernelIdeal.Loop Cert.KernelIdeal.Geo
open Idealize.ShloMosaic Idealize.ShloMosaic.TcCoe Idealize.SL.Sem
open Idealize.ShloMosaic.ValueIdx
open Facts₀ Facts

/-- On the 2 × 2 mesh a dimension cut along the first mesh axis gives device `n` block `n / 2`. -/
theorem meshLin_axis0 (n : ℕ) : Layout.meshLin [2, 2] n [0] = n / 2 % 2 := by
  simp [Layout.meshLin, Layout.meshCoord, Layout.cutSize]

section
variable {F : FTy → Type} [FloatOps F] (m : (ℓ : Loc nD τ sig) → Buf (Elt F) ℓ)

/-- What a device received, at an index: its neighbour's input at the neighbour's row half of the device's column block. -/
theorem Grecv_at (d : Dev nD) (j : S4096x1024.Idx) :
    Grecv m d j = X m (xp d)
      ((Rect.unit (s := S1x8192x2048) ![0, 4096 * ((xp d).val % 2), 1024 - 1024 * ((xp d).val / 2)] S1x4096x1024.size
        (psrc_inb (xp d))).emb (Fin.cons ⟨0, Nat.one_pos⟩ j)) := by
  unfold Grecv
  rw [Memref.read_squeeze_slice A0 _ _ _ squeezes_S1x4096x1024_S4096x1024.numel_eq, shapeCast_dropUnit_apply, readAt_A0]

/-- What a device copied locally, at an index: its own input at its row half of its own column block. -/
theorem Glocal_at (d : Dev nD) (j : S4096x1024.Idx) :
    Glocal m d j = X m d
      ((Rect.unit (s := S1x8192x2048) (k0_off1 d) S1x4096x1024.size (k0_off1_inb d)).emb (Fin.cons ⟨0, Nat.one_pos⟩ j)) := by
  unfold Glocal
  rw [Memref.read_squeeze_slice A0 _ _ _ squeezes_S1x4096x1024_S4096x1024.numel_eq, shapeCast_dropUnit_apply, readAt_A0]

end

/-- Two extended reals added in either order, against zero plus their sum. -/
theorem zero_add_same (z a b : EReal) (hz : z = 0) : a + b = z + (a + b) := by rw [hz, zero_add]
theorem zero_add_swap (z a b : EReal) (hz : z = 0) : b + a = z + (a + b) := by rw [hz, zero_add, add_comm (G := EReal)]

section AtIdeal
variable (m : (ℓ : Loc nD τ sig) → Buf (Elt Ideal) ℓ)
  (V : (⟨Cert.ReferenceIdeal.S2x8192x2048, .f32⟩ : BufTy).Contents (Elt Ideal))

/-- A device's input block read at an index is the whole input read at the device's block along the first axis. -/
theorem X_at
    (hagree : ∀ c : Dev nD, m ((c : Thread nD τ).loc main_arg0)
      = Layout.blockN ⟨3, ![1, 8192, 2048]⟩ ⟨3, ![2, 8192, 2048]⟩ (Layout.meshBlock [2, 2] ![[0], [], []] c) V)
    (c : Dev nD) (k : S1x8192x2048.Idx) (k' : Cert.ReferenceIdeal.S2x8192x2048.Idx)
    (h0 : (k' 0).val = c.val / 2) (h1 : (k' 1).val = (k 1).val) (h2 : (k' 2).val = (k 2).val) :
    X m c k = V k' := by
  unfold X
  rw [hagree c, Layout.blockN_apply]
  refine congrArg V (funext fun a => Fin.ext ?_)
  rw [Layout.TilesN.idx_val]
  have hc : c.val < 4 := c.isLt
  have hk0 : (k 0).val = 0 := by have h : (k 0).val < 1 := (k 0).isLt; omega
  fin_cases a
  · show Layout.meshLin [2, 2] c.val [0] * 1 + (k 0).val = (k' 0).val
    rw [meshLin_axis0, h0, hk0]; omega
  · show 0 * 8192 + (k 1).val = (k' 1).val
    rw [h1]; omega
  · show 0 * 2048 + (k 2).val = (k' 2).val
    rw [h2]; omega

/-- What device `d` received, read at `j`: the whole input's OTHER block along the first axis, at `d`'s row half and
    `d`'s column block. -/
theorem Grecv_eq
    (hagree : ∀ c : Dev nD, m ((c : Thread nD τ).loc main_arg0)
      = Layout.blockN ⟨3, ![1, 8192, 2048]⟩ ⟨3, ![2, 8192, 2048]⟩ (Layout.meshBlock [2, 2] ![[0], [], []] c) V)
    (d : Dev nD) (j : S4096x1024.Idx) (k' : Cert.ReferenceIdeal.S2x8192x2048.Idx)
    (h0 : (k' 0).val = 1 - d.val / 2) (h1 : (k' 1).val = 4096 * (d.val % 2) + (j 0).val)
    (h2 : (k' 2).val = 1024 * (d.val / 2) + (j 1).val) :
    Grecv m d j = V k' := by
  have hd : d.val < 4 := d.isLt
  have hx : (xp d).val = (d.val % 2) + 2 - 2 * (d.val / 2) := xp_val d
  refine (Grecv_at m d j).trans (X_at m V hagree (xp d) _ k' ?_ ?_ ?_)
  · rw [h0, hx]; omega
  · rw [h1]
    show 4096 * (d.val % 2) + (j 0).val = 4096 * ((xp d).val % 2) + 1 * (j 0).val
    rw [hx]; omega
  · rw [h2]
    show 1024 * (d.val / 2) + (j 1).val = 1024 - 1024 * ((xp d).val / 2) + 1 * (j 1).val
    rw [hx]; omega

/-- What device `d` copied locally, read at `j`: the whole input's block of `d` along the first axis, at `d`'s row half and
    `d`'s column block. -/
theorem Glocal_eq
    (hagree : ∀ c : Dev nD, m ((c : Thread nD τ).loc main_arg0)
      = Layout.blockN ⟨3, ![1, 8192, 2048]⟩ ⟨3, ![2, 8192, 2048]⟩ (Layout.meshBlock [2, 2] ![[0], [], []] c) V)
    (d : Dev nD) (j : S4096x1024.Idx) (k' : Cert.ReferenceIdeal.S2x8192x2048.Idx)
    (h0 : (k' 0).val = d.val / 2) (h1 : (k' 1).val = 4096 * (d.val % 2) + (j 0).val)
    (h2 : (k' 2).val = 1024 * (d.val / 2) + (j 1).val) :
    Glocal m d j = V k' := by
  refine (Glocal_at m d j).trans (X_at m V hagree d _ k' h0 ?_ ?_)
  · rw [h1]
    show 4096 * (d.val % 2) + (j 0).val = k0_off1 d 1 + 1 * (j 0).val
    rw [congrFun (Gen.k0_off1_eq d) 1]
    show 4096 * (d.val % 2) + (j 0).val = 4096 * (d.val % 2) + 1 * (j 0).val
    omega
  · rw [h2]
    show 1024 * (d.val / 2) + (j 1).val = k0_off1 d 2 + 1 * (j 1).val
    rw [congrFun (Gen.k0_off1_eq d) 2]
    show 1024 * (d.val / 2) + (j 1).val = 1024 * (d.val / 2) + 1 * (j 1).val
    omega

/-- Each device ends holding its column block of the reference's result. -/
theorem out_eq_block
    (hagree : ∀ c : Dev nD, m ((c : Thread nD τ).loc main_arg0)
      = Layout.blockN ⟨3, ![1, 8192, 2048]⟩ ⟨3, ![2, 8192, 2048]⟩ (Layout.meshBlock [2, 2] ![[0], [], []] c) V)
    (c : Dev nD) :
    outOf c (Gsum (F := Ideal) m)
      = Layout.blockN ⟨2, ![8192, 1024]⟩ ⟨2, ![8192, 2048]⟩ (Layout.meshBlock [2, 2] ![[], [0]] c)
          (Cert.ReferenceIdeal.Read.val_main_v0 (F := Ideal) V) := by
  funext idx
  have hc : c.val < 4 := c.isLt
  have hr : (idx 0).val < 8192 := (idx 0).isLt
  have hj : (idx 1).val < 1024 := (idx 1).isLt
  rw [Layout.blockN_apply, Cert.ReferenceIdeal.Read.val_main_v0_apply, Fin.sum_univ_two,
    Cert.ReferenceIdeal.Read.val_main_cst_apply]
  -- the entry's place in the whole result: row `r`, column `1024 (c / 2) + j`
  generalize hi : Layout.TilesN.idx _ _ idx = i
  have hi0 : (i 0).val = (idx 0).val := by
    rw [← hi, Layout.TilesN.idx_val]
    show 0 * 8192 + (idx 0).val = (idx 0).val
    omega
  have hi1 : (i 1).val = 1024 * (c.val / 2) + (idx 1).val := by
    rw [← hi, Layout.TilesN.idx_val]
    show Layout.meshLin [2, 2] c.val [0] * 1024 + (idx 1).val = 1024 * (c.val / 2) + (idx 1).val
    rw [meshLin_axis0]; omega
  -- the device that computed the entry, and the entry's place in that device's row half
  have hdv : (outDev c (idx 0)).val = 2 * (c.val / 2) + (idx 0).val / 4096 := rfl
  have hL : outOf c (Gsum (F := Ideal) m) idx
      = (show EReal from Grecv m (outDev c (idx 0)) (ix2 ⟨(idx 0).val % 4096, Nat.mod_lt _ (by decide)⟩ (idx 1)))
        + (show EReal from Glocal m (outDev c (idx 0)) (ix2 ⟨(idx 0).val % 4096, Nat.mod_lt _ (by decide)⟩ (idx 1))) := rfl
  have eR : ∀ k : Fin 2, k.val = 1 - c.val / 2 →
      Grecv m (outDev c (idx 0)) (ix2 ⟨(idx 0).val % 4096, Nat.mod_lt _ (by decide)⟩ (idx 1))
        = V (Cert.ReferenceIdeal.Read.idx_main_v0 i k) := fun k hk =>
    Grecv_eq m V hagree _ _ _
      (by show k.val = 1 - (outDev c (idx 0)).val / 2; rw [hdv, hk]; omega)
      (by show (i 0).val = 4096 * ((outDev c (idx 0)).val % 2) + (idx 0).val % 4096; rw [hi0, hdv]; omega)
      (by show (i 1).val = 1024 * ((outDev c (idx 0)).val / 2) + (idx 1).val; rw [hi1, hdv]; omega)
  have eL : ∀ k : Fin 2, k.val = c.val / 2 →
      Glocal m (outDev c (idx 0)) (ix2 ⟨(idx 0).val % 4096, Nat.mod_lt _ (by decide)⟩ (idx 1))
        = V (Cert.ReferenceIdeal.Read.idx_main_v0 i k) := fun k hk =>
    Glocal_eq m V hagree _ _ _
      (by show k.val = (outDev c (idx 0)).val / 2; rw [hdv, hk]; omega)
      (by show (i 0).val = 4096 * ((outDev c (idx 0)).val % 2) + (idx 0).val % 4096; rw [hi0, hdv]; omega)
      (by show (i 1).val = 1024 * ((outDev c (idx 0)).val / 2) + (idx 1).val; rw [hi1, hdv]; omega)
  have h0 : (FloatOps.ofBits (F := Ideal) .f32 0x00000000#32 : EReal) = 0 := Ideal.ofBits_zero_f32
  rw [hL]
  rcases (by omega : c.val / 2 = 0 ∨ c.val / 2 = 1) with hx | hx
  · rw [eR 1 (by rw [hx]; rfl), eL 0 (by rw [hx]; rfl)]
    exact zero_add_swap _ _ _ h0
  · rw [eR 0 (by rw [hx]; rfl), eL 1 (by rw [hx]; rfl)]
    exact zero_add_same _ _ _ h0

end AtIdeal

/-- info: 'Cert.KernelIdealProof.out_eq_block' depends on axioms: [propext, Classical.choice, Quot.sound] -/
#guard_msgs in #print axioms out_eq_block

end Cert.KernelIdealProof

end
-- ==== Proof.Proto.lean ====
import proofs.«900299_g7700000000000300_dist_rs_v7x_xy2x2_x_m8192_n1024_f32_1_alg».proof.Proof.GeoOut
import proofs.«900299_g7700000000000300_dist_rs_v7x_xy2x2_x_m8192_n1024_f32_1_alg».proof.Proof.Gen.KernelIdeal.Launch
import Idealize.ShloMosaic.Lib.Pipeline.Launch
import Idealize.ShloMosaic.Lib.Pipeline.Kit
import Idealize.ShloMosaic.Lib.Tactic

/-!
The protocol of the reduce-scatter under the rounds discipline: the semaphores as cells, one round each,
and what every signal and every copy hands the cell's owner.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by `Fin 64`) -/

abbrev UB : Type := URounds (GSem nD τ sig) (Fin 64)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and their cells -/

abbrev barS : Sem sig := (Loop.bar : Sems sig S_).sem
abbrev xsS : DmaSem sig := cc0_scratch2.sem
abbrev xrS (i : Fin 64) : DmaSem sig := (xsem cc0_scratch3 i).sem
abbrev ysS : DmaSem sig := cc0_scratch4.sem
abbrev yrS : DmaSem sig := cc0_scratch5.sem
abbrev inS : DmaSem sig := cc0_scratch6.sem
abbrev outS : DmaSem sig := cc0_scratch7.sem

abbrev cB (c : Dev nD) : GSem nD τ sig := ((c : Thread nD τ), .reg barS)
abbrev cD (c : Dev nD) (s : DmaSem sig) : GSem nD τ sig := ((c : Thread nD τ), .dma s)

/-- Which of the kernel's DMA semaphores an index is. -/
inductive CK where
  | xs | xr (i : Fin 64) | ys | yr | inn | out
  deriving DecidableEq

def ck (s : DmaSem sig) : CK :=
  if h0 : s.val = 0 then .xs
  else if h1 : s.val ≤ 64 then .xr ⟨s.val - 1, by omega⟩
  else if s.val = 65 then .ys else if s.val = 66 then .yr else if s.val = 67 then .inn else .out

theorem xrS_val : ∀ i : Fin 64, (xrS i).val = 1 + i.val := by decide +kernel
theorem ck_xs : ck xsS = .xs := by decide +kernel
theorem ck_xr : ∀ i : Fin 64, ck (xrS i) = .xr i := by decide +kernel
theorem ck_ys : ck ysS = .ys := by decide +kernel
theorem ck_yr : ck yrS = .yr := by decide +kernel
theorem ck_in : ck inS = .inn := by decide +kernel
theorem ck_out : ck outS = .out := by decide +kernel

/-- The credit of one 64-row chunk, and of the whole 4096-row half. -/
abbrev N : ℕ := (chunk R0 (0 : Fin 64)).view.dmaCredit
abbrev NL : ℕ := (R1 : Memref sig .tc .vmem S4096x1024 .f32).view.dmaCredit
theorem N_pos : 0 < N := View.dmaCredit_pos _ (by decide)
theorem NL_pos : 0 < NL := View.dmaCredit_pos _ (by decide)

/-! ## What each landing hands over -/

/-- The x-neighbour's signal hands `c` that neighbour's whole receive buffer (to send its chunks into). -/
def barPayX (c : Dev nD) : sProp 𝕄 := iprop(∃ f : Buf (Elt F) (((xp c : Dev nD) : Thread nD τ).loc cc0_scratch0), (((xp c : Dev nD) : Thread nD τ).loc cc0_scratch0) ↦{fullShare} f)
/-- The y-neighbour's signal hands `c` the rows of that neighbour's result that are `c`'s row half. -/
def barPayY (c : Dev nD) : sProp 𝕄 :=
  iprop(∃ f : Buf (Elt F) (((yp c : Dev nD) : Thread nD τ).loc main_v1),
    bigSep (Finset.univ : Finset (Fin 64)) fun i => ((oslice A1 c i).view.loc ((yp c : Dev nD) : Thread nD τ) ↦[(oslice A1 c i).view.set]{fullShare} f))
/-- Chunk `i` landed in `c`'s receive buffer. -/
def xrPay (c : Dev nD) (i : Fin 64) : sProp 𝕄 := (chunk R0 i).view.loc (c : Thread nD τ) ↦[(chunk R0 i).view.set]{fullShare} Grecv m c
/-- The local copy has filled `c`'s second scratch buffer. -/
def inPay (c : Dev nD) : sProp 𝕄 := ((c : Thread nD τ).loc cc0_scratch1) ↦{fullShare} Glocal m c
/-- The forward down the column has read chunk `i` of the sums: the half share it borrowed comes back. -/
def ysPay (c : Dev nD) (i : Fin 64) : sProp 𝕄 := (chunk R0 i).view.loc (c : Thread nD τ) ↦[(chunk R0 i).view.set]{fullShare.left} Gsum m c
/-- The y-neighbour's chunk `i` landed in `c`'s result. -/
def yrPay (c : Dev nD) (i : Fin 64) : sProp 𝕄 :=
  (oslice A1 (yp c) i).view.loc (c : Thread nD τ) ↦[(oslice A1 (yp c) i).view.set]{fullShare} outOf c (Gsum m)
/-- `c`'s own chunk `i` is in its result, and the other half share of the sums' chunk comes back. -/
def outPay (c : Dev nD) (i : Fin 64) : sProp 𝕄 :=
  iprop(((oslice A1 c i).view.loc (c : Thread nD τ) ↦[(oslice A1 c i).view.set]{fullShare} outOf c (Gsum m))
    ∗ ((chunk R0 i).view.loc (c : Thread nD τ) ↦[(chunk R0 i).view.set]{fullShare.right} Gsum m c))

/-! ## The schedule: every cell has ONE round -/

def Rd : Rounds.Schedule (GSem nD τ sig) (Fin 64) 𝕄 where
  duties g r :=
    if r ≠ 0 ∨ g.1.2 ≠ .tc then ∅ else
    match g.2 with
    | .reg _ => {0, 1}
    | .dma s => match ck s with
      | .xr _ => {0} | .inn => {0} | _ => Finset.univ
  unitless _ := False
  amount g _ _ := match g.2 with
    | .reg _ => 1
    | .dma s => match ck s with | .inn => NL | _ => N
  payload g _ d := match g.2 with
    | .reg _ => if d = 0 then barPayX g.1.1 else if d = 1 then barPayY g.1.1 else iprop(emp)
    | .dma s => match ck s with
      | .xs => iprop(emp)
      | .xr i => xrPay m g.1.1 i
      | .ys => ysPay m g.1.1 d
      | .yr => yrPay m g.1.1 d
      | .inn => inPay m g.1.1
      | .out => outPay m g.1.1 d
  amount_pos g _ _ _ := by
    cases g.2 with
    | reg _ => exact Nat.one_pos
    | dma s => dsimp only; split <;> first | exact NL_pos | exact N_pos

/-! ## What each device owes at launch, and the levels -/

/-- What `c` still owes its y-neighbour's receive cell with `k` forwards to go. -/
def OY (c : Dev nD) : ℕ → CellTallies nD τ sig Unit
  | 0 => 0
  | k + 1 => OY c k + tallyAt (cD (yp c) yrS) () N
/-- What `c` still owes with `k` sends along x to go (and every forward): send `i` pays chunk `i`'s cell of the x-neighbour. -/
def OX (c : Dev nD) : ℕ → CellTallies nD τ sig Unit
  | 0 => OY c 64
  | k + 1 => OX c k + tallyAt (cD (xp c) (xrS ⟨63 - k % 64, by omega⟩)) () N
/-- At launch: all of that and one unit to each neighbour's barrier cell; the first signal (to the x-neighbour) pays the last summand. -/
def O₀ (c : Dev nD) : CellTallies nD τ sig Unit := OX c 64 + tallyAt (cB (yp c)) () 1 + tallyAt (cB (xp c)) () 1

def L (g : GSem nD τ sig) : Finset Unit := if g.1.2 = .tc then {()} else ∅
/-- Barrier cells at 1, the chunks' receive cells at 2, the result's receive cell at 3, everything else at 0. -/
def lv (g : GSem nD τ sig) (_ : Unit) : ℕ := match g.2 with
  | .reg _ => 1
  | .dma s => match ck s with | .xr _ => 2 | .yr => 3 | _ => 0

end Cert.KernelIdealProof

end
-- ==== Proof.TablesAux.lean ====
import proofs.«900299_g7700000000000300_dist_rs_v7x_xy2x2_x_m8192_n1024_f32_1_alg».proof.Proof.Proto

/-!
The level facts that make the three waits of a device that still owes something admissible: every cell it owes
sits strictly above the cell it waits on.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every cell of a TensorCore carries the one index. -/
theorem ta_L_tc (c : Dev nD) (sm : SemLoc sig) : L ((c : Thread nD τ), sm) = {()} := if_pos rfl

/-- What is still owed down the column is owed to the y-neighbour's receive cell only. -/
theorem ta_OY_pos (c : Dev nD) : ∀ (k : ℕ) {g : GSem nD τ sig} {u : Unit}, 0 < OY c k g u → g = cD (yp c) yrS
  | 0, g, u, h => absurd h (Nat.lt_irrefl 0)
  | k + 1, g, u, h => by
    by_contra hn
    have h0 : ¬ 0 < OY c k g u := fun h' => hn (ta_OY_pos c k h')
    have h' : 0 < OY c k g u + tallyAt (cD (yp c) yrS) () N g u := h
    rw [tallyAt_apply, if_neg (fun hh => hn hh.1), Nat.add_zero] at h'
    exact h0 h'

/-- What is still owed along x and down the column is owed to the y-neighbour's receive cell or to one of the
    x-neighbour's chunk cells. -/
theorem ta_OX_pos (c : Dev nD) : ∀ (k : ℕ) {g : GSem nD τ sig} {u : Unit}, 0 < OX c k g u →
    g = cD (yp c) yrS ∨ ∃ j : Fin 64, g = cD (xp c) (xrS j)
  | 0, g, u, h => Or.inl (ta_OY_pos c 64 h)
  | k + 1, g, u, h => by
    have h' : 0 < OX c k g u + tallyAt (cD (xp c) (xrS ⟨63 - k % 64, by omega⟩)) () N g u := h
    by_cases hg : g = cD (xp c) (xrS ⟨63 - k % 64, by omega⟩)
    · exact Or.inr ⟨_, hg⟩
    · rw [tallyAt_apply, if_neg (fun hh => hg hh.1), Nat.add_zero] at h'
      exact ta_OX_pos c k h'

/-- At its barrier wait a device owes only receive cells (levels 2 and 3), above its barrier cell (level 1). -/
theorem ta_mayWait_bar (c : Dev nD) :
    (levAts L lv : sProp 𝕄) ⊢ MayWait (c : Thread nD τ) (.reg barS) () (OX c 64) :=
  MayOwe.of_cut (L := L) (lev := lv) 1
    (fun p hp => by rw [Finset.mem_singleton.mp hp, ta_L_tc]; exact Finset.mem_singleton_self _)
    (fun g u hg => by
      rcases ta_OX_pos c 64 hg with rfl | ⟨j, rfl⟩ <;> (rw [ta_L_tc]; exact Finset.mem_singleton_self _))
    (fun p hp => by rw [Finset.mem_singleton.mp hp]; exact Nat.le_refl 1)
    (fun g u hg => by
      rcases ta_OX_pos c 64 hg with rfl | ⟨j, rfl⟩
      · show 1 < (match ck yrS with | .xr _ => 2 | .yr => 3 | _ => 0); rw [ck_yr]; decide
      · show 1 < (match ck (xrS j) with | .xr _ => 2 | .yr => 3 | _ => 0); rw [ck_xr]; exact Nat.lt_succ_self 1)

/-- Waiting for its local copy (level 0) a device owes only its y-neighbour's receive cell. -/
theorem ta_mayWait_in (c : Dev nD) :
    (levAts L lv : sProp 𝕄) ⊢ MayWait (c : Thread nD τ) (.dma inS) () (OY c 64) :=
  MayOwe.of_cut (L := L) (lev := lv) 0
    (fun p hp => by rw [Finset.mem_singleton.mp hp, ta_L_tc]; exact Finset.mem_singleton_self _)
    (fun g u hg => by rw [ta_OY_pos c 64 hg, ta_L_tc]; exact Finset.mem_singleton_self _)
    (fun p hp => by
      rw [Finset.mem_singleton.mp hp]
      show (match ck inS with | .xr _ => 2 | .yr => 3 | _ => 0) ≤ 0; rw [ck_in])
    (fun g u hg => by
      rw [ta_OY_pos c 64 hg]
      show 0 < (match ck yrS with | .xr _ => 2 | .yr => 3 | _ => 0); rw [ck_yr]; decide)

/-- Waiting for chunk `i` (level 2) a device owes only its y-neighbour's receive cell (level 3). -/
theorem ta_mayWait_xr (c : Dev nD) (i : Fin 64) (k : ℕ) :
    (levAts L lv : sProp 𝕄) ⊢ MayWait (c : Thread nD τ) (.dma (xrS i)) () (OY c k) :=
  MayOwe.of_cut (L := L) (lev := lv) 2
    (fun p hp => by rw [Finset.mem_singleton.mp hp, ta_L_tc]; exact Finset.mem_singleton_self _)
    (fun g u hg => by rw [ta_OY_pos c k hg, ta_L_tc]; exact Finset.mem_singleton_self _)
    (fun p hp => by
      rw [Finset.mem_singleton.mp hp]
      show (match ck (xrS i) with | .xr _ => 2 | .yr => 3 | _ => 0) ≤ 2; rw [ck_xr])
    (fun g u hg => by
      rw [ta_OY_pos c k hg]
      show 2 < (match ck yrS with | .xr _ => 2 | .yr => 3 | _ => 0); rw [ck_yr]; decide)

end Cert.KernelIdealProof

end
-- ==== Proof.Tables.lean ====
import proofs.«900299_g7700000000000300_dist_rs_v7x_xy2x2_x_m8192_n1024_f32_1_alg».proof.Proof.Proto
import proofs.«900299_g7700000000000300_dist_rs_v7x_xy2x2_x_m8192_n1024_f32_1_alg».proof.Proof.TablesAux

/-!
The schedule's tables read at each kind of cell, and the level facts that make every wait admissible.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Storables
variable (c : Dev nD)

instance barPayX_storable : BI.Storable (upEmb : UEmb _ 𝕄) (barPayX (F := F) c) := by unfold barPayX; infer_instance
instance barPayY_storable : BI.Storable (upEmb : UEmb _ 𝕄) (barPayY (F := F) c) := by unfold barPayY; infer_instance
instance xrPay_storable (i : Fin 64) : BI.Storable (upEmb : UEmb _ 𝕄) (xrPay m c i) := by unfold xrPay; infer_instance
instance inPay_storable : BI.Storable (upEmb : UEmb _ 𝕄) (inPay m c) := by unfold inPay; infer_instance
instance ysPay_storable (i : Fin 64) : BI.Storable (upEmb : UEmb _ 𝕄) (ysPay m c i) := by unfold ysPay; infer_instance
instance yrPay_storable (i : Fin 64) : BI.Storable (upEmb : UEmb _ 𝕄) (yrPay m c i) := by unfold yrPay; infer_instance
instance outPay_storable (i : Fin 64) : BI.Storable (upEmb : UEmb _ 𝕄) (outPay m c i) := by unfold outPay; infer_instance

end Storables

section Tables
variable (c : Dev nD)

instance Rd_payload_storable (g : GSem nD τ sig) (r : ℕ) (d : Fin 64) :
    BI.Storable (upEmb : UEmb _ 𝕄) ((Rd (F := F) m).payload g r d) := by
  obtain ⟨t, sl⟩ := g
  cases sl with
  | reg s =>
    show BI.Storable upEmb (if d = 0 then barPayX t.1 else if d = 1 then barPayY t.1 else iprop(emp))
    split
    · infer_instance
    · split <;> infer_instance
  | dma s =>
    show BI.Storable upEmb (match ck s with
      | .xs => iprop(emp)
      | .xr i => xrPay m t.1 i
      | .ys => ysPay m t.1 d
      | .yr => yrPay m t.1 d
      | .inn => inPay m t.1
      | .out => outPay m t.1 d)
    cases ck s <;> dsimp only <;> infer_instance

theorem duties_later (g : GSem nD τ sig) : ∀ r, 1 ≤ r → (Rd (F := F) m).duties g r = ∅ := by
  intro r hr; dsimp only [Rd]; rw [if_pos (Or.inl (by omega))]

theorem duties_bar : (Rd (F := F) m).duties (cB c) 0 = {0, 1} := by
  dsimp only [Rd]; rw [if_neg (fun h => h.elim (fun h => h rfl) (fun h => h rfl))]
theorem duties_xs : (Rd (F := F) m).duties (cD c xsS) 0 = Finset.univ := by
  dsimp only [Rd]; rw [if_neg (fun h => h.elim (fun h => h rfl) (fun h => h rfl)), ck_xs]
theorem duties_xr (i : Fin 64) : (Rd (F := F) m).duties (cD c (xrS i)) 0 = {0} := by
  dsimp only [Rd]; rw [if_neg (fun h => h.elim (fun h => h rfl) (fun h => h rfl)), ck_xr]
theorem duties_ys : (Rd (F := F) m).duties (cD c ysS) 0 = Finset.univ := by
  dsimp only [Rd]; rw [if_neg (fun h => h.elim (fun h => h rfl) (fun h => h rfl)), ck_ys]
theorem duties_yr : (Rd (F := F) m).duties (cD c yrS) 0 = Finset.univ := by
  dsimp only [Rd]; rw [if_neg (fun h => h.elim (fun h => h rfl) (fun h => h rfl)), ck_yr]
theorem duties_in : (Rd (F := F) m).duties (cD c inS) 0 = {0} := by
  dsimp only [Rd]; rw [if_neg (fun h => h.elim (fun h => h rfl) (fun h => h rfl)), ck_in]
theorem duties_out : (Rd (F := F) m).duties (cD c outS) 0 = Finset.univ := by
  dsimp only [Rd]; rw [if_neg (fun h => h.elim (fun h => h rfl) (fun h => h rfl)), ck_out]

theorem amount_bar (d : Fin 64) : (Rd (F := F) m).amount (cB c) 0 d = 1 := rfl
theorem amount_xs (d : Fin 64) : (Rd (F := F) m).amount (cD c xsS) 0 d = N := by dsimp only [Rd]; rw [ck_xs]
theorem amount_xr (i d : Fin 64) : (Rd (F := F) m).amount (cD c (xrS i)) 0 d = N := by dsimp only [Rd]; rw [ck_xr]
theorem amount_ys (d : Fin 64) : (Rd (F := F) m).amount (cD c ysS) 0 d = N := by dsimp only [Rd]; rw [ck_ys]
theorem amount_yr (d : Fin 64) : (Rd (F := F) m).amount (cD c yrS) 0 d = N := by dsimp only [Rd]; rw [ck_yr]
theorem amount_in (d : Fin 64) : (Rd (F := F) m).amount (cD c inS) 0 d = NL := by dsimp only [Rd]; rw [ck_in]
theorem amount_out (d : Fin 64) : (Rd (F := F) m).amount (cD c outS) 0 d = N := by dsimp only [Rd]; rw [ck_out]

/-- A round whose duties all contribute the same amount expects that amount once per duty. -/
theorem expect_const (g : GSem nD τ sig) (S : Finset (Fin 64)) (a : ℕ)
    (hd : (Rd (F := F) m).duties g 0 = S) (ha : ∀ d, (Rd (F := F) m).amount g 0 d = a) :
    (Rd (F := F) m).expect g 0 = S.card * a := by
  unfold Schedule.expect Schedule.amountOf
  rw [hd, Finset.sum_congr rfl fun d _ => ha d, Finset.sum_const, smul_eq_mul]

theorem card_univ64 : (Finset.univ : Finset (Fin 64)).card = 64 := by rw [Finset.card_univ, Fintype.card_fin]

theorem expect_bar : (Rd (F := F) m).expect (cB c) 0 = 2 :=
  (expect_const m (cB c) {0, 1} 1 (duties_bar m c) (amount_bar m c)).trans (by rw [Finset.card_pair (by decide), Nat.mul_one])
theorem expect_xs : (Rd (F := F) m).expect (cD c xsS) 0 = 64 * N :=
  (expect_const m (cD c xsS) Finset.univ N (duties_xs m c) (amount_xs m c)).trans (congrArg (· * N) card_univ64)
theorem expect_xr (i : Fin 64) : (Rd (F := F) m).expect (cD c (xrS i)) 0 = N :=
  (expect_const m (cD c (xrS i)) {0} N (duties_xr m c i) (amount_xr m c i)).trans (by rw [Finset.card_singleton, Nat.one_mul])
theorem expect_ys : (Rd (F := F) m).expect (cD c ysS) 0 = 64 * N :=
  (expect_const m (cD c ysS) Finset.univ N (duties_ys m c) (amount_ys m c)).trans (congrArg (· * N) card_univ64)
theorem expect_yr : (Rd (F := F) m).expect (cD c yrS) 0 = 64 * N :=
  (expect_const m (cD c yrS) Finset.univ N (duties_yr m c) (amount_yr m c)).trans (congrArg (· * N) card_univ64)
theorem expect_in : (Rd (F := F) m).expect (cD c inS) 0 = NL :=
  (expect_const m (cD c inS) {0} NL (duties_in m c) (amount_in m c)).trans (by rw [Finset.card_singleton, Nat.one_mul])
theorem expect_out : (Rd (F := F) m).expect (cD c outS) 0 = 64 * N :=
  (expect_const m (cD c outS) Finset.univ N (duties_out m c) (amount_out m c)).trans (congrArg (· * N) card_univ64)

theorem payload_barX : (Rd (F := F) m).payload (cB c) 0 0 = barPayX c := by dsimp only [Rd]; rw [if_pos rfl]
theorem payload_barY : (Rd (F := F) m).payload (cB c) 0 1 = barPayY c := by
  dsimp only [Rd]; rw [if_neg (by decide), if_pos rfl]
theorem payload_xs (d : Fin 64) : (Rd (F := F) m).payload (cD c xsS) 0 d = iprop(emp) := by dsimp only [Rd]; rw [ck_xs]
theorem payload_xr (i d : Fin 64) : (Rd (F := F) m).payload (cD c (xrS i)) 0 d = xrPay m c i := by dsimp only [Rd]; rw [ck_xr]
theorem payload_ys (d : Fin 64) : (Rd (F := F) m).payload (cD c ysS) 0 d = ysPay m c d := by dsimp only [Rd]; rw [ck_ys]
theorem payload_yr (d : Fin 64) : (Rd (F := F) m).payload (cD c yrS) 0 d = yrPay m c d := by dsimp only [Rd]; rw [ck_yr]
theorem payload_in (d : Fin 64) : (Rd (F := F) m).payload (cD c inS) 0 d = inPay m c := by dsimp only [Rd]; rw [ck_in]
theorem payload_out (d : Fin 64) : (Rd (F := F) m).payload (cD c outS) 0 d = outPay m c d := by dsimp only [Rd]; rw [ck_out]

/-- The rest of a round no duty of which is taken, per kind of cell. -/
theorem rest_bar : bigSep ((Rd (F := F) m).duties (cB c) 0 \ ∅) (fun d => (Rd (F := F) m).payload (cB c) 0 d) = iprop(barPayX c ∗ barPayY c) := by
  rw [Finset.sdiff_empty, duties_bar, bigSep_insert (by decide), bigSep_singleton, payload_barX, payload_barY]
  rfl
theorem rest_xr (i : Fin 64) : bigSep ((Rd (F := F) m).duties (cD c (xrS i)) 0 \ ∅) (fun d => (Rd (F := F) m).payload (cD c (xrS i)) 0 d) = xrPay m c i := by
  rw [Finset.sdiff_empty, duties_xr, bigSep_singleton, payload_xr]
theorem rest_in : bigSep ((Rd (F := F) m).duties (cD c inS) 0 \ ∅) (fun d => (Rd (F := F) m).payload (cD c inS) 0 d) = inPay m c := by
  rw [Finset.sdiff_empty, duties_in, bigSep_singleton, payload_in]

end Tables

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- At its barrier wait a device owes only receive cells (levels 2 and 3), above its barrier cell (level 1). -/
theorem mayWait_bar (c : Dev nD) :
    (levAts L lv : sProp 𝕄) ⊢ MayWait (c : Thread nD τ) (.reg barS) () (OX c 64) := ta_mayWait_bar c
/-- Waiting for its local copy (level 0) a device owes only its y-neighbour's receive cell. -/
theorem mayWait_in (c : Dev nD) :
    (levAts L lv : sProp 𝕄) ⊢ MayWait (c : Thread nD τ) (.dma inS) () (OY c 64) := ta_mayWait_in c
/-- Waiting for chunk `i` (level 2) a device owes only its y-neighbour's receive cell (level 3). -/
theorem mayWait_xr (c : Dev nD) (i : Fin 64) (k : ℕ) :
    (levAts L lv : sProp 𝕄) ⊢ MayWait (c : Thread nD τ) (.dma (xrS i)) () (OY c k) := ta_mayWait_xr c i k
/-- A staging cell or any cell, waited while nothing is owed. -/
theorem mayWait_zero (c : Dev nD) (sm : SemLoc sig) :
    (levAts L lv : sProp 𝕄) ⊢ MayWait (c : Thread nD τ) sm () (0 : CellTallies nD τ sig Unit) := by
  rw [MayWait_zero]; iintro -; iempintro

end Cert.KernelIdealProof

end
-- ==== Proof.Inv.lean ====
import proofs.«900299_g7700000000000300_dist_rs_v7x_xy2x2_x_m8192_n1024_f32_1_alg».proof.Proof.Tables

/-!
The ghost state a device starts from, the invariants of the three passes, and the proof data of the launch.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index sets of the chunks still to come and already done -/

def ge (n : ℕ) : Finset (Fin 64) := Finset.univ.filter fun j => n ≤ j.val
def lt (n : ℕ) : Finset (Fin 64) := Finset.univ.filter fun j => j.val < n

theorem ge_zero : ge 0 = Finset.univ := by ext j; simp [ge]
theorem ge_top : ge 64 = ∅ := by ext j; simp [ge]
theorem lt_zero : lt 0 = ∅ := by ext j; simp [lt]
theorem lt_top : lt 64 = Finset.univ := by ext j; simp [lt]
theorem ge_succ (i : Fin 64) : ge i.val = insert i (ge (i.val + 1)) := by
  ext j; simp only [ge, Finset.mem_filter, Finset.mem_univ, true_and, Finset.mem_insert]
  constructor
  · intro h; by_cases hj : j = i
    · exact Or.inl hj
    · exact Or.inr (by have : j.val ≠ i.val := fun h' => hj (Fin.ext h'); omega)
  · rintro (h | h)
    · rw [h]
    · omega
theorem not_mem_ge_succ (i : Fin 64) : i ∉ ge (i.val + 1) := by simp [ge]
theorem lt_succ (i : Fin 64) : lt (i.val + 1) = insert i (lt i.val) := by
  ext j; simp only [lt, Finset.mem_filter, Finset.mem_univ, true_and, Finset.mem_insert]
  constructor
  · intro h; by_cases hj : j = i
    · exact Or.inl hj
    · exact Or.inr (by have : j.val ≠ i.val := fun h' => hj (Fin.ext h'); omega)
  · rintro (h | h)
    · rw [h]; omega
    · omega
theorem not_mem_lt (i : Fin 64) : i ∉ lt i.val := by simp [lt]

/-! ## The cells, indexed -/

/-- The 70 semaphores of a device: the barrier's, then the 69 DMA semaphores. -/
def csem (k : Fin 70) : SemLoc sig := if h : k.val = 0 then .reg barS else .dma ⟨k.val - 1, by have := k.isLt; show k.val - 1 < 69; omega⟩
abbrev kcell (ck : Dev nD × Fin 70) : GSem nD τ sig := ((ck.1 : Thread nD τ), csem ck.2)
def idxOf : SemLoc sig → Fin 70
  | .reg _ => 0
  | .dma s => ⟨s.val + 1, by have : s.val < 69 := s.isLt; omega⟩
theorem csem_idxOf (s : SemLoc sig) : csem (idxOf s) = s := by
  cases s with
  | reg s => have : s = barS := Subsingleton.elim _ _; subst this; rfl
  | dma s => unfold idxOf csem; simp
/-- The kernel's own (scoped) semaphores, as the launch theorem indexes them: the 69 DMA semaphores. -/
abbrev osem : Fin 69 → SemLoc sig := fun j => .dma j

/-- The share of the input a device keeps after `n` lends (each lend takes the left half of what is left). -/
def rS : ℕ → PosShare TreeShare
  | 0 => fullShare
  | n + 1 => (rS n).right

/-! ## The ghost state -/

/-- Every cell's invariant at its name, and that every cell's first round is reached. -/
def records (K : GSem nD τ sig → ℕ) : sProp 𝕄 :=
  iprop((bigSep Finset.univ fun ck : Dev nD × Fin 70 => cellInv ER (Rd m) (K (kcell ck)) (kcell ck))
    ∗ bigSep Finset.univ fun ck : Dev nD × Fin 70 => reached ER (kcell ck) 0)

instance records_persistent (K : GSem nD τ sig → ℕ) : BI.Persistent (records m K) := by unfold records; infer_instance

/-- The tokens of the duties device `c` pays. -/
def payToks (c : Dev nD) : sProp 𝕄 :=
  iprop(dutyTok ER (cB (xp c)) 0 (0 : Fin 64) ∗ dutyTok ER (cB (yp c)) 0 (1 : Fin 64) ∗ dutyTok ER (cD c inS) 0 (0 : Fin 64)
    ∗ (bigSep Finset.univ fun i : Fin 64 => iprop(dutyTok ER (cD c xsS) 0 i ∗ dutyTok ER (cD (xp c) (xrS i)) 0 (0 : Fin 64)))
    ∗ (bigSep Finset.univ fun i : Fin 64 => iprop(dutyTok ER (cD c ysS) 0 i ∗ dutyTok ER (cD (yp c) yrS) 0 i ∗ dutyTok ER (cD c outS) 0 i)))

/-- Device `c`'s positions: round 0 of each of its 70 cells, nothing taken. -/
def positions (c : Dev nD) : sProp 𝕄 := bigSep Finset.univ fun k : Fin 70 => atPos ER (kcell (c, k)) 0 ∅ 0

def ghost (K : GSem nD τ sig → ℕ) (c : Dev nD) : sProp 𝕄 := iprop(records m K ∗ positions c ∗ payToks c)

/-- The credit the launch deals `c`: its barrier's two units, a chunk's credit on each chunk cell, 64 chunks' on the result's receive cell. -/
def creds (c : Dev nD) : sProp 𝕄 :=
  iprop(cred (tallyAt (cB c) () 2) ∗ (bigSep Finset.univ fun i : Fin 64 => cred (tallyAt (cD c (xrS i)) () N)) ∗ cred (tallyAt (cD c yrS) () (64 * N)))

/-- What device `c`'s launch starts from: the ghost state at some names, the credit, the levels, and its two arrays. -/
def start (c : Dev nD) : sProp 𝕄 :=
  iprop((∃ K, ghost m K c) ∗ creds c ∗ levAts L lv
    ∗ (((c : Thread nD τ).loc main_arg0) ↦{fullShare} X m c) ∗ (((c : Thread nD τ).loc main_v1) ↦{fullShare} m ((c : Thread nD τ).loc main_v1)))

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scr c)

/-- After the body: the input (a share of it) unchanged, the result at the reduced column block, the scratch buffers back, every own semaphore at zero. -/
def Φ₁ (c : Dev nD) : sProp 𝕄 :=
  iprop((((c : Thread nD τ).loc main_arg0) ↦{rS 65} X m c) ∗ (((c : Thread nD τ).loc main_v1) ↦{fullShare} outOf c (Gsum m))
    ∗ scr c ∗ bigSep Finset.univ fun j : Fin 69 => semVal (cD c j) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The invariants of the three passes -/

section Inv
variable (K : GSem nD τ sig → ℕ) (c : Dev nD)

/-- Pass 1 after `n` sends: what is still owed, the input share left, and for every chunk to come the neighbour's landing rows and the two duty tokens; for every chunk sent, the send cell's credit. -/
def Inv1 (fN : Buf (Elt F) (((xp c : Dev nD) : Thread nD τ).loc cc0_scratch0)) (n : ℕ) : sProp 𝕄 :=
  iprop(records m K ∗ (∃ W, owes (c : Thread nD τ) (OX c (64 - n)) W)
    ∗ (((c : Thread nD τ).loc main_arg0) ↦{rS (n + 1)} X m c)
    ∗ (bigSep (ge n) fun j : Fin 64 => iprop(((chunk R0 j).view.loc ((xp c : Dev nD) : Thread nD τ) ↦[(chunk R0 j).view.set]{fullShare} fN)
        ∗ dutyTok ER (cD c xsS) 0 j ∗ dutyTok ER (cD (xp c) (xrS j)) 0 (0 : Fin 64)))
    ∗ (bigSep (lt n) fun _ : Fin 64 => cred (tallyAt (cD c xsS) () N)))

/-- Pass 2 after `n` chunks. -/
def Inv2 (fY : Buf (Elt F) (((yp c : Dev nD) : Thread nD τ).loc main_v1)) (f1 : Buf (Elt F) ((c : Thread nD τ).loc main_v1)) (n : ℕ) : sProp 𝕄 :=
  iprop(records m K ∗ levAts L lv ∗ (∃ W, owes (c : Thread nD τ) (OY c (64 - n)) W)
    ∗ (((c : Thread nD τ).loc cc0_scratch1) ↦{fullShare} Glocal m c)
    ∗ (bigSep (ge n) fun j : Fin 64 => iprop(atPos ER (cD c (xrS j)) 0 ∅ 0 ∗ cred (tallyAt (cD c (xrS j)) () N)
        ∗ ((oslice A1 c j).view.loc ((yp c : Dev nD) : Thread nD τ) ↦[(oslice A1 c j).view.set]{fullShare} fY)
        ∗ ((oslice A1 c j).view.loc (c : Thread nD τ) ↦[(oslice A1 c j).view.set]{fullShare} f1)
        ∗ dutyTok ER (cD c ysS) 0 j ∗ dutyTok ER (cD (yp c) yrS) 0 j ∗ dutyTok ER (cD c outS) 0 j))
    ∗ (bigSep (lt n) fun j : Fin 64 => iprop(atPos ER (cD c (xrS j)) 1 ∅ 0 ∗ cred (tallyAt (cD c ysS) () N) ∗ cred (tallyAt (cD c outS) () N))))

/-- A cell of 64 equal duties waited one duty's amount at a time, after `n` waits: the duties taken so far with their payloads, and the credit for the waits to come. -/
def WInv (g : GSem nD τ sig) (n : ℕ) : sProp 𝕄 :=
  iprop(∃ S : Finset (Fin 64), atPos ER g 0 S (n * N) ∗ (bigSep S fun d => (Rd m).payload g 0 d) ∗ bigSep (ge n) fun _ : Fin 64 => cred (tallyAt g () N))
/-- The same cell drained: the next round, and every duty's payload. -/
def WDone (g : GSem nD τ sig) : sProp 𝕄 :=
  iprop(atPos ER g 1 ∅ 0 ∗ bigSep (Finset.univ : Finset (Fin 64)) fun d => (Rd m).payload g 0 d)
def WSt (g : GSem nD τ sig) (n : ℕ) : sProp 𝕄 := if n < 64 then WInv m g n else WDone m g

/-- Pass 3 after `n` rounds of the four closing waits. -/
def Inv3 (n : ℕ) : sProp 𝕄 :=
  iprop(records m K ∗ (∃ W, owes (c : Thread nD τ) 0 W)
    ∗ WSt m (cD c xsS) n ∗ WSt m (cD c ysS) n ∗ WSt m (cD c yrS) n ∗ WSt m (cD c outS) n)

end Inv

end Cert.KernelIdealProof

end
-- ==== Proof.LoopParts.lean ====
import proofs.«900299_g7700000000000300_dist_rs_v7x_xy2x2_x_m8192_n1024_f32_1_alg».proof.Proof.Loop
import proofs.«900299_g7700000000000300_dist_rs_v7x_xy2x2_x_m8192_n1024_f32_1_alg».proof.Proof.Gen.KernelIdeal

/-!
The three-pass body cut into the pieces the proof steps through: the opening (device id, the two barrier
signals, the barrier wait, the start of the local copy), the wait for the local copy, and the passes.
-/

noncomputable section

namespace Cert.KernelIdeal.Loop

open Idealize.ShloMosaic Idealize.SL.Sem

variable {F : FTy → Type} [FloatOps F]
open Facts₀ Facts

/-- The opening: returns the device. -/
def pro (arg0 : Memref sig .tc .hbm S1x8192x2048 .f32) (arg3 : Memref sig .tc .vmem S4096x1024 .f32) (harg3 : arg3.IsWhole)
    (arg8 : DmaSems sig S_) : Prog (TpuEff nD τ sig (Elt F) Λ₀ .tc) (Dev nD) := do
  let d0 : Dev nD ← Prog.lift .deviceId
  semSignalWord (xpeer d0) bar.sem 1#32 hamt_1
  semSignalWord (ypeer d0) bar.sem 1#32 hamt_1
  semWaitWord bar.sem 2#32 hamt_2
  Prog.lift (.enqueueDma (lsrc arg0 d0) (.here arg3) (.dma arg8.sem) ((View.wordExact_bits rfl).reshape _ _) harg3.wordExact ⟨Or.inl rfl, trivial⟩)
  pure d0

/-- The wait for the local copy. -/
def inwait (arg0 : Memref sig .tc .hbm S1x8192x2048 .f32) (arg3 : Memref sig .tc .vmem S4096x1024 .f32) (harg3 : arg3.IsWhole)
    (arg8 : DmaSems sig S_) (d0 : Dev nD) : Prog (TpuEff nD τ sig (Elt F) Λ₀ .tc) PUnit :=
  Prog.lift (.waitDma2 arg8.sem (lsrc arg0 d0) arg3 ((View.wordExact_bits rfl).reshape _ _) harg3.wordExact)

/-- The printed body is the opening, then the three passes with the wait for the local copy after the first. -/
theorem body_parts (arg0 : Memref sig .tc .hbm S1x8192x2048 .f32) (harg0 : arg0.IsWhole) (arg1 : Memref sig .tc .hbm S8192x1024 .f32) (harg1 : arg1.IsWhole)
    (arg2 : Memref sig .tc .vmem S4096x1024 .f32) (harg2 : arg2.IsWhole) (arg3 : Memref sig .tc .vmem S4096x1024 .f32) (harg3 : arg3.IsWhole)
    (arg4 : DmaSems sig S_) (arg5 : DmaSems sig S64) (arg6 arg7 arg8 arg9 : DmaSems sig S_) :
    cc0_body (F := F) arg0 harg0 arg1 harg1 arg2 harg2 arg3 harg3 arg4 arg5 arg6 arg7 arg8 arg9
      = (pro (F := F) arg0 arg3 harg3 arg8 >>= fun d0 =>
          loopFrom (iter1 arg0 arg2 arg4 arg5 d0) 64 (Nat.le_refl _)
            (inwait arg0 arg3 harg3 arg8 d0 >>= fun _ =>
              loopFrom (iter2 arg0 arg1 arg2 arg3 arg5 arg6 arg7 arg9 d0) 64 (Nat.le_refl _)
                (loopFrom (iter3 arg0 arg1 arg2 arg4 arg6 arg7 arg9 d0) 64 (Nat.le_refl _) (pure ⟨⟩)))) := by
  chain_rfl

end Cert.KernelIdeal.Loop

end
-- ==== Proof.GeoSets.lean ====
import proofs.«900299_g7700000000000300_dist_rs_v7x_xy2x2_x_m8192_n1024_f32_1_alg».proof.Proof.GeoDefs
import Idealize.ShloMosaic.Rules.PointsTo
import Idealize.ShloMosaic.Lib.Pipeline.Value

/-!
The element sets of the reduce-scatter's buffers. The 64 row chunks of a scratch buffer partition its 4096 rows;
the 64 chunks of a device's own row half of the result together with the 64 chunks of its neighbour's (along y)
row half partition the result's 8192 rows. A points-to of a whole buffer is therefore the separating conjunction
of the points-tos of those chunks. A chunk's elements are the rows of its range, every column.
-/

noncomputable section

namespace Cert.KernelIdeal.Geo

open Cert.KernelIdeal Cert.KernelIdeal.Loop
open Idealize.ShloMosaic Idealize.ShloMosaic.TcCoe Idealize.SL.Sem
open Idealize.SL
open Idealize.SL.RA Idealize.SL.ProofMode
open Idealize.SL.BI (sProp bigSep)
open scoped Idealize.SL.BI
open Idealize.SL.BI.BIBase Idealize.SL.BI.Laws
open PCS URA Auth
open Facts₀ Facts

/-! ## Membership, in coordinates -/

/-- An element of the receive buffer is in chunk `i` iff its row is in `[64 i, 64 i + 64)`. -/
theorem mem_chunk0 (i : Fin 64) (idx : S4096x1024.Idx) :
    idx ∈ (chunk R0 i).view.set ↔ 64 * i.val ≤ (idx 0).val ∧ (idx 0).val < 64 * i.val + 64 := by
  show idx ∈ ((View.whole cc0_scratch0).slice (crect i)).set ↔ _
  rw [View.set_slice_whole, Rect.mem_set_unit]
  constructor
  · intro h; exact h 0
  · intro h a
    match a with
    | ⟨0, _⟩ => exact h
    | ⟨1, _⟩ =>
      have h1 : (idx 1).val < 1024 := (idx 1).isLt
      exact ⟨Nat.zero_le _, by show (idx 1).val < 0 + 1024; omega⟩

/-- The same for the local buffer. -/
theorem mem_chunk1 (i : Fin 64) (idx : S4096x1024.Idx) :
    idx ∈ (chunk R1 i).view.set ↔ 64 * i.val ≤ (idx 0).val ∧ (idx 0).val < 64 * i.val + 64 := by
  show idx ∈ ((View.whole cc0_scratch1).slice (crect i)).set ↔ _
  rw [View.set_slice_whole, Rect.mem_set_unit]
  constructor
  · intro h; exact h 0
  · intro h a
    match a with
    | ⟨0, _⟩ => exact h
    | ⟨1, _⟩ =>
      have h1 : (idx 1).val < 1024 := (idx 1).isLt
      exact ⟨Nat.zero_le _, by show (idx 1).val < 0 + 1024; omega⟩

/-- An element of the result is in chunk `i` of device `d`'s row half iff its row is in
    `[4096 (d mod 2) + 64 i, 4096 (d mod 2) + 64 i + 64)`. -/
theorem mem_oslice (d : Dev nD) (i : Fin 64) (idx : S8192x1024.Idx) :
    idx ∈ (oslice A1 d i).view.set ↔
      4096 * (d.val % 2) + 64 * i.val ≤ (idx 0).val ∧ (idx 0).val < 4096 * (d.val % 2) + 64 * i.val + 64 := by
  show idx ∈ ((View.whole main_v1).slice (Rect.unit (s := S8192x1024) (k0_off3 d (BitVec.ofNat 32 (64 * i.val))) S64x1024.size (k0_off3_inb d i))).set ↔ _
  rw [View.set_slice_whole, Rect.mem_set_unit, Gen.k0_off3_eq]
  constructor
  · intro h; exact h 0
  · intro h a
    match a with
    | ⟨0, _⟩ => exact h
    | ⟨1, _⟩ =>
      have h1 : (idx 1).val < 1024 := (idx 1).isLt
      exact ⟨Nat.zero_le _, by show (idx 1).val < 0 + 1024; omega⟩

/-! ## What a load and a store of a chunk touch -/

/-- A load of chunk `i`'s rectangle through the whole receive buffer reads the chunk's elements. -/
theorem load_subset (i : Fin 64) : R0.view.setOn (crect i).toLoadRect.set ⊆ (chunk R0 i).view.set := by
  show (View.whole cc0_scratch0).setOn (crect i).toLoadRect.set ⊆ ((View.whole cc0_scratch0).slice (crect i)).set
  rw [View.set_slice_whole]
  intro x hx
  simpa [View.setOn] using hx

/-- A store to chunk `i`'s rectangle through the whole receive buffer writes the chunk's elements. -/
theorem store_subset (i : Fin 64) : (R0.access (crect i)).setOn Finset.univ ⊆ (chunk R0 i).view.set :=
  Finset.Subset.refl _

/-- The local buffer is held whole, so there is nothing to show for it. -/
theorem load_subset_univ (c : Dev nD) (i : Fin 64) :
    R1.view.setOn (crect i).toLoadRect.set ⊆ (Finset.univ : Finset (Idx (R1.view.loc (c : Thread nD τ)))) :=
  Finset.subset_univ _

theorem store_subset_univ (c : Dev nD) (i : Fin 64) :
    (R1.access (crect i)).setOn Finset.univ ⊆ (Finset.univ : Finset (Idx ((R1.access (crect i)).loc (c : Thread nD τ)))) :=
  Finset.subset_univ _

/-! ## The partitions -/

/-- Chunk `i`'s elements, as a set of indices of the receive buffer. -/
abbrev cset (i : Fin 64) : Finset S4096x1024.Idx := (chunk R0 i).view.set
/-- The elements of chunk `i` of device `d`'s row half, as a set of indices of the result. -/
abbrev oset (d : Dev nD) (i : Fin 64) : Finset S8192x1024.Idx := (oslice A1 d i).view.set

/-- Different chunks of the receive buffer share no element. -/
theorem chunk0_disjoint (i j : Fin 64) (h : i ≠ j) : Disjoint (cset i) (cset j) := by
  rw [Finset.disjoint_left]
  intro x hi hj
  have hi := (mem_chunk0 i x).mp hi
  have hj := (mem_chunk0 j x).mp hj
  exact h (Fin.ext (by omega))

/-- Every element of the receive buffer is in the chunk of its row. -/
theorem chunk0_cover : (Finset.univ : Finset (Fin 64)).biUnion cset = Finset.univ := by
  ext x
  simp only [Finset.mem_biUnion, Finset.mem_univ, true_and, iff_true]
  have hx : (x 0).val < 4096 := (x 0).isLt
  have hk : (x 0).val / 64 < 64 := by omega
  refine ⟨⟨(x 0).val / 64, hk⟩, (mem_chunk0 ⟨(x 0).val / 64, hk⟩ x).mpr ?_⟩
  show 64 * ((x 0).val / 64) ≤ (x 0).val ∧ (x 0).val < 64 * ((x 0).val / 64) + 64
  omega

/-- The elements of device `d`'s row half of the result: its 64 chunks together. -/
abbrev half (d : Dev nD) : Finset S8192x1024.Idx := (Finset.univ : Finset (Fin 64)).biUnion (oset d)

theorem mem_half (d : Dev nD) (x : S8192x1024.Idx) :
    x ∈ half d ↔ 4096 * (d.val % 2) ≤ (x 0).val ∧ (x 0).val < 4096 * (d.val % 2) + 4096 := by
  simp only [half, Finset.mem_biUnion, Finset.mem_univ, true_and]
  constructor
  · rintro ⟨i, hi⟩
    have hi := (mem_oslice d i x).mp hi
    have := i.isLt
    omega
  · intro h
    have hk : ((x 0).val - 4096 * (d.val % 2)) / 64 < 64 := by omega
    refine ⟨⟨((x 0).val - 4096 * (d.val % 2)) / 64, hk⟩, (mem_oslice d ⟨((x 0).val - 4096 * (d.val % 2)) / 64, hk⟩ x).mpr ?_⟩
    show 4096 * (d.val % 2) + 64 * (((x 0).val - 4096 * (d.val % 2)) / 64) ≤ (x 0).val
      ∧ (x 0).val < 4096 * (d.val % 2) + 64 * (((x 0).val - 4096 * (d.val % 2)) / 64) + 64
    omega

/-- Different chunks of one row half share no element. -/
theorem oslice_disjoint (d : Dev nD) (i j : Fin 64) (h : i ≠ j) : Disjoint (oset d i) (oset d j) := by
  rw [Finset.disjoint_left]
  intro x hi hj
  have hi := (mem_oslice d i x).mp hi
  have hj := (mem_oslice d j x).mp hj
  exact h (Fin.ext (by omega))

/-- The neighbour along y works on the other row half. -/
theorem yp_parity (c : Dev nD) : (yp c).val % 2 = 1 - c.val % 2 := by
  have h := yp_val c
  have h4 : c.val < 4 := c.isLt
  omega

theorem half_disjoint (c : Dev nD) : Disjoint (half c) (half (yp c)) := by
  rw [Finset.disjoint_left]
  intro x hi hj
  have hi := (mem_half c x).mp hi
  have hj := (mem_half (yp c) x).mp hj
  have := yp_parity c
  omega

theorem half_union (c : Dev nD) : half c ∪ half (yp c) = Finset.univ := by
  ext x
  simp only [Finset.mem_union, Finset.mem_univ, iff_true]
  have hx : (x 0).val < 8192 := (x 0).isLt
  have := yp_parity c
  by_cases h : 4096 * (c.val % 2) ≤ (x 0).val ∧ (x 0).val < 4096 * (c.val % 2) + 4096
  · exact Or.inl ((mem_half c x).mpr h)
  · exact Or.inr ((mem_half (yp c) x).mpr (by omega))

/-! ## A whole buffer's points-to, chunk by chunk -/

section Tiles
variable {Ix : Type} [DecidableEq Ix] {Val : EltTy → Type} {Name : Type} [DecidableEq Name]
variable {U : Type} [URA U] {Lvl : Type}
local notation "𝕄" => MT nD τ sig Ix Val Name U Lvl

/-- The receive buffer, held whole, is its 64 row chunks held each by its own elements. -/
theorem scratch_tiles (c : Dev nD) (f : Buf Val ((c : Thread nD τ).loc cc0_scratch0)) :
    (((c : Thread nD τ).loc cc0_scratch0) ↦{fullShare} f : sProp 𝕄) ⊣⊢
      bigSep (Finset.univ : Finset (Fin 64)) fun i =>
        ((chunk R0 i).view.loc (c : Thread nD τ) ↦[(chunk R0 i).view.set]{fullShare} f) := by
  have h : (((c : Thread nD τ).loc cc0_scratch0) ↦[(Finset.univ : Finset (Fin 64)).biUnion cset]{fullShare} f : sProp 𝕄)
      = bigSep (Finset.univ : Finset (Fin 64)) fun i => (((c : Thread nD τ).loc cc0_scratch0) ↦[cset i]{fullShare} f) :=
    pointsTo_biUnion (ℓ := (c : Thread nD τ).loc cc0_scratch0) Finset.univ cset (fun i _ j _ hij => chunk0_disjoint i j hij)
  have e : (((c : Thread nD τ).loc cc0_scratch0) ↦{fullShare} f : sProp 𝕄)
      = (((c : Thread nD τ).loc cc0_scratch0) ↦[(Finset.univ : Finset (Fin 64)).biUnion cset]{fullShare} f) :=
    congrArg (fun S => (((c : Thread nD τ).loc cc0_scratch0) ↦[S]{fullShare} f : sProp 𝕄)) chunk0_cover.symm
  exact BiEntails.of_eq (e.trans h)

/-- The result, held whole, is the 64 chunks of the device's own row half and the 64 chunks of its
    neighbour's (along y) row half, held each by its own elements. -/
theorem out_tiles (c : Dev nD) (f : Buf Val ((c : Thread nD τ).loc main_v1)) :
    (((c : Thread nD τ).loc main_v1) ↦{fullShare} f : sProp 𝕄) ⊣⊢
      iprop((bigSep Finset.univ fun i : Fin 64 =>
          (oslice A1 c i).view.loc (c : Thread nD τ) ↦[(oslice A1 c i).view.set]{fullShare} f)
        ∗ (bigSep Finset.univ fun i : Fin 64 =>
          (oslice A1 (yp c) i).view.loc (c : Thread nD τ) ↦[(oslice A1 (yp c) i).view.set]{fullShare} f)) := by
  have hu : (((c : Thread nD τ).loc main_v1) ↦[half c ∪ half (yp c)]{fullShare} f : sProp 𝕄) ⊣⊢
      iprop((((c : Thread nD τ).loc main_v1) ↦[half c]{fullShare} f) ∗ (((c : Thread nD τ).loc main_v1) ↦[half (yp c)]{fullShare} f)) :=
    pointsTo_union (ℓ := (c : Thread nD τ).loc main_v1) (half_disjoint c)
  have h1 : ∀ d : Dev nD, (((c : Thread nD τ).loc main_v1) ↦[half d]{fullShare} f : sProp 𝕄)
      = bigSep Finset.univ fun i : Fin 64 => (((c : Thread nD τ).loc main_v1) ↦[oset d i]{fullShare} f) := fun d =>
    pointsTo_biUnion (ℓ := (c : Thread nD τ).loc main_v1) Finset.univ (oset d) (fun i _ j _ hij => oslice_disjoint d i j hij)
  have e : (((c : Thread nD τ).loc main_v1) ↦{fullShare} f : sProp 𝕄)
      = (((c : Thread nD τ).loc main_v1) ↦[half c ∪ half (yp c)]{fullShare} f) :=
    congrArg (fun S => (((c : Thread nD τ).loc main_v1) ↦[S]{fullShare} f : sProp 𝕄)) (half_union c).symm
  rw [h1 c, h1 (yp c)] at hu
  exact (BiEntails.of_eq e).trans hu

end Tiles

/-- info: 'Cert.KernelIdeal.Geo.scratch_tiles' depends on axioms: [propext, Classical.choice, Quot.sound] -/
#guard_msgs in #print axioms scratch_tiles

/-- info: 'Cert.KernelIdeal.Geo.out_tiles' depends on axioms: [propext, Classical.choice, Quot.sound] -/
#guard_msgs in #print axioms out_tiles

end Cert.KernelIdeal.Geo

end
-- ==== Proof.InvLemmas.lean ====
import proofs.«900299_g7700000000000300_dist_rs_v7x_xy2x2_x_m8192_n1024_f32_1_alg».proof.Proof.Inv

/-!
Reading one cell's invariant and first-round mark off the records.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_idxOf (c : Dev nD) (s : SemLoc sig) : kcell (c, idxOf s) = (((c : Thread nD τ), s) : GSem nD τ sig) := by
  show (((c : Thread nD τ), csem (idxOf s)) : GSem nD τ sig) = _
  rw [csem_idxOf]

theorem inv_at (K : GSem nD τ sig → ℕ) (c : Dev nD) (s : SemLoc sig) :
    records m K ⊢ cellInv ER (Rd m) (K ((c : Thread nD τ), s)) ((c : Thread nD τ), s) := by
  have h := bigSep_elim (Φ := fun ck : Dev nD × Fin 70 => (cellInv ER (Rd m) (K (kcell ck)) (kcell ck) : sProp 𝕄)) (Finset.mem_univ (c, idxOf s))
  rw [kcell_idxOf] at h
  unfold records
  exact sep_elim_left.trans h

theorem reached_at (K : GSem nD τ sig → ℕ) (c : Dev nD) (s : SemLoc sig) :
    records m K ⊢ reached ER (((c : Thread nD τ), s) : GSem nD τ sig) 0 := by
  have h := bigSep_elim (Φ := fun ck : Dev nD × Fin 70 => (reached ER (kcell ck) 0 : sProp 𝕄)) (Finset.mem_univ (c, idxOf s))
  rw [kcell_idxOf] at h
  unfold records
  exact sep_elim_right.trans h

end Cert.KernelIdealProof

end
-- ==== Proof.Step1.lean ====
import proofs.«900299_g7700000000000300_dist_rs_v7x_xy2x2_x_m8192_n1024_f32_1_alg».proof.Proof.Inv
import proofs.«900299_g7700000000000300_dist_rs_v7x_xy2x2_x_m8192_n1024_f32_1_alg».proof.Proof.LoopParts
import proofs.«900299_g7700000000000300_dist_rs_v7x_xy2x2_x_m8192_n1024_f32_1_alg».proof.Proof.GeoSets
import proofs.«900299_g7700000000000300_dist_rs_v7x_xy2x2_x_m8192_n1024_f32_1_alg».proof.Proof.GeoVals
import proofs.«900299_g7700000000000300_dist_rs_v7x_xy2x2_x_m8192_n1024_f32_1_alg».proof.Proof.InvLemmas

/-!
Pass 1 of the body, one trip: the send of one chunk to the neighbour along x.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- What is owed before send `i` is what is owed after it and the chunk's credit on the neighbour's cell `i`. -/
theorem s1_OX_peel (i : Fin 64) :
    OX c (64 - i.val) = OX c (64 - (i.val + 1)) + tallyAt (cD (xp c) (xrS i)) () N := by
  have hi := i.isLt
  have h1 : 64 - i.val = (63 - i.val) + 1 := by omega
  have h2 : 64 - (i.val + 1) = 63 - i.val := by omega
  have h3 : (⟨63 - (63 - i.val) % 64, by omega⟩ : Fin 64) = i := Fin.ext (by show 63 - (63 - i.val) % 64 = i.val; omega)
  rw [h1, h2]
  show OX c (63 - i.val) + tallyAt (cD (xp c) (xrS ⟨63 - (63 - i.val) % 64, _⟩)) () N = _
  rw [h3]

/-- A lend of the input: the left half of the share left goes with the chunk's rows, the right half stays. -/
theorem s1_lend (i : Fin 64) :
    (((c : Thread nD τ).loc main_arg0) ↦{rS (i.val + 1)} X m c : sProp 𝕄)
      ⊢ iprop(((xsrc A0 c i).view.loc (c : Thread nD τ) ↦[(xsrc A0 c i).view.set]{(rS (i.val + 1)).left} X m c)
          ∗ (((c : Thread nD τ).loc main_arg0) ↦{rS (i.val + 1 + 1)} X m c)) := by
  refine (pointsTo_share (PosShare.mem_left_op_right (rS (i.val + 1)))).1.trans (sep_mono_left ?_)
  exact (pointsTo_split_subset (Finset.subset_univ _)).1.trans sep_elim_left

/-- The landed chunk is the receiver's payload: on its rows the neighbour's receive buffer holds what it is to receive. -/
theorem s1_pay_xr (fN : Buf (Elt F) (((xp c : Dev nD) : Thread nD τ).loc cc0_scratch0)) (i : Fin 64) :
    ((chunk R0 i).view.loc ((xp c : Dev nD) : Thread nD τ) ↦[(chunk R0 i).view.set]{fullShare}
        ((chunk R0 i).view.write (Elt F) fN ((xsrc A0 c i).view.read (Elt F) (X m c)) Finset.univ) : sProp 𝕄)
      ⊢ (Rd m).payload (cD (xp c) (xrS i)) 0 (0 : Fin 64) := by
  rw [payload_xr]; unfold xrPay
  refine Entails.of_eq (pointsTo_congr ?_)
  intro idx hidx
  rw [xland c i fN (X m c) idx hidx]
  unfold Grecv
  rw [xp_xp]

/-- The send cell's duty hands over nothing: the lent share is let go. -/
theorem s1_pay_xs (i : Fin 64) (P : sProp 𝕄) : P ⊢ (Rd m).payload (cD c xsS) 0 i := by
  rw [payload_xs]; iintro -; iempintro

theorem s1_Inv1_open (fN : Buf (Elt F) (((xp c : Dev nD) : Thread nD τ).loc cc0_scratch0)) (i : Fin 64) :
    Inv1 m K c fN i.val = iprop(records m K ∗ (∃ W, owes (c : Thread nD τ) (OX c (64 - i.val)) W)
    ∗ (((c : Thread nD τ).loc main_arg0) ↦{rS (i.val + 1)} X m c)
    ∗ ((((chunk R0 i).view.loc ((xp c : Dev nD) : Thread nD τ) ↦[(chunk R0 i).view.set]{fullShare} fN)
        ∗ dutyTok ER (cD c xsS) 0 i ∗ dutyTok ER (cD (xp c) (xrS i)) 0 (0 : Fin 64))
      ∗ bigSep (ge (i.val + 1)) fun j : Fin 64 => iprop(((chunk R0 j).view.loc ((xp c : Dev nD) : Thread nD τ) ↦[(chunk R0 j).view.set]{fullShare} fN)
        ∗ dutyTok ER (cD c xsS) 0 j ∗ dutyTok ER (cD (xp c) (xrS j)) 0 (0 : Fin 64)))
    ∗ (bigSep (lt i.val) fun _ : Fin 64 => cred (tallyAt (cD c xsS) () N))) := by
  unfold Inv1
  rw [ge_succ i, bigSep_insert (not_mem_ge_succ i)]
  rfl

theorem s1_Inv1_close (fN : Buf (Elt F) (((xp c : Dev nD) : Thread nD τ).loc cc0_scratch0)) (i : Fin 64) :
    Inv1 m K c fN (i.val + 1) = iprop(records m K ∗ (∃ W, owes (c : Thread nD τ) (OX c (64 - (i.val + 1))) W)
    ∗ (((c : Thread nD τ).loc main_arg0) ↦{rS (i.val + 1 + 1)} X m c)
    ∗ (bigSep (ge (i.val + 1)) fun j : Fin 64 => iprop(((chunk R0 j).view.loc ((xp c : Dev nD) : Thread nD τ) ↦[(chunk R0 j).view.set]{fullShare} fN)
        ∗ dutyTok ER (cD c xsS) 0 j ∗ dutyTok ER (cD (xp c) (xrS j)) 0 (0 : Fin 64)))
    ∗ (cred (tallyAt (cD c xsS) () N) ∗ bigSep (lt i.val) fun _ : Fin 64 => cred (tallyAt (cD c xsS) () N))) := by
  unfold Inv1
  rw [lt_succ i, bigSep_insert (not_mem_lt i)]
  rfl

/-- Pass 1, one trip: chunk `i` goes to the x-neighbour. -/
theorem step1 (fN : Buf (Elt F) (((xp c : Dev nD) : Thread nD τ).loc cc0_scratch0)) (i : Fin 64) {α : Type} (k' : Prog (TpuEff nD τ sig (Elt F) Λ₀ .tc) α) (Q : α → sProp 𝕄) :
    iprop(Inv1 m K c fN i.val ∗ (Inv1 m K c fN (i.val + 1) -∗ wp frame (wpE (defs₀ (F := F)) 𝒱₀ c none) Set.univ k' Q))
      ⊢ wp frame (wpE (defs₀ (F := F)) 𝒱₀ c none) Set.univ (iter1 A0 R0 cc0_scratch2 cc0_scratch3 c i >>= fun _ => k') Q := by
  rw [s1_Inv1_open, s1_Inv1_close]
  unfold iter1
  simp only [Prog.lift, Prog.bind_op, Prog.bind_ret, Prog.pure_eq_ret]
  iintro ⟨⟨#HR, ⟨%W, HO⟩, Hin, ⟨⟨Hch, Ht1, Ht2⟩, Hge⟩, Hlt⟩, Hk⟩
  ihave Hin2 := (s1_lend m c i) $$ Hin
  icases Hin2 with ⟨HinL, HinR⟩
  iapply (Rounds.wp_send_pointsTo 𝒱₀ ER (Rd m) (c : Thread nD τ) none
      (c' := Dev.tc (xpeer c)) (src := xsrc A0 c i) (dst := chunk R0 i) (sS := .dma xsS) (sem := .dma (xrS i))
      (q := (rS (i.val + 1)).left) (fs := X m c) (fd := fN)
      (κ₁ := K (cD c xsS)) (κ₂ := K (cD (xp c) (xrS i))) (r₁ := 0) (r₂ := 0) (d₁ := i) (d₂ := (0 : Fin 64))
      (by rw [duties_xs]; exact Finset.mem_univ _) (by rw [duties_xr]; exact Finset.mem_singleton_self _)
      () () N rfl (amount_xs m c i) (amount_xr m (xp c) i 0) (OX c (64 - (i.val + 1))) (s1_OX_peel c i) (W := W)
      (s1_pay_xs m c i _) (s1_pay_xr m c fN i) (Topo.routes_tc _ _)) $$ [HO HinL Hch Ht1 Ht2]
  · isplitr; · iapply (inv_at m K c (.dma xsS)); iexact HR
    isplitr; · iapply (inv_at m K (xp c) (.dma (xrS i))); iexact HR
    isplitl [HinL]; · iexact HinL
    isplitl [Hch]; · iexact Hch
    isplitl [HO]; · iexact HO
    isplitl [Ht1]; · iexact Ht1
    isplitr; · iapply (reached_at m K c (.dma xsS)); iexact HR
    isplitl [Ht2]; · iexact Ht2
    iapply (reached_at m K (xp c) (.dma (xrS i))); iexact HR
  iintro ⟨Hcr, HO⟩
  iapply Hk
  isplitr; · iexact HR
  isplitl [HO]; · iexists W; iexact HO
  isplitl [HinR]; · iexact HinR
  isplitl [Hge]; · iexact Hge
  isplitl [Hcr]; · iexact Hcr
  iexact Hlt

end Steps

end Cert.KernelIdealProof

end
-- ==== Proof.Step2.lean ====
import proofs.«900299_g7700000000000300_dist_rs_v7x_xy2x2_x_m8192_n1024_f32_1_alg».proof.Proof.Inv
import proofs.«900299_g7700000000000300_dist_rs_v7x_xy2x2_x_m8192_n1024_f32_1_alg».proof.Proof.InvLemmas
import proofs.«900299_g7700000000000300_dist_rs_v7x_xy2x2_x_m8192_n1024_f32_1_alg».proof.Proof.LoopParts
import proofs.«900299_g7700000000000300_dist_rs_v7x_xy2x2_x_m8192_n1024_f32_1_alg».proof.Proof.GeoSets
import proofs.«900299_g7700000000000300_dist_rs_v7x_xy2x2_x_m8192_n1024_f32_1_alg».proof.Proof.GeoVals

/-!
Pass 2 of the body, one trip: receive a chunk, add, forward and copy out.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- Chunk `i` taken out of the chunks still to come. -/
theorem bigSep_ge_take (Φ : Fin 64 → sProp 𝕄) (i : Fin 64) :
    bigSep (ge i.val) Φ ⊢ iprop(Φ i ∗ bigSep (ge (i.val + 1)) Φ) :=
  Entails.of_eq (by rw [ge_succ i, bigSep_insert (not_mem_ge_succ i)]; rfl)

/-- Chunk `i` put with the chunks already done. -/
theorem bigSep_lt_put (Φ : Fin 64 → sProp 𝕄) (i : Fin 64) :
    iprop(Φ i ∗ bigSep (lt i.val) Φ) ⊢ bigSep (lt (i.val + 1)) Φ :=
  Entails.of_eq (by rw [lt_succ i, bigSep_insert (not_mem_lt i)]; rfl)

/-- What the store leaves on the chunk's rows is the device's sum there. -/
theorem sum_stored (c : Dev nD) (i : Fin 64) :
    ((R0.access (crect i)).loc (c : Thread nD τ) ↦[(chunk R0 i).view.set]{fullShare}
        ((R0.access (crect i)).write (Elt F) (Grecv m c)
          (shapeCast S64x1024
            (addf (R0.view.readAt (Elt F) (crect i).toLoadRect (Grecv m c) : Vec F S64x1024 .f32)
              (R1.view.readAt (Elt F) (crect i).toLoadRect (Glocal m c) : Vec F S64x1024 .f32))
            shapeCasts_S64x1024_S64x1024) Finset.univ) : sProp 𝕄)
      ⊢ ((chunk R0 i).view.loc (c : Thread nD τ) ↦[(chunk R0 i).view.set]{fullShare} Gsum m c) :=
  Entails.of_eq (pointsTo_congr (store_sum i (Grecv m c) (Glocal m c)))

/-- One forward fewer to go: what is owed loses the y-neighbour's receive cell's chunk credit. -/
theorem OY_peel (c : Dev nD) (i : Fin 64) :
    OY c (64 - i.val) = OY c (64 - (i.val + 1)) + tallyAt (cD (yp c) yrS) () N := by
  have h : 64 - i.val = (64 - (i.val + 1)) + 1 := by have := i.isLt; omega
  rw [h]; rfl

/-- Pass 2, one trip: chunk `i` has landed; the sum is stored, forwarded and copied out. -/
theorem step2 (fY : Buf (Elt F) (((yp c : Dev nD) : Thread nD τ).loc main_v1)) (f1 : Buf (Elt F) ((c : Thread nD τ).loc main_v1)) (i : Fin 64)
    {α : Type} (k' : Prog (TpuEff nD τ sig (Elt F) Λ₀ .tc) α) (Q : α → sProp 𝕄) :
    iprop(Inv2 m K c fY f1 i.val ∗ (Inv2 m K c fY f1 (i.val + 1) -∗ wp frame (wpE (defs₀ (F := F)) 𝒱₀ c none) Set.univ k' Q))
      ⊢ wp frame (wpE (defs₀ (F := F)) 𝒱₀ c none) Set.univ (iter2 A0 A1 R0 R1 cc0_scratch3 cc0_scratch4 cc0_scratch5 cc0_scratch7 c i >>= fun _ => k') Q := by
  unfold iter2
  simp only [Prog.lift, Prog.bind_op, Prog.bind_ret, Prog.pure_eq_ret]
  unfold Inv2
  iintro ⟨⟨#HR, #Hlev, ⟨%W, HO⟩, Hloc, Hge, Hlt⟩, Hk⟩
  ihave Hge' := (bigSep_ge_take _ i) $$ Hge
  icases Hge' with ⟨⟨HatX, HcX, HdY, Hd1, HtYS, HtYR, HtO⟩, Hge⟩
  -- the wait for chunk i: the chunk's rows at what the neighbour along x sent
  iapply (Rounds.wp_wait_rest_token 𝒱₀ ER (Rd m) (c : Thread nD τ) none (κ := K (cD c (xrS i)))
      (wpE_waitDma2_eq 𝒱₀ (c : Thread nD τ) none Set.univ) (Set.mem_univ _) () (O := OY c (64 - i.val)) (W := W) (R := 0) (m := 0) (T := ∅)
      (by rw [expect_xr]; exact Nat.zero_add _)) $$ [HcX HO HatX]
  · isplitr; · iapply (inv_at m K c (.dma (xrS i))); iexact HR
    isplitl [HcX]; · iexact HcX
    isplitl [HO]; · iexact HO
    isplitr; · iapply (mayWait_xr c i (64 - i.val)); iexact Hlev
    iexact HatX
  iintro ⟨HO, HatX, -, Hpay⟩
  ihave Hch := (Entails.of_eq (rest_xr m c i)) $$ Hpay
  unfold xrPay
  -- the three loads and the store
  iapply (wp_load 𝒱₀ (c : Thread nD τ) none Set.univ (m := R0) (load_subset i)) $$ Hch; iintro Hch
  iapply (wp_load 𝒱₀ (c : Thread nD τ) none Set.univ (m := R1) (Finset.subset_univ _)) $$ Hloc; iintro Hloc
  iapply (wp_load 𝒱₀ (c : Thread nD τ) none Set.univ (m := R0) (load_subset i)) $$ Hch; iintro Hch
  iapply (wp_store 𝒱₀ (c : Thread nD τ) none Set.univ (m := R0) (r := crect i) (Mk := Finset.univ) (store_subset i)) $$ Hch; iintro Hch
  ihave Hch := (sum_stored m c i) $$ Hch
  -- the chunk's share in two halves: one for each copy
  ihave Hch := ((pointsTo_share (PosShare.mem_left_op_right fullShare)).1) $$ Hch
  icases Hch with ⟨HchL, HchR⟩
  -- the forward to the neighbour along y
  iapply (Rounds.wp_send_pointsTo 𝒱₀ ER (Rd m) (c : Thread nD τ) none (c' := ((yp c : Dev nD) : Thread nD τ))
      (src := chunk R0 i) (dst := oslice A1 c i) (sS := .dma ysS) (sem := .dma yrS) (q := fullShare.left)
      (fs := Gsum m c) (fd := fY) (κ₁ := K (cD c ysS)) (κ₂ := K (cD (yp c) yrS)) (r₁ := 0) (r₂ := 0) (d₁ := i) (d₂ := i)
      (by rw [duties_ys]; exact Finset.mem_univ _) (by rw [duties_yr]; exact Finset.mem_univ _)
      () () N rfl (amount_ys m c i) (amount_yr m (yp c) i) (OY c (64 - (i.val + 1))) (OY_peel c i)
      (W := insert (SemLoc.dma (xrS i), ()) W)
      (by rw [payload_ys]; exact .rfl)
      (by rw [payload_yr]; unfold yrPay; rw [yp_yp]
          exact Entails.of_eq (pointsTo_congr (oland c (yp c) (.inr rfl) i fY (Gsum m)))))
    $$ [HchL HdY HO HtYS HtYR]
  · isplitr; · iapply (inv_at m K c (.dma ysS)); iexact HR
    isplitr; · iapply (inv_at m K (yp c) (.dma yrS)); iexact HR
    isplitl [HchL]; · iexact HchL
    isplitl [HdY]; · iexact HdY
    isplitl [HO]; · iexact HO
    isplitl [HtYS]; · iexact HtYS
    isplitr; · iapply (reached_at m K c (.dma ysS)); iexact HR
    isplitl [HtYR]; · iexact HtYR
    iapply (reached_at m K (yp c) (.dma yrS)); iexact HR
  iintro ⟨HcY, HO⟩
  -- the copy into the device's own result rows
  iapply (Rounds.wp_copy_pointsTo 𝒱₀ ER (Rd m) (c : Thread nD τ) none (src := chunk R0 i) (dst := oslice A1 c i) (sem := .dma outS)
      (q := fullShare.right) (fs := Gsum m c) (fd := f1) (κ := K (cD c outS)) (r := 0) (d := i)
      (by rw [duties_out]; exact Finset.mem_univ _) () N rfl (amount_out m c i)
      (by rw [payload_out]; unfold outPay; rw [pointsTo_congr (oland c c (.inl rfl) i f1 (Gsum m))]))
    $$ [HchR Hd1 HtO]
  · isplitr; · iapply (inv_at m K c (.dma outS)); iexact HR
    isplitl [HchR]; · iexact HchR
    isplitl [Hd1]; · iexact Hd1
    isplitl [HtO]; · iexact HtO
    iapply (reached_at m K c (.dma outS)); iexact HR
  iintro HcO
  -- the invariant with chunk i done
  iapply Hk
  isplitr; · iexact HR
  isplitr; · iexact Hlev
  isplitl [HO]; · iexists _; iexact HO
  isplitl [Hloc]; · iexact Hloc
  isplitl [Hge]; · iexact Hge
  iapply (bigSep_lt_put _ i)
  isplitl [HatX HcY HcO]
  · isplitl [HatX]; · iexact HatX
    isplitl [HcY]; · iexact HcY
    iexact HcO
  iexact Hlt

end Steps

end Cert.KernelIdealProof

end
-- ==== Proof.Step3.lean ====
import proofs.«900299_g7700000000000300_dist_rs_v7x_xy2x2_x_m8192_n1024_f32_1_alg».proof.Proof.Inv
import proofs.«900299_g7700000000000300_dist_rs_v7x_xy2x2_x_m8192_n1024_f32_1_alg».proof.Proof.InvLemmas
import proofs.«900299_g7700000000000300_dist_rs_v7x_xy2x2_x_m8192_n1024_f32_1_alg».proof.Proof.LoopParts
import proofs.«900299_g7700000000000300_dist_rs_v7x_xy2x2_x_m8192_n1024_f32_1_alg».proof.Proof.GeoSets
import proofs.«900299_g7700000000000300_dist_rs_v7x_xy2x2_x_m8192_n1024_f32_1_alg».proof.Proof.GeoVals

/-!
Pass 3 of the body, one trip: the four closing waits.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

namespace Pass3

/-- The chunks from `i` on: chunk `i` and the chunks after it. -/
theorem ge_split (i : Fin 64) (Φ : Fin 64 → sProp 𝕄) :
    bigSep (ge i.val) Φ = iprop(Φ i ∗ bigSep (ge (i.val + 1)) Φ) := by
  rw [ge_succ i, bigSep_insert (not_mem_ge_succ i)]; rfl

/-- Payloads already held and payloads newly handed over, as the payloads of the larger set. -/
theorem pay_join (g : GSem nD τ sig) {S S' : Finset (Fin 64)} (h : S ⊆ S') :
    iprop((bigSep S fun d => (Rd (F := F) m).payload g 0 d) ∗ bigSep (S' \ S) fun d => (Rd (F := F) m).payload g 0 d)
      ⊢ (bigSep S' fun d => (Rd (F := F) m).payload g 0 d : sProp 𝕄) :=
  (BI.bigSep_sep_union _ _).trans
    (Entails.of_eq (congrArg (bigSep · fun d => (Rd (F := F) m).payload g 0 d) (Finset.union_sdiff_of_subset h)))

/-- One wait of a duty's amount on a cell whose single round is 64 duties of that amount each, by an owner that
    owes nothing: wait number `i` of the 64. Before the last the owner moves on within the round, holding whatever
    payloads have landed; the last takes the rest of the round. -/
theorem wait_one (s : DmaSem sig)
    (hd : (Rd (F := F) m).duties (cD c s) 0 = Finset.univ)
    (he : (Rd (F := F) m).expect (cD c s) 0 = 64 * N)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma s) N K')
    (i : Fin 64) {α : Type} (k : PUnit → Prog (TpuEff nD τ sig (Elt F) Λ₀ .tc) α) (Q : α → sProp 𝕄) :
    iprop(records m K ∗ (∃ W, owes (c : Thread nD τ) 0 W) ∗ WSt m (cD c s) i.val)
      ⊢ iprop((((∃ W, owes (c : Thread nD τ) 0 W) ∗ WSt m (cD c s) (i.val + 1))
            -∗ wp frame (wpE (defs₀ (F := F)) 𝒱₀ c none) Set.univ (k ⟨⟩) Q)
          -∗ wp frame (wpE (defs₀ (F := F)) 𝒱₀ c none) Set.univ (.op w k) Q) := by
  have hi := i.isLt
  unfold WSt
  rw [if_pos hi]
  unfold WInv
  rw [ge_split i]
  iintro ⟨#HR, ⟨%W, HO⟩, ⟨%S, Hat, Hpay, Hc, Hcs⟩⟩ Hk
  ihave Hc' := (show cred (tallyAt (cD c s) () N) ⊢ (cred (tallyOn (cD c s) (Finsupp.single () N)) : sProp 𝕄) from .rfl) $$ Hc
  by_cases hlast : i.val + 1 < 64
  · rw [if_pos hlast]
    iapply (Rounds.wp_wait 𝒱₀ ER (Rd m) (c : Thread nD τ) none (κ := K (cD c s)) hw (Set.mem_univ _) {(SemLoc.dma s, ())}
        (cr := Finsupp.single () N) (O := 0) (W := W) (R := 0) (T := S) (m := i.val * N)
        (by rw [Util.total_single]) (image_single_subset _ () _)) $$ [Hc' HO Hat]
    · isplitr; · iapply (inv_at m K c (.dma s)); iexact HR
      isplitl [Hc']; · iexact Hc'
      isplitl [HO]; · iexact HO
      isplitr; · rw [MayOwe_zero]; iempintro
      iexact Hat
    iintro %S' ⟨%hS, HO, Hat, Hnew⟩
    iapply Hk
    isplitl [HO]; · iexists _; iexact HO
    iexists S'
    isplitl [Hat]; · rw [Nat.succ_mul]; iexact Hat
    isplitl [Hpay Hnew]
    · iapply (pay_join m (cD c s) hS.1)
      isplitl [Hpay]; · iexact Hpay
      iexact Hnew
    iexact Hcs
  · rw [if_neg hlast]
    have h63 : i.val = 63 := by omega
    unfold WDone
    iapply (Rounds.wp_wait_rest 𝒱₀ ER (Rd m) (c : Thread nD τ) none (κ := K (cD c s)) hw (Set.mem_univ _) {(SemLoc.dma s, ())}
        (cr := Finsupp.single () N) (O := 0) (W := W) (R := 0) (T := S) (m := i.val * N)
        (by rw [he, h63]; omega) (by rw [Util.total_single]) (image_single_subset _ () _)) $$ [Hc' HO Hat]
    · isplitr; · iapply (inv_at m K c (.dma s)); iexact HR
      isplitl [Hc']; · iexact Hc'
      isplitl [HO]; · iexact HO
      isplitr; · rw [MayOwe_zero]; iempintro
      iexact Hat
    iintro ⟨HO, Hat, -, Hrest⟩
    iapply Hk
    isplitl [HO]; · iexists _; iexact HO
    isplitl [Hat]; · iexact Hat
    rw [hd]
    iapply (pay_join m (cD c s) (Finset.subset_univ S))
    isplitl [Hpay]; · iexact Hpay
    iexact Hrest

/-- The same for a wait written on a transfer's two views: only the destination view's credit matters. -/
theorem wait_dma (s : DmaSem sig)
    (hd : (Rd (F := F) m).duties (cD c s) 0 = Finset.univ)
    (he : (Rd (F := F) m).expect (cD c s) 0 = 64 * N)
    {sp sp' : Space} {sh sh' : Shape} {e e' : EltTy}
    (src : Memref sig .tc sp' sh' e') (dst : Memref sig .tc sp sh e) (hsrc : src.view.WordExact) (hdst : dst.view.WordExact)
    (hc : dst.view.dmaCredit = N)
    (i : Fin 64) {α : Type} (k : PUnit → Prog (TpuEff nD τ sig (Elt F) Λ₀ .tc) α) (Q : α → sProp 𝕄) :
    iprop(records m K ∗ (∃ W, owes (c : Thread nD τ) 0 W) ∗ WSt m (cD c s) i.val)
      ⊢ iprop((((∃ W, owes (c : Thread nD τ) 0 W) ∗ WSt m (cD c s) (i.val + 1))
            -∗ wp frame (wpE (defs₀ (F := F)) 𝒱₀ c none) Set.univ (k ⟨⟩) Q)
          -∗ wp frame (wpE (defs₀ (F := F)) 𝒱₀ c none) Set.univ (.op (.waitDma2 s src dst hsrc hdst) k) Q) :=
  wait_one m K c s hd he (fun K' => by rw [wpE_waitDma2_eq, hc]) i k Q

/-- Every 64-row chunk view credits its semaphore the same amount, whichever buffer it lies in. -/
theorem credit_chunk (i : Fin 64) : (chunk R0 i).view.dmaCredit = N := rfl
theorem credit_xsrc (i : Fin 64) : (xsrc A0 c i).view.dmaCredit = N := rfl
theorem credit_oslice (i : Fin 64) : (oslice A1 c i).view.dmaCredit = N := rfl

end Pass3

/-- Pass 3, one trip: one wait on each of the four drained cells. -/
theorem step3 (i : Fin 64) {α : Type} (k' : Prog (TpuEff nD τ sig (Elt F) Λ₀ .tc) α) (Q : α → sProp 𝕄) :
    iprop(Inv3 m K c i.val ∗ (Inv3 m K c (i.val + 1) -∗ wp frame (wpE (defs₀ (F := F)) 𝒱₀ c none) Set.univ k' Q))
      ⊢ wp frame (wpE (defs₀ (F := F)) 𝒱₀ c none) Set.univ (iter3 A0 A1 R0 cc0_scratch2 cc0_scratch4 cc0_scratch5 cc0_scratch7 c i >>= fun _ => k') Q := by
  unfold iter3
  simp only [Prog.lift, Prog.bind_op, Prog.bind_ret, Prog.pure_eq_ret]
  unfold Inv3
  iintro ⟨⟨#HR, HO, Hxs, Hys, Hyr, Hout⟩, Hk⟩
  -- the send cell along x
  iapply (Pass3.wait_dma m K c xsS (duties_xs m c) (expect_xs m c) (chunk R0 i) (xsrc A0 c i) _ _ (Pass3.credit_xsrc c i) i) $$ [HO Hxs]
  · isplitr; · iexact HR
    isplitl [HO]; · iexact HO
    iexact Hxs
  iintro ⟨HO, Hxs⟩
  -- the send cell along y
  iapply (Pass3.wait_dma m K c ysS (duties_ys m c) (expect_ys m c) (oslice A1 c i) (chunk R0 i) _ _ (Pass3.credit_chunk i) i) $$ [HO Hys]
  · isplitr; · iexact HR
    isplitl [HO]; · iexact HO
    iexact Hys
  iintro ⟨HO, Hys⟩
  -- the receive cell of the result
  iapply (Pass3.wait_dma m K c yrS (duties_yr m c) (expect_yr m c) (chunk R0 i) (oslice A1 c i) _ _ (Pass3.credit_oslice c i) i) $$ [HO Hyr]
  · isplitr; · iexact HR
    isplitl [HO]; · iexact HO
    iexact Hyr
  iintro ⟨HO, Hyr⟩
  -- the cell of the copy into the result
  iapply (Pass3.wait_dma m K c outS (duties_out m c) (expect_out m c) (chunk R0 i) (oslice A1 c i) _ _ (Pass3.credit_oslice c i) i) $$ [HO Hout]
  · isplitr; · iexact HR
    isplitl [HO]; · iexact HO
    iexact Hout
  iintro ⟨HO, Hout⟩
  iapply Hk
  isplitr; · iexact HR
  isplitl [HO]; · iexact HO
  isplitl [Hxs]; · iexact Hxs
  isplitl [Hys]; · iexact Hys
  isplitl [Hyr]; · iexact Hyr
  iexact Hout

end Steps

end Cert.KernelIdealProof

end
-- ==== Proof.Pro.lean ====
import proofs.«900299_g7700000000000300_dist_rs_v7x_xy2x2_x_m8192_n1024_f32_1_alg».proof.Proof.Inv
import proofs.«900299_g7700000000000300_dist_rs_v7x_xy2x2_x_m8192_n1024_f32_1_alg».proof.Proof.InvLemmas
import proofs.«900299_g7700000000000300_dist_rs_v7x_xy2x2_x_m8192_n1024_f32_1_alg».proof.Proof.LoopParts
import proofs.«900299_g7700000000000300_dist_rs_v7x_xy2x2_x_m8192_n1024_f32_1_alg».proof.Proof.GeoSets
import proofs.«900299_g7700000000000300_dist_rs_v7x_xy2x2_x_m8192_n1024_f32_1_alg».proof.Proof.GeoVals

/-!
The opening of the body (barrier handshake, start of the local copy) and the wait for the local copy.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- What the opening consumes. -/
def ProPre (f1 : Buf (Elt F) ((c : Thread nD τ).loc main_v1)) : sProp 𝕄 :=
  iprop(records m K ∗ levAts L lv ∗ (∃ W, owes (c : Thread nD τ) (O₀ c) W) ∗ cred (tallyAt (cB c) () 2) ∗ atPos ER (cB c) 0 ∅ 0
    ∗ dutyTok ER (cB (xp c)) 0 (0 : Fin 64) ∗ dutyTok ER (cB (yp c)) 0 (1 : Fin 64) ∗ dutyTok ER (cD c inS) 0 (0 : Fin 64)
    ∗ (((c : Thread nD τ).loc main_arg0) ↦{fullShare} X m c)
    ∗ (bigSep Finset.univ fun i : Fin 64 => ((oslice A1 (yp c) i).view.loc (c : Thread nD τ) ↦[(oslice A1 (yp c) i).view.set]{fullShare} f1))
    ∗ scr c)
/-- What it leaves. -/
def ProPost (fN : Buf (Elt F) (((xp c : Dev nD) : Thread nD τ).loc cc0_scratch0)) (fY : Buf (Elt F) (((yp c : Dev nD) : Thread nD τ).loc main_v1)) : sProp 𝕄 :=
  iprop((∃ W, owes (c : Thread nD τ) (OX c 64) W) ∗ atPos ER (cB c) 1 ∅ 0
    ∗ (((c : Thread nD τ).loc main_arg0) ↦{rS 1} X m c) ∗ cred (tallyAt (cD c inS) () NL)
    ∗ (bigSep Finset.univ fun i : Fin 64 => ((chunk R0 i).view.loc ((xp c : Dev nD) : Thread nD τ) ↦[(chunk R0 i).view.set]{fullShare} fN))
    ∗ (bigSep Finset.univ fun i : Fin 64 => ((oslice A1 c i).view.loc ((yp c : Dev nD) : Thread nD τ) ↦[(oslice A1 c i).view.set]{fullShare} fY)))

/-- The opening: the two barrier signals hand the neighbours this device's landing rows, the wait brings theirs, the local copy starts. -/
theorem pro_spec (f1 : Buf (Elt F) ((c : Thread nD τ).loc main_v1)) {α : Type} (k : Dev nD → Prog (TpuEff nD τ sig (Elt F) Λ₀ .tc) α) (Q : α → sProp 𝕄) :
    iprop(ProPre m K c f1 ∗ (∀ fN fY, ProPost m c fN fY -∗ wp frame (wpE (defs₀ (F := F)) 𝒱₀ c none) Set.univ (k c) Q))
      ⊢ wp frame (wpE (defs₀ (F := F)) 𝒱₀ c none) Set.univ (pro A0 R1 (Memref.isWhole_whole _) cc0_scratch6 >>= k) Q := by
  unfold pro
  simp only [Prog.lift, Prog.bind_op, Prog.bind_ret, Prog.pure_eq_ret, semSignalWord, semWaitWord, wp_deviceId]
  unfold ProPre scr
  iintro ⟨⟨#HR, #Hlev, ⟨%W, HO⟩, HcB, HatB, HtX, HtY, HtI, HA, HY1, ⟨%f0, Hs0⟩, ⟨%g0, Hs1⟩⟩, Hk⟩
  -- the signal to the x-neighbour's barrier cell
  iapply (Rounds.wp_signal 𝒱₀ ER (Rd m) (c : Thread nD τ) none (dst := (xp c : Thread nD τ)) (κ := K (cB (xp c)))
      (d := (0 : Fin 64)) (by rw [duties_bar]; decide) ((amount_bar m (xp c) 0).trans (by decide)) () (OX c 64 + tallyAt (cB (yp c)) () 1) rfl)
    $$ [HO HtX Hs0]
  · isplitr; · iapply (inv_at m K (xp c) (.reg barS)); iexact HR
    isplitl [HO]; · iexact HO
    isplitl [HtX]; · iexact HtX
    isplitl [Hs0]
    · rw [payload_barX]; unfold barPayX; rw [xp_xp]; iexists f0; iexact Hs0
    · iapply (reached_at m K (xp c) (.reg barS)); iexact HR
  iintro HO
  -- the signal to the y-neighbour's barrier cell
  iapply (Rounds.wp_signal 𝒱₀ ER (Rd m) (c : Thread nD τ) none (dst := (yp c : Thread nD τ)) (κ := K (cB (yp c)))
      (d := (1 : Fin 64)) (by rw [duties_bar]; decide) ((amount_bar m (yp c) 1).trans (by decide)) () (OX c 64) rfl)
    $$ [HO HtY HY1]
  · isplitr; · iapply (inv_at m K (yp c) (.reg barS)); iexact HR
    isplitl [HO]; · iexact HO
    isplitl [HtY]; · iexact HtY
    isplitl [HY1]
    · rw [payload_barY]; unfold barPayY; rw [yp_yp]; iexists f1; iexact HY1
    · iapply (reached_at m K (yp c) (.reg barS)); iexact HR
  iintro HO
  -- the wait for both neighbours' signals
  iapply (Rounds.wp_wait_rest_token 𝒱₀ ER (Rd m) (c : Thread nD τ) none (κ := K (cB c))
      (wpE_semWait_eq 𝒱₀ (c : Thread nD τ) none Set.univ) (Set.mem_univ _) () (O := OX c 64) (W := W) (R := 0) (m := 0) (T := ∅)
      (by rw [expect_bar]; decide)) $$ [HcB HO HatB]
  · isplitr; · iapply (inv_at m K c (.reg barS)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPayX barPayY
  icases Hp with ⟨⟨%fN, HN⟩, ⟨%fY, HY⟩⟩
  ihave HN' := (scratch_tiles (xp c) fN).1 $$ HN
  -- the input's share halved; the left half, on the rows and columns the local copy reads, is lent to it
  ihave HA2 := (pointsTo_share (PosShare.mem_left_op_right fullShare)).1 $$ HA
  icases HA2 with ⟨HAl, HAr⟩
  ihave HAl2 := (pointsTo_split_subset (Finset.subset_univ ((lsrc A0 c).view.set))).1 $$ HAl
  icases HAl2 with ⟨HAs, -⟩
  -- the local copy into the second scratch buffer
  have hR1 : (R1 : Memref sig .tc .vmem S4096x1024 .f32).view.set = Finset.univ := View.set_whole _
  have hpay : iprop((R1.view.loc (c : Thread nD τ) ↦[R1.view.set]{fullShare} (R1.view.write (Elt F) g0 ((lsrc A0 c).view.read (Elt F) (X m c)) Finset.univ))
      ∗ ((lsrc A0 c).view.loc (c : Thread nD τ) ↦[(lsrc A0 c).view.set]{fullShare.left} X m c)) ⊢ (Rd (F := F) m).payload (cD c inS) 0 (0 : Fin 64) := by
    rw [payload_in, inland, hR1]; unfold inPay Glocal
    exact sep_elim_left
  iapply (Rounds.wp_copy_pointsTo 𝒱₀ ER (Rd m) (c : Thread nD τ) none (src := lsrc A0 c) (dst := R1) (sem := .dma inS)
      (q := fullShare.left) (fs := X m c) (fd := g0) (κ := K (cD c inS)) (r := 0) (d := (0 : Fin 64))
      (by rw [duties_in]; exact Finset.mem_singleton_self _) () NL rfl (amount_in m c 0) hpay) $$ [HAs Hs1 HtI]
  · isplitr; · iapply (inv_at m K c (.dma inS)); iexact HR
    isplitl [HAs]; · iexact HAs
    isplitl [Hs1]; · rw [hR1]; iexact Hs1
    isplitl [HtI]; · iexact HtI
    iapply (reached_at m K c (.dma inS)); iexact HR
  iintro HcI
  iapply Hk $$ %fN %fY
  unfold ProPost
  isplitl [HO]; · iexists _; iexact HO
  isplitl [HatB]; · iexact HatB
  isplitl [HAr]; · iexact HAr
  isplitl [HcI]; · iexact HcI
  isplitl [HN']; · iexact HN'
  iexact HY

/-- The wait for the local copy: the second scratch buffer comes back holding this device's own rows. -/
theorem inwait_spec {α : Type} (k' : Prog (TpuEff nD τ sig (Elt F) Λ₀ .tc) α) (Q : α → sProp 𝕄) :
    iprop(records m K ∗ levAts L lv ∗ (∃ W, owes (c : Thread nD τ) (OY c 64) W) ∗ cred (tallyAt (cD c inS) () NL) ∗ atPos ER (cD c inS) 0 ∅ 0
        ∗ (((∃ W, owes (c : Thread nD τ) (OY c 64) W) ∗ atPos ER (cD c inS) 1 ∅ 0 ∗ inPay m c) -∗ wp frame (wpE (defs₀ (F := F)) 𝒱₀ c none) Set.univ k' Q))
      ⊢ wp frame (wpE (defs₀ (F := F)) 𝒱₀ c none) Set.univ (inwait A0 R1 (Memref.isWhole_whole _) cc0_scratch6 c >>= fun _ => k') Q := by
  unfold inwait
  simp only [Prog.lift, Prog.bind_op, Prog.bind_ret, Prog.pure_eq_ret]
  iintro ⟨#HR, #Hlev, ⟨%W, HO⟩, Hc, Hat, Hk⟩
  iapply (Rounds.wp_wait_rest_token 𝒱₀ ER (Rd m) (c : Thread nD τ) none (κ := K (cD c inS))
      (wpE_waitDma2_eq 𝒱₀ (c : Thread nD τ) none Set.univ) (Set.mem_univ _) () (O := OY c 64) (W := W) (R := 0) (m := 0) (T := ∅)
      (by rw [Nat.zero_add, expect_in])) $$ [Hc HO Hat]
  · isplitr; · iapply (inv_at m K c (.dma inS)); iexact HR
    isplitl [Hc]; · iexact Hc
    isplitl [HO]; · iexact HO
    isplitr; · iapply (mayWait_in c); iexact Hlev
    iexact Hat
  iintro ⟨HO, Hat, -, Hpay⟩
  ihave Hp := (Entails.of_eq (rest_in m c)) $$ Hpay
  iapply Hk
  isplitl [HO]; · iexists _; iexact HO
  isplitl [Hat]; · iexact Hat
  iexact Hp

end Steps

end Cert.KernelIdealProof

end
-- ==== Proof.Epi.lean ====
import proofs.«900299_g7700000000000300_dist_rs_v7x_xy2x2_x_m8192_n1024_f32_1_alg».proof.Proof.Inv
import proofs.«900299_g7700000000000300_dist_rs_v7x_xy2x2_x_m8192_n1024_f32_1_alg».proof.Proof.InvLemmas
import proofs.«900299_g7700000000000300_dist_rs_v7x_xy2x2_x_m8192_n1024_f32_1_alg».proof.Proof.LoopParts
import proofs.«900299_g7700000000000300_dist_rs_v7x_xy2x2_x_m8192_n1024_f32_1_alg».proof.Proof.GeoSets
import proofs.«900299_g7700000000000300_dist_rs_v7x_xy2x2_x_m8192_n1024_f32_1_alg».proof.Proof.GeoVals

/-!
After the passes: the cells are closed and the chunks joined back.

The 69 DMA semaphores of a device are the five named ones and the 64 chunk semaphores, so a separating conjunction
over all of them is one summand per named semaphore and a conjunction over the chunks. Each cell has a single round;
once it is consumed the owner closes the cell and takes its counter out at zero. The payloads the drained cells hold
are the pieces of the two buffers: the device's own 64 chunks of the result with the neighbour's 64 make the whole
result, and the two half shares of every chunk of the sums make the chunk at the full share, the 64 chunks the buffer.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The 69 semaphores, enumerated -/

/-- The 69 DMA semaphores are the five named ones and the 64 chunk semaphores. -/
theorem epi_sems_univ : (Finset.univ : Finset (DmaSem sig)) = insert xsS (insert ysS (insert yrS (insert inS (insert outS (Finset.univ.image xrS))))) := by
  decide +kernel

theorem epi_xrS_inj : Function.Injective xrS := by
  intro i j h
  have := congrArg Fin.val h
  rw [xrS_val, xrS_val] at this
  exact Fin.ext (by omega)

theorem epi_xs_not_mem : xsS ∉ insert ysS (insert yrS (insert inS (insert outS (Finset.univ.image xrS)))) := by decide +kernel
theorem epi_ys_not_mem : ysS ∉ insert yrS (insert inS (insert outS (Finset.univ.image xrS))) := by decide +kernel
theorem epi_yr_not_mem : yrS ∉ insert inS (insert outS (Finset.univ.image xrS)) := by decide +kernel
theorem epi_in_not_mem : inS ∉ insert outS (Finset.univ.image xrS) := by decide +kernel
theorem epi_out_not_mem : outS ∉ Finset.univ.image xrS := by decide +kernel

/-- A separating conjunction over the 69 semaphores, one summand per named semaphore and one per chunk. -/
theorem epi_bigSep_sems (Φ : DmaSem sig → sProp 𝕄) :
    bigSep Finset.univ Φ = iprop(Φ xsS ∗ Φ ysS ∗ Φ yrS ∗ Φ inS ∗ Φ outS ∗ bigSep Finset.univ fun i : Fin 64 => Φ (xrS i)) := by
  rw [epi_sems_univ, bigSep_insert epi_xs_not_mem, bigSep_insert epi_ys_not_mem, bigSep_insert epi_yr_not_mem, bigSep_insert epi_in_not_mem,
    bigSep_insert epi_out_not_mem, bigSep_image_of_injOn (fun a _ b _ h => epi_xrS_inj h)]
  rfl

section Steps
variable (K : GSem nD τ sig → ℕ) (c : Dev nD)

/-- The two half shares of every chunk of the sums rejoin, and the 64 chunks make the whole buffer. -/
theorem epi_scratch0_join :
    iprop((bigSep Finset.univ fun i : Fin 64 => ysPay m c i)
      ∗ (bigSep Finset.univ fun i : Fin 64 => ((chunk R0 i).view.loc (c : Thread nD τ) ↦[(chunk R0 i).view.set]{fullShare.right} Gsum m c)))
      ⊢ ((((c : Thread nD τ).loc cc0_scratch0) ↦{fullShare} Gsum m c) : sProp 𝕄) := by
  rw [← bigSep_sep']
  refine (bigSep_mono fun i _ => ?_).trans (scratch_tiles c (Gsum m c)).2
  exact (pointsTo_share (PosShare.mem_left_op_right fullShare)).2

/-- The device's own 64 chunks of the result and its neighbour's 64 make the whole result; the half shares of the sums' chunks that came back with them are kept. -/
theorem epi_result_join :
    iprop((bigSep Finset.univ fun i : Fin 64 => outPay m c i) ∗ (bigSep Finset.univ fun i : Fin 64 => yrPay m c i))
      ⊢ iprop((((c : Thread nD τ).loc main_v1) ↦{fullShare} outOf c (Gsum m))
          ∗ bigSep Finset.univ fun i : Fin 64 => ((chunk R0 i).view.loc (c : Thread nD τ) ↦[(chunk R0 i).view.set]{fullShare.right} Gsum m c)) := by
  unfold outPay yrPay
  rw [bigSep_sep']
  iintro ⟨⟨Ho, Hr⟩, Hy⟩
  isplitr [Hr]
  · iapply (out_tiles c (outOf c (Gsum m))).2
    isplitl [Ho] <;> iassumption
  · iexact Hr

/-- A DMA cell of the device whose one round is consumed closes: its counter comes out, at zero. -/
theorem epi_close_cell (s : DmaSem sig) :
    iprop(records m K ∗ atPos ER (cD c s) 1 ∅ 0) ⊢ |={Set.univ}=> (semVal (cD c s) 0 : sProp 𝕄) := by
  iintro ⟨#HR, Hat⟩
  iapply (Rounds.cell_close ER (Rd m) (Set.mem_univ _) (fun h => h) (R := 1) (duties_later m (cD c s)))
  isplitr
  · iapply (inv_at m K c (.dma s)); iexact HR
  · iexact Hat

/-- The 64 chunk cells close together. -/
theorem epi_close_chunks :
    iprop(records m K ∗ bigSep Finset.univ fun i : Fin 64 => atPos ER (cD c (xrS i)) 1 ∅ 0)
      ⊢ |={Set.univ}=> (bigSep Finset.univ fun i : Fin 64 => semVal (cD c (xrS i)) 0 : sProp 𝕄) :=
  (bigSep_with_persistent (Ψ := fun i : Fin 64 => iprop(|={Set.univ}=> (semVal (cD c (xrS i)) 0 : sProp 𝕄)))
    fun i _ => epi_close_cell m K c (xrS i)).trans (bigSep_fupd _ _)

/-- After the passes: every own cell is closed at zero, the chunks are joined back into the scratch buffer and the result. -/
theorem epilogue :
    iprop(records m K ∗ WDone m (cD c xsS) ∗ WDone m (cD c ysS) ∗ WDone m (cD c yrS) ∗ WDone m (cD c outS)
        ∗ (bigSep Finset.univ fun i : Fin 64 => atPos ER (cD c (xrS i)) 1 ∅ 0) ∗ atPos ER (cD c inS) 1 ∅ 0
        ∗ (((c : Thread nD τ).loc cc0_scratch1) ↦{fullShare} Glocal m c) ∗ (((c : Thread nD τ).loc main_arg0) ↦{rS 65} X m c))
      ⊢ |={Set.univ}=> Φ₁ m c := by
  unfold WDone
  simp only [payload_out, payload_yr, payload_ys]
  iintro ⟨#HR, ⟨Hxs, Pxs⟩, ⟨Hys, Pys⟩, ⟨Hyr, Pyr⟩, ⟨Hout, Pout⟩, Hxr, Hin, Hs1, Ha0⟩
  imod (epi_close_cell m K c xsS) $$ [Hxs] with Sxs
  · isplitr; · iexact HR
    iexact Hxs
  imod (epi_close_cell m K c ysS) $$ [Hys] with Sys
  · isplitr; · iexact HR
    iexact Hys
  imod (epi_close_cell m K c yrS) $$ [Hyr] with Syr
  · isplitr; · iexact HR
    iexact Hyr
  imod (epi_close_cell m K c inS) $$ [Hin] with Sin
  · isplitr; · iexact HR
    iexact Hin
  imod (epi_close_cell m K c outS) $$ [Hout] with Sout
  · isplitr; · iexact HR
    iexact Hout
  imod (epi_close_chunks m K c) $$ [Hxr] with Sxr
  · isplitr; · iexact HR
    iexact Hxr
  imodintro
  ihave Hres := (epi_result_join m c) $$ [Pout Pyr]
  · isplitl [Pout] <;> iassumption
  icases Hres with ⟨Hv1, Hright⟩
  ihave Hs0 := (epi_scratch0_join m c) $$ [Pys Hright]
  · isplitl [Pys] <;> iassumption
  unfold Φ₁ scr
  isplitl [Ha0]; · iexact Ha0
  isplitl [Hv1]; · iexact Hv1
  isplitl [Hs0 Hs1]
  · isplitl [Hs0]
    · iexists (Gsum m c); iexact Hs0
    · iexists (Glocal m c); iexact Hs1
  · rw [epi_bigSep_sems]
    isplitl [Sxs]; · iexact Sxs
    isplitl [Sys]; · iexact Sys
    isplitl [Syr]; · iexact Syr
    isplitl [Sin]; · iexact Sin
    isplitl [Sout]; · iexact Sout
    iexact Sxr

end Steps

end Cert.KernelIdealProof

end
-- ==== Proof.Body.lean ====
import proofs.«900299_g7700000000000300_dist_rs_v7x_xy2x2_x_m8192_n1024_f32_1_alg».proof.Proof.Step1
import proofs.«900299_g7700000000000300_dist_rs_v7x_xy2x2_x_m8192_n1024_f32_1_alg».proof.Proof.Step2
import proofs.«900299_g7700000000000300_dist_rs_v7x_xy2x2_x_m8192_n1024_f32_1_alg».proof.Proof.Step3
import proofs.«900299_g7700000000000300_dist_rs_v7x_xy2x2_x_m8192_n1024_f32_1_alg».proof.Proof.Pro
import proofs.«900299_g7700000000000300_dist_rs_v7x_xy2x2_x_m8192_n1024_f32_1_alg».proof.Proof.Epi
import proofs.«900299_g7700000000000300_dist_rs_v7x_xy2x2_x_m8192_n1024_f32_1_alg».proof.Proof.InvLemmas

/-!
The body of one device: a counted-loop rule for the passes, and the passes chained from the launch's hand-over to the exit.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Loop
variable (c : Dev nD)

/-- A pass of 64 trips keeps an invariant indexed by the trip: from the invariant at trip `64 - n`, the last `n` trips reach it at 64. -/
theorem wp_loopFrom {α : Type} (body : Fin 64 → Prog (TpuEff nD τ sig (Elt F) Λ₀ .tc) PUnit) (I : ℕ → sProp 𝕄) (Q : α → sProp 𝕄)
    (hstep : ∀ (i : Fin 64) (k' : Prog (TpuEff nD τ sig (Elt F) Λ₀ .tc) α),
      iprop(I i.val ∗ (I (i.val + 1) -∗ wp frame (wpE (defs₀ (F := F)) 𝒱₀ c none) Set.univ k' Q)) ⊢ wp frame (wpE (defs₀ (F := F)) 𝒱₀ c none) Set.univ (body i >>= fun _ => k') Q) :
    ∀ (n : ℕ) (h : n ≤ 64) (k : Prog (TpuEff nD τ sig (Elt F) Λ₀ .tc) α),
      iprop(I (64 - n) ∗ (I 64 -∗ wp frame (wpE (defs₀ (F := F)) 𝒱₀ c none) Set.univ k Q)) ⊢ wp frame (wpE (defs₀ (F := F)) 𝒱₀ c none) Set.univ (loopFrom body n h k) Q := by
  intro n
  induction n with
  | zero =>
    intro h k
    show iprop(I 64 ∗ (I 64 -∗ wp frame (wpE (defs₀ (F := F)) 𝒱₀ c none) Set.univ k Q)) ⊢ wp frame (wpE (defs₀ (F := F)) 𝒱₀ c none) Set.univ k Q
    iintro ⟨HI, Hk⟩
    iapply Hk
    iexact HI
  | succ n ih =>
    intro h k
    have hs := hstep ⟨64 - (n + 1), by omega⟩ (loopFrom body n (by omega) k)
    have e : 64 - (n + 1) + 1 = 64 - n := by omega
    simp only [e] at hs
    show _ ⊢ wp frame (wpE (defs₀ (F := F)) 𝒱₀ c none) Set.univ (body ⟨64 - (n + 1), by omega⟩ >>= fun _ => loopFrom body n (by omega) k) Q
    refine BIBase.Entails.trans ?_ hs
    iintro ⟨HI, Hk⟩
    isplitl [HI]
    · iexact HI
    · iintro HI'
      iapply (ih _ k)
      isplitl [HI']
      · iexact HI'
      · iexact Hk

end Loop

/-! ## Families over the 69 DMA semaphores and the 70 cells, by kind -/

theorem body_xrS_inj : Function.Injective (fun i : Fin 64 => (xrS i : Fin 69)) := by
  intro i j h
  have := congrArg Fin.val h
  simp only [xrS_val] at this
  exact Fin.ext (by omega)

theorem univ69 : (Finset.univ : Finset (Fin 69)) =
    insert (xsS : Fin 69) (insert (ysS : Fin 69) (insert (yrS : Fin 69) (insert (inS : Fin 69) (insert (outS : Fin 69)
      ((Finset.univ : Finset (Fin 64)).map ⟨fun i => (xrS i : Fin 69), body_xrS_inj⟩))))) := by decide +kernel

theorem bigSep_fin69 (Φ : Fin 69 → sProp 𝕄) :
    bigSep Finset.univ Φ = iprop(Φ xsS ∗ Φ ysS ∗ Φ yrS ∗ Φ inS ∗ Φ outS ∗ bigSep Finset.univ fun i : Fin 64 => Φ (xrS i)) := by
  rw [univ69, bigSep_insert (by decide +kernel), bigSep_insert (by decide +kernel), bigSep_insert (by decide +kernel),
    bigSep_insert (by decide +kernel), bigSep_insert (by decide +kernel), bigSep_map]
  rfl

theorem positions_split (c : Dev nD) :
    positions (F := F) c = iprop(atPos ER (cB c) 0 ∅ 0 ∗ bigSep Finset.univ fun j : Fin 69 => atPos ER (cD c j) 0 ∅ 0) := by
  unfold positions
  rw [Fin.univ_succ, Finset.cons_eq_insert, bigSep_insert (by simp), bigSep_map]
  rfl

/-- 64 chunks' credit in one token is 64 tokens of a chunk's credit. -/
theorem cred_split64 (g : GSem nD τ sig) :
    (cred (tallyAt g () (64 * N)) : sProp 𝕄) ⊣⊢ bigSep (Finset.univ : Finset (Fin 64)) fun _ => cred (tallyAt g () N) := by
  have h : (tallyAt g () (64 * N) : CellTallies nD τ sig Unit) = ∑ _i : Fin 64, tallyAt g () N := by
    rw [Finset.sum_const, Finset.card_univ, Fintype.card_fin]
    have : ∀ n : ℕ, n • (tallyAt g () N : CellTallies nD τ sig Unit) = tallyAt g () (n * N) := by
      intro n; induction n with
      | zero => rw [zero_smul, Nat.zero_mul]; exact (tallyAt_zero g ()).symm
      | succ n ih => rw [succ_nsmul, ih, tallyAt_add, Nat.succ_mul]
    exact (this 64).symm
  rw [h, Pipeline.cred_finsetSum]

/-! ## The body -/

section Loop64
variable (c : Dev nD)

theorem wp_loop64 {α : Type} (body : Fin 64 → Prog (TpuEff nD τ sig (Elt F) Λ₀ .tc) PUnit) (I : ℕ → sProp 𝕄) (Q : α → sProp 𝕄)
    (hstep : ∀ (i : Fin 64) (k' : Prog (TpuEff nD τ sig (Elt F) Λ₀ .tc) α),
      iprop(I i.val ∗ (I (i.val + 1) -∗ wp frame (wpE (defs₀ (F := F)) 𝒱₀ c none) Set.univ k' Q)) ⊢ wp frame (wpE (defs₀ (F := F)) 𝒱₀ c none) Set.univ (body i >>= fun _ => k') Q)
    (k : Prog (TpuEff nD τ sig (Elt F) Λ₀ .tc) α) :
    iprop(I 0 ∗ (I 64 -∗ wp frame (wpE (defs₀ (F := F)) 𝒱₀ c none) Set.univ k Q)) ⊢ wp frame (wpE (defs₀ (F := F)) 𝒱₀ c none) Set.univ (loopFrom body 64 (Nat.le_refl _) k) Q := by
  have h := wp_loopFrom c body I Q hstep 64 (Nat.le_refl _) k
  rwa [Nat.sub_self] at h

end Loop64

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

section Body
variable (K : GSem nD τ sig → ℕ) (c : Dev nD)

/-- What the body of device `c` starts from, the cells' names fixed. -/
def bodyPre : sProp 𝕄 :=
  iprop(ghost m K c ∗ creds c ∗ levAts L lv
    ∗ (((c : Thread nD τ).loc main_arg0) ↦{fullShare} X m c) ∗ (((c : Thread nD τ).loc main_v1) ↦{fullShare} m ((c : Thread nD τ).loc main_v1))
    ∗ scr c ∗ (dats m 0 c).owesAt () t₀.castSucc)

def bodyPost : sProp 𝕄 := iprop(Φ₁ m c ∗ (dats m 0 c).owesAt () t₀.succ)

theorem OX_zero : OX c 0 = OY c 64 := rfl
theorem OY_zero : OY c 0 = 0 := rfl

/-- The drained-cell state by the trip count. -/
theorem WSt_lt (g : GSem nD τ sig) {n : ℕ} (h : n < 64) : WSt m g n = WInv m g n := if_pos h
theorem WSt_top (g : GSem nD τ sig) : WSt m g 64 = WDone m g := if_neg (by decide)

theorem WInv_zero_intro (g : GSem nD τ sig) :
    iprop(atPos ER g 0 ∅ 0 ∗ bigSep (Finset.univ : Finset (Fin 64)) fun _ => cred (tallyAt g () N)) ⊢ WSt m g 0 := by
  rw [WSt_lt m g (by decide : (0 : ℕ) < 64)]
  unfold WInv
  rw [ge_zero, Nat.zero_mul]
  iintro ⟨Hp, Hc⟩
  iexists ∅
  rw [bigSep_empty]
  isplitl [Hp]; · iexact Hp
  isplitr; · iempintro
  iexact Hc

theorem Inv1_intro (fN : Buf (Elt F) (((xp c : Dev nD) : Thread nD τ).loc cc0_scratch0)) :
    iprop(records m K ∗ (∃ W, owes (c : Thread nD τ) (OX c 64) W) ∗ (((c : Thread nD τ).loc main_arg0) ↦{rS 1} X m c)
        ∗ (bigSep Finset.univ fun j : Fin 64 => ((chunk R0 j).view.loc ((xp c : Dev nD) : Thread nD τ) ↦[(chunk R0 j).view.set]{fullShare} fN))
        ∗ (bigSep Finset.univ fun i : Fin 64 => iprop(dutyTok ER (cD c xsS) 0 i ∗ dutyTok ER (cD (xp c) (xrS i)) 0 (0 : Fin 64))))
      ⊢ Inv1 m K c fN 0 := by
  unfold Inv1
  rw [ge_zero, lt_zero, bigSep_empty]
  simp only [bigSep_sep']
  iintro ⟨HR, HO, HA0, Hch, Ht1, Ht2⟩
  isplitl [HR]; · iexact HR
  isplitl [HO]; · iexact HO
  isplitl [HA0]; · iexact HA0
  isplitl [Hch Ht1 Ht2]
  · isplitl [Hch]; · iexact Hch
    isplitl [Ht1]; · iexact Ht1
    iexact Ht2
  · iempintro

theorem Inv1_elim (fN : Buf (Elt F) (((xp c : Dev nD) : Thread nD τ).loc cc0_scratch0)) :
    Inv1 m K c fN 64 ⊢ iprop((∃ W, owes (c : Thread nD τ) (OY c 64) W) ∗ (((c : Thread nD τ).loc main_arg0) ↦{rS 65} X m c)
        ∗ bigSep (Finset.univ : Finset (Fin 64)) fun _ => cred (tallyAt (cD c xsS) () N)) := by
  unfold Inv1
  rw [ge_top, lt_top, bigSep_empty, Nat.sub_self, OX_zero]
  iintro ⟨-, HO, HA0, -, Hc⟩
  isplitl [HO]; · iexact HO
  isplitl [HA0]; · iexact HA0
  iexact Hc

theorem Inv2_intro (fY : Buf (Elt F) (((yp c : Dev nD) : Thread nD τ).loc main_v1)) (f1 : Buf (Elt F) ((c : Thread nD τ).loc main_v1)) :
    iprop(records m K ∗ levAts L lv ∗ (∃ W, owes (c : Thread nD τ) (OY c 64) W) ∗ (((c : Thread nD τ).loc cc0_scratch1) ↦{fullShare} Glocal m c)
        ∗ (bigSep Finset.univ fun j : Fin 64 => atPos ER (cD c (xrS j)) 0 ∅ 0)
        ∗ (bigSep Finset.univ fun j : Fin 64 => cred (tallyAt (cD c (xrS j)) () N))
        ∗ (bigSep Finset.univ fun j : Fin 64 => ((oslice A1 c j).view.loc ((yp c : Dev nD) : Thread nD τ) ↦[(oslice A1 c j).view.set]{fullShare} fY))
        ∗ (bigSep Finset.univ fun j : Fin 64 => ((oslice A1 c j).view.loc (c : Thread nD τ) ↦[(oslice A1 c j).view.set]{fullShare} f1))
        ∗ (bigSep Finset.univ fun i : Fin 64 => iprop(dutyTok ER (cD c ysS) 0 i ∗ dutyTok ER (cD (yp c) yrS) 0 i ∗ dutyTok ER (cD c outS) 0 i)))
      ⊢ Inv2 m K c fY f1 0 := by
  unfold Inv2
  rw [ge_zero, lt_zero, bigSep_empty]
  simp only [bigSep_sep']
  iintro ⟨HR, Hl, HO, Hs, Hp, Hc, Hy, Ho, Ht1, Ht2, Ht3⟩
  isplitl [HR]; · iexact HR
  isplitl [Hl]; · iexact Hl
  isplitl [HO]; · iexact HO
  isplitl [Hs]; · iexact Hs
  isplitl [Hp Hc Hy Ho Ht1 Ht2 Ht3]
  · isplitl [Hp]; · iexact Hp
    isplitl [Hc]; · iexact Hc
    isplitl [Hy]; · iexact Hy
    isplitl [Ho]; · iexact Ho
    isplitl [Ht1]; · iexact Ht1
    isplitl [Ht2]; · iexact Ht2
    iexact Ht3
  · iempintro

theorem Inv2_elim (fY : Buf (Elt F) (((yp c : Dev nD) : Thread nD τ).loc main_v1)) (f1 : Buf (Elt F) ((c : Thread nD τ).loc main_v1)) :
    Inv2 m K c fY f1 64 ⊢ iprop((∃ W, owes (c : Thread nD τ) 0 W) ∗ (((c : Thread nD τ).loc cc0_scratch1) ↦{fullShare} Glocal m c)
        ∗ (bigSep Finset.univ fun j : Fin 64 => atPos ER (cD c (xrS j)) 1 ∅ 0)
        ∗ (bigSep (Finset.univ : Finset (Fin 64)) fun _ => cred (tallyAt (cD c ysS) () N))
        ∗ (bigSep (Finset.univ : Finset (Fin 64)) fun _ => cred (tallyAt (cD c outS) () N))) := by
  unfold Inv2
  rw [ge_top, lt_top, bigSep_empty, Nat.sub_self, OY_zero]
  simp only [bigSep_sep']
  iintro ⟨-, -, HO, Hs, -, Hp, Hy, Ho⟩
  isplitl [HO]; · iexact HO
  isplitl [Hs]; · iexact Hs
  isplitl [Hp]; · iexact Hp
  isplitl [Hy]; · iexact Hy
  iexact Ho

theorem Inv3_intro :
    iprop(records m K ∗ (∃ W, owes (c : Thread nD τ) 0 W) ∗ WSt m (cD c xsS) 0 ∗ WSt m (cD c ysS) 0 ∗ WSt m (cD c yrS) 0 ∗ WSt m (cD c outS) 0)
      ⊢ Inv3 m K c 0 := by
  unfold Inv3; exact BIBase.Entails.rfl

theorem Inv3_elim :
    Inv3 m K c 64 ⊢ iprop((∃ W, owes (c : Thread nD τ) 0 W) ∗ WDone m (cD c xsS) ∗ WDone m (cD c ysS) ∗ WDone m (cD c yrS) ∗ WDone m (cD c outS)) := by
  unfold Inv3
  rw [WSt_top, WSt_top, WSt_top, WSt_top]
  iintro ⟨-, HO, H1, H2, H3, H4⟩
  isplitl [HO]; · iexact HO
  isplitl [H1]; · iexact H1
  isplitl [H2]; · iexact H2
  isplitl [H3]; · iexact H3
  iexact H4

theorem bigSep_W0' (Φ : Fin cfg0.W → sProp 𝕄) : bigSep Finset.univ Φ = iprop(emp) := by
  have hW : (Finset.univ : Finset (Fin cfg0.W)) = ∅ := @Finset.univ_eq_empty (Fin cfg0.W) _ (show IsEmpty (Fin 0) from Fin.isEmpty)
  rw [hW, bigSep_empty]
  rfl

set_option maxHeartbeats 1600000 in
/-- The opening, the three passes and the closing, chained. -/
theorem sound_body (Kt : PUnit → sProp 𝕄) :
    iprop(bodyPre m K c ∗ (bodyPost m c -∗ Kt ⟨⟩))
      ⊢ wp frame (wpE (defs₀ (F := F)) 𝒱₀ c none) Set.univ (cc0_body (F := F) (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Kt := by
  rw [Loop.body_parts]
  unfold bodyPre ghost payToks creds
  rw [positions_split, bigSep_fin69]
  iintro ⟨⟨⟨#HR, ⟨HpB, HpXS, HpYS, HpYR, HpIN, HpOUT, HpXR⟩, HtBX, HtBY, HtIN, HtX, HtY⟩, ⟨HcB, HcXR, HcYR⟩, #Hlev, HA0, HA1, Hscr, Ho⟩, Hk⟩
  unfold Dat.owesAt Pipeline.owesWithin
  icases Ho with ⟨%W, %hW, HO⟩
  rw [show (dats m 0 c).owed t₀.castSucc = O₀ c from rfl]
  ihave HA1' := ((out_tiles c (m ((c : Thread nD τ).loc main_v1))).1) $$ HA1
  icases HA1' with ⟨Hown, Hoth⟩
  -- the opening
  iapply (pro_spec m K c (m ((c : Thread nD τ).loc main_v1)) _ Kt)
  isplitl [HO HcB HpB HtBX HtBY HtIN HA0 Hoth Hscr]
  · unfold ProPre
    isplitr; · iexact HR
    isplitr; · iexact Hlev
    isplitl [HO]; · iexists W; iexact HO
    isplitl [HcB]; · iexact HcB
    isplitl [HpB]; · iexact HpB
    isplitl [HtBX]; · iexact HtBX
    isplitl [HtBY]; · iexact HtBY
    isplitl [HtIN]; · iexact HtIN
    isplitl [HA0]; · iexact HA0
    isplitl [Hoth]; · iexact Hoth
    iexact Hscr
  iintro %fN %fY HP
  unfold ProPost
  icases HP with ⟨HO, HpB, HA0, HcIN, HchN, HchY⟩
  -- pass 1
  iapply (wp_loop64 c (iter1 A0 R0 cc0_scratch2 cc0_scratch3 c) (Inv1 m K c fN) Kt (fun i k' => step1 m K c fN i k' Kt) _)
  isplitl [HO HA0 HchN HtX]
  · iapply (Inv1_intro m K c fN)
    isplitr; · iexact HR
    isplitl [HO]; · iexact HO
    isplitl [HA0]; · iexact HA0
    isplitl [HchN]; · iexact HchN
    iexact HtX
  iintro H1
  ihave H1' := (Inv1_elim m K c fN) $$ H1
  icases H1' with ⟨HO, HA0, HcXS⟩
  -- the wait for the local copy
  iapply (inwait_spec m K c _ Kt)
  isplitr; · iexact HR
  isplitr; · iexact Hlev
  isplitl [HO]; · iexact HO
  isplitl [HcIN]; · iexact HcIN
  isplitl [HpIN]; · iexact HpIN
  iintro ⟨HO, HpIN, Hin⟩
  unfold inPay
  -- pass 2
  iapply (wp_loop64 c (iter2 A0 A1 R0 R1 cc0_scratch3 cc0_scratch4 cc0_scratch5 cc0_scratch7 c) (Inv2 m K c fY (m ((c : Thread nD τ).loc main_v1))) Kt
    (fun i k' => step2 m K c fY (m ((c : Thread nD τ).loc main_v1)) i k' Kt) _)
  isplitl [HO Hin HpXR HcXR HchY Hown HtY]
  · iapply (Inv2_intro m K c fY (m ((c : Thread nD τ).loc main_v1)))
    isplitr; · iexact HR
    isplitr; · iexact Hlev
    isplitl [HO]; · iexact HO
    isplitl [Hin]; · iexact Hin
    isplitl [HpXR]; · iexact HpXR
    isplitl [HcXR]; · iexact HcXR
    isplitl [HchY]; · iexact HchY
    isplitl [Hown]; · iexact Hown
    iexact HtY
  iintro H2
  ihave H2' := (Inv2_elim m K c fY (m ((c : Thread nD τ).loc main_v1))) $$ H2
  icases H2' with ⟨HO, Hin, HpXR, HcYS, HcOUT⟩
  ihave HcYR' := ((cred_split64 (cD c yrS)).1) $$ HcYR
  -- pass 3
  iapply (wp_loop64 c (iter3 A0 A1 R0 cc0_scratch2 cc0_scratch4 cc0_scratch5 cc0_scratch7 c) (Inv3 m K c) Kt (fun i k' => step3 m K c i k' Kt) _)
  isplitl [HO HpXS HcXS HpYS HcYS HpYR HcYR' HpOUT HcOUT]
  · iapply (Inv3_intro m K c)
    isplitr; · iexact HR
    isplitl [HO]; · iexact HO
    isplitl [HpXS HcXS]
    · iapply (WInv_zero_intro m (cD c xsS)); isplitl [HpXS]; · iexact HpXS
      iexact HcXS
    isplitl [HpYS HcYS]
    · iapply (WInv_zero_intro m (cD c ysS)); isplitl [HpYS]; · iexact HpYS
      iexact HcYS
    isplitl [HpYR HcYR']
    · iapply (WInv_zero_intro m (cD c yrS)); isplitl [HpYR]; · iexact HpYR
      iexact HcYR'
    · iapply (WInv_zero_intro m (cD c outS)); isplitl [HpOUT]; · iexact HpOUT
      iexact HcOUT
  iintro H3
  ihave H3' := (Inv3_elim m K c) $$ H3
  icases H3' with ⟨⟨%W', HO⟩, HdXS, HdYS, HdYR, HdOUT⟩
  -- the closing
  rw [Prog.pure_eq_ret, wp_ret]
  imod (epilogue m K c) $$ [HdXS HdYS HdYR HdOUT HpXR HpIN Hin HA0] with HΦ
  · isplitr; · iexact HR
    isplitl [HdXS]; · iexact HdXS
    isplitl [HdYS]; · iexact HdYS
    isplitl [HdYR]; · iexact HdYR
    isplitl [HdOUT]; · iexact HdOUT
    isplitl [HpXR]; · iexact HpXR
    isplitl [HpIN]; · iexact HpIN
    isplitl [Hin]; · iexact Hin
    iexact HA0
  imodintro
  iapply Hk
  unfold bodyPost Dat.owesAt Pipeline.owesWithin
  rw [show (dats m 0 c).owed t₀.succ = 0 from rfl]
  isplitl [HΦ]; · iexact HΦ
  iexists W'
  isplitr; · ipureintro; exact fun _ _ => Or.inl trivial
  iexact HO

/-- The pipeline's body at the one grid point is the printed body on the whole buffers. -/
theorem defs_body (t : Fin cfg0.N) :
    defs₀ (F := F) Proc.tc cfg0.body (cfg0.bodyArgs t (cfg0.slots t))
      = cc0_body (F := F) (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 := by
  chain_rfl

theorem bigSep_W0_intro (Φ : Fin cfg0.W → sProp 𝕄) : (iprop(emp) : sProp 𝕄) ⊢ bigSep Finset.univ Φ := by
  rw [bigSep_W0']

set_option maxRecDepth 16384 in
/-- The library's body obligation on device `c`. -/
theorem body_obligation (c : Dev nD) : BodyObligation (dats (F := F) m 0 c) (defs₀ (F := F)) 𝒱₀ () Set.univ := fun t => by
  obtain ⟨tv, ht⟩ := t
  have htv : tv = 0 := by have := cfg0_N; omega
  subst htv
  rw [defs_body]
  iintro ⟨HΦ, Ho, -⟩
  ihave HΦ' := (show (dats m 0 c).Φ (Fin.castSucc (⟨0, ht⟩ : Fin cfg0.N)) ⊢ Φ₀ m c from BIBase.Entails.rfl) $$ HΦ
  unfold Φ₀ start
  icases HΦ' with ⟨⟨⟨%K, Hg⟩, Hcr, Hlev, HA0, HA1⟩, Hscr⟩
  iapply (sound_body m K c _)
  isplitl
  · unfold bodyPre
    isplitl [Hg]; · iexact Hg
    isplitl [Hcr]; · iexact Hcr
    isplitl [Hlev]; · iexact Hlev
    isplitl [HA0]; · iexact HA0
    isplitl [HA1]; · iexact HA1
    isplitl [Hscr]; · iexact Hscr
    iexact Ho
  · unfold bodyPost
    iintro ⟨H1, H2⟩
    ihave H1' := (show Φ₁ m c ⊢ (dats m 0 c).Φ (Fin.succ (⟨0, ht⟩ : Fin cfg0.N)) from BIBase.Entails.rfl) $$ H1
    isplitl [H1']; · iexact H1'
    isplitl [H2]; · iexact H2
    iapply (bigSep_W0_intro _)
    iempintro

end Body

end Cert.KernelIdealProof

end
-- ==== Proof.LaunchGhost.lean ====
import proofs.«900299_g7700000000000300_dist_rs_v7x_xy2x2_x_m8192_n1024_f32_1_alg».proof.Proof.InvLemmas
import Mathlib.Data.Fintype.Basic
import Mathlib.Data.Finset.Fold

/-!
The ghost side of the launch: the launch element of the protocol's algebra, what it deals each device,
and the one global step that puts every cell's invariant in place and hands each duty's token to the device that pays it.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the cells, and the duties of each one's round -/

theorem idxOf_csem (k : Fin 70) : idxOf (csem k) = k := by
  unfold csem
  split
  · next h => exact Fin.ext h.symm
  · next h => exact Fin.ext (show k.val - 1 + 1 = k.val by omega)

theorem kcell_injective : Function.Injective (kcell : Dev nD × Fin 70 → GSem nD τ sig) := by
  rintro ⟨c, k⟩ ⟨c', k'⟩ h
  have h1 : c = c' := congrArg (fun g : GSem nD τ sig => g.1.1) h
  have h2 : csem k = csem k' := congrArg Prod.snd h
  have h3 : k = k' := by rw [← idxOf_csem k, h2, idxOf_csem]
  rw [h1, h3]

/-- The 4 × 70 cells. -/
def allCells : Finset (GSem nD τ sig) := Finset.univ.map ⟨kcell, kcell_injective⟩

/-- The duties of the one round of a device's cell number `k`: the barrier's two; all 64 on the two send cells, the result's
    receive cell and the copy-out cell; one on each chunk's receive cell and on the local copy's cell. -/
def dutySet (k : Fin 70) : Finset (Fin 64) :=
  if k.val = 0 then {0, 1} else if k.val = 1 ∨ k.val = 66 ∨ k.val = 67 ∨ k.val = 69 then Finset.univ else {0}

/-- The duties of a cell's round 0 as the schedule gives them, read off the semaphore alone. -/
def dutiesOf : SemLoc sig → Finset (Fin 64)
  | .reg _ => {0, 1}
  | .dma s => match ck s with
    | .xr _ => {0} | .inn => {0} | _ => Finset.univ

theorem dutiesOf_csem : ∀ k : Fin 70, dutiesOf (csem k) = dutySet k := by decide +kernel

/-- The table is the schedule's. -/
theorem dutySet_eq (c : Dev nD) (k : Fin 70) : (Rd (F := F) m).duties (kcell (c, k)) 0 = dutySet k := by
  rw [← dutiesOf_csem]
  show (if (0 : ℕ) ≠ 0 ∨ ((c : Thread nD τ)).2 ≠ .tc then (∅ : Finset (Fin 64)) else dutiesOf (csem k)) = _
  rw [if_neg (by rintro (h | h); exact h rfl; exact h rfl)]

/-- A duty token's key from (device, cell number) and the duty. -/
abbrev tokOf (x : (_ : Dev nD × Fin 70) × Fin 64) : GSem nD τ sig × ℕ × Fin 64 := (kcell x.1, 0, x.2)

theorem tokOf_injective : Function.Injective tokOf := by
  rintro ⟨a, d⟩ ⟨b, e⟩ h
  have h1 : a = b := kcell_injective (congrArg (fun x : GSem nD τ sig × ℕ × Fin 64 => x.1) h)
  have h2 : d = e := congrArg (fun x : GSem nD τ sig × ℕ × Fin 64 => x.2.2) h
  subst h1; subst h2; rfl

/-- Every cell's duty tokens. -/
def allToks : Finset (GSem nD τ sig × ℕ × Fin 64) :=
  ((Finset.univ : Finset (Dev nD × Fin 70)).sigma fun ck => dutySet ck.2).map ⟨tokOf, tokOf_injective⟩

/-- The launch element of the protocol's algebra. -/
def uB : UB := initOf allCells allToks

/-- The duty tokens of device `c`'s own cells. -/
def ownToks (c : Dev nD) : sProp 𝕄 :=
  bigSep Finset.univ fun k : Fin 70 => bigSep (dutySet k) fun d => dutyTok ER (kcell (c, k)) 0 d

/-- What the launch element deals device `c`: each of its 70 cells' round state at counter zero, its position at the start of
    round 0 with that round reached, and its own cells' duty tokens. -/
def G (c : Dev nD) : sProp 𝕄 :=
  iprop((bigSep Finset.univ fun k : Fin 70 => roundState ER (Rd m) (kcell (c, k)) 0)
    ∗ (bigSep Finset.univ fun k : Fin 70 => iprop(atPos ER (kcell (c, k)) 0 ∅ 0 ∗ reached ER (kcell (c, k)) 0)) ∗ ownToks c)

theorem bigSep_allCells (Φ : GSem nD τ sig → sProp 𝕄) :
    bigSep allCells Φ = bigSep Finset.univ fun c : Dev nD => bigSep Finset.univ fun k : Fin 70 => Φ (kcell (c, k)) := by
  unfold allCells; rw [bigSep_map, bigSep_univ_prod]; rfl

theorem bigSep_allToks :
    bigSep allToks (fun x => (dutyTok ER x.1 x.2.1 x.2.2 : sProp 𝕄)) = bigSep Finset.univ fun c : Dev nD => ownToks c := by
  unfold allToks ownToks; rw [bigSep_map, Pipeline.bigSep_sigma, bigSep_univ_prod]; rfl

/-- The launch element is every device's share. -/
theorem fund_all : BI.own (ER uB) ⊢ (|==> bigSep Finset.univ (G m) : sProp 𝕄) := by
  unfold uB
  iintro HX
  imod (Rounds.fund ER (Rd m) allCells allToks) $$ HX with ⟨Hst, Hr, Hat, Htok⟩
  imodintro
  ihave Hst' := (Entails.of_eq (bigSep_allCells fun g => roundState ER (Rd m) g 0)) $$ Hst
  ihave Hat' := (Entails.of_eq (bigSep_allCells fun g => atPos ER g 0 ∅ 0)) $$ Hat
  ihave Hr' := (Entails.of_eq (bigSep_allCells fun g => reached ER g 0)) $$ Hr
  ihave Htok' := (Entails.of_eq (bigSep_allToks (F := F))) $$ Htok
  unfold G; simp only [bigSep_sep']
  isplitl [Hst']; · iexact Hst'
  isplitl [Hat' Hr']
  · isplitl [Hat'] <;> iassumption
  iexact Htok'

/-! ## The global step -/

theorem bigSep_univ_succ {n : ℕ} (Ψ : Fin (n + 1) → sProp 𝕄) :
    bigSep Finset.univ Ψ = iprop(Ψ 0 ∗ bigSep Finset.univ fun j : Fin n => Ψ j.succ) := by
  rw [Fin.univ_succ]; unfold bigSep; rw [Finset.fold_cons, Finset.fold_map]; rfl

theorem csem_succ (j : Fin 69) : csem j.succ = .dma j := by
  unfold csem
  rw [dif_neg (show ¬ (j.succ.val = 0) from by rw [Fin.val_succ]; exact Nat.succ_ne_zero _)]
  exact congrArg SemLoc.dma (Fin.ext (show j.succ.val - 1 = j.val by rw [Fin.val_succ, Nat.add_sub_cancel]))

/-- The kernel's own semaphores are a device's cells 1 to 69; -/
theorem ownSems0_eq (c : Dev nD) : (Pipeline.ownSems0 (Ix := Unit) (Name := ℕ) (U := UU) (Lvl := ℕ) (Val := Elt F) (τ := τ) osem c : sProp 𝕄)
    = bigSep Finset.univ fun j : Fin 69 => semVal (kcell (c, j.succ)) 0 := by
  unfold Pipeline.ownSems0
  exact bigSep_congr fun j _ => by
    show semVal (((c : Thread nD τ), SemLoc.dma j) : GSem nD τ sig) 0 = semVal (((c : Thread nD τ), csem j.succ) : GSem nD τ sig) 0
    rw [csem_succ]

/-- the barrier semaphore, its cell 0, is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 70 => semVal (kcell (c, k)) 0 : sProp 𝕄) := by
  rw [ownSems0_eq, unscopedSems0_eq, bigSep_univ_succ (fun k : Fin 70 => (semVal (kcell (c, k)) 0 : sProp 𝕄))]
  iintro ⟨HS, HB⟩
  isplitl [HB] <;> iassumption

/-- One device's cells: each one's invariant allocated from its counter at zero and its round state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 70 => iprop(∃ κ : ℕ, cellInv ER (Rd m) κ (kcell (c, k))))
          ∗ (bigSep Finset.univ fun k : Fin 70 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 70 => semVal (kcell (c, k)) 0) ∗ bigSep Finset.univ fun k : Fin 70 => roundState ER (Rd m) (kcell (c, k)) 0)
      ⊢ (|={Set.univ}=> bigSep Finset.univ fun k : Fin 70 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### A device's own tokens, by the kind of cell -/

/-- The chunk cells' numbers among a device's 70: chunk `i`'s is `i + 2`. -/
def xrE : Fin 64 ↪ Fin 70 :=
  ⟨fun i => ⟨i.val + 2, by omega⟩, fun i j h => Fin.ext (Nat.add_right_cancel (congrArg Fin.val h : i.val + 2 = j.val + 2))⟩

theorem univ70 : (Finset.univ : Finset (Fin 70)) = insert 0 (insert 1 (insert 66 (insert 67 (insert 68 (insert 69 (Finset.univ.map xrE)))))) := by
  decide +kernel

theorem csem_kinds : csem 0 = .reg barS ∧ csem 1 = .dma xsS ∧ csem 66 = .dma ysS ∧ csem 67 = .dma yrS ∧ csem 68 = .dma inS ∧ csem 69 = .dma outS := by
  decide +kernel
theorem csem_xr : ∀ i : Fin 64, csem (xrE i) = .dma (xrS i) := by decide +kernel
theorem dutySet_kinds : dutySet 0 = {0, 1} ∧ dutySet 1 = Finset.univ ∧ dutySet 66 = Finset.univ ∧ dutySet 67 = Finset.univ ∧ dutySet 68 = {0} ∧ dutySet 69 = Finset.univ := by
  decide +kernel
theorem dutySet_xr : ∀ i : Fin 64, dutySet (xrE i) = {0} := by decide +kernel

theorem bigSep_cells (Ψ : Fin 70 → sProp 𝕄) :
    bigSep Finset.univ Ψ = iprop(Ψ 0 ∗ Ψ 1 ∗ Ψ 66 ∗ Ψ 67 ∗ Ψ 68 ∗ Ψ 69 ∗ bigSep Finset.univ fun i : Fin 64 => Ψ (xrE i)) := by
  rw [univ70, bigSep_insert (by decide +kernel), bigSep_insert (by decide +kernel), bigSep_insert (by decide +kernel), bigSep_insert (by decide +kernel),
    bigSep_insert (by decide +kernel), bigSep_insert (by decide +kernel), bigSep_map]
  rfl

theorem ownToks_eq (c : Dev nD) : (ownToks c : sProp 𝕄) =
    iprop((dutyTok ER (cB c) 0 (0 : Fin 64) ∗ dutyTok ER (cB c) 0 (1 : Fin 64))
      ∗ (bigSep Finset.univ fun d : Fin 64 => dutyTok ER (cD c xsS) 0 d)
      ∗ (bigSep Finset.univ fun d : Fin 64 => dutyTok ER (cD c ysS) 0 d)
      ∗ (bigSep Finset.univ fun d : Fin 64 => dutyTok ER (cD c yrS) 0 d)
      ∗ dutyTok ER (cD c inS) 0 (0 : Fin 64)
      ∗ (bigSep Finset.univ fun d : Fin 64 => dutyTok ER (cD c outS) 0 d)
      ∗ (bigSep Finset.univ fun i : Fin 64 => dutyTok ER (cD c (xrS i)) 0 (0 : Fin 64))) := by
  have k0 : kcell (c, 0) = cB c := by show (((c : Thread nD τ), csem 0) : GSem nD τ sig) = _; rw [csem_kinds.1]
  have k1 : kcell (c, 1) = cD c xsS := by show (((c : Thread nD τ), csem 1) : GSem nD τ sig) = _; rw [csem_kinds.2.1]
  have k66 : kcell (c, 66) = cD c ysS := by show (((c : Thread nD τ), csem 66) : GSem nD τ sig) = _; rw [csem_kinds.2.2.1]
  have k67 : kcell (c, 67) = cD c yrS := by show (((c : Thread nD τ), csem 67) : GSem nD τ sig) = _; rw [csem_kinds.2.2.2.1]
  have k68 : kcell (c, 68) = cD c inS := by show (((c : Thread nD τ), csem 68) : GSem nD τ sig) = _; rw [csem_kinds.2.2.2.2.1]
  have k69 : kcell (c, 69) = cD c outS := by show (((c : Thread nD τ), csem 69) : GSem nD τ sig) = _; rw [csem_kinds.2.2.2.2.2]
  have kx (i : Fin 64) : kcell (c, xrE i) = cD c (xrS i) := by show (((c : Thread nD τ), csem (xrE i)) : GSem nD τ sig) = _; rw [csem_xr]
  unfold ownToks
  rw [bigSep_cells]
  simp only [k0, k1, k66, k67, k68, k69, kx, dutySet_kinds.1, dutySet_kinds.2.1, dutySet_kinds.2.2.1, dutySet_kinds.2.2.2.1, dutySet_kinds.2.2.2.2.1,
    dutySet_kinds.2.2.2.2.2, dutySet_xr, bigSep_singleton]
  rw [bigSep_insert (by decide), bigSep_singleton]
  rfl

/-! ### The tokens dealt to their payers -/

/-- The two neighbour maps, as the involutions they are. -/
def xpE : Dev nD ≃ Dev nD := ⟨xp, xp, xp_xp, xp_xp⟩
def ypE : Dev nD ≃ Dev nD := ⟨yp, yp, yp_yp, yp_yp⟩

theorem payToks_eq (c : Dev nD) : (payToks c : sProp 𝕄) =
    iprop(dutyTok ER (cB (xp c)) 0 (0 : Fin 64) ∗ dutyTok ER (cB (yp c)) 0 (1 : Fin 64) ∗ dutyTok ER (cD c inS) 0 (0 : Fin 64)
      ∗ ((bigSep Finset.univ fun i : Fin 64 => dutyTok ER (cD c xsS) 0 i) ∗ (bigSep Finset.univ fun i : Fin 64 => dutyTok ER (cD (xp c) (xrS i)) 0 (0 : Fin 64)))
      ∗ ((bigSep Finset.univ fun i : Fin 64 => dutyTok ER (cD c ysS) 0 i) ∗ (bigSep Finset.univ fun i : Fin 64 => dutyTok ER (cD (yp c) yrS) 0 i)
        ∗ (bigSep Finset.univ fun i : Fin 64 => dutyTok ER (cD c outS) 0 i))) := by
  unfold payToks
  rw [bigSep_sep', bigSep_sep', bigSep_sep']

/-- Each token goes to the device that pays its duty: a barrier cell's first token and a chunk cell's token to the x-neighbour,
    a barrier cell's second token and the result cell's tokens to the y-neighbour; the rest stay. -/
theorem toks_around : (bigSep Finset.univ fun c : Dev nD => (ownToks c : sProp 𝕄)) ⊢ bigSep Finset.univ fun c : Dev nD => payToks c := by
  rw [bigSep_congr (Φ := fun c : Dev nD => (ownToks c : sProp 𝕄)) (fun c _ => ownToks_eq c),
    bigSep_congr (Φ := fun c : Dev nD => (payToks c : sProp 𝕄)) (fun c _ => payToks_eq c)]
  simp only [bigSep_sep']
  have e1 : (bigSep Finset.univ fun c : Dev nD => (dutyTok ER (cB c) 0 (0 : Fin 64) : sProp 𝕄)) = bigSep Finset.univ fun c : Dev nD => dutyTok ER (cB (xp c)) 0 (0 : Fin 64) :=
    bigSep_univ_equiv xpE _
  have e2 : (bigSep Finset.univ fun c : Dev nD => (dutyTok ER (cB c) 0 (1 : Fin 64) : sProp 𝕄)) = bigSep Finset.univ fun c : Dev nD => dutyTok ER (cB (yp c)) 0 (1 : Fin 64) :=
    bigSep_univ_equiv ypE _
  have e3 : (bigSep Finset.univ fun c : Dev nD => (bigSep Finset.univ fun i : Fin 64 => dutyTok ER (cD c (xrS i)) 0 (0 : Fin 64) : sProp 𝕄))
      = bigSep Finset.univ fun c : Dev nD => bigSep Finset.univ fun i : Fin 64 => dutyTok ER (cD (xp c) (xrS i)) 0 (0 : Fin 64) :=
    bigSep_univ_equiv xpE _
  have e4 : (bigSep Finset.univ fun c : Dev nD => (bigSep Finset.univ fun i : Fin 64 => dutyTok ER (cD c yrS) 0 i : sProp 𝕄))
      = bigSep Finset.univ fun c : Dev nD => bigSep Finset.univ fun i : Fin 64 => dutyTok ER (cD (yp c) yrS) 0 i :=
    bigSep_univ_equiv ypE _
  rw [e1, e2, e3, e4]
  iintro ⟨⟨HB0, HB1⟩, Hxs, Hys, Hyr, Hin, Hout, Hxr⟩
  isplitl [HB0]; · iexact HB0
  isplitl [HB1]; · iexact HB1
  isplitl [Hin]; · iexact Hin
  isplitl [Hxs Hxr]
  · isplitl [Hxs] <;> iassumption
  isplitl [Hys]; · iexact Hys
  isplitl [Hyr]; · iexact Hyr
  iexact Hout

/-- The names the invariants were allocated at, as a function of the cell. -/
def nameOf (K' : Dev nD × Fin 70 → ℕ) (g : GSem nD τ sig) : ℕ := K' (g.1.1, idxOf g.2)

theorem nameOf_kcell (K' : Dev nD × Fin 70 → ℕ) (ck : Dev nD × Fin 70) : nameOf K' (kcell ck) = K' ck := by
  obtain ⟨c, k⟩ := ck
  show K' (c, idxOf (csem k)) = K' (c, k)
  rw [idxOf_csem]

theorem records_nameOf (K' : Dev nD × Fin 70 → ℕ) :
    records m (nameOf K') = iprop((bigSep Finset.univ fun ck : Dev nD × Fin 70 => cellInv ER (Rd m) (K' ck) (kcell ck))
      ∗ bigSep Finset.univ fun ck : Dev nD × Fin 70 => reached ER (kcell ck) 0) := by
  unfold records
  simp only [nameOf_kcell]

/-- A persistent assertion in hand serves every summand. -/
theorem bigSep_under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem ghost_intro (K : GSem nD τ sig → ℕ) (c : Dev nD) :
    iprop(records m K ∗ (positions c ∗ payToks c)) ⊢ iprop(∃ K, ghost m K c) := by
  iintro H
  iexists K
  unfold ghost
  iexact H

/-- All devices' allocated cells, positions and tokens, regrouped: the names chosen, the records shared, the tokens dealt to their payers. -/
theorem regroup :
    (bigSep Finset.univ fun c : Dev nD => iprop((bigSep Finset.univ fun k : Fin 70 => iprop(∃ κ : ℕ, cellInv ER (Rd m) κ (kcell (c, k))))
          ∗ (bigSep Finset.univ fun k : Fin 70 => iprop(atPos ER (kcell (c, k)) 0 ∅ 0 ∗ reached ER (kcell (c, k)) 0)) ∗ ownToks c) : sProp 𝕄)
      ⊢ bigSep Finset.univ fun c => iprop(∃ K, ghost m K c) := by
  rw [bigSep_sep', bigSep_sep', ← bigSep_univ_prod (fun ck : Dev nD × Fin 70 => iprop(∃ κ : ℕ, cellInv ER (Rd m) κ (kcell ck))),
    bigSep_congr (s := Finset.univ) (fun (c : Dev nD) _ => bigSep_sep' Finset.univ (fun k : Fin 70 => (atPos ER (kcell (c, k)) 0 ∅ 0 : sProp 𝕄)) (fun k => reached ER (kcell (c, k)) 0)),
    bigSep_sep', ← bigSep_univ_prod (fun ck : Dev nD × Fin 70 => (reached ER (kcell ck) 0 : sProp 𝕄))]
  iintro ⟨HI, ⟨Hat, #HR⟩, Htok⟩
  ihave HK := (BI.bigSep_exists_pi Finset.univ (fun (ck : Dev nD × Fin 70) (κ : ℕ) => (cellInv ER (Rd m) κ (kcell ck) : sProp 𝕄))) $$ HI
  icases HK with ⟨%K', #HI⟩
  ihave Htk := (toks_around (F := F)) $$ Htok
  iapply (bigSep_under_persistent (R := records m (nameOf K')) fun c _ => ghost_intro m (nameOf K') c)
  isplitr
  · rw [records_nameOf]
    isplitl
    · iexact HI
    · iexact HR
  · rw [bigSep_sep']
    isplitl [Hat]
    · unfold positions; iexact Hat
    · iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop(∃ K, ghost m K c) :=
  ((bigSep_mono fun c _ => core_alloc m c).trans (bigSep_fupd _ _)).trans (BI.fupd_mono (regroup m))

end Cert.KernelIdealProof

end
-- ==== Proof.LaunchRun.lean ====
import proofs.«900299_g7700000000000300_dist_rs_v7x_xy2x2_x_m8192_n1024_f32_1_alg».proof.Proof.InvLemmas

/-!
The launch of the reduce-scatter: what the devices owe one another when the kernel starts, read cell by cell; the
credit the launch deals for it; and the library's launch theorem for cores that owe at launch and share an
unscoped semaphore, applied to the proof data of the three passes.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, told apart -/

theorem cB_eq_iff {a b : Dev nD} : Iff (cB a = cB b) (a = b) :=
  ⟨fun h => Fin.ext (congrArg (fun g : GSem nD τ sig => g.1.1.val) h), fun h => h ▸ rfl⟩
theorem cD_eq_iff {a b : Dev nD} {s t : DmaSem sig} : Iff (cD a s = cD b t) (a = b ∧ s = t) :=
  ⟨fun h => ⟨Fin.ext (congrArg (fun g : GSem nD τ sig => g.1.1.val) h), SemLoc.dma.inj (congrArg Prod.snd h)⟩, fun h => by rw [h.1, h.2]⟩
theorem dma_ne_reg (s : DmaSem sig) (r : Sem sig) : (SemLoc.dma s : SemLoc sig) ≠ .reg r := fun h => by cases h
theorem cD_ne_cB (a b : Dev nD) (s : DmaSem sig) : cD a s ≠ cB b := fun h => dma_ne_reg _ _ (congrArg Prod.snd h)
theorem cB_ne_cD (a b : Dev nD) (s : DmaSem sig) : cB b ≠ cD a s := fun h => dma_ne_reg _ _ (congrArg Prod.snd h).symm

theorem xrS_ne_yrS (i : Fin 64) : xrS i ≠ yrS := fun h => by
  have := congrArg ck h; rw [ck_xr, ck_yr] at this; cases this
theorem xrS_inj {i j : Fin 64} (h : xrS i = xrS j) : i = j := by
  have := congrArg ck h; rw [ck_xr, ck_xr] at this; exact CK.xr.inj this

theorem eq_yp_iff {c d : Dev nD} : Iff (c = yp d) (d = yp c) :=
  ⟨fun h => by rw [h, yp_yp], fun h => by rw [h, yp_yp]⟩
theorem eq_xp_iff {c d : Dev nD} : Iff (c = xp d) (d = xp c) :=
  ⟨fun h => by rw [h, xp_xp], fun h => by rw [h, xp_xp]⟩

/-! ## What a device owes, read at one cell -/

/-- With `k` forwards to go a device owes its y-neighbour's result cell `k` chunks' credit and nothing else. -/
theorem OY_apply (d : Dev nD) (k : ℕ) (g : GSem nD τ sig) : OY d k g () = if g = cD (yp d) yrS then k * N else 0 := by
  induction k with
  | zero => rw [Nat.zero_mul, ite_self]; rfl
  | succ k ih =>
    show (OY d k + tallyAt (cD (yp d) yrS) () N) g () = _
    rw [Pi.add_apply, Finsupp.add_apply, ih, tallyAt_apply]
    by_cases h : g = cD (yp d) yrS
    · rw [if_pos h, if_pos ⟨h, rfl⟩, if_pos h, Nat.succ_mul]
    · rw [if_neg h, if_neg (fun h' => h h'.1), if_neg h]

/-- The sends along x owe barrier cells nothing; -/
theorem OX_bar (d c : Dev nD) (k : ℕ) : OX d k (cB c) () = 0 := by
  induction k with
  | zero => show OY d 64 (cB c) () = 0; rw [OY_apply, if_neg (cB_ne_cD _ _ _)]
  | succ k ih =>
    show (OX d k + tallyAt (cD (xp d) (xrS ⟨63 - k % 64, by omega⟩)) () N) (cB c) () = 0
    rw [Pi.add_apply, Finsupp.add_apply, ih, tallyAt_ne_cell (cB_ne_cD _ _ _)]; rfl

/-- they owe a result cell what the forwards owe it; -/
theorem OX_yr (d c : Dev nD) (k : ℕ) : OX d k (cD c yrS) () = if d = yp c then 64 * N else 0 := by
  induction k with
  | zero =>
    show OY d 64 (cD c yrS) () = _
    rw [OY_apply]
    by_cases h : d = yp c
    · rw [if_pos h, if_pos (by rw [h, yp_yp])]
    · rw [if_neg h, if_neg (fun h' => h (eq_yp_iff.mp (cD_eq_iff.mp h').1))]
  | succ k ih =>
    show (OX d k + tallyAt (cD (xp d) (xrS ⟨63 - k % 64, by omega⟩)) () N) (cD c yrS) () = _
    rw [Pi.add_apply, Finsupp.add_apply, ih, tallyAt_ne_cell (fun h' => xrS_ne_yrS _ (cD_eq_iff.mp h').2.symm)]; rfl

/-- and chunk `i`'s cell of the x-neighbour one chunk's credit once send `i` is among the `k` to go (the sends to go
    are the last `k`). -/
theorem OX_xr (d c : Dev nD) (i : Fin 64) (k : ℕ) (hk : k ≤ 64) :
    OX d k (cD c (xrS i)) () = if d = xp c ∧ 63 - i.val < k then N else 0 := by
  induction k with
  | zero =>
    show OY d 64 (cD c (xrS i)) () = _
    rw [OY_apply, if_neg (fun h' => xrS_ne_yrS _ (cD_eq_iff.mp h').2), if_neg (fun h' => Nat.not_lt_zero _ h'.2)]
  | succ k ih =>
    have hk' : k % 64 = k := Nat.mod_eq_of_lt (by omega)
    have hcell : Iff (cD c (xrS i) = cD (xp d) (xrS ⟨63 - k % 64, by omega⟩) ∧ () = ()) (d = xp c ∧ 63 - i.val = k) := by
      constructor
      · rintro ⟨h', -⟩
        have h1 := cD_eq_iff.mp h'
        refine ⟨eq_xp_iff.mp h1.1, ?_⟩
        have := congrArg Fin.val (xrS_inj h1.2); simp only [hk'] at this; omega
      · rintro ⟨h1, h2⟩
        refine ⟨?_, rfl⟩
        rw [h1, xp_xp]; exact congrArg (cD c) (congrArg xrS (Fin.ext (by simp only [hk']; omega)))
    show (OX d k + tallyAt (cD (xp d) (xrS ⟨63 - k % 64, by omega⟩)) () N) (cD c (xrS i)) () = _
    rw [Pi.add_apply, Finsupp.add_apply, ih (by omega), tallyAt_apply, if_congr hcell rfl rfl]
    by_cases hd : d = xp c
    · by_cases h1 : 63 - i.val < k
      · rw [if_pos (⟨hd, h1⟩ : d = xp c ∧ 63 - i.val < k), if_neg (fun h : d = xp c ∧ 63 - i.val = k => by omega),
          if_pos (⟨hd, by omega⟩ : d = xp c ∧ 63 - i.val < k + 1), Nat.add_zero]
      · by_cases h2 : 63 - i.val = k
        · rw [if_neg (fun h : d = xp c ∧ 63 - i.val < k => h1 h.2), if_pos (⟨hd, h2⟩ : d = xp c ∧ 63 - i.val = k),
            if_pos (⟨hd, by omega⟩ : d = xp c ∧ 63 - i.val < k + 1), Nat.zero_add]
        · rw [if_neg (fun h : d = xp c ∧ 63 - i.val < k => h1 h.2), if_neg (fun h : d = xp c ∧ 63 - i.val = k => h2 h.2),
            if_neg (fun h : d = xp c ∧ 63 - i.val < k + 1 => by omega), Nat.add_zero]
    · rw [if_neg (fun h : d = xp c ∧ 63 - i.val < k => hd h.1), if_neg (fun h : d = xp c ∧ 63 - i.val = k => hd h.1),
        if_neg (fun h : d = xp c ∧ 63 - i.val < k + 1 => hd h.1), Nat.add_zero]

/-- What device `d` owes device `c`'s barrier cell at launch: a unit if it is `c`'s y-neighbour, a unit if it is its x-neighbour. -/
theorem owed_bar (d c : Dev nD) : O₀ d (cB c) () = (if d = yp c then 1 else 0) + (if d = xp c then 1 else 0) := by
  unfold O₀
  rw [Pi.add_apply, Finsupp.add_apply, Pi.add_apply, Finsupp.add_apply, OX_bar, tallyAt_apply, tallyAt_apply, Nat.zero_add]
  congr 1
  · by_cases h : d = yp c
    · rw [if_pos h, if_pos ⟨by rw [h, yp_yp], rfl⟩]
    · rw [if_neg h, if_neg (fun h' => h (eq_yp_iff.mp (cB_eq_iff.mp h'.1)))]
  · by_cases h : d = xp c
    · rw [if_pos h, if_pos ⟨by rw [h, xp_xp], rfl⟩]
    · rw [if_neg h, if_neg (fun h' => h (eq_xp_iff.mp (cB_eq_iff.mp h'.1)))]

/-- Chunk `i`'s cell of `c` is owed one chunk's credit, by `c`'s x-neighbour. -/
theorem owed_xr (d c : Dev nD) (i : Fin 64) : O₀ d (cD c (xrS i)) () = if d = xp c then N else 0 := by
  unfold O₀
  rw [Pi.add_apply, Finsupp.add_apply, Pi.add_apply, Finsupp.add_apply, OX_xr d c i 64 (Nat.le_refl _),
    tallyAt_ne_cell (cD_ne_cB _ _ _), tallyAt_ne_cell (cD_ne_cB _ _ _), Finsupp.zero_apply, Nat.add_zero, Nat.add_zero]
  by_cases h : d = xp c
  · rw [if_pos ⟨h, by omega⟩, if_pos h]
  · rw [if_neg (fun h' => h h'.1), if_neg h]

/-- The result cell of `c` is owed 64 chunks' credit, by `c`'s y-neighbour. -/
theorem owed_yr (d c : Dev nD) : O₀ d (cD c yrS) () = if d = yp c then 64 * N else 0 := by
  unfold O₀
  rw [Pi.add_apply, Finsupp.add_apply, Pi.add_apply, Finsupp.add_apply, OX_yr,
    tallyAt_ne_cell (cD_ne_cB _ _ _), tallyAt_ne_cell (cD_ne_cB _ _ _), Finsupp.zero_apply, Nat.add_zero, Nat.add_zero]

/-! ## The launch credit -/

theorem launch_bar (c : Dev nD) :
    tallyOn (cB c) (launchCredit (Pipeline.owing O₀) 0 (cB c)) = (tallyAt (cB c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]

theorem launch_xr (c : Dev nD) (i : Fin 64) :
    tallyOn (cD c (xrS i)) (launchCredit (Pipeline.owing O₀) 0 (cD c (xrS i))) = (tallyAt (cD c (xrS i)) () N : CellTallies nD τ sig Unit) := by
  unfold tallyAt; refine congrArg _ (Finsupp.ext fun u => ?_); cases u
  rw [Pipeline.launchCredit_owing, Finsupp.single_eq_same, Finset.sum_congr rfl fun d _ => owed_xr d c i, Finset.sum_ite_eq' Finset.univ (xp c) fun _ => N,
    if_pos (Finset.mem_univ _)]

theorem launch_yr (c : Dev nD) :
    tallyOn (cD c yrS) (launchCredit (Pipeline.owing O₀) 0 (cD c yrS)) = (tallyAt (cD c yrS) () (64 * N) : CellTallies nD τ sig Unit) := by
  unfold tallyAt; refine congrArg _ (Finsupp.ext fun u => ?_); cases u
  rw [Pipeline.launchCredit_owing, Finsupp.single_eq_same, Finset.sum_congr rfl fun d _ => owed_yr d c, Finset.sum_ite_eq' Finset.univ (yp c) fun _ => 64 * N,
    if_pos (Finset.mem_univ _)]

/-- The chunks' receive semaphores among a device's semaphores. -/
def xrLoc : Fin 64 ↪ SemLoc sig := ⟨fun i => .dma (xrS i), fun i j h => xrS_inj (SemLoc.dma.inj h)⟩

/-- The launch deals a device the credit of its waits: its barrier's two units, one chunk's credit on every chunk
    cell, 64 chunks' on its result cell. -/
theorem creds_intro (c : Dev nD) : (Pipeline.launchCred O₀ c : sProp 𝕄) ⊢ creds c := by
  have hsub : insert (SemLoc.dma yrS) (Finset.univ.map xrLoc) ⊆ (Finset.univ.erase (SemLoc.reg barS) : Finset (SemLoc sig)) := fun s hs => by
    refine Finset.mem_erase.mpr ⟨?_, Finset.mem_univ _⟩
    rcases Finset.mem_insert.mp hs with rfl | hs
    · exact dma_ne_reg _ _
    · obtain ⟨i, -, rfl⟩ := Finset.mem_map.mp hs; exact dma_ne_reg _ _
  have hnot : (SemLoc.dma yrS : SemLoc sig) ∉ Finset.univ.map xrLoc := fun hs => by
    obtain ⟨i, -, hi⟩ := Finset.mem_map.mp hs
    exact xrS_ne_yrS i (SemLoc.dma.inj hi)
  have hx : (bigSep (Finset.univ.map xrLoc) fun sm : SemLoc sig =>
        (cred (tallyOn ((c : Thread nD τ), sm) (launchCredit (Pipeline.owing O₀) 0 ((c : Thread nD τ), sm))) : sProp 𝕄))
      = bigSep Finset.univ fun i : Fin 64 => cred (tallyAt (cD c (xrS i)) () N) := by
    rw [bigSep_map]
    exact bigSep_congr fun i _ => congrArg cred (launch_xr c i)
  unfold Pipeline.launchCred creds
  rw [bigSep_univ_at _ (SemLoc.reg barS), launch_bar]
  refine sep_mono_right ((bigSep_subset hsub).trans ?_)
  rw [bigSep_insert hnot, hx, launch_yr]
  exact sep_symm (PROP := sProp 𝕄)

/-! ## The theorem's side conditions -/

/-- The kernel's own semaphores — the 69 DMA semaphores — are scoped and distinct; there is no staging semaphore. -/
theorem ownSemFacts : Pipeline.OwnSemFacts cfg0.spec osem :=
  ⟨by decide +kernel, fun i j h => SemLoc.dma.inj h, fun _ w => w.elim0⟩

/-- The launch's unscoped buffers are the two arrays; with the credit, the levels and the ghost state they are what a
    device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start X
  isplitl
  · isplitl [HG]; · iexact HG
    isplitl [Hc]; · iexact Hc
    isplitl [Hlev]; · iexact Hlev
    isplitl [Ha]; · iexact Ha
    iexact Hv
  · iempintro

/-- The scoped buffers that are no staging buffer are the two scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

/-- What a device keeps of its two arrays after the body. -/
def Yfin (c : Dev nD) : sProp 𝕄 :=
  iprop((((c : Thread nD τ).loc main_arg0) ↦{rS 65} X m c) ∗ (((c : Thread nD τ).loc main_v1) ↦{fullShare} outOf c (Gsum m)))

theorem phi1_exit (c : Dev nD) :
    (dats m 0 c).Φ (Fin.last cfg0.N) ⊢ iprop(Yfin m c ∗ Pipeline.ownSems0 osem c ∗ Pipeline.scopedRest cfg0.spec c) := by
  rw [show (dats m 0 c).Φ (Fin.last cfg0.N) = Φ₁ m c from rfl, scopedRest0_eq]
  unfold Φ₁ Yfin scr Pipeline.ownSems0
  iintro ⟨Ha, Hv, Hs, Hz⟩
  isplitl [Ha Hv]
  · isplitl [Ha] <;> iassumption
  isplitl [Hz]; · iexact Hz
  iexact Hs

/-- No window, so no staging cell to wait on. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled 2 x 2 mesh, for any float values, from any memory with zero counters — given the ghost state the
    protocol is funded with (`hfund`), the global step that allocates every device's cells at once (`hglob`) and the
    body's proof on every device (`hbody`) —: every weakly fair execution of @main terminates, and every final state
    has each device's input unchanged and its result at the reduced column block. -/
theorem run_main (G : Dev nD → sProp 𝕄) (uB : UB) (hfund : BI.own (ER uB) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop(∃ K, ghost m K c))
    (hbody : ∀ c : Dev nD, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_arg0) = X m c ∧ r.2.mem ((c : Thread nD τ).loc main_v1) = outOf c (Gsum m)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := fun c => iprop(∃ K, ghost m K c)) (u₀ := (initOf (Pipeline.cells cfgs cellOf_inj) (Pipeline.launchToks cfgs cellOf_inj), uB))
    (hu₀ := by
      iintro Hu
      ihave H := (ownU_pair _ _) $$ Hu
      icases H with ⟨HP, HX⟩
      imod hfund $$ HX with HG
      imodintro
      isplitl [HP] <;> iassumption)
    (hglob := hglob)
    (hA := fun _ w => w.elim0) (hpf := fun _ k => k.elim0)
    (X := start m) (Y := Yfin m) (Z := fun _ => iprop(emp))
    (hX := start_intro m ρ) (hin := phi0_intro m) (hout := phi1_exit m)
    (QY := fun c s => s.mem ((c : Thread nD τ).loc main_arg0) = X m c ∧ s.mem ((c : Thread nD τ).loc main_v1) = outOf c (Gsum m))
    (hY := fun c s' => by
      unfold Yfin
      iintro ⟨⟨Ha, Hv⟩, -, HSI⟩
      icombine HSI Ha gives %ha
      icombine HSI Hv gives %hv
      imodintro
      isplitr; · ipureintro; exact ⟨Buf.eq_of_forall_mem_univ ha, Buf.eq_of_forall_mem_univ hv⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.Main.lean ====
import proofs.«900299_g7700000000000300_dist_rs_v7x_xy2x2_x_m8192_n1024_f32_1_alg».proof.Proof.Body
import proofs.«900299_g7700000000000300_dist_rs_v7x_xy2x2_x_m8192_n1024_f32_1_alg».proof.Proof.LaunchGhost
import proofs.«900299_g7700000000000300_dist_rs_v7x_xy2x2_x_m8192_n1024_f32_1_alg».proof.Proof.LaunchRun

/-!
The reduce-scatter's run on the 2 x 2 mesh: the launch theorem's three premises — the ghost state the launch element
funds, the global step that puts every cell's invariant in place, and the body's proof on every device — discharged.
-/

noncomputable section

namespace Cert.KernelIdealProof

open Cert.KernelIdeal Cert.KernelIdeal.Gen Cert.KernelIdeal.Loop Cert.KernelIdeal.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- For any float values, from any memory with zero counters: every weakly fair execution of @main on the four devices
    terminates, and every final state has each device's input unchanged and its result at its rows of the reduced column
    block — row `r` of the result of a device in mesh column `x` is row `r % 4096` of the sum device `(x, r / 4096)` formed
    of what its neighbour along x sent it and its own row half. -/
theorem run :
    θ_run defs (onTc (τ := τ) (main (F := F))) ⟨m, fun _ => 0, ρ⟩
      (fun r => ∀ c : Dev nD, r.2.mem ((c : Thread nD τ).loc main_arg0) = X m c
        ∧ r.2.mem ((c : Thread nD τ).loc main_v1) = outOf c (Gsum m)) :=
  run_main m ρ (G m) uB (fund_all m) (glob m) (body_obligation m)

/-- info: 'Cert.KernelIdealProof.run' depends on axioms: [propext, Classical.choice, Quot.sound] -/
#guard_msgs in #print axioms run

end Cert.KernelIdealProof

end
-- ==== Proof.Bits.Loop.lean ====
import proofs.«900299_g7700000000000300_dist_rs_v7x_xy2x2_x_m8192_n1024_f32_1_alg».proof.Kernel
import Idealize.ShloMosaic.Lib.Pipeline.Regions

/-!
The kernel's body is straight-line text: the chunk loops of the source are printed trip by trip. This module
writes the same operations as three counted passes over the 64 row chunks (the sends of the peer's column
block; receive, add, forward down the column and copy out; the closing waits) and shows that the printed body
IS that program, by unfolding both sides.
-/

noncomputable section

namespace Cert.Kernel

open Idealize.ShloMosaic Idealize.SL.Sem

variable {F : FTy → Type} [FloatOps F] [Facts]
open Facts₀ Facts

namespace Loop

theorem inbSem (i : Fin 64) : ∀ a, (![i.val] : Fin 1 → Nat) a + S1.size a ≤ S64.size a := by
  intro a; have := i.isLt; fin_cases a; show i.val + 1 ≤ 64; omega

theorem inbChunk (i : Fin 64) : ∀ a, (![64 * i.val, 0] : Fin 2 → Nat) a + S64x1024.size a ≤ S4096x1024.size a := by
  intro a; have := i.isLt; fin_cases a
  · show 64 * i.val + 64 ≤ 4096; omega
  · show 0 + 1024 ≤ 1024; omega

section
variable (arg0 : Memref sig .tc .hbm S1x8192x2048 .f32) (arg1 : Memref sig .tc .hbm S8192x1024 .f32)
  (arg2 arg3 : Memref sig .tc .vmem S4096x1024 .f32) (harg3 : arg3.IsWhole)
  (arg4 : DmaSems sig S_) (arg5 : DmaSems sig S64) (arg6 arg7 arg8 arg9 : DmaSems sig S_) (d0 : Dev nD)

/-- The receive semaphore of chunk `i`. -/
abbrev xsem (i : Fin 64) : DmaSems sig S_ :=
  (arg5.slice (Rect.unit (s := S64) ![i.val] S1.size (inbSem i))).squeeze S_ squeezes_S1_S_
/-- Rows `[64 i, 64 i + 64)` of a 4096-row scratch buffer. -/
abbrev chunk (m : Memref sig .tc .vmem S4096x1024 .f32) (i : Fin 64) : Memref sig .tc .vmem S64x1024 .f32 :=
  m.slice (Rect.unit (s := S4096x1024) ![64 * i.val, 0] S64x1024.size (inbChunk i)) (fun _ => rfl)
/-- The chunk's rectangle in the scratch buffer. -/
abbrev crect (i : Fin 64) : Rect S4096x1024 := Rect.unit (s := S4096x1024) ![64 * i.val, 0] S64x1024.size (inbChunk i)
/-- Chunk `i` of this device's row half, in the PEER's column block of the input. -/
abbrev xsrc (i : Fin 64) : Memref sig .tc .hbm S64x1024 .f32 :=
  (arg0.slice (Rect.unit (s := S1x8192x2048) (k0_off2 d0 (BitVec.ofNat 32 (64 * i.val))) S1x64x1024.size (k0_off2_inb d0 i)) (fun _ => rfl)).squeeze S64x1024 squeezes_S1x64x1024_S64x1024
/-- This device's row half in its OWN column block of the input. -/
abbrev lsrc : Memref sig .tc .hbm S4096x1024 .f32 :=
  (arg0.slice (Rect.unit (s := S1x8192x2048) (k0_off1 d0) S1x4096x1024.size (k0_off1_inb d0)) (fun _ => rfl)).squeeze S4096x1024 squeezes_S1x4096x1024_S4096x1024
/-- Chunk `i` of this device's row half of the result. -/
abbrev oslice (i : Fin 64) : Memref sig .tc .hbm S64x1024 .f32 :=
  arg1.slice (Rect.unit (s := S8192x1024) (k0_off3 d0 (BitVec.ofNat 32 (64 * i.val))) S64x1024.size (k0_off3_inb d0 i)) (fun _ => rfl)
/-- The neighbour along mesh axis x, and along y. -/
abbrev xpeer : Dev nD := ⟨k0_dev1 d0, k0_dev1_lt d0⟩
abbrev ypeer : Dev nD := ⟨k0_dev2 d0, k0_dev2_lt d0⟩
abbrev bar : Sems sig S_ := SemArray.scalar (sig.barrier 0 rfl)

/-- Pass 1, chunk `i`: send the peer its column block's chunk. -/
def iter1 (i : Fin 64) : Prog (TpuEff nD τ sig (Elt F) Λ₀ .tc) PUnit :=
  Prog.lift (.enqueueDma (xsrc arg0 d0 i) (.remote (Dev.tc (xpeer d0)) (chunk arg2 i) (.dma arg4.sem)) (.dma (xsem arg5 i).sem) ((View.wordExact_bits rfl).reshape _ _) (View.wordExact_bits rfl) ⟨⟨rfl, Or.inl rfl⟩, trivial⟩)

/-- Pass 2, chunk `i`: the peer's chunk has landed; add this device's own; forward the sum down the column and copy it out. -/
def iter2 (i : Fin 64) : Prog (TpuEff nD τ sig (Elt F) Λ₀ .tc) PUnit := do
  Prog.lift (.waitDma2 (xsem arg5 i).sem (xsrc arg0 d0 i) (chunk arg2 i) ((View.wordExact_bits rfl).reshape _ _) (View.wordExact_bits rfl))
  let a : Vec F S64x1024 .f32 ← Prog.lift (.load arg2 (crect i).toLoadRect (View.loadsAt_vmem h_S64x1024))
  let b : Vec F S64x1024 .f32 ← Prog.lift (.load arg3 (crect i).toLoadRect (View.loadsAt_vmem h_S64x1024))
  let _a' : Vec F S64x1024 .f32 ← Prog.lift (.load arg2 (crect i).toLoadRect (View.loadsAt_vmem h_S64x1024))
  Prog.lift (.store arg2 (crect i) (shapeCast S64x1024 (addf a b) shapeCasts_S64x1024_S64x1024) Finset.univ (View.stores_vmem_bits_univ h_S64x1024 rfl) (.inl rfl))
  Prog.lift (.enqueueDma (chunk arg2 i) (.remote (Dev.tc (ypeer d0)) (oslice arg1 d0 i) (.dma arg6.sem)) (.dma arg7.sem) (View.wordExact_bits rfl) (View.wordExact_bits rfl) ⟨⟨rfl, Or.inl rfl⟩, trivial⟩)
  Prog.lift (.enqueueDma (chunk arg2 i) (.here (oslice arg1 d0 i)) (.dma arg9.sem) (View.wordExact_bits rfl) (View.wordExact_bits rfl) ⟨Or.inl rfl, trivial⟩)

/-- Pass 3, chunk `i`: the four closing waits. -/
def iter3 (i : Fin 64) : Prog (TpuEff nD τ sig (Elt F) Λ₀ .tc) PUnit := do
  Prog.lift (.waitDma2 arg4.sem (chunk arg2 i) (xsrc arg0 d0 i) (View.wordExact_bits rfl) ((View.wordExact_bits rfl).reshape _ _))
  Prog.lift (.waitDma2 arg6.sem (oslice arg1 d0 i) (chunk arg2 i) (View.wordExact_bits rfl) (View.wordExact_bits rfl))
  Prog.lift (.waitDma2 arg7.sem (chunk arg2 i) (oslice arg1 d0 i) (View.wordExact_bits rfl) (View.wordExact_bits rfl))
  Prog.lift (.waitDma2 arg9.sem (chunk arg2 i) (oslice arg1 d0 i) (View.wordExact_bits rfl) (View.wordExact_bits rfl))

end

/-- `body (64 - n), …, body 63` in order, then `k`. -/
def loopFrom {α : Type} (body : Fin 64 → Prog (TpuEff nD τ sig (Elt F) Λ₀ .tc) PUnit) :
    (n : ℕ) → n ≤ 64 → Prog (TpuEff nD τ sig (Elt F) Λ₀ .tc) α → Prog (TpuEff nD τ sig (Elt F) Λ₀ .tc) α
  | 0, _, k => k
  | n + 1, h, k => body ⟨64 - (n + 1), by omega⟩ >>= fun _ => loopFrom body n (by omega) k

/-- The kernel's body as three passes over the chunks. -/
def body (arg0 : Memref sig .tc .hbm S1x8192x2048 .f32) (arg1 : Memref sig .tc .hbm S8192x1024 .f32)
    (arg2 arg3 : Memref sig .tc .vmem S4096x1024 .f32) (harg3 : arg3.IsWhole)
    (arg4 : DmaSems sig S_) (arg5 : DmaSems sig S64) (arg6 arg7 arg8 arg9 : DmaSems sig S_) :
    Prog (TpuEff nD τ sig (Elt F) Λ₀ .tc) PUnit := do
  let d0 : Dev nD ← Prog.lift .deviceId
  semSignalWord (xpeer d0) bar.sem 1#32 hamt_1
  semSignalWord (ypeer d0) bar.sem 1#32 hamt_1
  semWaitWord bar.sem 2#32 hamt_2
  Prog.lift (.enqueueDma (lsrc arg0 d0) (.here arg3) (.dma arg8.sem) ((View.wordExact_bits rfl).reshape _ _) harg3.wordExact ⟨Or.inl rfl, trivial⟩)
  loopFrom (iter1 arg0 arg2 arg4 arg5 d0) 64 (Nat.le_refl _)
    (Prog.lift (.waitDma2 arg8.sem (lsrc arg0 d0) arg3 ((View.wordExact_bits rfl).reshape _ _) harg3.wordExact) >>= fun _ =>
      loopFrom (iter2 arg0 arg1 arg2 arg3 arg5 arg6 arg7 arg9 d0) 64 (Nat.le_refl _)
        (loopFrom (iter3 arg0 arg1 arg2 arg4 arg6 arg7 arg9 d0) 64 (Nat.le_refl _) (pure ⟨⟩)))

/-- The printed body is the three-pass program: both sides unfold to the same sequence of operations. -/
theorem body_eq (arg0 : Memref sig .tc .hbm S1x8192x2048 .f32) (harg0 : arg0.IsWhole) (arg1 : Memref sig .tc .hbm S8192x1024 .f32) (harg1 : arg1.IsWhole)
    (arg2 : Memref sig .tc .vmem S4096x1024 .f32) (harg2 : arg2.IsWhole) (arg3 : Memref sig .tc .vmem S4096x1024 .f32) (harg3 : arg3.IsWhole)
    (arg4 : DmaSems sig S_) (arg5 : DmaSems sig S64) (arg6 arg7 arg8 arg9 : DmaSems sig S_) :
    cc0_body (F := F) arg0 harg0 arg1 harg1 arg2 harg2 arg3 harg3 arg4 arg5 arg6 arg7 arg8 arg9
      = body (F := F) arg0 arg1 arg2 arg3 harg3 arg4 arg5 arg6 arg7 arg8 arg9 := by
  chain_rfl

end Loop

end Cert.Kernel

end
-- ==== Proof.Bits.GeoDefs.lean ====
import proofs.«900299_g7700000000000300_dist_rs_v7x_xy2x2_x_m8192_n1024_f32_1_alg».proof.Proof.Bits.Loop
import proofs.«900299_g7700000000000300_dist_rs_v7x_xy2x2_x_m8192_n1024_f32_1_alg».proof.Proof.Gen.Kernel
import Idealize.ShloMosaic.Rules.PointsTo
import Idealize.ShloMosaic.Lib.Pipeline.Value

/-!
Names for the buffers, their row chunks and the whole-buffer value functions of the reduce-scatter:
what a device receives from its neighbour along x, what it adds, and what its result holds.
-/

noncomputable section

namespace Cert.Kernel.Geo

open Cert.Kernel Cert.Kernel.Loop
open Idealize.ShloMosaic Idealize.ShloMosaic.TcCoe Idealize.SL.Sem

variable {F : FTy → Type} [FloatOps F]
open Facts₀ Facts

abbrev A0 : Memref sig .tc .hbm S1x8192x2048 .f32 := Memref.whole main_arg0
abbrev A1 : Memref sig .tc .hbm S8192x1024 .f32 := Memref.whole main_v1
abbrev R0 : Memref sig .tc .vmem S4096x1024 .f32 := Memref.whole cc0_scratch0
abbrev R1 : Memref sig .tc .vmem S4096x1024 .f32 := Memref.whole cc0_scratch1

/-- The neighbours of device `c` (numbered `2 x + y`): along x and along y. -/
abbrev xp (c : Dev nD) : Dev nD := Loop.xpeer c
abbrev yp (c : Dev nD) : Dev nD := Loop.ypeer c

theorem xp_xp (c : Dev nD) : xp (xp c) = c := by revert c; decide +kernel
theorem yp_yp (c : Dev nD) : yp (yp c) = c := by revert c; decide +kernel
theorem xp_ne (c : Dev nD) : xp c ≠ c := by revert c; decide +kernel
theorem yp_ne (c : Dev nD) : yp c ≠ c := by revert c; decide +kernel
theorem xp_ne_yp (c : Dev nD) : xp c ≠ yp c := by revert c; decide +kernel
theorem xp_val (c : Dev nD) : (xp c).val = (c.val % 2) + 2 - 2 * (c.val / 2) := Gen.k0_dev1_eq c
theorem yp_val (c : Dev nD) : (yp c).val = (2 * (c.val / 2) + 1) - (c.val % 2) := Gen.k0_dev2_eq c

theorem psrc_inb (d0 : Dev nD) : ∀ a, (![0, 4096 * (d0.val % 2), 1024 - 1024 * (d0.val / 2)] : Fin 3 → Nat) a + S1x4096x1024.size a ≤ S1x8192x2048.size a := by
  revert d0; decide +kernel

/-- Device `d0`'s row half in the column block of its neighbour along x: the union of the 64 chunks it sends. -/
abbrev psrc (d0 : Dev nD) : Memref sig .tc .hbm S4096x1024 .f32 :=
  (A0.slice (Rect.unit (s := S1x8192x2048) ![0, 4096 * (d0.val % 2), 1024 - 1024 * (d0.val / 2)] S1x4096x1024.size (psrc_inb d0)) (fun _ => rfl)).squeeze S4096x1024 squeezes_S1x4096x1024_S4096x1024

variable (m : (ℓ : Loc nD τ sig) → Buf (Elt F) ℓ)

/-- Device `c`'s input block. -/
def X (c : Dev nD) : Buf (Elt F) ((c : Thread nD τ).loc main_arg0) := m ((c : Thread nD τ).loc main_arg0)
/-- What lands in `c`'s receive buffer: its neighbour's rows of `c`'s column block. -/
def Grecv (c : Dev nD) : Buf (Elt F) ((c : Thread nD τ).loc cc0_scratch0) := (psrc (xp c)).view.read (Elt F) (X m (xp c))
/-- What `c` copies into its second scratch buffer: its own rows of its own column block. -/
def Glocal (c : Dev nD) : Buf (Elt F) ((c : Thread nD τ).loc cc0_scratch1) := (lsrc A0 c).view.read (Elt F) (X m c)
/-- The sum `c` forwards: its row half of the reduced column block. -/
def Gsum (c : Dev nD) : Buf (Elt F) ((c : Thread nD τ).loc cc0_scratch0) := addf (Grecv m c) (Glocal m c)

end Cert.Kernel.Geo

end
-- ==== Proof.Bits.GeoOut.lean ====
import proofs.«900299_g7700000000000300_dist_rs_v7x_xy2x2_x_m8192_n1024_f32_1_alg».proof.Proof.Bits.GeoDefs
import Idealize.ShloMosaic.Lib.ValueIdx

/-!
The result as one whole-array function: row `r` of the result of a device in mesh column `x` is computed by
device `(x, r / 4096)`, at row `r % 4096` of its row half.
-/

noncomputable section

namespace Cert.Kernel.Geo

open Cert.Kernel Cert.Kernel.Loop
open Idealize.ShloMosaic Idealize.ShloMosaic.TcCoe Idealize.SL.Sem

/-- The device of `c`'s mesh column whose row half holds result row `r`. -/
def outDev (c : Dev nD) (r : Fin 8192) : Dev nD :=
  ⟨2 * (c.val / 2) + r.val / 4096, by show 2 * (c.val / 2) + r.val / 4096 < 4; have h : c.val < 4 := c.isLt; have := r.isLt; omega⟩

/-- The result array of `c` from the devices' row-half sums. -/
def outOf {Val : EltTy → Type} (c : Dev nD) (gs : (d : Dev nD) → Buf Val ((d : Thread nD τ).loc cc0_scratch0)) :
    Buf Val ((c : Thread nD τ).loc main_v1) :=
  fun idx => gs (outDev c (idx 0)) (ValueIdx.ix2 ⟨(idx 0).val % 4096, Nat.mod_lt _ (by decide)⟩ (idx 1))

end Cert.Kernel.Geo

end
-- ==== Proof.Bits.Proto.lean ====
import proofs.«900299_g7700000000000300_dist_rs_v7x_xy2x2_x_m8192_n1024_f32_1_alg».proof.Proof.Bits.GeoOut
import proofs.«900299_g7700000000000300_dist_rs_v7x_xy2x2_x_m8192_n1024_f32_1_alg».proof.Proof.Gen.Kernel.Launch
import Idealize.ShloMosaic.Lib.Pipeline.Launch
import Idealize.ShloMosaic.Lib.Pipeline.Kit
import Idealize.ShloMosaic.Lib.Tactic

/-!
The protocol of the reduce-scatter under the rounds discipline: the semaphores as cells, one round each,
and what every signal and every copy hands the cell's owner.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by `Fin 64`) -/

abbrev UB : Type := URounds (GSem nD τ sig) (Fin 64)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and their cells -/

abbrev barS : Sem sig := (Loop.bar : Sems sig S_).sem
abbrev xsS : DmaSem sig := cc0_scratch2.sem
abbrev xrS (i : Fin 64) : DmaSem sig := (xsem cc0_scratch3 i).sem
abbrev ysS : DmaSem sig := cc0_scratch4.sem
abbrev yrS : DmaSem sig := cc0_scratch5.sem
abbrev inS : DmaSem sig := cc0_scratch6.sem
abbrev outS : DmaSem sig := cc0_scratch7.sem

abbrev cB (c : Dev nD) : GSem nD τ sig := ((c : Thread nD τ), .reg barS)
abbrev cD (c : Dev nD) (s : DmaSem sig) : GSem nD τ sig := ((c : Thread nD τ), .dma s)

/-- Which of the kernel's DMA semaphores an index is. -/
inductive CK where
  | xs | xr (i : Fin 64) | ys | yr | inn | out
  deriving DecidableEq

def ck (s : DmaSem sig) : CK :=
  if h0 : s.val = 0 then .xs
  else if h1 : s.val ≤ 64 then .xr ⟨s.val - 1, by omega⟩
  else if s.val = 65 then .ys else if s.val = 66 then .yr else if s.val = 67 then .inn else .out

theorem xrS_val : ∀ i : Fin 64, (xrS i).val = 1 + i.val := by decide +kernel
theorem ck_xs : ck xsS = .xs := by decide +kernel
theorem ck_xr : ∀ i : Fin 64, ck (xrS i) = .xr i := by decide +kernel
theorem ck_ys : ck ysS = .ys := by decide +kernel
theorem ck_yr : ck yrS = .yr := by decide +kernel
theorem ck_in : ck inS = .inn := by decide +kernel
theorem ck_out : ck outS = .out := by decide +kernel

/-- The credit of one 64-row chunk, and of the whole 4096-row half. -/
abbrev N : ℕ := (chunk R0 (0 : Fin 64)).view.dmaCredit
abbrev NL : ℕ := (R1 : Memref sig .tc .vmem S4096x1024 .f32).view.dmaCredit
theorem N_pos : 0 < N := View.dmaCredit_pos _ (by decide)
theorem NL_pos : 0 < NL := View.dmaCredit_pos _ (by decide)

/-! ## What each landing hands over -/

/-- The x-neighbour's signal hands `c` that neighbour's whole receive buffer (to send its chunks into). -/
def barPayX (c : Dev nD) : sProp 𝕄 := iprop(∃ f : Buf (Elt F) (((xp c : Dev nD) : Thread nD τ).loc cc0_scratch0), (((xp c : Dev nD) : Thread nD τ).loc cc0_scratch0) ↦{fullShare} f)
/-- The y-neighbour's signal hands `c` the rows of that neighbour's result that are `c`'s row half. -/
def barPayY (c : Dev nD) : sProp 𝕄 :=
  iprop(∃ f : Buf (Elt F) (((yp c : Dev nD) : Thread nD τ).loc main_v1),
    bigSep (Finset.univ : Finset (Fin 64)) fun i => ((oslice A1 c i).view.loc ((yp c : Dev nD) : Thread nD τ) ↦[(oslice A1 c i).view.set]{fullShare} f))
/-- Chunk `i` landed in `c`'s receive buffer. -/
def xrPay (c : Dev nD) (i : Fin 64) : sProp 𝕄 := (chunk R0 i).view.loc (c : Thread nD τ) ↦[(chunk R0 i).view.set]{fullShare} Grecv m c
/-- The local copy has filled `c`'s second scratch buffer. -/
def inPay (c : Dev nD) : sProp 𝕄 := ((c : Thread nD τ).loc cc0_scratch1) ↦{fullShare} Glocal m c
/-- The forward down the column has read chunk `i` of the sums: the half share it borrowed comes back. -/
def ysPay (c : Dev nD) (i : Fin 64) : sProp 𝕄 := (chunk R0 i).view.loc (c : Thread nD τ) ↦[(chunk R0 i).view.set]{fullShare.left} Gsum m c
/-- The y-neighbour's chunk `i` landed in `c`'s result. -/
def yrPay (c : Dev nD) (i : Fin 64) : sProp 𝕄 :=
  (oslice A1 (yp c) i).view.loc (c : Thread nD τ) ↦[(oslice A1 (yp c) i).view.set]{fullShare} outOf c (Gsum m)
/-- `c`'s own chunk `i` is in its result, and the other half share of the sums' chunk comes back. -/
def outPay (c : Dev nD) (i : Fin 64) : sProp 𝕄 :=
  iprop(((oslice A1 c i).view.loc (c : Thread nD τ) ↦[(oslice A1 c i).view.set]{fullShare} outOf c (Gsum m))
    ∗ ((chunk R0 i).view.loc (c : Thread nD τ) ↦[(chunk R0 i).view.set]{fullShare.right} Gsum m c))

/-! ## The schedule: every cell has ONE round -/

def Rd : Rounds.Schedule (GSem nD τ sig) (Fin 64) 𝕄 where
  duties g r :=
    if r ≠ 0 ∨ g.1.2 ≠ .tc then ∅ else
    match g.2 with
    | .reg _ => {0, 1}
    | .dma s => match ck s with
      | .xr _ => {0} | .inn => {0} | _ => Finset.univ
  unitless _ := False
  amount g _ _ := match g.2 with
    | .reg _ => 1
    | .dma s => match ck s with | .inn => NL | _ => N
  payload g _ d := match g.2 with
    | .reg _ => if d = 0 then barPayX g.1.1 else if d = 1 then barPayY g.1.1 else iprop(emp)
    | .dma s => match ck s with
      | .xs => iprop(emp)
      | .xr i => xrPay m g.1.1 i
      | .ys => ysPay m g.1.1 d
      | .yr => yrPay m g.1.1 d
      | .inn => inPay m g.1.1
      | .out => outPay m g.1.1 d
  amount_pos g _ _ _ := by
    cases g.2 with
    | reg _ => exact Nat.one_pos
    | dma s => dsimp only; split <;> first | exact NL_pos | exact N_pos

/-! ## What each device owes at launch, and the levels -/

/-- What `c` still owes its y-neighbour's receive cell with `k` forwards to go. -/
def OY (c : Dev nD) : ℕ → CellTallies nD τ sig Unit
  | 0 => 0
  | k + 1 => OY c k + tallyAt (cD (yp c) yrS) () N
/-- What `c` still owes with `k` sends along x to go (and every forward): send `i` pays chunk `i`'s cell of the x-neighbour. -/
def OX (c : Dev nD) : ℕ → CellTallies nD τ sig Unit
  | 0 => OY c 64
  | k + 1 => OX c k + tallyAt (cD (xp c) (xrS ⟨63 - k % 64, by omega⟩)) () N
/-- At launch: all of that and one unit to each neighbour's barrier cell; the first signal (to the x-neighbour) pays the last summand. -/
def O₀ (c : Dev nD) : CellTallies nD τ sig Unit := OX c 64 + tallyAt (cB (yp c)) () 1 + tallyAt (cB (xp c)) () 1

def L (g : GSem nD τ sig) : Finset Unit := if g.1.2 = .tc then {()} else ∅
/-- Barrier cells at 1, the chunks' receive cells at 2, the result's receive cell at 3, everything else at 0. -/
def lv (g : GSem nD τ sig) (_ : Unit) : ℕ := match g.2 with
  | .reg _ => 1
  | .dma s => match ck s with | .xr _ => 2 | .yr => 3 | _ => 0

end Cert.KernelProof

end
-- ==== Proof.Bits.TablesAux.lean ====
import proofs.«900299_g7700000000000300_dist_rs_v7x_xy2x2_x_m8192_n1024_f32_1_alg».proof.Proof.Bits.Proto

/-!
The level facts that make the three waits of a device that still owes something admissible: every cell it owes
sits strictly above the cell it waits on.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every cell of a TensorCore carries the one index. -/
theorem ta_L_tc (c : Dev nD) (sm : SemLoc sig) : L ((c : Thread nD τ), sm) = {()} := if_pos rfl

/-- What is still owed down the column is owed to the y-neighbour's receive cell only. -/
theorem ta_OY_pos (c : Dev nD) : ∀ (k : ℕ) {g : GSem nD τ sig} {u : Unit}, 0 < OY c k g u → g = cD (yp c) yrS
  | 0, g, u, h => absurd h (Nat.lt_irrefl 0)
  | k + 1, g, u, h => by
    by_contra hn
    have h0 : ¬ 0 < OY c k g u := fun h' => hn (ta_OY_pos c k h')
    have h' : 0 < OY c k g u + tallyAt (cD (yp c) yrS) () N g u := h
    rw [tallyAt_apply, if_neg (fun hh => hn hh.1), Nat.add_zero] at h'
    exact h0 h'

/-- What is still owed along x and down the column is owed to the y-neighbour's receive cell or to one of the
    x-neighbour's chunk cells. -/
theorem ta_OX_pos (c : Dev nD) : ∀ (k : ℕ) {g : GSem nD τ sig} {u : Unit}, 0 < OX c k g u →
    g = cD (yp c) yrS ∨ ∃ j : Fin 64, g = cD (xp c) (xrS j)
  | 0, g, u, h => Or.inl (ta_OY_pos c 64 h)
  | k + 1, g, u, h => by
    have h' : 0 < OX c k g u + tallyAt (cD (xp c) (xrS ⟨63 - k % 64, by omega⟩)) () N g u := h
    by_cases hg : g = cD (xp c) (xrS ⟨63 - k % 64, by omega⟩)
    · exact Or.inr ⟨_, hg⟩
    · rw [tallyAt_apply, if_neg (fun hh => hg hh.1), Nat.add_zero] at h'
      exact ta_OX_pos c k h'

/-- At its barrier wait a device owes only receive cells (levels 2 and 3), above its barrier cell (level 1). -/
theorem ta_mayWait_bar (c : Dev nD) :
    (levAts L lv : sProp 𝕄) ⊢ MayWait (c : Thread nD τ) (.reg barS) () (OX c 64) :=
  MayOwe.of_cut (L := L) (lev := lv) 1
    (fun p hp => by rw [Finset.mem_singleton.mp hp, ta_L_tc]; exact Finset.mem_singleton_self _)
    (fun g u hg => by
      rcases ta_OX_pos c 64 hg with rfl | ⟨j, rfl⟩ <;> (rw [ta_L_tc]; exact Finset.mem_singleton_self _))
    (fun p hp => by rw [Finset.mem_singleton.mp hp]; exact Nat.le_refl 1)
    (fun g u hg => by
      rcases ta_OX_pos c 64 hg with rfl | ⟨j, rfl⟩
      · show 1 < (match ck yrS with | .xr _ => 2 | .yr => 3 | _ => 0); rw [ck_yr]; decide
      · show 1 < (match ck (xrS j) with | .xr _ => 2 | .yr => 3 | _ => 0); rw [ck_xr]; exact Nat.lt_succ_self 1)

/-- Waiting for its local copy (level 0) a device owes only its y-neighbour's receive cell. -/
theorem ta_mayWait_in (c : Dev nD) :
    (levAts L lv : sProp 𝕄) ⊢ MayWait (c : Thread nD τ) (.dma inS) () (OY c 64) :=
  MayOwe.of_cut (L := L) (lev := lv) 0
    (fun p hp => by rw [Finset.mem_singleton.mp hp, ta_L_tc]; exact Finset.mem_singleton_self _)
    (fun g u hg => by rw [ta_OY_pos c 64 hg, ta_L_tc]; exact Finset.mem_singleton_self _)
    (fun p hp => by
      rw [Finset.mem_singleton.mp hp]
      show (match ck inS with | .xr _ => 2 | .yr => 3 | _ => 0) ≤ 0; rw [ck_in])
    (fun g u hg => by
      rw [ta_OY_pos c 64 hg]
      show 0 < (match ck yrS with | .xr _ => 2 | .yr => 3 | _ => 0); rw [ck_yr]; decide)

/-- Waiting for chunk `i` (level 2) a device owes only its y-neighbour's receive cell (level 3). -/
theorem ta_mayWait_xr (c : Dev nD) (i : Fin 64) (k : ℕ) :
    (levAts L lv : sProp 𝕄) ⊢ MayWait (c : Thread nD τ) (.dma (xrS i)) () (OY c k) :=
  MayOwe.of_cut (L := L) (lev := lv) 2
    (fun p hp => by rw [Finset.mem_singleton.mp hp, ta_L_tc]; exact Finset.mem_singleton_self _)
    (fun g u hg => by rw [ta_OY_pos c k hg, ta_L_tc]; exact Finset.mem_singleton_self _)
    (fun p hp => by
      rw [Finset.mem_singleton.mp hp]
      show (match ck (xrS i) with | .xr _ => 2 | .yr => 3 | _ => 0) ≤ 2; rw [ck_xr])
    (fun g u hg => by
      rw [ta_OY_pos c k hg]
      show 2 < (match ck yrS with | .xr _ => 2 | .yr => 3 | _ => 0); rw [ck_yr]; decide)

end Cert.KernelProof

end
-- ==== Proof.Bits.Tables.lean ====
import proofs.«900299_g7700000000000300_dist_rs_v7x_xy2x2_x_m8192_n1024_f32_1_alg».proof.Proof.Bits.Proto
import proofs.«900299_g7700000000000300_dist_rs_v7x_xy2x2_x_m8192_n1024_f32_1_alg».proof.Proof.Bits.TablesAux

/-!
The schedule's tables read at each kind of cell, and the level facts that make every wait admissible.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Storables
variable (c : Dev nD)

instance barPayX_storable : BI.Storable (upEmb : UEmb _ 𝕄) (barPayX (F := F) c) := by unfold barPayX; infer_instance
instance barPayY_storable : BI.Storable (upEmb : UEmb _ 𝕄) (barPayY (F := F) c) := by unfold barPayY; infer_instance
instance xrPay_storable (i : Fin 64) : BI.Storable (upEmb : UEmb _ 𝕄) (xrPay m c i) := by unfold xrPay; infer_instance
instance inPay_storable : BI.Storable (upEmb : UEmb _ 𝕄) (inPay m c) := by unfold inPay; infer_instance
instance ysPay_storable (i : Fin 64) : BI.Storable (upEmb : UEmb _ 𝕄) (ysPay m c i) := by unfold ysPay; infer_instance
instance yrPay_storable (i : Fin 64) : BI.Storable (upEmb : UEmb _ 𝕄) (yrPay m c i) := by unfold yrPay; infer_instance
instance outPay_storable (i : Fin 64) : BI.Storable (upEmb : UEmb _ 𝕄) (outPay m c i) := by unfold outPay; infer_instance

end Storables

section Tables
variable (c : Dev nD)

instance Rd_payload_storable (g : GSem nD τ sig) (r : ℕ) (d : Fin 64) :
    BI.Storable (upEmb : UEmb _ 𝕄) ((Rd (F := F) m).payload g r d) := by
  obtain ⟨t, sl⟩ := g
  cases sl with
  | reg s =>
    show BI.Storable upEmb (if d = 0 then barPayX t.1 else if d = 1 then barPayY t.1 else iprop(emp))
    split
    · infer_instance
    · split <;> infer_instance
  | dma s =>
    show BI.Storable upEmb (match ck s with
      | .xs => iprop(emp)
      | .xr i => xrPay m t.1 i
      | .ys => ysPay m t.1 d
      | .yr => yrPay m t.1 d
      | .inn => inPay m t.1
      | .out => outPay m t.1 d)
    cases ck s <;> dsimp only <;> infer_instance

theorem duties_later (g : GSem nD τ sig) : ∀ r, 1 ≤ r → (Rd (F := F) m).duties g r = ∅ := by
  intro r hr; dsimp only [Rd]; rw [if_pos (Or.inl (by omega))]

theorem duties_bar : (Rd (F := F) m).duties (cB c) 0 = {0, 1} := by
  dsimp only [Rd]; rw [if_neg (fun h => h.elim (fun h => h rfl) (fun h => h rfl))]
theorem duties_xs : (Rd (F := F) m).duties (cD c xsS) 0 = Finset.univ := by
  dsimp only [Rd]; rw [if_neg (fun h => h.elim (fun h => h rfl) (fun h => h rfl)), ck_xs]
theorem duties_xr (i : Fin 64) : (Rd (F := F) m).duties (cD c (xrS i)) 0 = {0} := by
  dsimp only [Rd]; rw [if_neg (fun h => h.elim (fun h => h rfl) (fun h => h rfl)), ck_xr]
theorem duties_ys : (Rd (F := F) m).duties (cD c ysS) 0 = Finset.univ := by
  dsimp only [Rd]; rw [if_neg (fun h => h.elim (fun h => h rfl) (fun h => h rfl)), ck_ys]
theorem duties_yr : (Rd (F := F) m).duties (cD c yrS) 0 = Finset.univ := by
  dsimp only [Rd]; rw [if_neg (fun h => h.elim (fun h => h rfl) (fun h => h rfl)), ck_yr]
theorem duties_in : (Rd (F := F) m).duties (cD c inS) 0 = {0} := by
  dsimp only [Rd]; rw [if_neg (fun h => h.elim (fun h => h rfl) (fun h => h rfl)), ck_in]
theorem duties_out : (Rd (F := F) m).duties (cD c outS) 0 = Finset.univ := by
  dsimp only [Rd]; rw [if_neg (fun h => h.elim (fun h => h rfl) (fun h => h rfl)), ck_out]

theorem amount_bar (d : Fin 64) : (Rd (F := F) m).amount (cB c) 0 d = 1 := rfl
theorem amount_xs (d : Fin 64) : (Rd (F := F) m).amount (cD c xsS) 0 d = N := by dsimp only [Rd]; rw [ck_xs]
theorem amount_xr (i d : Fin 64) : (Rd (F := F) m).amount (cD c (xrS i)) 0 d = N := by dsimp only [Rd]; rw [ck_xr]
theorem amount_ys (d : Fin 64) : (Rd (F := F) m).amount (cD c ysS) 0 d = N := by dsimp only [Rd]; rw [ck_ys]
theorem amount_yr (d : Fin 64) : (Rd (F := F) m).amount (cD c yrS) 0 d = N := by dsimp only [Rd]; rw [ck_yr]
theorem amount_in (d : Fin 64) : (Rd (F := F) m).amount (cD c inS) 0 d = NL := by dsimp only [Rd]; rw [ck_in]
theorem amount_out (d : Fin 64) : (Rd (F := F) m).amount (cD c outS) 0 d = N := by dsimp only [Rd]; rw [ck_out]

/-- A round whose duties all contribute the same amount expects that amount once per duty. -/
theorem expect_const (g : GSem nD τ sig) (S : Finset (Fin 64)) (a : ℕ)
    (hd : (Rd (F := F) m).duties g 0 = S) (ha : ∀ d, (Rd (F := F) m).amount g 0 d = a) :
    (Rd (F := F) m).expect g 0 = S.card * a := by
  unfold Schedule.expect Schedule.amountOf
  rw [hd, Finset.sum_congr rfl fun d _ => ha d, Finset.sum_const, smul_eq_mul]

theorem card_univ64 : (Finset.univ : Finset (Fin 64)).card = 64 := by rw [Finset.card_univ, Fintype.card_fin]

theorem expect_bar : (Rd (F := F) m).expect (cB c) 0 = 2 :=
  (expect_const m (cB c) {0, 1} 1 (duties_bar m c) (amount_bar m c)).trans (by rw [Finset.card_pair (by decide), Nat.mul_one])
theorem expect_xs : (Rd (F := F) m).expect (cD c xsS) 0 = 64 * N :=
  (expect_const m (cD c xsS) Finset.univ N (duties_xs m c) (amount_xs m c)).trans (congrArg (· * N) card_univ64)
theorem expect_xr (i : Fin 64) : (Rd (F := F) m).expect (cD c (xrS i)) 0 = N :=
  (expect_const m (cD c (xrS i)) {0} N (duties_xr m c i) (amount_xr m c i)).trans (by rw [Finset.card_singleton, Nat.one_mul])
theorem expect_ys : (Rd (F := F) m).expect (cD c ysS) 0 = 64 * N :=
  (expect_const m (cD c ysS) Finset.univ N (duties_ys m c) (amount_ys m c)).trans (congrArg (· * N) card_univ64)
theorem expect_yr : (Rd (F := F) m).expect (cD c yrS) 0 = 64 * N :=
  (expect_const m (cD c yrS) Finset.univ N (duties_yr m c) (amount_yr m c)).trans (congrArg (· * N) card_univ64)
theorem expect_in : (Rd (F := F) m).expect (cD c inS) 0 = NL :=
  (expect_const m (cD c inS) {0} NL (duties_in m c) (amount_in m c)).trans (by rw [Finset.card_singleton, Nat.one_mul])
theorem expect_out : (Rd (F := F) m).expect (cD c outS) 0 = 64 * N :=
  (expect_const m (cD c outS) Finset.univ N (duties_out m c) (amount_out m c)).trans (congrArg (· * N) card_univ64)

theorem payload_barX : (Rd (F := F) m).payload (cB c) 0 0 = barPayX c := by dsimp only [Rd]; rw [if_pos rfl]
theorem payload_barY : (Rd (F := F) m).payload (cB c) 0 1 = barPayY c := by
  dsimp only [Rd]; rw [if_neg (by decide), if_pos rfl]
theorem payload_xs (d : Fin 64) : (Rd (F := F) m).payload (cD c xsS) 0 d = iprop(emp) := by dsimp only [Rd]; rw [ck_xs]
theorem payload_xr (i d : Fin 64) : (Rd (F := F) m).payload (cD c (xrS i)) 0 d = xrPay m c i := by dsimp only [Rd]; rw [ck_xr]
theorem payload_ys (d : Fin 64) : (Rd (F := F) m).payload (cD c ysS) 0 d = ysPay m c d := by dsimp only [Rd]; rw [ck_ys]
theorem payload_yr (d : Fin 64) : (Rd (F := F) m).payload (cD c yrS) 0 d = yrPay m c d := by dsimp only [Rd]; rw [ck_yr]
theorem payload_in (d : Fin 64) : (Rd (F := F) m).payload (cD c inS) 0 d = inPay m c := by dsimp only [Rd]; rw [ck_in]
theorem payload_out (d : Fin 64) : (Rd (F := F) m).payload (cD c outS) 0 d = outPay m c d := by dsimp only [Rd]; rw [ck_out]

/-- The rest of a round no duty of which is taken, per kind of cell. -/
theorem rest_bar : bigSep ((Rd (F := F) m).duties (cB c) 0 \ ∅) (fun d => (Rd (F := F) m).payload (cB c) 0 d) = iprop(barPayX c ∗ barPayY c) := by
  rw [Finset.sdiff_empty, duties_bar, bigSep_insert (by decide), bigSep_singleton, payload_barX, payload_barY]
  rfl
theorem rest_xr (i : Fin 64) : bigSep ((Rd (F := F) m).duties (cD c (xrS i)) 0 \ ∅) (fun d => (Rd (F := F) m).payload (cD c (xrS i)) 0 d) = xrPay m c i := by
  rw [Finset.sdiff_empty, duties_xr, bigSep_singleton, payload_xr]
theorem rest_in : bigSep ((Rd (F := F) m).duties (cD c inS) 0 \ ∅) (fun d => (Rd (F := F) m).payload (cD c inS) 0 d) = inPay m c := by
  rw [Finset.sdiff_empty, duties_in, bigSep_singleton, payload_in]

end Tables

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- At its barrier wait a device owes only receive cells (levels 2 and 3), above its barrier cell (level 1). -/
theorem mayWait_bar (c : Dev nD) :
    (levAts L lv : sProp 𝕄) ⊢ MayWait (c : Thread nD τ) (.reg barS) () (OX c 64) := ta_mayWait_bar c
/-- Waiting for its local copy (level 0) a device owes only its y-neighbour's receive cell. -/
theorem mayWait_in (c : Dev nD) :
    (levAts L lv : sProp 𝕄) ⊢ MayWait (c : Thread nD τ) (.dma inS) () (OY c 64) := ta_mayWait_in c
/-- Waiting for chunk `i` (level 2) a device owes only its y-neighbour's receive cell (level 3). -/
theorem mayWait_xr (c : Dev nD) (i : Fin 64) (k : ℕ) :
    (levAts L lv : sProp 𝕄) ⊢ MayWait (c : Thread nD τ) (.dma (xrS i)) () (OY c k) := ta_mayWait_xr c i k
/-- A staging cell or any cell, waited while nothing is owed. -/
theorem mayWait_zero (c : Dev nD) (sm : SemLoc sig) :
    (levAts L lv : sProp 𝕄) ⊢ MayWait (c : Thread nD τ) sm () (0 : CellTallies nD τ sig Unit) := by
  rw [MayWait_zero]; iintro -; iempintro

end Cert.KernelProof

end
-- ==== Proof.Bits.Inv.lean ====
import proofs.«900299_g7700000000000300_dist_rs_v7x_xy2x2_x_m8192_n1024_f32_1_alg».proof.Proof.Bits.Tables

/-!
The ghost state a device starts from, the invariants of the three passes, and the proof data of the launch.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Index sets of the chunks still to come and already done -/

def ge (n : ℕ) : Finset (Fin 64) := Finset.univ.filter fun j => n ≤ j.val
def lt (n : ℕ) : Finset (Fin 64) := Finset.univ.filter fun j => j.val < n

theorem ge_zero : ge 0 = Finset.univ := by ext j; simp [ge]
theorem ge_top : ge 64 = ∅ := by ext j; simp [ge]
theorem lt_zero : lt 0 = ∅ := by ext j; simp [lt]
theorem lt_top : lt 64 = Finset.univ := by ext j; simp [lt]
theorem ge_succ (i : Fin 64) : ge i.val = insert i (ge (i.val + 1)) := by
  ext j; simp only [ge, Finset.mem_filter, Finset.mem_univ, true_and, Finset.mem_insert]
  constructor
  · intro h; by_cases hj : j = i
    · exact Or.inl hj
    · exact Or.inr (by have : j.val ≠ i.val := fun h' => hj (Fin.ext h'); omega)
  · rintro (h | h)
    · rw [h]
    · omega
theorem not_mem_ge_succ (i : Fin 64) : i ∉ ge (i.val + 1) := by simp [ge]
theorem lt_succ (i : Fin 64) : lt (i.val + 1) = insert i (lt i.val) := by
  ext j; simp only [lt, Finset.mem_filter, Finset.mem_univ, true_and, Finset.mem_insert]
  constructor
  · intro h; by_cases hj : j = i
    · exact Or.inl hj
    · exact Or.inr (by have : j.val ≠ i.val := fun h' => hj (Fin.ext h'); omega)
  · rintro (h | h)
    · rw [h]; omega
    · omega
theorem not_mem_lt (i : Fin 64) : i ∉ lt i.val := by simp [lt]

/-! ## The cells, indexed -/

/-- The 70 semaphores of a device: the barrier's, then the 69 DMA semaphores. -/
def csem (k : Fin 70) : SemLoc sig := if h : k.val = 0 then .reg barS else .dma ⟨k.val - 1, by have := k.isLt; show k.val - 1 < 69; omega⟩
abbrev kcell (ck : Dev nD × Fin 70) : GSem nD τ sig := ((ck.1 : Thread nD τ), csem ck.2)
def idxOf : SemLoc sig → Fin 70
  | .reg _ => 0
  | .dma s => ⟨s.val + 1, by have : s.val < 69 := s.isLt; omega⟩
theorem csem_idxOf (s : SemLoc sig) : csem (idxOf s) = s := by
  cases s with
  | reg s => have : s = barS := Subsingleton.elim _ _; subst this; rfl
  | dma s => unfold idxOf csem; simp
/-- The kernel's own (scoped) semaphores, as the launch theorem indexes them: the 69 DMA semaphores. -/
abbrev osem : Fin 69 → SemLoc sig := fun j => .dma j

/-- The share of the input a device keeps after `n` lends (each lend takes the left half of what is left). -/
def rS : ℕ → PosShare TreeShare
  | 0 => fullShare
  | n + 1 => (rS n).right

/-! ## The ghost state -/

/-- Every cell's invariant at its name, and that every cell's first round is reached. -/
def records (K : GSem nD τ sig → ℕ) : sProp 𝕄 :=
  iprop((bigSep Finset.univ fun ck : Dev nD × Fin 70 => cellInv ER (Rd m) (K (kcell ck)) (kcell ck))
    ∗ bigSep Finset.univ fun ck : Dev nD × Fin 70 => reached ER (kcell ck) 0)

instance records_persistent (K : GSem nD τ sig → ℕ) : BI.Persistent (records m K) := by unfold records; infer_instance

/-- The tokens of the duties device `c` pays. -/
def payToks (c : Dev nD) : sProp 𝕄 :=
  iprop(dutyTok ER (cB (xp c)) 0 (0 : Fin 64) ∗ dutyTok ER (cB (yp c)) 0 (1 : Fin 64) ∗ dutyTok ER (cD c inS) 0 (0 : Fin 64)
    ∗ (bigSep Finset.univ fun i : Fin 64 => iprop(dutyTok ER (cD c xsS) 0 i ∗ dutyTok ER (cD (xp c) (xrS i)) 0 (0 : Fin 64)))
    ∗ (bigSep Finset.univ fun i : Fin 64 => iprop(dutyTok ER (cD c ysS) 0 i ∗ dutyTok ER (cD (yp c) yrS) 0 i ∗ dutyTok ER (cD c outS) 0 i)))

/-- Device `c`'s positions: round 0 of each of its 70 cells, nothing taken. -/
def positions (c : Dev nD) : sProp 𝕄 := bigSep Finset.univ fun k : Fin 70 => atPos ER (kcell (c, k)) 0 ∅ 0

def ghost (K : GSem nD τ sig → ℕ) (c : Dev nD) : sProp 𝕄 := iprop(records m K ∗ positions c ∗ payToks c)

/-- The credit the launch deals `c`: its barrier's two units, a chunk's credit on each chunk cell, 64 chunks' on the result's receive cell. -/
def creds (c : Dev nD) : sProp 𝕄 :=
  iprop(cred (tallyAt (cB c) () 2) ∗ (bigSep Finset.univ fun i : Fin 64 => cred (tallyAt (cD c (xrS i)) () N)) ∗ cred (tallyAt (cD c yrS) () (64 * N)))

/-- What device `c`'s launch starts from: the ghost state at some names, the credit, the levels, and its two arrays. -/
def start (c : Dev nD) : sProp 𝕄 :=
  iprop((∃ K, ghost m K c) ∗ creds c ∗ levAts L lv
    ∗ (((c : Thread nD τ).loc main_arg0) ↦{fullShare} X m c) ∗ (((c : Thread nD τ).loc main_v1) ↦{fullShare} m ((c : Thread nD τ).loc main_v1)))

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scr c)

/-- After the body: the input (a share of it) unchanged, the result at the reduced column block, the scratch buffers back, every own semaphore at zero. -/
def Φ₁ (c : Dev nD) : sProp 𝕄 :=
  iprop((((c : Thread nD τ).loc main_arg0) ↦{rS 65} X m c) ∗ (((c : Thread nD τ).loc main_v1) ↦{fullShare} outOf c (Gsum m))
    ∗ scr c ∗ bigSep Finset.univ fun j : Fin 69 => semVal (cD c j) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The invariants of the three passes -/

section Inv
variable (K : GSem nD τ sig → ℕ) (c : Dev nD)

/-- Pass 1 after `n` sends: what is still owed, the input share left, and for every chunk to come the neighbour's landing rows and the two duty tokens; for every chunk sent, the send cell's credit. -/
def Inv1 (fN : Buf (Elt F) (((xp c : Dev nD) : Thread nD τ).loc cc0_scratch0)) (n : ℕ) : sProp 𝕄 :=
  iprop(records m K ∗ (∃ W, owes (c : Thread nD τ) (OX c (64 - n)) W)
    ∗ (((c : Thread nD τ).loc main_arg0) ↦{rS (n + 1)} X m c)
    ∗ (bigSep (ge n) fun j : Fin 64 => iprop(((chunk R0 j).view.loc ((xp c : Dev nD) : Thread nD τ) ↦[(chunk R0 j).view.set]{fullShare} fN)
        ∗ dutyTok ER (cD c xsS) 0 j ∗ dutyTok ER (cD (xp c) (xrS j)) 0 (0 : Fin 64)))
    ∗ (bigSep (lt n) fun _ : Fin 64 => cred (tallyAt (cD c xsS) () N)))

/-- Pass 2 after `n` chunks. -/
def Inv2 (fY : Buf (Elt F) (((yp c : Dev nD) : Thread nD τ).loc main_v1)) (f1 : Buf (Elt F) ((c : Thread nD τ).loc main_v1)) (n : ℕ) : sProp 𝕄 :=
  iprop(records m K ∗ levAts L lv ∗ (∃ W, owes (c : Thread nD τ) (OY c (64 - n)) W)
    ∗ (((c : Thread nD τ).loc cc0_scratch1) ↦{fullShare} Glocal m c)
    ∗ (bigSep (ge n) fun j : Fin 64 => iprop(atPos ER (cD c (xrS j)) 0 ∅ 0 ∗ cred (tallyAt (cD c (xrS j)) () N)
        ∗ ((oslice A1 c j).view.loc ((yp c : Dev nD) : Thread nD τ) ↦[(oslice A1 c j).view.set]{fullShare} fY)
        ∗ ((oslice A1 c j).view.loc (c : Thread nD τ) ↦[(oslice A1 c j).view.set]{fullShare} f1)
        ∗ dutyTok ER (cD c ysS) 0 j ∗ dutyTok ER (cD (yp c) yrS) 0 j ∗ dutyTok ER (cD c outS) 0 j))
    ∗ (bigSep (lt n) fun j : Fin 64 => iprop(atPos ER (cD c (xrS j)) 1 ∅ 0 ∗ cred (tallyAt (cD c ysS) () N) ∗ cred (tallyAt (cD c outS) () N))))

/-- A cell of 64 equal duties waited one duty's amount at a time, after `n` waits: the duties taken so far with their payloads, and the credit for the waits to come. -/
def WInv (g : GSem nD τ sig) (n : ℕ) : sProp 𝕄 :=
  iprop(∃ S : Finset (Fin 64), atPos ER g 0 S (n * N) ∗ (bigSep S fun d => (Rd m).payload g 0 d) ∗ bigSep (ge n) fun _ : Fin 64 => cred (tallyAt g () N))
/-- The same cell drained: the next round, and every duty's payload. -/
def WDone (g : GSem nD τ sig) : sProp 𝕄 :=
  iprop(atPos ER g 1 ∅ 0 ∗ bigSep (Finset.univ : Finset (Fin 64)) fun d => (Rd m).payload g 0 d)
def WSt (g : GSem nD τ sig) (n : ℕ) : sProp 𝕄 := if n < 64 then WInv m g n else WDone m g

/-- Pass 3 after `n` rounds of the four closing waits. -/
def Inv3 (n : ℕ) : sProp 𝕄 :=
  iprop(records m K ∗ (∃ W, owes (c : Thread nD τ) 0 W)
    ∗ WSt m (cD c xsS) n ∗ WSt m (cD c ysS) n ∗ WSt m (cD c yrS) n ∗ WSt m (cD c outS) n)

end Inv

end Cert.KernelProof

end
-- ==== Proof.Bits.LoopParts.lean ====
import proofs.«900299_g7700000000000300_dist_rs_v7x_xy2x2_x_m8192_n1024_f32_1_alg».proof.Proof.Bits.Loop
import proofs.«900299_g7700000000000300_dist_rs_v7x_xy2x2_x_m8192_n1024_f32_1_alg».proof.Proof.Gen.Kernel

/-!
The three-pass body cut into the pieces the proof steps through: the opening (device id, the two barrier
signals, the barrier wait, the start of the local copy), the wait for the local copy, and the passes.
-/

noncomputable section

namespace Cert.Kernel.Loop

open Idealize.ShloMosaic Idealize.SL.Sem

variable {F : FTy → Type} [FloatOps F]
open Facts₀ Facts

/-- The opening: returns the device. -/
def pro (arg0 : Memref sig .tc .hbm S1x8192x2048 .f32) (arg3 : Memref sig .tc .vmem S4096x1024 .f32) (harg3 : arg3.IsWhole)
    (arg8 : DmaSems sig S_) : Prog (TpuEff nD τ sig (Elt F) Λ₀ .tc) (Dev nD) := do
  let d0 : Dev nD ← Prog.lift .deviceId
  semSignalWord (xpeer d0) bar.sem 1#32 hamt_1
  semSignalWord (ypeer d0) bar.sem 1#32 hamt_1
  semWaitWord bar.sem 2#32 hamt_2
  Prog.lift (.enqueueDma (lsrc arg0 d0) (.here arg3) (.dma arg8.sem) ((View.wordExact_bits rfl).reshape _ _) harg3.wordExact ⟨Or.inl rfl, trivial⟩)
  pure d0

/-- The wait for the local copy. -/
def inwait (arg0 : Memref sig .tc .hbm S1x8192x2048 .f32) (arg3 : Memref sig .tc .vmem S4096x1024 .f32) (harg3 : arg3.IsWhole)
    (arg8 : DmaSems sig S_) (d0 : Dev nD) : Prog (TpuEff nD τ sig (Elt F) Λ₀ .tc) PUnit :=
  Prog.lift (.waitDma2 arg8.sem (lsrc arg0 d0) arg3 ((View.wordExact_bits rfl).reshape _ _) harg3.wordExact)

/-- The printed body is the opening, then the three passes with the wait for the local copy after the first. -/
theorem body_parts (arg0 : Memref sig .tc .hbm S1x8192x2048 .f32) (harg0 : arg0.IsWhole) (arg1 : Memref sig .tc .hbm S8192x1024 .f32) (harg1 : arg1.IsWhole)
    (arg2 : Memref sig .tc .vmem S4096x1024 .f32) (harg2 : arg2.IsWhole) (arg3 : Memref sig .tc .vmem S4096x1024 .f32) (harg3 : arg3.IsWhole)
    (arg4 : DmaSems sig S_) (arg5 : DmaSems sig S64) (arg6 arg7 arg8 arg9 : DmaSems sig S_) :
    cc0_body (F := F) arg0 harg0 arg1 harg1 arg2 harg2 arg3 harg3 arg4 arg5 arg6 arg7 arg8 arg9
      = (pro (F := F) arg0 arg3 harg3 arg8 >>= fun d0 =>
          loopFrom (iter1 arg0 arg2 arg4 arg5 d0) 64 (Nat.le_refl _)
            (inwait arg0 arg3 harg3 arg8 d0 >>= fun _ =>
              loopFrom (iter2 arg0 arg1 arg2 arg3 arg5 arg6 arg7 arg9 d0) 64 (Nat.le_refl _)
                (loopFrom (iter3 arg0 arg1 arg2 arg4 arg6 arg7 arg9 d0) 64 (Nat.le_refl _) (pure ⟨⟩)))) := by
  chain_rfl

end Cert.Kernel.Loop

end
-- ==== Proof.Bits.GeoSets.lean ====
import proofs.«900299_g7700000000000300_dist_rs_v7x_xy2x2_x_m8192_n1024_f32_1_alg».proof.Proof.Bits.GeoDefs
import Idealize.ShloMosaic.Rules.PointsTo
import Idealize.ShloMosaic.Lib.Pipeline.Value

/-!
The element sets of the reduce-scatter's buffers. The 64 row chunks of a scratch buffer partition its 4096 rows;
the 64 chunks of a device's own row half of the result together with the 64 chunks of its neighbour's (along y)
row half partition the result's 8192 rows. A points-to of a whole buffer is therefore the separating conjunction
of the points-tos of those chunks. A chunk's elements are the rows of its range, every column.
-/

noncomputable section

namespace Cert.Kernel.Geo

open Cert.Kernel Cert.Kernel.Loop
open Idealize.ShloMosaic Idealize.ShloMosaic.TcCoe Idealize.SL.Sem
open Idealize.SL
open Idealize.SL.RA Idealize.SL.ProofMode
open Idealize.SL.BI (sProp bigSep)
open scoped Idealize.SL.BI
open Idealize.SL.BI.BIBase Idealize.SL.BI.Laws
open PCS URA Auth
open Facts₀ Facts

/-! ## Membership, in coordinates -/

/-- An element of the receive buffer is in chunk `i` iff its row is in `[64 i, 64 i + 64)`. -/
theorem mem_chunk0 (i : Fin 64) (idx : S4096x1024.Idx) :
    idx ∈ (chunk R0 i).view.set ↔ 64 * i.val ≤ (idx 0).val ∧ (idx 0).val < 64 * i.val + 64 := by
  show idx ∈ ((View.whole cc0_scratch0).slice (crect i)).set ↔ _
  rw [View.set_slice_whole, Rect.mem_set_unit]
  constructor
  · intro h; exact h 0
  · intro h a
    match a with
    | ⟨0, _⟩ => exact h
    | ⟨1, _⟩ =>
      have h1 : (idx 1).val < 1024 := (idx 1).isLt
      exact ⟨Nat.zero_le _, by show (idx 1).val < 0 + 1024; omega⟩

/-- The same for the local buffer. -/
theorem mem_chunk1 (i : Fin 64) (idx : S4096x1024.Idx) :
    idx ∈ (chunk R1 i).view.set ↔ 64 * i.val ≤ (idx 0).val ∧ (idx 0).val < 64 * i.val + 64 := by
  show idx ∈ ((View.whole cc0_scratch1).slice (crect i)).set ↔ _
  rw [View.set_slice_whole, Rect.mem_set_unit]
  constructor
  · intro h; exact h 0
  · intro h a
    match a with
    | ⟨0, _⟩ => exact h
    | ⟨1, _⟩ =>
      have h1 : (idx 1).val < 1024 := (idx 1).isLt
      exact ⟨Nat.zero_le _, by show (idx 1).val < 0 + 1024; omega⟩

/-- An element of the result is in chunk `i` of device `d`'s row half iff its row is in
    `[4096 (d mod 2) + 64 i, 4096 (d mod 2) + 64 i + 64)`. -/
theorem mem_oslice (d : Dev nD) (i : Fin 64) (idx : S8192x1024.Idx) :
    idx ∈ (oslice A1 d i).view.set ↔
      4096 * (d.val % 2) + 64 * i.val ≤ (idx 0).val ∧ (idx 0).val < 4096 * (d.val % 2) + 64 * i.val + 64 := by
  show idx ∈ ((View.whole main_v1).slice (Rect.unit (s := S8192x1024) (k0_off3 d (BitVec.ofNat 32 (64 * i.val))) S64x1024.size (k0_off3_inb d i))).set ↔ _
  rw [View.set_slice_whole, Rect.mem_set_unit, Gen.k0_off3_eq]
  constructor
  · intro h; exact h 0
  · intro h a
    match a with
    | ⟨0, _⟩ => exact h
    | ⟨1, _⟩ =>
      have h1 : (idx 1).val < 1024 := (idx 1).isLt
      exact ⟨Nat.zero_le _, by show (idx 1).val < 0 + 1024; omega⟩

/-! ## What a load and a store of a chunk touch -/

/-- A load of chunk `i`'s rectangle through the whole receive buffer reads the chunk's elements. -/
theorem load_subset (i : Fin 64) : R0.view.setOn (crect i).toLoadRect.set ⊆ (chunk R0 i).view.set := by
  show (View.whole cc0_scratch0).setOn (crect i).toLoadRect.set ⊆ ((View.whole cc0_scratch0).slice (crect i)).set
  rw [View.set_slice_whole]
  intro x hx
  simpa [View.setOn] using hx

/-- A store to chunk `i`'s rectangle through the whole receive buffer writes the chunk's elements. -/
theorem store_subset (i : Fin 64) : (R0.access (crect i)).setOn Finset.univ ⊆ (chunk R0 i).view.set :=
  Finset.Subset.refl _

/-- The local buffer is held whole, so there is nothing to show for it. -/
theorem load_subset_univ (c : Dev nD) (i : Fin 64) :
    R1.view.setOn (crect i).toLoadRect.set ⊆ (Finset.univ : Finset (Idx (R1.view.loc (c : Thread nD τ)))) :=
  Finset.subset_univ _

theorem store_subset_univ (c : Dev nD) (i : Fin 64) :
    (R1.access (crect i)).setOn Finset.univ ⊆ (Finset.univ : Finset (Idx ((R1.access (crect i)).loc (c : Thread nD τ)))) :=
  Finset.subset_univ _

/-! ## The partitions -/

/-- Chunk `i`'s elements, as a set of indices of the receive buffer. -/
abbrev cset (i : Fin 64) : Finset S4096x1024.Idx := (chunk R0 i).view.set
/-- The elements of chunk `i` of device `d`'s row half, as a set of indices of the result. -/
abbrev oset (d : Dev nD) (i : Fin 64) : Finset S8192x1024.Idx := (oslice A1 d i).view.set

/-- Different chunks of the receive buffer share no element. -/
theorem chunk0_disjoint (i j : Fin 64) (h : i ≠ j) : Disjoint (cset i) (cset j) := by
  rw [Finset.disjoint_left]
  intro x hi hj
  have hi := (mem_chunk0 i x).mp hi
  have hj := (mem_chunk0 j x).mp hj
  exact h (Fin.ext (by omega))

/-- Every element of the receive buffer is in the chunk of its row. -/
theorem chunk0_cover : (Finset.univ : Finset (Fin 64)).biUnion cset = Finset.univ := by
  ext x
  simp only [Finset.mem_biUnion, Finset.mem_univ, true_and, iff_true]
  have hx : (x 0).val < 4096 := (x 0).isLt
  have hk : (x 0).val / 64 < 64 := by omega
  refine ⟨⟨(x 0).val / 64, hk⟩, (mem_chunk0 ⟨(x 0).val / 64, hk⟩ x).mpr ?_⟩
  show 64 * ((x 0).val / 64) ≤ (x 0).val ∧ (x 0).val < 64 * ((x 0).val / 64) + 64
  omega

/-- The elements of device `d`'s row half of the result: its 64 chunks together. -/
abbrev half (d : Dev nD) : Finset S8192x1024.Idx := (Finset.univ : Finset (Fin 64)).biUnion (oset d)

theorem mem_half (d : Dev nD) (x : S8192x1024.Idx) :
    x ∈ half d ↔ 4096 * (d.val % 2) ≤ (x 0).val ∧ (x 0).val < 4096 * (d.val % 2) + 4096 := by
  simp only [half, Finset.mem_biUnion, Finset.mem_univ, true_and]
  constructor
  · rintro ⟨i, hi⟩
    have hi := (mem_oslice d i x).mp hi
    have := i.isLt
    omega
  · intro h
    have hk : ((x 0).val - 4096 * (d.val % 2)) / 64 < 64 := by omega
    refine ⟨⟨((x 0).val - 4096 * (d.val % 2)) / 64, hk⟩, (mem_oslice d ⟨((x 0).val - 4096 * (d.val % 2)) / 64, hk⟩ x).mpr ?_⟩
    show 4096 * (d.val % 2) + 64 * (((x 0).val - 4096 * (d.val % 2)) / 64) ≤ (x 0).val
      ∧ (x 0).val < 4096 * (d.val % 2) + 64 * (((x 0).val - 4096 * (d.val % 2)) / 64) + 64
    omega

/-- Different chunks of one row half share no element. -/
theorem oslice_disjoint (d : Dev nD) (i j : Fin 64) (h : i ≠ j) : Disjoint (oset d i) (oset d j) := by
  rw [Finset.disjoint_left]
  intro x hi hj
  have hi := (mem_oslice d i x).mp hi
  have hj := (mem_oslice d j x).mp hj
  exact h (Fin.ext (by omega))

/-- The neighbour along y works on the other row half. -/
theorem yp_parity (c : Dev nD) : (yp c).val % 2 = 1 - c.val % 2 := by
  have h := yp_val c
  have h4 : c.val < 4 := c.isLt
  omega

theorem half_disjoint (c : Dev nD) : Disjoint (half c) (half (yp c)) := by
  rw [Finset.disjoint_left]
  intro x hi hj
  have hi := (mem_half c x).mp hi
  have hj := (mem_half (yp c) x).mp hj
  have := yp_parity c
  omega

theorem half_union (c : Dev nD) : half c ∪ half (yp c) = Finset.univ := by
  ext x
  simp only [Finset.mem_union, Finset.mem_univ, iff_true]
  have hx : (x 0).val < 8192 := (x 0).isLt
  have := yp_parity c
  by_cases h : 4096 * (c.val % 2) ≤ (x 0).val ∧ (x 0).val < 4096 * (c.val % 2) + 4096
  · exact Or.inl ((mem_half c x).mpr h)
  · exact Or.inr ((mem_half (yp c) x).mpr (by omega))

/-! ## A whole buffer's points-to, chunk by chunk -/

section Tiles
variable {Ix : Type} [DecidableEq Ix] {Val : EltTy → Type} {Name : Type} [DecidableEq Name]
variable {U : Type} [URA U] {Lvl : Type}
local notation "𝕄" => MT nD τ sig Ix Val Name U Lvl

/-- The receive buffer, held whole, is its 64 row chunks held each by its own elements. -/
theorem scratch_tiles (c : Dev nD) (f : Buf Val ((c : Thread nD τ).loc cc0_scratch0)) :
    (((c : Thread nD τ).loc cc0_scratch0) ↦{fullShare} f : sProp 𝕄) ⊣⊢
      bigSep (Finset.univ : Finset (Fin 64)) fun i =>
        ((chunk R0 i).view.loc (c : Thread nD τ) ↦[(chunk R0 i).view.set]{fullShare} f) := by
  have h : (((c : Thread nD τ).loc cc0_scratch0) ↦[(Finset.univ : Finset (Fin 64)).biUnion cset]{fullShare} f : sProp 𝕄)
      = bigSep (Finset.univ : Finset (Fin 64)) fun i => (((c : Thread nD τ).loc cc0_scratch0) ↦[cset i]{fullShare} f) :=
    pointsTo_biUnion (ℓ := (c : Thread nD τ).loc cc0_scratch0) Finset.univ cset (fun i _ j _ hij => chunk0_disjoint i j hij)
  have e : (((c : Thread nD τ).loc cc0_scratch0) ↦{fullShare} f : sProp 𝕄)
      = (((c : Thread nD τ).loc cc0_scratch0) ↦[(Finset.univ : Finset (Fin 64)).biUnion cset]{fullShare} f) :=
    congrArg (fun S => (((c : Thread nD τ).loc cc0_scratch0) ↦[S]{fullShare} f : sProp 𝕄)) chunk0_cover.symm
  exact BiEntails.of_eq (e.trans h)

/-- The result, held whole, is the 64 chunks of the device's own row half and the 64 chunks of its
    neighbour's (along y) row half, held each by its own elements. -/
theorem out_tiles (c : Dev nD) (f : Buf Val ((c : Thread nD τ).loc main_v1)) :
    (((c : Thread nD τ).loc main_v1) ↦{fullShare} f : sProp 𝕄) ⊣⊢
      iprop((bigSep Finset.univ fun i : Fin 64 =>
          (oslice A1 c i).view.loc (c : Thread nD τ) ↦[(oslice A1 c i).view.set]{fullShare} f)
        ∗ (bigSep Finset.univ fun i : Fin 64 =>
          (oslice A1 (yp c) i).view.loc (c : Thread nD τ) ↦[(oslice A1 (yp c) i).view.set]{fullShare} f)) := by
  have hu : (((c : Thread nD τ).loc main_v1) ↦[half c ∪ half (yp c)]{fullShare} f : sProp 𝕄) ⊣⊢
      iprop((((c : Thread nD τ).loc main_v1) ↦[half c]{fullShare} f) ∗ (((c : Thread nD τ).loc main_v1) ↦[half (yp c)]{fullShare} f)) :=
    pointsTo_union (ℓ := (c : Thread nD τ).loc main_v1) (half_disjoint c)
  have h1 : ∀ d : Dev nD, (((c : Thread nD τ).loc main_v1) ↦[half d]{fullShare} f : sProp 𝕄)
      = bigSep Finset.univ fun i : Fin 64 => (((c : Thread nD τ).loc main_v1) ↦[oset d i]{fullShare} f) := fun d =>
    pointsTo_biUnion (ℓ := (c : Thread nD τ).loc main_v1) Finset.univ (oset d) (fun i _ j _ hij => oslice_disjoint d i j hij)
  have e : (((c : Thread nD τ).loc main_v1) ↦{fullShare} f : sProp 𝕄)
      = (((c : Thread nD τ).loc main_v1) ↦[half c ∪ half (yp c)]{fullShare} f) :=
    congrArg (fun S => (((c : Thread nD τ).loc main_v1) ↦[S]{fullShare} f : sProp 𝕄)) (half_union c).symm
  rw [h1 c, h1 (yp c)] at hu
  exact (BiEntails.of_eq e).trans hu

end Tiles

/-- info: 'Cert.Kernel.Geo.scratch_tiles' depends on axioms: [propext, Classical.choice, Quot.sound] -/
#guard_msgs in #print axioms scratch_tiles

/-- info: 'Cert.Kernel.Geo.out_tiles' depends on axioms: [propext, Classical.choice, Quot.sound] -/
#guard_msgs in #print axioms out_tiles

end Cert.Kernel.Geo

end
-- ==== Proof.Bits.GeoVals.lean ====
import proofs.«900299_g7700000000000300_dist_rs_v7x_xy2x2_x_m8192_n1024_f32_1_alg».proof.Proof.Bits.GeoOut
import Idealize.ShloMosaic.Lib.Pipeline.Value

/-!
Value facts of the reduce-scatter's copies and of its one store, index by index.

* `xland`: chunk `i` sent along x lands, on the receiver's rows `[64 i, 64 i + 64)`, the sender's row half of the
  receiver's column block (`psrc`) at the same rows.
* `inland`: the local copy fills the second scratch buffer with the device's row half of its own column block.
* `store_sum`: the load, load, add, store sequence leaves on the chunk's rows the sum of the two buffers.
* `oland`: chunk `i` of a device's sum, copied to rows `4096 (c % 2) + 64 i` of the result of the device itself or of
  its neighbour along y, is what `outOf` names there: result row `r` of a device of mesh column `x` is row `r % 4096`
  of the sum of device `(x, r / 4096)`.

A block's coordinate is its offset plus the coordinate inside the block; every proof ends in that arithmetic.
-/

noncomputable section

namespace Cert.Kernel.Geo

open Cert.Kernel Cert.Kernel.Loop
open Idealize.ShloMosaic Idealize.ShloMosaic.TcCoe Idealize.SL.Sem
open Facts₀ Facts

variable {Val : EltTy → Type}

/-- A load through the whole input at a rectangle reads the contents at the rectangle's placement. -/
theorem readAt_A0 (f : A0.view.ty.Contents Val) (R : Rect S1x8192x2048) (x : R.shape.Idx) :
    View.readAt Val A0.view R.toLoadRect f x = f (R.emb x) := rfl

/-- The chunk the send along x lands is the sender's row half of the receiver's column block, at the chunk's rows:
    row `y` of chunk `i` is row `4096 (c % 2) + 64 i + y` of the input, and row `64 i + y` of the row half. -/
theorem xland (c : Dev nD) (i : Fin 64) (fd : (chunk R0 i).view.ty.Contents Val) (f : A0.view.ty.Contents Val) :
    ∀ idx ∈ (chunk R0 i).view.set,
      (chunk R0 i).view.write Val fd ((xsrc A0 c i).view.read Val f) Finset.univ idx = (psrc c).view.read Val f idx := by
  intro idx hidx
  obtain ⟨y, rfl⟩ := View.exists_emb_of_mem_set _ hidx
  rw [View.write_emb_of_mem _ _ (Finset.mem_univ y)]
  show View.read Val (xsrc A0 c i).view f y = View.read Val (psrc c).view f ((crect i).emb y)
  rw [Memref.read_squeeze_slice A0 _ _ _ squeezes_S1x64x1024_S64x1024.numel_eq,
    Memref.read_squeeze_slice A0 _ _ _ squeezes_S1x4096x1024_S4096x1024.numel_eq,
    shapeCast_dropUnit_apply, shapeCast_dropUnit_apply, readAt_A0, readAt_A0]
  refine congrArg f (funext fun a => Fin.ext ?_)
  rw [Rect.emb_apply, Rect.emb_apply, Rect.off_unit, Rect.off_unit, Rect.stride_unit, Rect.stride_unit,
    congrFun (Gen.k0_off2_eq c i) a]
  fin_cases a
  · rfl
  · show 4096 * (c.val % 2) + 64 * i.val + 1 * (y 0).val = 4096 * (c.val % 2) + 1 * (64 * i.val + 1 * (y 0).val); omega
  · show 1024 - 1024 * (c.val / 2) + 1 * (y 1).val = 1024 - 1024 * (c.val / 2) + 1 * (0 + 1 * (y 1).val); omega

/-- The local copy writes the whole second scratch buffer: it ends holding what the copy read. -/
theorem inland (c : Dev nD) (fd : R1.view.ty.Contents Val) (f : A0.view.ty.Contents Val) :
    R1.view.write Val fd ((lsrc A0 c).view.read Val f) Finset.univ = (lsrc A0 c).view.read Val f :=
  View.write_whole_univ _ _ _

section Sum
variable {F : FTy → Type} [FloatOps F]

/-- What the load of the chunk's rows from each scratch buffer, the addition and the store through the same rows
    leave on those rows: the sum of the two buffers. -/
theorem store_sum (i : Fin 64) (f g : S4096x1024.Idx → Elt F .f32) :
    ∀ idx ∈ (chunk R0 i).view.set,
      (R0.access (crect i)).write (Elt F) f
        (shapeCast S64x1024
          (addf (R0.view.readAt (Elt F) (crect i).toLoadRect f : Vec F S64x1024 .f32)
            (R1.view.readAt (Elt F) (crect i).toLoadRect g : Vec F S64x1024 .f32))
          shapeCasts_S64x1024_S64x1024)
        Finset.univ idx = addf f g idx := by
  intro idx hidx
  obtain ⟨y, rfl⟩ := View.exists_emb_of_mem_set _ hidx
  refine (View.write_emb_of_mem (v := R0.access (crect i)) f _ (Finset.mem_univ y)).trans ?_
  exact congrFun (shapeCast_self (s := S64x1024)
    (addf (R0.view.readAt (Elt F) (crect i).toLoadRect f : Vec F S64x1024 .f32)
      (R1.view.readAt (Elt F) (crect i).toLoadRect g : Vec F S64x1024 .f32)) shapeCasts_S64x1024_S64x1024) y

end Sum

/-- The sums of the devices read at a device given up to equality. -/
theorem gs_congr (gs : (d : Dev nD) → Buf Val ((d : Thread nD τ).loc cc0_scratch0)) {d d' : Dev nD} (h : d = d')
    {x x' : S4096x1024.Idx} (hx : x = x') : (gs d x : Val .f32) = gs d' x' := by
  subst h hx; rfl

/-- Chunk `i` of device `c`'s sum, copied to rows `4096 (c % 2) + 64 i` of the result of `c` or of its neighbour along
    y, is the result `outOf` names: those rows belong to the device of the mesh column with `c`'s parity, `c` itself,
    at its rows `64 i + y`. -/
theorem oland (c c' : Dev nD) (hc : c' = c ∨ c' = yp c) (i : Fin 64) (fd : (oslice A1 c i).view.ty.Contents Val)
    (gs : (d : Dev nD) → Buf Val ((d : Thread nD τ).loc cc0_scratch0)) :
    ∀ idx ∈ (oslice A1 c i).view.set,
      (oslice A1 c i).view.write Val fd ((chunk R0 i).view.read Val (gs c)) Finset.univ idx = outOf c' gs idx := by
  intro idx hidx
  obtain ⟨y, rfl⟩ := View.exists_emb_of_mem_set _ hidx
  rw [View.write_emb_of_mem _ _ (Finset.mem_univ y)]
  have he : ∀ a, (((oslice A1 c i).view.emb y : S8192x1024.Idx) a).val
      = (![4096 * (c.val % 2) + 64 * i.val, 0] : Fin 2 → Nat) a + 1 * (y a).val := fun a => by
    rw [← congrFun (Gen.k0_off3_eq c i) a]; rfl
  have he0 : (((oslice A1 c i).view.emb y : S8192x1024.Idx) 0).val = 4096 * (c.val % 2) + 64 * i.val + (y 0).val :=
    (he 0).trans (by
      show 4096 * (c.val % 2) + 64 * i.val + 1 * (y 0).val = 4096 * (c.val % 2) + 64 * i.val + (y 0).val; omega)
  have he1 : (((oslice A1 c i).view.emb y : S8192x1024.Idx) 1).val = (y 1).val :=
    (he 1).trans (by show 0 + 1 * (y 1).val = (y 1).val; omega)
  have hy0 : (y 0).val < 64 := (y 0).isLt
  have hcl : c.val < 4 := c.isLt
  have hhalf : c'.val / 2 = c.val / 2 := by
    rcases hc with rfl | rfl
    · rfl
    · rw [yp_val]; omega
  show (gs c ((crect i).emb y) : Val .f32) = gs (outDev c' (((oslice A1 c i).view.emb y : S8192x1024.Idx) 0)) _
  refine gs_congr gs (Fin.ext ?_) (funext fun a => Fin.ext ?_)
  · show c.val = 2 * (c'.val / 2) + (((oslice A1 c i).view.emb y : S8192x1024.Idx) 0).val / 4096
    rw [he0, hhalf]; omega
  · fin_cases a
    · show 64 * i.val + 1 * (y 0).val = (((oslice A1 c i).view.emb y : S8192x1024.Idx) 0).val % 4096
      rw [he0]; omega
    · show 0 + 1 * (y 1).val = (((oslice A1 c i).view.emb y : S8192x1024.Idx) 1).val
      rw [he1]; omega

/-- info: 'Cert.Kernel.Geo.xland' depends on axioms: [propext, Classical.choice, Quot.sound] -/
#guard_msgs in #print axioms xland

/-- info: 'Cert.Kernel.Geo.store_sum' depends on axioms: [propext, Classical.choice, Quot.sound] -/
#guard_msgs in #print axioms store_sum

/-- info: 'Cert.Kernel.Geo.oland' depends on axioms: [propext, Classical.choice, Quot.sound] -/
#guard_msgs in #print axioms oland

end Cert.Kernel.Geo

end
-- ==== Proof.Bits.InvLemmas.lean ====
import proofs.«900299_g7700000000000300_dist_rs_v7x_xy2x2_x_m8192_n1024_f32_1_alg».proof.Proof.Bits.Inv

/-!
Reading one cell's invariant and first-round mark off the records.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_idxOf (c : Dev nD) (s : SemLoc sig) : kcell (c, idxOf s) = (((c : Thread nD τ), s) : GSem nD τ sig) := by
  show (((c : Thread nD τ), csem (idxOf s)) : GSem nD τ sig) = _
  rw [csem_idxOf]

theorem inv_at (K : GSem nD τ sig → ℕ) (c : Dev nD) (s : SemLoc sig) :
    records m K ⊢ cellInv ER (Rd m) (K ((c : Thread nD τ), s)) ((c : Thread nD τ), s) := by
  have h := bigSep_elim (Φ := fun ck : Dev nD × Fin 70 => (cellInv ER (Rd m) (K (kcell ck)) (kcell ck) : sProp 𝕄)) (Finset.mem_univ (c, idxOf s))
  rw [kcell_idxOf] at h
  unfold records
  exact sep_elim_left.trans h

theorem reached_at (K : GSem nD τ sig → ℕ) (c : Dev nD) (s : SemLoc sig) :
    records m K ⊢ reached ER (((c : Thread nD τ), s) : GSem nD τ sig) 0 := by
  have h := bigSep_elim (Φ := fun ck : Dev nD × Fin 70 => (reached ER (kcell ck) 0 : sProp 𝕄)) (Finset.mem_univ (c, idxOf s))
  rw [kcell_idxOf] at h
  unfold records
  exact sep_elim_right.trans h

end Cert.KernelProof

end
-- ==== Proof.Bits.Step1.lean ====
import proofs.«900299_g7700000000000300_dist_rs_v7x_xy2x2_x_m8192_n1024_f32_1_alg».proof.Proof.Bits.Inv
import proofs.«900299_g7700000000000300_dist_rs_v7x_xy2x2_x_m8192_n1024_f32_1_alg».proof.Proof.Bits.LoopParts
import proofs.«900299_g7700000000000300_dist_rs_v7x_xy2x2_x_m8192_n1024_f32_1_alg».proof.Proof.Bits.GeoSets
import proofs.«900299_g7700000000000300_dist_rs_v7x_xy2x2_x_m8192_n1024_f32_1_alg».proof.Proof.Bits.GeoVals
import proofs.«900299_g7700000000000300_dist_rs_v7x_xy2x2_x_m8192_n1024_f32_1_alg».proof.Proof.Bits.InvLemmas

/-!
Pass 1 of the body, one trip: the send of one chunk to the neighbour along x.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- What is owed before send `i` is what is owed after it and the chunk's credit on the neighbour's cell `i`. -/
theorem s1_OX_peel (i : Fin 64) :
    OX c (64 - i.val) = OX c (64 - (i.val + 1)) + tallyAt (cD (xp c) (xrS i)) () N := by
  have hi := i.isLt
  have h1 : 64 - i.val = (63 - i.val) + 1 := by omega
  have h2 : 64 - (i.val + 1) = 63 - i.val := by omega
  have h3 : (⟨63 - (63 - i.val) % 64, by omega⟩ : Fin 64) = i := Fin.ext (by show 63 - (63 - i.val) % 64 = i.val; omega)
  rw [h1, h2]
  show OX c (63 - i.val) + tallyAt (cD (xp c) (xrS ⟨63 - (63 - i.val) % 64, _⟩)) () N = _
  rw [h3]

/-- A lend of the input: the left half of the share left goes with the chunk's rows, the right half stays. -/
theorem s1_lend (i : Fin 64) :
    (((c : Thread nD τ).loc main_arg0) ↦{rS (i.val + 1)} X m c : sProp 𝕄)
      ⊢ iprop(((xsrc A0 c i).view.loc (c : Thread nD τ) ↦[(xsrc A0 c i).view.set]{(rS (i.val + 1)).left} X m c)
          ∗ (((c : Thread nD τ).loc main_arg0) ↦{rS (i.val + 1 + 1)} X m c)) := by
  refine (pointsTo_share (PosShare.mem_left_op_right (rS (i.val + 1)))).1.trans (sep_mono_left ?_)
  exact (pointsTo_split_subset (Finset.subset_univ _)).1.trans sep_elim_left

/-- The landed chunk is the receiver's payload: on its rows the neighbour's receive buffer holds what it is to receive. -/
theorem s1_pay_xr (fN : Buf (Elt F) (((xp c : Dev nD) : Thread nD τ).loc cc0_scratch0)) (i : Fin 64) :
    ((chunk R0 i).view.loc ((xp c : Dev nD) : Thread nD τ) ↦[(chunk R0 i).view.set]{fullShare}
        ((chunk R0 i).view.write (Elt F) fN ((xsrc A0 c i).view.read (Elt F) (X m c)) Finset.univ) : sProp 𝕄)
      ⊢ (Rd m).payload (cD (xp c) (xrS i)) 0 (0 : Fin 64) := by
  rw [payload_xr]; unfold xrPay
  refine Entails.of_eq (pointsTo_congr ?_)
  intro idx hidx
  rw [xland c i fN (X m c) idx hidx]
  unfold Grecv
  rw [xp_xp]

/-- The send cell's duty hands over nothing: the lent share is let go. -/
theorem s1_pay_xs (i : Fin 64) (P : sProp 𝕄) : P ⊢ (Rd m).payload (cD c xsS) 0 i := by
  rw [payload_xs]; iintro -; iempintro

theorem s1_Inv1_open (fN : Buf (Elt F) (((xp c : Dev nD) : Thread nD τ).loc cc0_scratch0)) (i : Fin 64) :
    Inv1 m K c fN i.val = iprop(records m K ∗ (∃ W, owes (c : Thread nD τ) (OX c (64 - i.val)) W)
    ∗ (((c : Thread nD τ).loc main_arg0) ↦{rS (i.val + 1)} X m c)
    ∗ ((((chunk R0 i).view.loc ((xp c : Dev nD) : Thread nD τ) ↦[(chunk R0 i).view.set]{fullShare} fN)
        ∗ dutyTok ER (cD c xsS) 0 i ∗ dutyTok ER (cD (xp c) (xrS i)) 0 (0 : Fin 64))
      ∗ bigSep (ge (i.val + 1)) fun j : Fin 64 => iprop(((chunk R0 j).view.loc ((xp c : Dev nD) : Thread nD τ) ↦[(chunk R0 j).view.set]{fullShare} fN)
        ∗ dutyTok ER (cD c xsS) 0 j ∗ dutyTok ER (cD (xp c) (xrS j)) 0 (0 : Fin 64)))
    ∗ (bigSep (lt i.val) fun _ : Fin 64 => cred (tallyAt (cD c xsS) () N))) := by
  unfold Inv1
  rw [ge_succ i, bigSep_insert (not_mem_ge_succ i)]
  rfl

theorem s1_Inv1_close (fN : Buf (Elt F) (((xp c : Dev nD) : Thread nD τ).loc cc0_scratch0)) (i : Fin 64) :
    Inv1 m K c fN (i.val + 1) = iprop(records m K ∗ (∃ W, owes (c : Thread nD τ) (OX c (64 - (i.val + 1))) W)
    ∗ (((c : Thread nD τ).loc main_arg0) ↦{rS (i.val + 1 + 1)} X m c)
    ∗ (bigSep (ge (i.val + 1)) fun j : Fin 64 => iprop(((chunk R0 j).view.loc ((xp c : Dev nD) : Thread nD τ) ↦[(chunk R0 j).view.set]{fullShare} fN)
        ∗ dutyTok ER (cD c xsS) 0 j ∗ dutyTok ER (cD (xp c) (xrS j)) 0 (0 : Fin 64)))
    ∗ (cred (tallyAt (cD c xsS) () N) ∗ bigSep (lt i.val) fun _ : Fin 64 => cred (tallyAt (cD c xsS) () N))) := by
  unfold Inv1
  rw [lt_succ i, bigSep_insert (not_mem_lt i)]
  rfl

/-- Pass 1, one trip: chunk `i` goes to the x-neighbour. -/
theorem step1 (fN : Buf (Elt F) (((xp c : Dev nD) : Thread nD τ).loc cc0_scratch0)) (i : Fin 64) {α : Type} (k' : Prog (TpuEff nD τ sig (Elt F) Λ₀ .tc) α) (Q : α → sProp 𝕄) :
    iprop(Inv1 m K c fN i.val ∗ (Inv1 m K c fN (i.val + 1) -∗ wp frame (wpE (defs₀ (F := F)) 𝒱₀ c none) Set.univ k' Q))
      ⊢ wp frame (wpE (defs₀ (F := F)) 𝒱₀ c none) Set.univ (iter1 A0 R0 cc0_scratch2 cc0_scratch3 c i >>= fun _ => k') Q := by
  rw [s1_Inv1_open, s1_Inv1_close]
  unfold iter1
  simp only [Prog.lift, Prog.bind_op, Prog.bind_ret, Prog.pure_eq_ret]
  iintro ⟨⟨#HR, ⟨%W, HO⟩, Hin, ⟨⟨Hch, Ht1, Ht2⟩, Hge⟩, Hlt⟩, Hk⟩
  ihave Hin2 := (s1_lend m c i) $$ Hin
  icases Hin2 with ⟨HinL, HinR⟩
  iapply (Rounds.wp_send_pointsTo 𝒱₀ ER (Rd m) (c : Thread nD τ) none
      (c' := Dev.tc (xpeer c)) (src := xsrc A0 c i) (dst := chunk R0 i) (sS := .dma xsS) (sem := .dma (xrS i))
      (q := (rS (i.val + 1)).left) (fs := X m c) (fd := fN)
      (κ₁ := K (cD c xsS)) (κ₂ := K (cD (xp c) (xrS i))) (r₁ := 0) (r₂ := 0) (d₁ := i) (d₂ := (0 : Fin 64))
      (by rw [duties_xs]; exact Finset.mem_univ _) (by rw [duties_xr]; exact Finset.mem_singleton_self _)
      () () N rfl (amount_xs m c i) (amount_xr m (xp c) i 0) (OX c (64 - (i.val + 1))) (s1_OX_peel c i) (W := W)
      (s1_pay_xs m c i _) (s1_pay_xr m c fN i) (Topo.routes_tc _ _)) $$ [HO HinL Hch Ht1 Ht2]
  · isplitr; · iapply (inv_at m K c (.dma xsS)); iexact HR
    isplitr; · iapply (inv_at m K (xp c) (.dma (xrS i))); iexact HR
    isplitl [HinL]; · iexact HinL
    isplitl [Hch]; · iexact Hch
    isplitl [HO]; · iexact HO
    isplitl [Ht1]; · iexact Ht1
    isplitr; · iapply (reached_at m K c (.dma xsS)); iexact HR
    isplitl [Ht2]; · iexact Ht2
    iapply (reached_at m K (xp c) (.dma (xrS i))); iexact HR
  iintro ⟨Hcr, HO⟩
  iapply Hk
  isplitr; · iexact HR
  isplitl [HO]; · iexists W; iexact HO
  isplitl [HinR]; · iexact HinR
  isplitl [Hge]; · iexact Hge
  isplitl [Hcr]; · iexact Hcr
  iexact Hlt

end Steps

end Cert.KernelProof

end
-- ==== Proof.Bits.Step2.lean ====
import proofs.«900299_g7700000000000300_dist_rs_v7x_xy2x2_x_m8192_n1024_f32_1_alg».proof.Proof.Bits.Inv
import proofs.«900299_g7700000000000300_dist_rs_v7x_xy2x2_x_m8192_n1024_f32_1_alg».proof.Proof.Bits.InvLemmas
import proofs.«900299_g7700000000000300_dist_rs_v7x_xy2x2_x_m8192_n1024_f32_1_alg».proof.Proof.Bits.LoopParts
import proofs.«900299_g7700000000000300_dist_rs_v7x_xy2x2_x_m8192_n1024_f32_1_alg».proof.Proof.Bits.GeoSets
import proofs.«900299_g7700000000000300_dist_rs_v7x_xy2x2_x_m8192_n1024_f32_1_alg».proof.Proof.Bits.GeoVals

/-!
Pass 2 of the body, one trip: receive a chunk, add, forward and copy out.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- Chunk `i` taken out of the chunks still to come. -/
theorem bigSep_ge_take (Φ : Fin 64 → sProp 𝕄) (i : Fin 64) :
    bigSep (ge i.val) Φ ⊢ iprop(Φ i ∗ bigSep (ge (i.val + 1)) Φ) :=
  Entails.of_eq (by rw [ge_succ i, bigSep_insert (not_mem_ge_succ i)]; rfl)

/-- Chunk `i` put with the chunks already done. -/
theorem bigSep_lt_put (Φ : Fin 64 → sProp 𝕄) (i : Fin 64) :
    iprop(Φ i ∗ bigSep (lt i.val) Φ) ⊢ bigSep (lt (i.val + 1)) Φ :=
  Entails.of_eq (by rw [lt_succ i, bigSep_insert (not_mem_lt i)]; rfl)

/-- What the store leaves on the chunk's rows is the device's sum there. -/
theorem sum_stored (c : Dev nD) (i : Fin 64) :
    ((R0.access (crect i)).loc (c : Thread nD τ) ↦[(chunk R0 i).view.set]{fullShare}
        ((R0.access (crect i)).write (Elt F) (Grecv m c)
          (shapeCast S64x1024
            (addf (R0.view.readAt (Elt F) (crect i).toLoadRect (Grecv m c) : Vec F S64x1024 .f32)
              (R1.view.readAt (Elt F) (crect i).toLoadRect (Glocal m c) : Vec F S64x1024 .f32))
            shapeCasts_S64x1024_S64x1024) Finset.univ) : sProp 𝕄)
      ⊢ ((chunk R0 i).view.loc (c : Thread nD τ) ↦[(chunk R0 i).view.set]{fullShare} Gsum m c) :=
  Entails.of_eq (pointsTo_congr (store_sum i (Grecv m c) (Glocal m c)))

/-- One forward fewer to go: what is owed loses the y-neighbour's receive cell's chunk credit. -/
theorem OY_peel (c : Dev nD) (i : Fin 64) :
    OY c (64 - i.val) = OY c (64 - (i.val + 1)) + tallyAt (cD (yp c) yrS) () N := by
  have h : 64 - i.val = (64 - (i.val + 1)) + 1 := by have := i.isLt; omega
  rw [h]; rfl

/-- Pass 2, one trip: chunk `i` has landed; the sum is stored, forwarded and copied out. -/
theorem step2 (fY : Buf (Elt F) (((yp c : Dev nD) : Thread nD τ).loc main_v1)) (f1 : Buf (Elt F) ((c : Thread nD τ).loc main_v1)) (i : Fin 64)
    {α : Type} (k' : Prog (TpuEff nD τ sig (Elt F) Λ₀ .tc) α) (Q : α → sProp 𝕄) :
    iprop(Inv2 m K c fY f1 i.val ∗ (Inv2 m K c fY f1 (i.val + 1) -∗ wp frame (wpE (defs₀ (F := F)) 𝒱₀ c none) Set.univ k' Q))
      ⊢ wp frame (wpE (defs₀ (F := F)) 𝒱₀ c none) Set.univ (iter2 A0 A1 R0 R1 cc0_scratch3 cc0_scratch4 cc0_scratch5 cc0_scratch7 c i >>= fun _ => k') Q := by
  unfold iter2
  simp only [Prog.lift, Prog.bind_op, Prog.bind_ret, Prog.pure_eq_ret]
  unfold Inv2
  iintro ⟨⟨#HR, #Hlev, ⟨%W, HO⟩, Hloc, Hge, Hlt⟩, Hk⟩
  ihave Hge' := (bigSep_ge_take _ i) $$ Hge
  icases Hge' with ⟨⟨HatX, HcX, HdY, Hd1, HtYS, HtYR, HtO⟩, Hge⟩
  -- the wait for chunk i: the chunk's rows at what the neighbour along x sent
  iapply (Rounds.wp_wait_rest_token 𝒱₀ ER (Rd m) (c : Thread nD τ) none (κ := K (cD c (xrS i)))
      (wpE_waitDma2_eq 𝒱₀ (c : Thread nD τ) none Set.univ) (Set.mem_univ _) () (O := OY c (64 - i.val)) (W := W) (R := 0) (m := 0) (T := ∅)
      (by rw [expect_xr]; exact Nat.zero_add _)) $$ [HcX HO HatX]
  · isplitr; · iapply (inv_at m K c (.dma (xrS i))); iexact HR
    isplitl [HcX]; · iexact HcX
    isplitl [HO]; · iexact HO
    isplitr; · iapply (mayWait_xr c i (64 - i.val)); iexact Hlev
    iexact HatX
  iintro ⟨HO, HatX, -, Hpay⟩
  ihave Hch := (Entails.of_eq (rest_xr m c i)) $$ Hpay
  unfold xrPay
  -- the three loads and the store
  iapply (wp_load 𝒱₀ (c : Thread nD τ) none Set.univ (m := R0) (load_subset i)) $$ Hch; iintro Hch
  iapply (wp_load 𝒱₀ (c : Thread nD τ) none Set.univ (m := R1) (Finset.subset_univ _)) $$ Hloc; iintro Hloc
  iapply (wp_load 𝒱₀ (c : Thread nD τ) none Set.univ (m := R0) (load_subset i)) $$ Hch; iintro Hch
  iapply (wp_store 𝒱₀ (c : Thread nD τ) none Set.univ (m := R0) (r := crect i) (Mk := Finset.univ) (store_subset i)) $$ Hch; iintro Hch
  ihave Hch := (sum_stored m c i) $$ Hch
  -- the chunk's share in two halves: one for each copy
  ihave Hch := ((pointsTo_share (PosShare.mem_left_op_right fullShare)).1) $$ Hch
  icases Hch with ⟨HchL, HchR⟩
  -- the forward to the neighbour along y
  iapply (Rounds.wp_send_pointsTo 𝒱₀ ER (Rd m) (c : Thread nD τ) none (c' := ((yp c : Dev nD) : Thread nD τ))
      (src := chunk R0 i) (dst := oslice A1 c i) (sS := .dma ysS) (sem := .dma yrS) (q := fullShare.left)
      (fs := Gsum m c) (fd := fY) (κ₁ := K (cD c ysS)) (κ₂ := K (cD (yp c) yrS)) (r₁ := 0) (r₂ := 0) (d₁ := i) (d₂ := i)
      (by rw [duties_ys]; exact Finset.mem_univ _) (by rw [duties_yr]; exact Finset.mem_univ _)
      () () N rfl (amount_ys m c i) (amount_yr m (yp c) i) (OY c (64 - (i.val + 1))) (OY_peel c i)
      (W := insert (SemLoc.dma (xrS i), ()) W)
      (by rw [payload_ys]; exact .rfl)
      (by rw [payload_yr]; unfold yrPay; rw [yp_yp]
          exact Entails.of_eq (pointsTo_congr (oland c (yp c) (.inr rfl) i fY (Gsum m)))))
    $$ [HchL HdY HO HtYS HtYR]
  · isplitr; · iapply (inv_at m K c (.dma ysS)); iexact HR
    isplitr; · iapply (inv_at m K (yp c) (.dma yrS)); iexact HR
    isplitl [HchL]; · iexact HchL
    isplitl [HdY]; · iexact HdY
    isplitl [HO]; · iexact HO
    isplitl [HtYS]; · iexact HtYS
    isplitr; · iapply (reached_at m K c (.dma ysS)); iexact HR
    isplitl [HtYR]; · iexact HtYR
    iapply (reached_at m K (yp c) (.dma yrS)); iexact HR
  iintro ⟨HcY, HO⟩
  -- the copy into the device's own result rows
  iapply (Rounds.wp_copy_pointsTo 𝒱₀ ER (Rd m) (c : Thread nD τ) none (src := chunk R0 i) (dst := oslice A1 c i) (sem := .dma outS)
      (q := fullShare.right) (fs := Gsum m c) (fd := f1) (κ := K (cD c outS)) (r := 0) (d := i)
      (by rw [duties_out]; exact Finset.mem_univ _) () N rfl (amount_out m c i)
      (by rw [payload_out]; unfold outPay; rw [pointsTo_congr (oland c c (.inl rfl) i f1 (Gsum m))]))
    $$ [HchR Hd1 HtO]
  · isplitr; · iapply (inv_at m K c (.dma outS)); iexact HR
    isplitl [HchR]; · iexact HchR
    isplitl [Hd1]; · iexact Hd1
    isplitl [HtO]; · iexact HtO
    iapply (reached_at m K c (.dma outS)); iexact HR
  iintro HcO
  -- the invariant with chunk i done
  iapply Hk
  isplitr; · iexact HR
  isplitr; · iexact Hlev
  isplitl [HO]; · iexists _; iexact HO
  isplitl [Hloc]; · iexact Hloc
  isplitl [Hge]; · iexact Hge
  iapply (bigSep_lt_put _ i)
  isplitl [HatX HcY HcO]
  · isplitl [HatX]; · iexact HatX
    isplitl [HcY]; · iexact HcY
    iexact HcO
  iexact Hlt

end Steps

end Cert.KernelProof

end
-- ==== Proof.Bits.Step3.lean ====
import proofs.«900299_g7700000000000300_dist_rs_v7x_xy2x2_x_m8192_n1024_f32_1_alg».proof.Proof.Bits.Inv
import proofs.«900299_g7700000000000300_dist_rs_v7x_xy2x2_x_m8192_n1024_f32_1_alg».proof.Proof.Bits.InvLemmas
import proofs.«900299_g7700000000000300_dist_rs_v7x_xy2x2_x_m8192_n1024_f32_1_alg».proof.Proof.Bits.LoopParts
import proofs.«900299_g7700000000000300_dist_rs_v7x_xy2x2_x_m8192_n1024_f32_1_alg».proof.Proof.Bits.GeoSets
import proofs.«900299_g7700000000000300_dist_rs_v7x_xy2x2_x_m8192_n1024_f32_1_alg».proof.Proof.Bits.GeoVals

/-!
Pass 3 of the body, one trip: the four closing waits.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

namespace Pass3

/-- The chunks from `i` on: chunk `i` and the chunks after it. -/
theorem ge_split (i : Fin 64) (Φ : Fin 64 → sProp 𝕄) :
    bigSep (ge i.val) Φ = iprop(Φ i ∗ bigSep (ge (i.val + 1)) Φ) := by
  rw [ge_succ i, bigSep_insert (not_mem_ge_succ i)]; rfl

/-- Payloads already held and payloads newly handed over, as the payloads of the larger set. -/
theorem pay_join (g : GSem nD τ sig) {S S' : Finset (Fin 64)} (h : S ⊆ S') :
    iprop((bigSep S fun d => (Rd (F := F) m).payload g 0 d) ∗ bigSep (S' \ S) fun d => (Rd (F := F) m).payload g 0 d)
      ⊢ (bigSep S' fun d => (Rd (F := F) m).payload g 0 d : sProp 𝕄) :=
  (BI.bigSep_sep_union _ _).trans
    (Entails.of_eq (congrArg (bigSep · fun d => (Rd (F := F) m).payload g 0 d) (Finset.union_sdiff_of_subset h)))

/-- One wait of a duty's amount on a cell whose single round is 64 duties of that amount each, by an owner that
    owes nothing: wait number `i` of the 64. Before the last the owner moves on within the round, holding whatever
    payloads have landed; the last takes the rest of the round. -/
theorem wait_one (s : DmaSem sig)
    (hd : (Rd (F := F) m).duties (cD c s) 0 = Finset.univ)
    (he : (Rd (F := F) m).expect (cD c s) 0 = 64 * N)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma s) N K')
    (i : Fin 64) {α : Type} (k : PUnit → Prog (TpuEff nD τ sig (Elt F) Λ₀ .tc) α) (Q : α → sProp 𝕄) :
    iprop(records m K ∗ (∃ W, owes (c : Thread nD τ) 0 W) ∗ WSt m (cD c s) i.val)
      ⊢ iprop((((∃ W, owes (c : Thread nD τ) 0 W) ∗ WSt m (cD c s) (i.val + 1))
            -∗ wp frame (wpE (defs₀ (F := F)) 𝒱₀ c none) Set.univ (k ⟨⟩) Q)
          -∗ wp frame (wpE (defs₀ (F := F)) 𝒱₀ c none) Set.univ (.op w k) Q) := by
  have hi := i.isLt
  unfold WSt
  rw [if_pos hi]
  unfold WInv
  rw [ge_split i]
  iintro ⟨#HR, ⟨%W, HO⟩, ⟨%S, Hat, Hpay, Hc, Hcs⟩⟩ Hk
  ihave Hc' := (show cred (tallyAt (cD c s) () N) ⊢ (cred (tallyOn (cD c s) (Finsupp.single () N)) : sProp 𝕄) from .rfl) $$ Hc
  by_cases hlast : i.val + 1 < 64
  · rw [if_pos hlast]
    iapply (Rounds.wp_wait 𝒱₀ ER (Rd m) (c : Thread nD τ) none (κ := K (cD c s)) hw (Set.mem_univ _) {(SemLoc.dma s, ())}
        (cr := Finsupp.single () N) (O := 0) (W := W) (R := 0) (T := S) (m := i.val * N)
        (by rw [Util.total_single]) (image_single_subset _ () _)) $$ [Hc' HO Hat]
    · isplitr; · iapply (inv_at m K c (.dma s)); iexact HR
      isplitl [Hc']; · iexact Hc'
      isplitl [HO]; · iexact HO
      isplitr; · rw [MayOwe_zero]; iempintro
      iexact Hat
    iintro %S' ⟨%hS, HO, Hat, Hnew⟩
    iapply Hk
    isplitl [HO]; · iexists _; iexact HO
    iexists S'
    isplitl [Hat]; · rw [Nat.succ_mul]; iexact Hat
    isplitl [Hpay Hnew]
    · iapply (pay_join m (cD c s) hS.1)
      isplitl [Hpay]; · iexact Hpay
      iexact Hnew
    iexact Hcs
  · rw [if_neg hlast]
    have h63 : i.val = 63 := by omega
    unfold WDone
    iapply (Rounds.wp_wait_rest 𝒱₀ ER (Rd m) (c : Thread nD τ) none (κ := K (cD c s)) hw (Set.mem_univ _) {(SemLoc.dma s, ())}
        (cr := Finsupp.single () N) (O := 0) (W := W) (R := 0) (T := S) (m := i.val * N)
        (by rw [he, h63]; omega) (by rw [Util.total_single]) (image_single_subset _ () _)) $$ [Hc' HO Hat]
    · isplitr; · iapply (inv_at m K c (.dma s)); iexact HR
      isplitl [Hc']; · iexact Hc'
      isplitl [HO]; · iexact HO
      isplitr; · rw [MayOwe_zero]; iempintro
      iexact Hat
    iintro ⟨HO, Hat, -, Hrest⟩
    iapply Hk
    isplitl [HO]; · iexists _; iexact HO
    isplitl [Hat]; · iexact Hat
    rw [hd]
    iapply (pay_join m (cD c s) (Finset.subset_univ S))
    isplitl [Hpay]; · iexact Hpay
    iexact Hrest

/-- The same for a wait written on a transfer's two views: only the destination view's credit matters. -/
theorem wait_dma (s : DmaSem sig)
    (hd : (Rd (F := F) m).duties (cD c s) 0 = Finset.univ)
    (he : (Rd (F := F) m).expect (cD c s) 0 = 64 * N)
    {sp sp' : Space} {sh sh' : Shape} {e e' : EltTy}
    (src : Memref sig .tc sp' sh' e') (dst : Memref sig .tc sp sh e) (hsrc : src.view.WordExact) (hdst : dst.view.WordExact)
    (hc : dst.view.dmaCredit = N)
    (i : Fin 64) {α : Type} (k : PUnit → Prog (TpuEff nD τ sig (Elt F) Λ₀ .tc) α) (Q : α → sProp 𝕄) :
    iprop(records m K ∗ (∃ W, owes (c : Thread nD τ) 0 W) ∗ WSt m (cD c s) i.val)
      ⊢ iprop((((∃ W, owes (c : Thread nD τ) 0 W) ∗ WSt m (cD c s) (i.val + 1))
            -∗ wp frame (wpE (defs₀ (F := F)) 𝒱₀ c none) Set.univ (k ⟨⟩) Q)
          -∗ wp frame (wpE (defs₀ (F := F)) 𝒱₀ c none) Set.univ (.op (.waitDma2 s src dst hsrc hdst) k) Q) :=
  wait_one m K c s hd he (fun K' => by rw [wpE_waitDma2_eq, hc]) i k Q

/-- Every 64-row chunk view credits its semaphore the same amount, whichever buffer it lies in. -/
theorem credit_chunk (i : Fin 64) : (chunk R0 i).view.dmaCredit = N := rfl
theorem credit_xsrc (i : Fin 64) : (xsrc A0 c i).view.dmaCredit = N := rfl
theorem credit_oslice (i : Fin 64) : (oslice A1 c i).view.dmaCredit = N := rfl

end Pass3

/-- Pass 3, one trip: one wait on each of the four drained cells. -/
theorem step3 (i : Fin 64) {α : Type} (k' : Prog (TpuEff nD τ sig (Elt F) Λ₀ .tc) α) (Q : α → sProp 𝕄) :
    iprop(Inv3 m K c i.val ∗ (Inv3 m K c (i.val + 1) -∗ wp frame (wpE (defs₀ (F := F)) 𝒱₀ c none) Set.univ k' Q))
      ⊢ wp frame (wpE (defs₀ (F := F)) 𝒱₀ c none) Set.univ (iter3 A0 A1 R0 cc0_scratch2 cc0_scratch4 cc0_scratch5 cc0_scratch7 c i >>= fun _ => k') Q := by
  unfold iter3
  simp only [Prog.lift, Prog.bind_op, Prog.bind_ret, Prog.pure_eq_ret]
  unfold Inv3
  iintro ⟨⟨#HR, HO, Hxs, Hys, Hyr, Hout⟩, Hk⟩
  -- the send cell along x
  iapply (Pass3.wait_dma m K c xsS (duties_xs m c) (expect_xs m c) (chunk R0 i) (xsrc A0 c i) _ _ (Pass3.credit_xsrc c i) i) $$ [HO Hxs]
  · isplitr; · iexact HR
    isplitl [HO]; · iexact HO
    iexact Hxs
  iintro ⟨HO, Hxs⟩
  -- the send cell along y
  iapply (Pass3.wait_dma m K c ysS (duties_ys m c) (expect_ys m c) (oslice A1 c i) (chunk R0 i) _ _ (Pass3.credit_chunk i) i) $$ [HO Hys]
  · isplitr; · iexact HR
    isplitl [HO]; · iexact HO
    iexact Hys
  iintro ⟨HO, Hys⟩
  -- the receive cell of the result
  iapply (Pass3.wait_dma m K c yrS (duties_yr m c) (expect_yr m c) (chunk R0 i) (oslice A1 c i) _ _ (Pass3.credit_oslice c i) i) $$ [HO Hyr]
  · isplitr; · iexact HR
    isplitl [HO]; · iexact HO
    iexact Hyr
  iintro ⟨HO, Hyr⟩
  -- the cell of the copy into the result
  iapply (Pass3.wait_dma m K c outS (duties_out m c) (expect_out m c) (chunk R0 i) (oslice A1 c i) _ _ (Pass3.credit_oslice c i) i) $$ [HO Hout]
  · isplitr; · iexact HR
    isplitl [HO]; · iexact HO
    iexact Hout
  iintro ⟨HO, Hout⟩
  iapply Hk
  isplitr; · iexact HR
  isplitl [HO]; · iexact HO
  isplitl [Hxs]; · iexact Hxs
  isplitl [Hys]; · iexact Hys
  isplitl [Hyr]; · iexact Hyr
  iexact Hout

end Steps

end Cert.KernelProof

end
-- ==== Proof.Bits.Pro.lean ====
import proofs.«900299_g7700000000000300_dist_rs_v7x_xy2x2_x_m8192_n1024_f32_1_alg».proof.Proof.Bits.Inv
import proofs.«900299_g7700000000000300_dist_rs_v7x_xy2x2_x_m8192_n1024_f32_1_alg».proof.Proof.Bits.InvLemmas
import proofs.«900299_g7700000000000300_dist_rs_v7x_xy2x2_x_m8192_n1024_f32_1_alg».proof.Proof.Bits.LoopParts
import proofs.«900299_g7700000000000300_dist_rs_v7x_xy2x2_x_m8192_n1024_f32_1_alg».proof.Proof.Bits.GeoSets
import proofs.«900299_g7700000000000300_dist_rs_v7x_xy2x2_x_m8192_n1024_f32_1_alg».proof.Proof.Bits.GeoVals

/-!
The opening of the body (barrier handshake, start of the local copy) and the wait for the local copy.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- What the opening consumes. -/
def ProPre (f1 : Buf (Elt F) ((c : Thread nD τ).loc main_v1)) : sProp 𝕄 :=
  iprop(records m K ∗ levAts L lv ∗ (∃ W, owes (c : Thread nD τ) (O₀ c) W) ∗ cred (tallyAt (cB c) () 2) ∗ atPos ER (cB c) 0 ∅ 0
    ∗ dutyTok ER (cB (xp c)) 0 (0 : Fin 64) ∗ dutyTok ER (cB (yp c)) 0 (1 : Fin 64) ∗ dutyTok ER (cD c inS) 0 (0 : Fin 64)
    ∗ (((c : Thread nD τ).loc main_arg0) ↦{fullShare} X m c)
    ∗ (bigSep Finset.univ fun i : Fin 64 => ((oslice A1 (yp c) i).view.loc (c : Thread nD τ) ↦[(oslice A1 (yp c) i).view.set]{fullShare} f1))
    ∗ scr c)
/-- What it leaves. -/
def ProPost (fN : Buf (Elt F) (((xp c : Dev nD) : Thread nD τ).loc cc0_scratch0)) (fY : Buf (Elt F) (((yp c : Dev nD) : Thread nD τ).loc main_v1)) : sProp 𝕄 :=
  iprop((∃ W, owes (c : Thread nD τ) (OX c 64) W) ∗ atPos ER (cB c) 1 ∅ 0
    ∗ (((c : Thread nD τ).loc main_arg0) ↦{rS 1} X m c) ∗ cred (tallyAt (cD c inS) () NL)
    ∗ (bigSep Finset.univ fun i : Fin 64 => ((chunk R0 i).view.loc ((xp c : Dev nD) : Thread nD τ) ↦[(chunk R0 i).view.set]{fullShare} fN))
    ∗ (bigSep Finset.univ fun i : Fin 64 => ((oslice A1 c i).view.loc ((yp c : Dev nD) : Thread nD τ) ↦[(oslice A1 c i).view.set]{fullShare} fY)))

/-- The opening: the two barrier signals hand the neighbours this device's landing rows, the wait brings theirs, the local copy starts. -/
theorem pro_spec (f1 : Buf (Elt F) ((c : Thread nD τ).loc main_v1)) {α : Type} (k : Dev nD → Prog (TpuEff nD τ sig (Elt F) Λ₀ .tc) α) (Q : α → sProp 𝕄) :
    iprop(ProPre m K c f1 ∗ (∀ fN fY, ProPost m c fN fY -∗ wp frame (wpE (defs₀ (F := F)) 𝒱₀ c none) Set.univ (k c) Q))
      ⊢ wp frame (wpE (defs₀ (F := F)) 𝒱₀ c none) Set.univ (pro A0 R1 (Memref.isWhole_whole _) cc0_scratch6 >>= k) Q := by
  unfold pro
  simp only [Prog.lift, Prog.bind_op, Prog.bind_ret, Prog.pure_eq_ret, semSignalWord, semWaitWord, wp_deviceId]
  unfold ProPre scr
  iintro ⟨⟨#HR, #Hlev, ⟨%W, HO⟩, HcB, HatB, HtX, HtY, HtI, HA, HY1, ⟨%f0, Hs0⟩, ⟨%g0, Hs1⟩⟩, Hk⟩
  -- the signal to the x-neighbour's barrier cell
  iapply (Rounds.wp_signal 𝒱₀ ER (Rd m) (c : Thread nD τ) none (dst := (xp c : Thread nD τ)) (κ := K (cB (xp c)))
      (d := (0 : Fin 64)) (by rw [duties_bar]; decide) ((amount_bar m (xp c) 0).trans (by decide)) () (OX c 64 + tallyAt (cB (yp c)) () 1) rfl)
    $$ [HO HtX Hs0]
  · isplitr; · iapply (inv_at m K (xp c) (.reg barS)); iexact HR
    isplitl [HO]; · iexact HO
    isplitl [HtX]; · iexact HtX
    isplitl [Hs0]
    · rw [payload_barX]; unfold barPayX; rw [xp_xp]; iexists f0; iexact Hs0
    · iapply (reached_at m K (xp c) (.reg barS)); iexact HR
  iintro HO
  -- the signal to the y-neighbour's barrier cell
  iapply (Rounds.wp_signal 𝒱₀ ER (Rd m) (c : Thread nD τ) none (dst := (yp c : Thread nD τ)) (κ := K (cB (yp c)))
      (d := (1 : Fin 64)) (by rw [duties_bar]; decide) ((amount_bar m (yp c) 1).trans (by decide)) () (OX c 64) rfl)
    $$ [HO HtY HY1]
  · isplitr; · iapply (inv_at m K (yp c) (.reg barS)); iexact HR
    isplitl [HO]; · iexact HO
    isplitl [HtY]; · iexact HtY
    isplitl [HY1]
    · rw [payload_barY]; unfold barPayY; rw [yp_yp]; iexists f1; iexact HY1
    · iapply (reached_at m K (yp c) (.reg barS)); iexact HR
  iintro HO
  -- the wait for both neighbours' signals
  iapply (Rounds.wp_wait_rest_token 𝒱₀ ER (Rd m) (c : Thread nD τ) none (κ := K (cB c))
      (wpE_semWait_eq 𝒱₀ (c : Thread nD τ) none Set.univ) (Set.mem_univ _) () (O := OX c 64) (W := W) (R := 0) (m := 0) (T := ∅)
      (by rw [expect_bar]; decide)) $$ [HcB HO HatB]
  · isplitr; · iapply (inv_at m K c (.reg barS)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPayX barPayY
  icases Hp with ⟨⟨%fN, HN⟩, ⟨%fY, HY⟩⟩
  ihave HN' := (scratch_tiles (xp c) fN).1 $$ HN
  -- the input's share halved; the left half, on the rows and columns the local copy reads, is lent to it
  ihave HA2 := (pointsTo_share (PosShare.mem_left_op_right fullShare)).1 $$ HA
  icases HA2 with ⟨HAl, HAr⟩
  ihave HAl2 := (pointsTo_split_subset (Finset.subset_univ ((lsrc A0 c).view.set))).1 $$ HAl
  icases HAl2 with ⟨HAs, -⟩
  -- the local copy into the second scratch buffer
  have hR1 : (R1 : Memref sig .tc .vmem S4096x1024 .f32).view.set = Finset.univ := View.set_whole _
  have hpay : iprop((R1.view.loc (c : Thread nD τ) ↦[R1.view.set]{fullShare} (R1.view.write (Elt F) g0 ((lsrc A0 c).view.read (Elt F) (X m c)) Finset.univ))
      ∗ ((lsrc A0 c).view.loc (c : Thread nD τ) ↦[(lsrc A0 c).view.set]{fullShare.left} X m c)) ⊢ (Rd (F := F) m).payload (cD c inS) 0 (0 : Fin 64) := by
    rw [payload_in, inland, hR1]; unfold inPay Glocal
    exact sep_elim_left
  iapply (Rounds.wp_copy_pointsTo 𝒱₀ ER (Rd m) (c : Thread nD τ) none (src := lsrc A0 c) (dst := R1) (sem := .dma inS)
      (q := fullShare.left) (fs := X m c) (fd := g0) (κ := K (cD c inS)) (r := 0) (d := (0 : Fin 64))
      (by rw [duties_in]; exact Finset.mem_singleton_self _) () NL rfl (amount_in m c 0) hpay) $$ [HAs Hs1 HtI]
  · isplitr; · iapply (inv_at m K c (.dma inS)); iexact HR
    isplitl [HAs]; · iexact HAs
    isplitl [Hs1]; · rw [hR1]; iexact Hs1
    isplitl [HtI]; · iexact HtI
    iapply (reached_at m K c (.dma inS)); iexact HR
  iintro HcI
  iapply Hk $$ %fN %fY
  unfold ProPost
  isplitl [HO]; · iexists _; iexact HO
  isplitl [HatB]; · iexact HatB
  isplitl [HAr]; · iexact HAr
  isplitl [HcI]; · iexact HcI
  isplitl [HN']; · iexact HN'
  iexact HY

/-- The wait for the local copy: the second scratch buffer comes back holding this device's own rows. -/
theorem inwait_spec {α : Type} (k' : Prog (TpuEff nD τ sig (Elt F) Λ₀ .tc) α) (Q : α → sProp 𝕄) :
    iprop(records m K ∗ levAts L lv ∗ (∃ W, owes (c : Thread nD τ) (OY c 64) W) ∗ cred (tallyAt (cD c inS) () NL) ∗ atPos ER (cD c inS) 0 ∅ 0
        ∗ (((∃ W, owes (c : Thread nD τ) (OY c 64) W) ∗ atPos ER (cD c inS) 1 ∅ 0 ∗ inPay m c) -∗ wp frame (wpE (defs₀ (F := F)) 𝒱₀ c none) Set.univ k' Q))
      ⊢ wp frame (wpE (defs₀ (F := F)) 𝒱₀ c none) Set.univ (inwait A0 R1 (Memref.isWhole_whole _) cc0_scratch6 c >>= fun _ => k') Q := by
  unfold inwait
  simp only [Prog.lift, Prog.bind_op, Prog.bind_ret, Prog.pure_eq_ret]
  iintro ⟨#HR, #Hlev, ⟨%W, HO⟩, Hc, Hat, Hk⟩
  iapply (Rounds.wp_wait_rest_token 𝒱₀ ER (Rd m) (c : Thread nD τ) none (κ := K (cD c inS))
      (wpE_waitDma2_eq 𝒱₀ (c : Thread nD τ) none Set.univ) (Set.mem_univ _) () (O := OY c 64) (W := W) (R := 0) (m := 0) (T := ∅)
      (by rw [Nat.zero_add, expect_in])) $$ [Hc HO Hat]
  · isplitr; · iapply (inv_at m K c (.dma inS)); iexact HR
    isplitl [Hc]; · iexact Hc
    isplitl [HO]; · iexact HO
    isplitr; · iapply (mayWait_in c); iexact Hlev
    iexact Hat
  iintro ⟨HO, Hat, -, Hpay⟩
  ihave Hp := (Entails.of_eq (rest_in m c)) $$ Hpay
  iapply Hk
  isplitl [HO]; · iexists _; iexact HO
  isplitl [Hat]; · iexact Hat
  iexact Hp

end Steps

end Cert.KernelProof

end
-- ==== Proof.Bits.Epi.lean ====
import proofs.«900299_g7700000000000300_dist_rs_v7x_xy2x2_x_m8192_n1024_f32_1_alg».proof.Proof.Bits.Inv
import proofs.«900299_g7700000000000300_dist_rs_v7x_xy2x2_x_m8192_n1024_f32_1_alg».proof.Proof.Bits.InvLemmas
import proofs.«900299_g7700000000000300_dist_rs_v7x_xy2x2_x_m8192_n1024_f32_1_alg».proof.Proof.Bits.LoopParts
import proofs.«900299_g7700000000000300_dist_rs_v7x_xy2x2_x_m8192_n1024_f32_1_alg».proof.Proof.Bits.GeoSets
import proofs.«900299_g7700000000000300_dist_rs_v7x_xy2x2_x_m8192_n1024_f32_1_alg».proof.Proof.Bits.GeoVals

/-!
After the passes: the cells are closed and the chunks joined back.

The 69 DMA semaphores of a device are the five named ones and the 64 chunk semaphores, so a separating conjunction
over all of them is one summand per named semaphore and a conjunction over the chunks. Each cell has a single round;
once it is consumed the owner closes the cell and takes its counter out at zero. The payloads the drained cells hold
are the pieces of the two buffers: the device's own 64 chunks of the result with the neighbour's 64 make the whole
result, and the two half shares of every chunk of the sums make the chunk at the full share, the 64 chunks the buffer.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The 69 semaphores, enumerated -/

/-- The 69 DMA semaphores are the five named ones and the 64 chunk semaphores. -/
theorem epi_sems_univ : (Finset.univ : Finset (DmaSem sig)) = insert xsS (insert ysS (insert yrS (insert inS (insert outS (Finset.univ.image xrS))))) := by
  decide +kernel

theorem epi_xrS_inj : Function.Injective xrS := by
  intro i j h
  have := congrArg Fin.val h
  rw [xrS_val, xrS_val] at this
  exact Fin.ext (by omega)

theorem epi_xs_not_mem : xsS ∉ insert ysS (insert yrS (insert inS (insert outS (Finset.univ.image xrS)))) := by decide +kernel
theorem epi_ys_not_mem : ysS ∉ insert yrS (insert inS (insert outS (Finset.univ.image xrS))) := by decide +kernel
theorem epi_yr_not_mem : yrS ∉ insert inS (insert outS (Finset.univ.image xrS)) := by decide +kernel
theorem epi_in_not_mem : inS ∉ insert outS (Finset.univ.image xrS) := by decide +kernel
theorem epi_out_not_mem : outS ∉ Finset.univ.image xrS := by decide +kernel

/-- A separating conjunction over the 69 semaphores, one summand per named semaphore and one per chunk. -/
theorem epi_bigSep_sems (Φ : DmaSem sig → sProp 𝕄) :
    bigSep Finset.univ Φ = iprop(Φ xsS ∗ Φ ysS ∗ Φ yrS ∗ Φ inS ∗ Φ outS ∗ bigSep Finset.univ fun i : Fin 64 => Φ (xrS i)) := by
  rw [epi_sems_univ, bigSep_insert epi_xs_not_mem, bigSep_insert epi_ys_not_mem, bigSep_insert epi_yr_not_mem, bigSep_insert epi_in_not_mem,
    bigSep_insert epi_out_not_mem, bigSep_image_of_injOn (fun a _ b _ h => epi_xrS_inj h)]
  rfl

section Steps
variable (K : GSem nD τ sig → ℕ) (c : Dev nD)

/-- The two half shares of every chunk of the sums rejoin, and the 64 chunks make the whole buffer. -/
theorem epi_scratch0_join :
    iprop((bigSep Finset.univ fun i : Fin 64 => ysPay m c i)
      ∗ (bigSep Finset.univ fun i : Fin 64 => ((chunk R0 i).view.loc (c : Thread nD τ) ↦[(chunk R0 i).view.set]{fullShare.right} Gsum m c)))
      ⊢ ((((c : Thread nD τ).loc cc0_scratch0) ↦{fullShare} Gsum m c) : sProp 𝕄) := by
  rw [← bigSep_sep']
  refine (bigSep_mono fun i _ => ?_).trans (scratch_tiles c (Gsum m c)).2
  exact (pointsTo_share (PosShare.mem_left_op_right fullShare)).2

/-- The device's own 64 chunks of the result and its neighbour's 64 make the whole result; the half shares of the sums' chunks that came back with them are kept. -/
theorem epi_result_join :
    iprop((bigSep Finset.univ fun i : Fin 64 => outPay m c i) ∗ (bigSep Finset.univ fun i : Fin 64 => yrPay m c i))
      ⊢ iprop((((c : Thread nD τ).loc main_v1) ↦{fullShare} outOf c (Gsum m))
          ∗ bigSep Finset.univ fun i : Fin 64 => ((chunk R0 i).view.loc (c : Thread nD τ) ↦[(chunk R0 i).view.set]{fullShare.right} Gsum m c)) := by
  unfold outPay yrPay
  rw [bigSep_sep']
  iintro ⟨⟨Ho, Hr⟩, Hy⟩
  isplitr [Hr]
  · iapply (out_tiles c (outOf c (Gsum m))).2
    isplitl [Ho] <;> iassumption
  · iexact Hr

/-- A DMA cell of the device whose one round is consumed closes: its counter comes out, at zero. -/
theorem epi_close_cell (s : DmaSem sig) :
    iprop(records m K ∗ atPos ER (cD c s) 1 ∅ 0) ⊢ |={Set.univ}=> (semVal (cD c s) 0 : sProp 𝕄) := by
  iintro ⟨#HR, Hat⟩
  iapply (Rounds.cell_close ER (Rd m) (Set.mem_univ _) (fun h => h) (R := 1) (duties_later m (cD c s)))
  isplitr
  · iapply (inv_at m K c (.dma s)); iexact HR
  · iexact Hat

/-- The 64 chunk cells close together. -/
theorem epi_close_chunks :
    iprop(records m K ∗ bigSep Finset.univ fun i : Fin 64 => atPos ER (cD c (xrS i)) 1 ∅ 0)
      ⊢ |={Set.univ}=> (bigSep Finset.univ fun i : Fin 64 => semVal (cD c (xrS i)) 0 : sProp 𝕄) :=
  (bigSep_with_persistent (Ψ := fun i : Fin 64 => iprop(|={Set.univ}=> (semVal (cD c (xrS i)) 0 : sProp 𝕄)))
    fun i _ => epi_close_cell m K c (xrS i)).trans (bigSep_fupd _ _)

/-- After the passes: every own cell is closed at zero, the chunks are joined back into the scratch buffer and the result. -/
theorem epilogue :
    iprop(records m K ∗ WDone m (cD c xsS) ∗ WDone m (cD c ysS) ∗ WDone m (cD c yrS) ∗ WDone m (cD c outS)
        ∗ (bigSep Finset.univ fun i : Fin 64 => atPos ER (cD c (xrS i)) 1 ∅ 0) ∗ atPos ER (cD c inS) 1 ∅ 0
        ∗ (((c : Thread nD τ).loc cc0_scratch1) ↦{fullShare} Glocal m c) ∗ (((c : Thread nD τ).loc main_arg0) ↦{rS 65} X m c))
      ⊢ |={Set.univ}=> Φ₁ m c := by
  unfold WDone
  simp only [payload_out, payload_yr, payload_ys]
  iintro ⟨#HR, ⟨Hxs, Pxs⟩, ⟨Hys, Pys⟩, ⟨Hyr, Pyr⟩, ⟨Hout, Pout⟩, Hxr, Hin, Hs1, Ha0⟩
  imod (epi_close_cell m K c xsS) $$ [Hxs] with Sxs
  · isplitr; · iexact HR
    iexact Hxs
  imod (epi_close_cell m K c ysS) $$ [Hys] with Sys
  · isplitr; · iexact HR
    iexact Hys
  imod (epi_close_cell m K c yrS) $$ [Hyr] with Syr
  · isplitr; · iexact HR
    iexact Hyr
  imod (epi_close_cell m K c inS) $$ [Hin] with Sin
  · isplitr; · iexact HR
    iexact Hin
  imod (epi_close_cell m K c outS) $$ [Hout] with Sout
  · isplitr; · iexact HR
    iexact Hout
  imod (epi_close_chunks m K c) $$ [Hxr] with Sxr
  · isplitr; · iexact HR
    iexact Hxr
  imodintro
  ihave Hres := (epi_result_join m c) $$ [Pout Pyr]
  · isplitl [Pout] <;> iassumption
  icases Hres with ⟨Hv1, Hright⟩
  ihave Hs0 := (epi_scratch0_join m c) $$ [Pys Hright]
  · isplitl [Pys] <;> iassumption
  unfold Φ₁ scr
  isplitl [Ha0]; · iexact Ha0
  isplitl [Hv1]; · iexact Hv1
  isplitl [Hs0 Hs1]
  · isplitl [Hs0]
    · iexists (Gsum m c); iexact Hs0
    · iexists (Glocal m c); iexact Hs1
  · rw [epi_bigSep_sems]
    isplitl [Sxs]; · iexact Sxs
    isplitl [Sys]; · iexact Sys
    isplitl [Syr]; · iexact Syr
    isplitl [Sin]; · iexact Sin
    isplitl [Sout]; · iexact Sout
    iexact Sxr

end Steps

end Cert.KernelProof

end
-- ==== Proof.Bits.Body.lean ====
import proofs.«900299_g7700000000000300_dist_rs_v7x_xy2x2_x_m8192_n1024_f32_1_alg».proof.Proof.Bits.Step1
import proofs.«900299_g7700000000000300_dist_rs_v7x_xy2x2_x_m8192_n1024_f32_1_alg».proof.Proof.Bits.Step2
import proofs.«900299_g7700000000000300_dist_rs_v7x_xy2x2_x_m8192_n1024_f32_1_alg».proof.Proof.Bits.Step3
import proofs.«900299_g7700000000000300_dist_rs_v7x_xy2x2_x_m8192_n1024_f32_1_alg».proof.Proof.Bits.Pro
import proofs.«900299_g7700000000000300_dist_rs_v7x_xy2x2_x_m8192_n1024_f32_1_alg».proof.Proof.Bits.Epi
import proofs.«900299_g7700000000000300_dist_rs_v7x_xy2x2_x_m8192_n1024_f32_1_alg».proof.Proof.Bits.InvLemmas

/-!
The body of one device: a counted-loop rule for the passes, and the passes chained from the launch's hand-over to the exit.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Loop
variable (c : Dev nD)

/-- A pass of 64 trips keeps an invariant indexed by the trip: from the invariant at trip `64 - n`, the last `n` trips reach it at 64. -/
theorem wp_loopFrom {α : Type} (body : Fin 64 → Prog (TpuEff nD τ sig (Elt F) Λ₀ .tc) PUnit) (I : ℕ → sProp 𝕄) (Q : α → sProp 𝕄)
    (hstep : ∀ (i : Fin 64) (k' : Prog (TpuEff nD τ sig (Elt F) Λ₀ .tc) α),
      iprop(I i.val ∗ (I (i.val + 1) -∗ wp frame (wpE (defs₀ (F := F)) 𝒱₀ c none) Set.univ k' Q)) ⊢ wp frame (wpE (defs₀ (F := F)) 𝒱₀ c none) Set.univ (body i >>= fun _ => k') Q) :
    ∀ (n : ℕ) (h : n ≤ 64) (k : Prog (TpuEff nD τ sig (Elt F) Λ₀ .tc) α),
      iprop(I (64 - n) ∗ (I 64 -∗ wp frame (wpE (defs₀ (F := F)) 𝒱₀ c none) Set.univ k Q)) ⊢ wp frame (wpE (defs₀ (F := F)) 𝒱₀ c none) Set.univ (loopFrom body n h k) Q := by
  intro n
  induction n with
  | zero =>
    intro h k
    show iprop(I 64 ∗ (I 64 -∗ wp frame (wpE (defs₀ (F := F)) 𝒱₀ c none) Set.univ k Q)) ⊢ wp frame (wpE (defs₀ (F := F)) 𝒱₀ c none) Set.univ k Q
    iintro ⟨HI, Hk⟩
    iapply Hk
    iexact HI
  | succ n ih =>
    intro h k
    have hs := hstep ⟨64 - (n + 1), by omega⟩ (loopFrom body n (by omega) k)
    have e : 64 - (n + 1) + 1 = 64 - n := by omega
    simp only [e] at hs
    show _ ⊢ wp frame (wpE (defs₀ (F := F)) 𝒱₀ c none) Set.univ (body ⟨64 - (n + 1), by omega⟩ >>= fun _ => loopFrom body n (by omega) k) Q
    refine BIBase.Entails.trans ?_ hs
    iintro ⟨HI, Hk⟩
    isplitl [HI]
    · iexact HI
    · iintro HI'
      iapply (ih _ k)
      isplitl [HI']
      · iexact HI'
      · iexact Hk

end Loop

/-! ## Families over the 69 DMA semaphores and the 70 cells, by kind -/

theorem body_xrS_inj : Function.Injective (fun i : Fin 64 => (xrS i : Fin 69)) := by
  intro i j h
  have := congrArg Fin.val h
  simp only [xrS_val] at this
  exact Fin.ext (by omega)

theorem univ69 : (Finset.univ : Finset (Fin 69)) =
    insert (xsS : Fin 69) (insert (ysS : Fin 69) (insert (yrS : Fin 69) (insert (inS : Fin 69) (insert (outS : Fin 69)
      ((Finset.univ : Finset (Fin 64)).map ⟨fun i => (xrS i : Fin 69), body_xrS_inj⟩))))) := by decide +kernel

theorem bigSep_fin69 (Φ : Fin 69 → sProp 𝕄) :
    bigSep Finset.univ Φ = iprop(Φ xsS ∗ Φ ysS ∗ Φ yrS ∗ Φ inS ∗ Φ outS ∗ bigSep Finset.univ fun i : Fin 64 => Φ (xrS i)) := by
  rw [univ69, bigSep_insert (by decide +kernel), bigSep_insert (by decide +kernel), bigSep_insert (by decide +kernel),
    bigSep_insert (by decide +kernel), bigSep_insert (by decide +kernel), bigSep_map]
  rfl

theorem positions_split (c : Dev nD) :
    positions (F := F) c = iprop(atPos ER (cB c) 0 ∅ 0 ∗ bigSep Finset.univ fun j : Fin 69 => atPos ER (cD c j) 0 ∅ 0) := by
  unfold positions
  rw [Fin.univ_succ, Finset.cons_eq_insert, bigSep_insert (by simp), bigSep_map]
  rfl

/-- 64 chunks' credit in one token is 64 tokens of a chunk's credit. -/
theorem cred_split64 (g : GSem nD τ sig) :
    (cred (tallyAt g () (64 * N)) : sProp 𝕄) ⊣⊢ bigSep (Finset.univ : Finset (Fin 64)) fun _ => cred (tallyAt g () N) := by
  have h : (tallyAt g () (64 * N) : CellTallies nD τ sig Unit) = ∑ _i : Fin 64, tallyAt g () N := by
    rw [Finset.sum_const, Finset.card_univ, Fintype.card_fin]
    have : ∀ n : ℕ, n • (tallyAt g () N : CellTallies nD τ sig Unit) = tallyAt g () (n * N) := by
      intro n; induction n with
      | zero => rw [zero_smul, Nat.zero_mul]; exact (tallyAt_zero g ()).symm
      | succ n ih => rw [succ_nsmul, ih, tallyAt_add, Nat.succ_mul]
    exact (this 64).symm
  rw [h, Pipeline.cred_finsetSum]

/-! ## The body -/

section Loop64
variable (c : Dev nD)

theorem wp_loop64 {α : Type} (body : Fin 64 → Prog (TpuEff nD τ sig (Elt F) Λ₀ .tc) PUnit) (I : ℕ → sProp 𝕄) (Q : α → sProp 𝕄)
    (hstep : ∀ (i : Fin 64) (k' : Prog (TpuEff nD τ sig (Elt F) Λ₀ .tc) α),
      iprop(I i.val ∗ (I (i.val + 1) -∗ wp frame (wpE (defs₀ (F := F)) 𝒱₀ c none) Set.univ k' Q)) ⊢ wp frame (wpE (defs₀ (F := F)) 𝒱₀ c none) Set.univ (body i >>= fun _ => k') Q)
    (k : Prog (TpuEff nD τ sig (Elt F) Λ₀ .tc) α) :
    iprop(I 0 ∗ (I 64 -∗ wp frame (wpE (defs₀ (F := F)) 𝒱₀ c none) Set.univ k Q)) ⊢ wp frame (wpE (defs₀ (F := F)) 𝒱₀ c none) Set.univ (loopFrom body 64 (Nat.le_refl _) k) Q := by
  have h := wp_loopFrom c body I Q hstep 64 (Nat.le_refl _) k
  rwa [Nat.sub_self] at h

end Loop64

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

section Body
variable (K : GSem nD τ sig → ℕ) (c : Dev nD)

/-- What the body of device `c` starts from, the cells' names fixed. -/
def bodyPre : sProp 𝕄 :=
  iprop(ghost m K c ∗ creds c ∗ levAts L lv
    ∗ (((c : Thread nD τ).loc main_arg0) ↦{fullShare} X m c) ∗ (((c : Thread nD τ).loc main_v1) ↦{fullShare} m ((c : Thread nD τ).loc main_v1))
    ∗ scr c ∗ (dats m 0 c).owesAt () t₀.castSucc)

def bodyPost : sProp 𝕄 := iprop(Φ₁ m c ∗ (dats m 0 c).owesAt () t₀.succ)

theorem OX_zero : OX c 0 = OY c 64 := rfl
theorem OY_zero : OY c 0 = 0 := rfl

/-- The drained-cell state by the trip count. -/
theorem WSt_lt (g : GSem nD τ sig) {n : ℕ} (h : n < 64) : WSt m g n = WInv m g n := if_pos h
theorem WSt_top (g : GSem nD τ sig) : WSt m g 64 = WDone m g := if_neg (by decide)

theorem WInv_zero_intro (g : GSem nD τ sig) :
    iprop(atPos ER g 0 ∅ 0 ∗ bigSep (Finset.univ : Finset (Fin 64)) fun _ => cred (tallyAt g () N)) ⊢ WSt m g 0 := by
  rw [WSt_lt m g (by decide : (0 : ℕ) < 64)]
  unfold WInv
  rw [ge_zero, Nat.zero_mul]
  iintro ⟨Hp, Hc⟩
  iexists ∅
  rw [bigSep_empty]
  isplitl [Hp]; · iexact Hp
  isplitr; · iempintro
  iexact Hc

theorem Inv1_intro (fN : Buf (Elt F) (((xp c : Dev nD) : Thread nD τ).loc cc0_scratch0)) :
    iprop(records m K ∗ (∃ W, owes (c : Thread nD τ) (OX c 64) W) ∗ (((c : Thread nD τ).loc main_arg0) ↦{rS 1} X m c)
        ∗ (bigSep Finset.univ fun j : Fin 64 => ((chunk R0 j).view.loc ((xp c : Dev nD) : Thread nD τ) ↦[(chunk R0 j).view.set]{fullShare} fN))
        ∗ (bigSep Finset.univ fun i : Fin 64 => iprop(dutyTok ER (cD c xsS) 0 i ∗ dutyTok ER (cD (xp c) (xrS i)) 0 (0 : Fin 64))))
      ⊢ Inv1 m K c fN 0 := by
  unfold Inv1
  rw [ge_zero, lt_zero, bigSep_empty]
  simp only [bigSep_sep']
  iintro ⟨HR, HO, HA0, Hch, Ht1, Ht2⟩
  isplitl [HR]; · iexact HR
  isplitl [HO]; · iexact HO
  isplitl [HA0]; · iexact HA0
  isplitl [Hch Ht1 Ht2]
  · isplitl [Hch]; · iexact Hch
    isplitl [Ht1]; · iexact Ht1
    iexact Ht2
  · iempintro

theorem Inv1_elim (fN : Buf (Elt F) (((xp c : Dev nD) : Thread nD τ).loc cc0_scratch0)) :
    Inv1 m K c fN 64 ⊢ iprop((∃ W, owes (c : Thread nD τ) (OY c 64) W) ∗ (((c : Thread nD τ).loc main_arg0) ↦{rS 65} X m c)
        ∗ bigSep (Finset.univ : Finset (Fin 64)) fun _ => cred (tallyAt (cD c xsS) () N)) := by
  unfold Inv1
  rw [ge_top, lt_top, bigSep_empty, Nat.sub_self, OX_zero]
  iintro ⟨-, HO, HA0, -, Hc⟩
  isplitl [HO]; · iexact HO
  isplitl [HA0]; · iexact HA0
  iexact Hc

theorem Inv2_intro (fY : Buf (Elt F) (((yp c : Dev nD) : Thread nD τ).loc main_v1)) (f1 : Buf (Elt F) ((c : Thread nD τ).loc main_v1)) :
    iprop(records m K ∗ levAts L lv ∗ (∃ W, owes (c : Thread nD τ) (OY c 64) W) ∗ (((c : Thread nD τ).loc cc0_scratch1) ↦{fullShare} Glocal m c)
        ∗ (bigSep Finset.univ fun j : Fin 64 => atPos ER (cD c (xrS j)) 0 ∅ 0)
        ∗ (bigSep Finset.univ fun j : Fin 64 => cred (tallyAt (cD c (xrS j)) () N))
        ∗ (bigSep Finset.univ fun j : Fin 64 => ((oslice A1 c j).view.loc ((yp c : Dev nD) : Thread nD τ) ↦[(oslice A1 c j).view.set]{fullShare} fY))
        ∗ (bigSep Finset.univ fun j : Fin 64 => ((oslice A1 c j).view.loc (c : Thread nD τ) ↦[(oslice A1 c j).view.set]{fullShare} f1))
        ∗ (bigSep Finset.univ fun i : Fin 64 => iprop(dutyTok ER (cD c ysS) 0 i ∗ dutyTok ER (cD (yp c) yrS) 0 i ∗ dutyTok ER (cD c outS) 0 i)))
      ⊢ Inv2 m K c fY f1 0 := by
  unfold Inv2
  rw [ge_zero, lt_zero, bigSep_empty]
  simp only [bigSep_sep']
  iintro ⟨HR, Hl, HO, Hs, Hp, Hc, Hy, Ho, Ht1, Ht2, Ht3⟩
  isplitl [HR]; · iexact HR
  isplitl [Hl]; · iexact Hl
  isplitl [HO]; · iexact HO
  isplitl [Hs]; · iexact Hs
  isplitl [Hp Hc Hy Ho Ht1 Ht2 Ht3]
  · isplitl [Hp]; · iexact Hp
    isplitl [Hc]; · iexact Hc
    isplitl [Hy]; · iexact Hy
    isplitl [Ho]; · iexact Ho
    isplitl [Ht1]; · iexact Ht1
    isplitl [Ht2]; · iexact Ht2
    iexact Ht3
  · iempintro

theorem Inv2_elim (fY : Buf (Elt F) (((yp c : Dev nD) : Thread nD τ).loc main_v1)) (f1 : Buf (Elt F) ((c : Thread nD τ).loc main_v1)) :
    Inv2 m K c fY f1 64 ⊢ iprop((∃ W, owes (c : Thread nD τ) 0 W) ∗ (((c : Thread nD τ).loc cc0_scratch1) ↦{fullShare} Glocal m c)
        ∗ (bigSep Finset.univ fun j : Fin 64 => atPos ER (cD c (xrS j)) 1 ∅ 0)
        ∗ (bigSep (Finset.univ : Finset (Fin 64)) fun _ => cred (tallyAt (cD c ysS) () N))
        ∗ (bigSep (Finset.univ : Finset (Fin 64)) fun _ => cred (tallyAt (cD c outS) () N))) := by
  unfold Inv2
  rw [ge_top, lt_top, bigSep_empty, Nat.sub_self, OY_zero]
  simp only [bigSep_sep']
  iintro ⟨-, -, HO, Hs, -, Hp, Hy, Ho⟩
  isplitl [HO]; · iexact HO
  isplitl [Hs]; · iexact Hs
  isplitl [Hp]; · iexact Hp
  isplitl [Hy]; · iexact Hy
  iexact Ho

theorem Inv3_intro :
    iprop(records m K ∗ (∃ W, owes (c : Thread nD τ) 0 W) ∗ WSt m (cD c xsS) 0 ∗ WSt m (cD c ysS) 0 ∗ WSt m (cD c yrS) 0 ∗ WSt m (cD c outS) 0)
      ⊢ Inv3 m K c 0 := by
  unfold Inv3; exact BIBase.Entails.rfl

theorem Inv3_elim :
    Inv3 m K c 64 ⊢ iprop((∃ W, owes (c : Thread nD τ) 0 W) ∗ WDone m (cD c xsS) ∗ WDone m (cD c ysS) ∗ WDone m (cD c yrS) ∗ WDone m (cD c outS)) := by
  unfold Inv3
  rw [WSt_top, WSt_top, WSt_top, WSt_top]
  iintro ⟨-, HO, H1, H2, H3, H4⟩
  isplitl [HO]; · iexact HO
  isplitl [H1]; · iexact H1
  isplitl [H2]; · iexact H2
  isplitl [H3]; · iexact H3
  iexact H4

theorem bigSep_W0' (Φ : Fin cfg0.W → sProp 𝕄) : bigSep Finset.univ Φ = iprop(emp) := by
  have hW : (Finset.univ : Finset (Fin cfg0.W)) = ∅ := @Finset.univ_eq_empty (Fin cfg0.W) _ (show IsEmpty (Fin 0) from Fin.isEmpty)
  rw [hW, bigSep_empty]
  rfl

set_option maxHeartbeats 1600000 in
/-- The opening, the three passes and the closing, chained. -/
theorem sound_body (Kt : PUnit → sProp 𝕄) :
    iprop(bodyPre m K c ∗ (bodyPost m c -∗ Kt ⟨⟩))
      ⊢ wp frame (wpE (defs₀ (F := F)) 𝒱₀ c none) Set.univ (cc0_body (F := F) (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Kt := by
  rw [Loop.body_parts]
  unfold bodyPre ghost payToks creds
  rw [positions_split, bigSep_fin69]
  iintro ⟨⟨⟨#HR, ⟨HpB, HpXS, HpYS, HpYR, HpIN, HpOUT, HpXR⟩, HtBX, HtBY, HtIN, HtX, HtY⟩, ⟨HcB, HcXR, HcYR⟩, #Hlev, HA0, HA1, Hscr, Ho⟩, Hk⟩
  unfold Dat.owesAt Pipeline.owesWithin
  icases Ho with ⟨%W, %hW, HO⟩
  rw [show (dats m 0 c).owed t₀.castSucc = O₀ c from rfl]
  ihave HA1' := ((out_tiles c (m ((c : Thread nD τ).loc main_v1))).1) $$ HA1
  icases HA1' with ⟨Hown, Hoth⟩
  -- the opening
  iapply (pro_spec m K c (m ((c : Thread nD τ).loc main_v1)) _ Kt)
  isplitl [HO HcB HpB HtBX HtBY HtIN HA0 Hoth Hscr]
  · unfold ProPre
    isplitr; · iexact HR
    isplitr; · iexact Hlev
    isplitl [HO]; · iexists W; iexact HO
    isplitl [HcB]; · iexact HcB
    isplitl [HpB]; · iexact HpB
    isplitl [HtBX]; · iexact HtBX
    isplitl [HtBY]; · iexact HtBY
    isplitl [HtIN]; · iexact HtIN
    isplitl [HA0]; · iexact HA0
    isplitl [Hoth]; · iexact Hoth
    iexact Hscr
  iintro %fN %fY HP
  unfold ProPost
  icases HP with ⟨HO, HpB, HA0, HcIN, HchN, HchY⟩
  -- pass 1
  iapply (wp_loop64 c (iter1 A0 R0 cc0_scratch2 cc0_scratch3 c) (Inv1 m K c fN) Kt (fun i k' => step1 m K c fN i k' Kt) _)
  isplitl [HO HA0 HchN HtX]
  · iapply (Inv1_intro m K c fN)
    isplitr; · iexact HR
    isplitl [HO]; · iexact HO
    isplitl [HA0]; · iexact HA0
    isplitl [HchN]; · iexact HchN
    iexact HtX
  iintro H1
  ihave H1' := (Inv1_elim m K c fN) $$ H1
  icases H1' with ⟨HO, HA0, HcXS⟩
  -- the wait for the local copy
  iapply (inwait_spec m K c _ Kt)
  isplitr; · iexact HR
  isplitr; · iexact Hlev
  isplitl [HO]; · iexact HO
  isplitl [HcIN]; · iexact HcIN
  isplitl [HpIN]; · iexact HpIN
  iintro ⟨HO, HpIN, Hin⟩
  unfold inPay
  -- pass 2
  iapply (wp_loop64 c (iter2 A0 A1 R0 R1 cc0_scratch3 cc0_scratch4 cc0_scratch5 cc0_scratch7 c) (Inv2 m K c fY (m ((c : Thread nD τ).loc main_v1))) Kt
    (fun i k' => step2 m K c fY (m ((c : Thread nD τ).loc main_v1)) i k' Kt) _)
  isplitl [HO Hin HpXR HcXR HchY Hown HtY]
  · iapply (Inv2_intro m K c fY (m ((c : Thread nD τ).loc main_v1)))
    isplitr; · iexact HR
    isplitr; · iexact Hlev
    isplitl [HO]; · iexact HO
    isplitl [Hin]; · iexact Hin
    isplitl [HpXR]; · iexact HpXR
    isplitl [HcXR]; · iexact HcXR
    isplitl [HchY]; · iexact HchY
    isplitl [Hown]; · iexact Hown
    iexact HtY
  iintro H2
  ihave H2' := (Inv2_elim m K c fY (m ((c : Thread nD τ).loc main_v1))) $$ H2
  icases H2' with ⟨HO, Hin, HpXR, HcYS, HcOUT⟩
  ihave HcYR' := ((cred_split64 (cD c yrS)).1) $$ HcYR
  -- pass 3
  iapply (wp_loop64 c (iter3 A0 A1 R0 cc0_scratch2 cc0_scratch4 cc0_scratch5 cc0_scratch7 c) (Inv3 m K c) Kt (fun i k' => step3 m K c i k' Kt) _)
  isplitl [HO HpXS HcXS HpYS HcYS HpYR HcYR' HpOUT HcOUT]
  · iapply (Inv3_intro m K c)
    isplitr; · iexact HR
    isplitl [HO]; · iexact HO
    isplitl [HpXS HcXS]
    · iapply (WInv_zero_intro m (cD c xsS)); isplitl [HpXS]; · iexact HpXS
      iexact HcXS
    isplitl [HpYS HcYS]
    · iapply (WInv_zero_intro m (cD c ysS)); isplitl [HpYS]; · iexact HpYS
      iexact HcYS
    isplitl [HpYR HcYR']
    · iapply (WInv_zero_intro m (cD c yrS)); isplitl [HpYR]; · iexact HpYR
      iexact HcYR'
    · iapply (WInv_zero_intro m (cD c outS)); isplitl [HpOUT]; · iexact HpOUT
      iexact HcOUT
  iintro H3
  ihave H3' := (Inv3_elim m K c) $$ H3
  icases H3' with ⟨⟨%W', HO⟩, HdXS, HdYS, HdYR, HdOUT⟩
  -- the closing
  rw [Prog.pure_eq_ret, wp_ret]
  imod (epilogue m K c) $$ [HdXS HdYS HdYR HdOUT HpXR HpIN Hin HA0] with HΦ
  · isplitr; · iexact HR
    isplitl [HdXS]; · iexact HdXS
    isplitl [HdYS]; · iexact HdYS
    isplitl [HdYR]; · iexact HdYR
    isplitl [HdOUT]; · iexact HdOUT
    isplitl [HpXR]; · iexact HpXR
    isplitl [HpIN]; · iexact HpIN
    isplitl [Hin]; · iexact Hin
    iexact HA0
  imodintro
  iapply Hk
  unfold bodyPost Dat.owesAt Pipeline.owesWithin
  rw [show (dats m 0 c).owed t₀.succ = 0 from rfl]
  isplitl [HΦ]; · iexact HΦ
  iexists W'
  isplitr; · ipureintro; exact fun _ _ => Or.inl trivial
  iexact HO

/-- The pipeline's body at the one grid point is the printed body on the whole buffers. -/
theorem defs_body (t : Fin cfg0.N) :
    defs₀ (F := F) Proc.tc cfg0.body (cfg0.bodyArgs t (cfg0.slots t))
      = cc0_body (F := F) (Memref.whole main_arg0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 := by
  chain_rfl

theorem bigSep_W0_intro (Φ : Fin cfg0.W → sProp 𝕄) : (iprop(emp) : sProp 𝕄) ⊢ bigSep Finset.univ Φ := by
  rw [bigSep_W0']

set_option maxRecDepth 16384 in
/-- The library's body obligation on device `c`. -/
theorem body_obligation (c : Dev nD) : BodyObligation (dats (F := F) m 0 c) (defs₀ (F := F)) 𝒱₀ () Set.univ := fun t => by
  obtain ⟨tv, ht⟩ := t
  have htv : tv = 0 := by have := cfg0_N; omega
  subst htv
  rw [defs_body]
  iintro ⟨HΦ, Ho, -⟩
  ihave HΦ' := (show (dats m 0 c).Φ (Fin.castSucc (⟨0, ht⟩ : Fin cfg0.N)) ⊢ Φ₀ m c from BIBase.Entails.rfl) $$ HΦ
  unfold Φ₀ start
  icases HΦ' with ⟨⟨⟨%K, Hg⟩, Hcr, Hlev, HA0, HA1⟩, Hscr⟩
  iapply (sound_body m K c _)
  isplitl
  · unfold bodyPre
    isplitl [Hg]; · iexact Hg
    isplitl [Hcr]; · iexact Hcr
    isplitl [Hlev]; · iexact Hlev
    isplitl [HA0]; · iexact HA0
    isplitl [HA1]; · iexact HA1
    isplitl [Hscr]; · iexact Hscr
    iexact Ho
  · unfold bodyPost
    iintro ⟨H1, H2⟩
    ihave H1' := (show Φ₁ m c ⊢ (dats m 0 c).Φ (Fin.succ (⟨0, ht⟩ : Fin cfg0.N)) from BIBase.Entails.rfl) $$ H1
    isplitl [H1']; · iexact H1'
    isplitl [H2]; · iexact H2
    iapply (bigSep_W0_intro _)
    iempintro

end Body

end Cert.KernelProof

end
-- ==== Proof.Bits.LaunchGhost.lean ====
import proofs.«900299_g7700000000000300_dist_rs_v7x_xy2x2_x_m8192_n1024_f32_1_alg».proof.Proof.Bits.InvLemmas
import Mathlib.Data.Fintype.Basic
import Mathlib.Data.Finset.Fold

/-!
The ghost side of the launch: the launch element of the protocol's algebra, what it deals each device,
and the one global step that puts every cell's invariant in place and hands each duty's token to the device that pays it.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the cells, and the duties of each one's round -/

theorem idxOf_csem (k : Fin 70) : idxOf (csem k) = k := by
  unfold csem
  split
  · next h => exact Fin.ext h.symm
  · next h => exact Fin.ext (show k.val - 1 + 1 = k.val by omega)

theorem kcell_injective : Function.Injective (kcell : Dev nD × Fin 70 → GSem nD τ sig) := by
  rintro ⟨c, k⟩ ⟨c', k'⟩ h
  have h1 : c = c' := congrArg (fun g : GSem nD τ sig => g.1.1) h
  have h2 : csem k = csem k' := congrArg Prod.snd h
  have h3 : k = k' := by rw [← idxOf_csem k, h2, idxOf_csem]
  rw [h1, h3]

/-- The 4 × 70 cells. -/
def allCells : Finset (GSem nD τ sig) := Finset.univ.map ⟨kcell, kcell_injective⟩

/-- The duties of the one round of a device's cell number `k`: the barrier's two; all 64 on the two send cells, the result's
    receive cell and the copy-out cell; one on each chunk's receive cell and on the local copy's cell. -/
def dutySet (k : Fin 70) : Finset (Fin 64) :=
  if k.val = 0 then {0, 1} else if k.val = 1 ∨ k.val = 66 ∨ k.val = 67 ∨ k.val = 69 then Finset.univ else {0}

/-- The duties of a cell's round 0 as the schedule gives them, read off the semaphore alone. -/
def dutiesOf : SemLoc sig → Finset (Fin 64)
  | .reg _ => {0, 1}
  | .dma s => match ck s with
    | .xr _ => {0} | .inn => {0} | _ => Finset.univ

theorem dutiesOf_csem : ∀ k : Fin 70, dutiesOf (csem k) = dutySet k := by decide +kernel

/-- The table is the schedule's. -/
theorem dutySet_eq (c : Dev nD) (k : Fin 70) : (Rd (F := F) m).duties (kcell (c, k)) 0 = dutySet k := by
  rw [← dutiesOf_csem]
  show (if (0 : ℕ) ≠ 0 ∨ ((c : Thread nD τ)).2 ≠ .tc then (∅ : Finset (Fin 64)) else dutiesOf (csem k)) = _
  rw [if_neg (by rintro (h | h); exact h rfl; exact h rfl)]

/-- A duty token's key from (device, cell number) and the duty. -/
abbrev tokOf (x : (_ : Dev nD × Fin 70) × Fin 64) : GSem nD τ sig × ℕ × Fin 64 := (kcell x.1, 0, x.2)

theorem tokOf_injective : Function.Injective tokOf := by
  rintro ⟨a, d⟩ ⟨b, e⟩ h
  have h1 : a = b := kcell_injective (congrArg (fun x : GSem nD τ sig × ℕ × Fin 64 => x.1) h)
  have h2 : d = e := congrArg (fun x : GSem nD τ sig × ℕ × Fin 64 => x.2.2) h
  subst h1; subst h2; rfl

/-- Every cell's duty tokens. -/
def allToks : Finset (GSem nD τ sig × ℕ × Fin 64) :=
  ((Finset.univ : Finset (Dev nD × Fin 70)).sigma fun ck => dutySet ck.2).map ⟨tokOf, tokOf_injective⟩

/-- The launch element of the protocol's algebra. -/
def uB : UB := initOf allCells allToks

/-- The duty tokens of device `c`'s own cells. -/
def ownToks (c : Dev nD) : sProp 𝕄 :=
  bigSep Finset.univ fun k : Fin 70 => bigSep (dutySet k) fun d => dutyTok ER (kcell (c, k)) 0 d

/-- What the launch element deals device `c`: each of its 70 cells' round state at counter zero, its position at the start of
    round 0 with that round reached, and its own cells' duty tokens. -/
def G (c : Dev nD) : sProp 𝕄 :=
  iprop((bigSep Finset.univ fun k : Fin 70 => roundState ER (Rd m) (kcell (c, k)) 0)
    ∗ (bigSep Finset.univ fun k : Fin 70 => iprop(atPos ER (kcell (c, k)) 0 ∅ 0 ∗ reached ER (kcell (c, k)) 0)) ∗ ownToks c)

theorem bigSep_allCells (Φ : GSem nD τ sig → sProp 𝕄) :
    bigSep allCells Φ = bigSep Finset.univ fun c : Dev nD => bigSep Finset.univ fun k : Fin 70 => Φ (kcell (c, k)) := by
  unfold allCells; rw [bigSep_map, bigSep_univ_prod]; rfl

theorem bigSep_allToks :
    bigSep allToks (fun x => (dutyTok ER x.1 x.2.1 x.2.2 : sProp 𝕄)) = bigSep Finset.univ fun c : Dev nD => ownToks c := by
  unfold allToks ownToks; rw [bigSep_map, Pipeline.bigSep_sigma, bigSep_univ_prod]; rfl

/-- The launch element is every device's share. -/
theorem fund_all : BI.own (ER uB) ⊢ (|==> bigSep Finset.univ (G m) : sProp 𝕄) := by
  unfold uB
  iintro HX
  imod (Rounds.fund ER (Rd m) allCells allToks) $$ HX with ⟨Hst, Hr, Hat, Htok⟩
  imodintro
  ihave Hst' := (Entails.of_eq (bigSep_allCells fun g => roundState ER (Rd m) g 0)) $$ Hst
  ihave Hat' := (Entails.of_eq (bigSep_allCells fun g => atPos ER g 0 ∅ 0)) $$ Hat
  ihave Hr' := (Entails.of_eq (bigSep_allCells fun g => reached ER g 0)) $$ Hr
  ihave Htok' := (Entails.of_eq (bigSep_allToks (F := F))) $$ Htok
  unfold G; simp only [bigSep_sep']
  isplitl [Hst']; · iexact Hst'
  isplitl [Hat' Hr']
  · isplitl [Hat'] <;> iassumption
  iexact Htok'

/-! ## The global step -/

theorem bigSep_univ_succ {n : ℕ} (Ψ : Fin (n + 1) → sProp 𝕄) :
    bigSep Finset.univ Ψ = iprop(Ψ 0 ∗ bigSep Finset.univ fun j : Fin n => Ψ j.succ) := by
  rw [Fin.univ_succ]; unfold bigSep; rw [Finset.fold_cons, Finset.fold_map]; rfl

theorem csem_succ (j : Fin 69) : csem j.succ = .dma j := by
  unfold csem
  rw [dif_neg (show ¬ (j.succ.val = 0) from by rw [Fin.val_succ]; exact Nat.succ_ne_zero _)]
  exact congrArg SemLoc.dma (Fin.ext (show j.succ.val - 1 = j.val by rw [Fin.val_succ, Nat.add_sub_cancel]))

/-- The kernel's own semaphores are a device's cells 1 to 69; -/
theorem ownSems0_eq (c : Dev nD) : (Pipeline.ownSems0 (Ix := Unit) (Name := ℕ) (U := UU) (Lvl := ℕ) (Val := Elt F) (τ := τ) osem c : sProp 𝕄)
    = bigSep Finset.univ fun j : Fin 69 => semVal (kcell (c, j.succ)) 0 := by
  unfold Pipeline.ownSems0
  exact bigSep_congr fun j _ => by
    show semVal (((c : Thread nD τ), SemLoc.dma j) : GSem nD τ sig) 0 = semVal (((c : Thread nD τ), csem j.succ) : GSem nD τ sig) 0
    rw [csem_succ]

/-- the barrier semaphore, its cell 0, is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 70 => semVal (kcell (c, k)) 0 : sProp 𝕄) := by
  rw [ownSems0_eq, unscopedSems0_eq, bigSep_univ_succ (fun k : Fin 70 => (semVal (kcell (c, k)) 0 : sProp 𝕄))]
  iintro ⟨HS, HB⟩
  isplitl [HB] <;> iassumption

/-- One device's cells: each one's invariant allocated from its counter at zero and its round state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 70 => iprop(∃ κ : ℕ, cellInv ER (Rd m) κ (kcell (c, k))))
          ∗ (bigSep Finset.univ fun k : Fin 70 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 70 => semVal (kcell (c, k)) 0) ∗ bigSep Finset.univ fun k : Fin 70 => roundState ER (Rd m) (kcell (c, k)) 0)
      ⊢ (|={Set.univ}=> bigSep Finset.univ fun k : Fin 70 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### A device's own tokens, by the kind of cell -/

/-- The chunk cells' numbers among a device's 70: chunk `i`'s is `i + 2`. -/
def xrE : Fin 64 ↪ Fin 70 :=
  ⟨fun i => ⟨i.val + 2, by omega⟩, fun i j h => Fin.ext (Nat.add_right_cancel (congrArg Fin.val h : i.val + 2 = j.val + 2))⟩

theorem univ70 : (Finset.univ : Finset (Fin 70)) = insert 0 (insert 1 (insert 66 (insert 67 (insert 68 (insert 69 (Finset.univ.map xrE)))))) := by
  decide +kernel

theorem csem_kinds : csem 0 = .reg barS ∧ csem 1 = .dma xsS ∧ csem 66 = .dma ysS ∧ csem 67 = .dma yrS ∧ csem 68 = .dma inS ∧ csem 69 = .dma outS := by
  decide +kernel
theorem csem_xr : ∀ i : Fin 64, csem (xrE i) = .dma (xrS i) := by decide +kernel
theorem dutySet_kinds : dutySet 0 = {0, 1} ∧ dutySet 1 = Finset.univ ∧ dutySet 66 = Finset.univ ∧ dutySet 67 = Finset.univ ∧ dutySet 68 = {0} ∧ dutySet 69 = Finset.univ := by
  decide +kernel
theorem dutySet_xr : ∀ i : Fin 64, dutySet (xrE i) = {0} := by decide +kernel

theorem bigSep_cells (Ψ : Fin 70 → sProp 𝕄) :
    bigSep Finset.univ Ψ = iprop(Ψ 0 ∗ Ψ 1 ∗ Ψ 66 ∗ Ψ 67 ∗ Ψ 68 ∗ Ψ 69 ∗ bigSep Finset.univ fun i : Fin 64 => Ψ (xrE i)) := by
  rw [univ70, bigSep_insert (by decide +kernel), bigSep_insert (by decide +kernel), bigSep_insert (by decide +kernel), bigSep_insert (by decide +kernel),
    bigSep_insert (by decide +kernel), bigSep_insert (by decide +kernel), bigSep_map]
  rfl

theorem ownToks_eq (c : Dev nD) : (ownToks c : sProp 𝕄) =
    iprop((dutyTok ER (cB c) 0 (0 : Fin 64) ∗ dutyTok ER (cB c) 0 (1 : Fin 64))
      ∗ (bigSep Finset.univ fun d : Fin 64 => dutyTok ER (cD c xsS) 0 d)
      ∗ (bigSep Finset.univ fun d : Fin 64 => dutyTok ER (cD c ysS) 0 d)
      ∗ (bigSep Finset.univ fun d : Fin 64 => dutyTok ER (cD c yrS) 0 d)
      ∗ dutyTok ER (cD c inS) 0 (0 : Fin 64)
      ∗ (bigSep Finset.univ fun d : Fin 64 => dutyTok ER (cD c outS) 0 d)
      ∗ (bigSep Finset.univ fun i : Fin 64 => dutyTok ER (cD c (xrS i)) 0 (0 : Fin 64))) := by
  have k0 : kcell (c, 0) = cB c := by show (((c : Thread nD τ), csem 0) : GSem nD τ sig) = _; rw [csem_kinds.1]
  have k1 : kcell (c, 1) = cD c xsS := by show (((c : Thread nD τ), csem 1) : GSem nD τ sig) = _; rw [csem_kinds.2.1]
  have k66 : kcell (c, 66) = cD c ysS := by show (((c : Thread nD τ), csem 66) : GSem nD τ sig) = _; rw [csem_kinds.2.2.1]
  have k67 : kcell (c, 67) = cD c yrS := by show (((c : Thread nD τ), csem 67) : GSem nD τ sig) = _; rw [csem_kinds.2.2.2.1]
  have k68 : kcell (c, 68) = cD c inS := by show (((c : Thread nD τ), csem 68) : GSem nD τ sig) = _; rw [csem_kinds.2.2.2.2.1]
  have k69 : kcell (c, 69) = cD c outS := by show (((c : Thread nD τ), csem 69) : GSem nD τ sig) = _; rw [csem_kinds.2.2.2.2.2]
  have kx (i : Fin 64) : kcell (c, xrE i) = cD c (xrS i) := by show (((c : Thread nD τ), csem (xrE i)) : GSem nD τ sig) = _; rw [csem_xr]
  unfold ownToks
  rw [bigSep_cells]
  simp only [k0, k1, k66, k67, k68, k69, kx, dutySet_kinds.1, dutySet_kinds.2.1, dutySet_kinds.2.2.1, dutySet_kinds.2.2.2.1, dutySet_kinds.2.2.2.2.1,
    dutySet_kinds.2.2.2.2.2, dutySet_xr, bigSep_singleton]
  rw [bigSep_insert (by decide), bigSep_singleton]
  rfl

/-! ### The tokens dealt to their payers -/

/-- The two neighbour maps, as the involutions they are. -/
def xpE : Dev nD ≃ Dev nD := ⟨xp, xp, xp_xp, xp_xp⟩
def ypE : Dev nD ≃ Dev nD := ⟨yp, yp, yp_yp, yp_yp⟩

theorem payToks_eq (c : Dev nD) : (payToks c : sProp 𝕄) =
    iprop(dutyTok ER (cB (xp c)) 0 (0 : Fin 64) ∗ dutyTok ER (cB (yp c)) 0 (1 : Fin 64) ∗ dutyTok ER (cD c inS) 0 (0 : Fin 64)
      ∗ ((bigSep Finset.univ fun i : Fin 64 => dutyTok ER (cD c xsS) 0 i) ∗ (bigSep Finset.univ fun i : Fin 64 => dutyTok ER (cD (xp c) (xrS i)) 0 (0 : Fin 64)))
      ∗ ((bigSep Finset.univ fun i : Fin 64 => dutyTok ER (cD c ysS) 0 i) ∗ (bigSep Finset.univ fun i : Fin 64 => dutyTok ER (cD (yp c) yrS) 0 i)
        ∗ (bigSep Finset.univ fun i : Fin 64 => dutyTok ER (cD c outS) 0 i))) := by
  unfold payToks
  rw [bigSep_sep', bigSep_sep', bigSep_sep']

/-- Each token goes to the device that pays its duty: a barrier cell's first token and a chunk cell's token to the x-neighbour,
    a barrier cell's second token and the result cell's tokens to the y-neighbour; the rest stay. -/
theorem toks_around : (bigSep Finset.univ fun c : Dev nD => (ownToks c : sProp 𝕄)) ⊢ bigSep Finset.univ fun c : Dev nD => payToks c := by
  rw [bigSep_congr (Φ := fun c : Dev nD => (ownToks c : sProp 𝕄)) (fun c _ => ownToks_eq c),
    bigSep_congr (Φ := fun c : Dev nD => (payToks c : sProp 𝕄)) (fun c _ => payToks_eq c)]
  simp only [bigSep_sep']
  have e1 : (bigSep Finset.univ fun c : Dev nD => (dutyTok ER (cB c) 0 (0 : Fin 64) : sProp 𝕄)) = bigSep Finset.univ fun c : Dev nD => dutyTok ER (cB (xp c)) 0 (0 : Fin 64) :=
    bigSep_univ_equiv xpE _
  have e2 : (bigSep Finset.univ fun c : Dev nD => (dutyTok ER (cB c) 0 (1 : Fin 64) : sProp 𝕄)) = bigSep Finset.univ fun c : Dev nD => dutyTok ER (cB (yp c)) 0 (1 : Fin 64) :=
    bigSep_univ_equiv ypE _
  have e3 : (bigSep Finset.univ fun c : Dev nD => (bigSep Finset.univ fun i : Fin 64 => dutyTok ER (cD c (xrS i)) 0 (0 : Fin 64) : sProp 𝕄))
      = bigSep Finset.univ fun c : Dev nD => bigSep Finset.univ fun i : Fin 64 => dutyTok ER (cD (xp c) (xrS i)) 0 (0 : Fin 64) :=
    bigSep_univ_equiv xpE _
  have e4 : (bigSep Finset.univ fun c : Dev nD => (bigSep Finset.univ fun i : Fin 64 => dutyTok ER (cD c yrS) 0 i : sProp 𝕄))
      = bigSep Finset.univ fun c : Dev nD => bigSep Finset.univ fun i : Fin 64 => dutyTok ER (cD (yp c) yrS) 0 i :=
    bigSep_univ_equiv ypE _
  rw [e1, e2, e3, e4]
  iintro ⟨⟨HB0, HB1⟩, Hxs, Hys, Hyr, Hin, Hout, Hxr⟩
  isplitl [HB0]; · iexact HB0
  isplitl [HB1]; · iexact HB1
  isplitl [Hin]; · iexact Hin
  isplitl [Hxs Hxr]
  · isplitl [Hxs] <;> iassumption
  isplitl [Hys]; · iexact Hys
  isplitl [Hyr]; · iexact Hyr
  iexact Hout

/-- The names the invariants were allocated at, as a function of the cell. -/
def nameOf (K' : Dev nD × Fin 70 → ℕ) (g : GSem nD τ sig) : ℕ := K' (g.1.1, idxOf g.2)

theorem nameOf_kcell (K' : Dev nD × Fin 70 → ℕ) (ck : Dev nD × Fin 70) : nameOf K' (kcell ck) = K' ck := by
  obtain ⟨c, k⟩ := ck
  show K' (c, idxOf (csem k)) = K' (c, k)
  rw [idxOf_csem]

theorem records_nameOf (K' : Dev nD × Fin 70 → ℕ) :
    records m (nameOf K') = iprop((bigSep Finset.univ fun ck : Dev nD × Fin 70 => cellInv ER (Rd m) (K' ck) (kcell ck))
      ∗ bigSep Finset.univ fun ck : Dev nD × Fin 70 => reached ER (kcell ck) 0) := by
  unfold records
  simp only [nameOf_kcell]

/-- A persistent assertion in hand serves every summand. -/
theorem bigSep_under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem ghost_intro (K : GSem nD τ sig → ℕ) (c : Dev nD) :
    iprop(records m K ∗ (positions c ∗ payToks c)) ⊢ iprop(∃ K, ghost m K c) := by
  iintro H
  iexists K
  unfold ghost
  iexact H

/-- All devices' allocated cells, positions and tokens, regrouped: the names chosen, the records shared, the tokens dealt to their payers. -/
theorem regroup :
    (bigSep Finset.univ fun c : Dev nD => iprop((bigSep Finset.univ fun k : Fin 70 => iprop(∃ κ : ℕ, cellInv ER (Rd m) κ (kcell (c, k))))
          ∗ (bigSep Finset.univ fun k : Fin 70 => iprop(atPos ER (kcell (c, k)) 0 ∅ 0 ∗ reached ER (kcell (c, k)) 0)) ∗ ownToks c) : sProp 𝕄)
      ⊢ bigSep Finset.univ fun c => iprop(∃ K, ghost m K c) := by
  rw [bigSep_sep', bigSep_sep', ← bigSep_univ_prod (fun ck : Dev nD × Fin 70 => iprop(∃ κ : ℕ, cellInv ER (Rd m) κ (kcell ck))),
    bigSep_congr (s := Finset.univ) (fun (c : Dev nD) _ => bigSep_sep' Finset.univ (fun k : Fin 70 => (atPos ER (kcell (c, k)) 0 ∅ 0 : sProp 𝕄)) (fun k => reached ER (kcell (c, k)) 0)),
    bigSep_sep', ← bigSep_univ_prod (fun ck : Dev nD × Fin 70 => (reached ER (kcell ck) 0 : sProp 𝕄))]
  iintro ⟨HI, ⟨Hat, #HR⟩, Htok⟩
  ihave HK := (BI.bigSep_exists_pi Finset.univ (fun (ck : Dev nD × Fin 70) (κ : ℕ) => (cellInv ER (Rd m) κ (kcell ck) : sProp 𝕄))) $$ HI
  icases HK with ⟨%K', #HI⟩
  ihave Htk := (toks_around (F := F)) $$ Htok
  iapply (bigSep_under_persistent (R := records m (nameOf K')) fun c _ => ghost_intro m (nameOf K') c)
  isplitr
  · rw [records_nameOf]
    isplitl
    · iexact HI
    · iexact HR
  · rw [bigSep_sep']
    isplitl [Hat]
    · unfold positions; iexact Hat
    · iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ fun c => iprop(∃ K, ghost m K c) :=
  ((bigSep_mono fun c _ => core_alloc m c).trans (bigSep_fupd _ _)).trans (BI.fupd_mono (regroup m))

end Cert.KernelProof

end
-- ==== Proof.Bits.LaunchRun.lean ====
import proofs.«900299_g7700000000000300_dist_rs_v7x_xy2x2_x_m8192_n1024_f32_1_alg».proof.Proof.Bits.InvLemmas

/-!
The launch of the reduce-scatter: what the devices owe one another when the kernel starts, read cell by cell; the
credit the launch deals for it; and the library's launch theorem for cores that owe at launch and share an
unscoped semaphore, applied to the proof data of the three passes.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells, told apart -/

theorem cB_eq_iff {a b : Dev nD} : Iff (cB a = cB b) (a = b) :=
  ⟨fun h => Fin.ext (congrArg (fun g : GSem nD τ sig => g.1.1.val) h), fun h => h ▸ rfl⟩
theorem cD_eq_iff {a b : Dev nD} {s t : DmaSem sig} : Iff (cD a s = cD b t) (a = b ∧ s = t) :=
  ⟨fun h => ⟨Fin.ext (congrArg (fun g : GSem nD τ sig => g.1.1.val) h), SemLoc.dma.inj (congrArg Prod.snd h)⟩, fun h => by rw [h.1, h.2]⟩
theorem dma_ne_reg (s : DmaSem sig) (r : Sem sig) : (SemLoc.dma s : SemLoc sig) ≠ .reg r := fun h => by cases h
theorem cD_ne_cB (a b : Dev nD) (s : DmaSem sig) : cD a s ≠ cB b := fun h => dma_ne_reg _ _ (congrArg Prod.snd h)
theorem cB_ne_cD (a b : Dev nD) (s : DmaSem sig) : cB b ≠ cD a s := fun h => dma_ne_reg _ _ (congrArg Prod.snd h).symm

theorem xrS_ne_yrS (i : Fin 64) : xrS i ≠ yrS := fun h => by
  have := congrArg ck h; rw [ck_xr, ck_yr] at this; cases this
theorem xrS_inj {i j : Fin 64} (h : xrS i = xrS j) : i = j := by
  have := congrArg ck h; rw [ck_xr, ck_xr] at this; exact CK.xr.inj this

theorem eq_yp_iff {c d : Dev nD} : Iff (c = yp d) (d = yp c) :=
  ⟨fun h => by rw [h, yp_yp], fun h => by rw [h, yp_yp]⟩
theorem eq_xp_iff {c d : Dev nD} : Iff (c = xp d) (d = xp c) :=
  ⟨fun h => by rw [h, xp_xp], fun h => by rw [h, xp_xp]⟩

/-! ## What a device owes, read at one cell -/

/-- With `k` forwards to go a device owes its y-neighbour's result cell `k` chunks' credit and nothing else. -/
theorem OY_apply (d : Dev nD) (k : ℕ) (g : GSem nD τ sig) : OY d k g () = if g = cD (yp d) yrS then k * N else 0 := by
  induction k with
  | zero => rw [Nat.zero_mul, ite_self]; rfl
  | succ k ih =>
    show (OY d k + tallyAt (cD (yp d) yrS) () N) g () = _
    rw [Pi.add_apply, Finsupp.add_apply, ih, tallyAt_apply]
    by_cases h : g = cD (yp d) yrS
    · rw [if_pos h, if_pos ⟨h, rfl⟩, if_pos h, Nat.succ_mul]
    · rw [if_neg h, if_neg (fun h' => h h'.1), if_neg h]

/-- The sends along x owe barrier cells nothing; -/
theorem OX_bar (d c : Dev nD) (k : ℕ) : OX d k (cB c) () = 0 := by
  induction k with
  | zero => show OY d 64 (cB c) () = 0; rw [OY_apply, if_neg (cB_ne_cD _ _ _)]
  | succ k ih =>
    show (OX d k + tallyAt (cD (xp d) (xrS ⟨63 - k % 64, by omega⟩)) () N) (cB c) () = 0
    rw [Pi.add_apply, Finsupp.add_apply, ih, tallyAt_ne_cell (cB_ne_cD _ _ _)]; rfl

/-- they owe a result cell what the forwards owe it; -/
theorem OX_yr (d c : Dev nD) (k : ℕ) : OX d k (cD c yrS) () = if d = yp c then 64 * N else 0 := by
  induction k with
  | zero =>
    show OY d 64 (cD c yrS) () = _
    rw [OY_apply]
    by_cases h : d = yp c
    · rw [if_pos h, if_pos (by rw [h, yp_yp])]
    · rw [if_neg h, if_neg (fun h' => h (eq_yp_iff.mp (cD_eq_iff.mp h').1))]
  | succ k ih =>
    show (OX d k + tallyAt (cD (xp d) (xrS ⟨63 - k % 64, by omega⟩)) () N) (cD c yrS) () = _
    rw [Pi.add_apply, Finsupp.add_apply, ih, tallyAt_ne_cell (fun h' => xrS_ne_yrS _ (cD_eq_iff.mp h').2.symm)]; rfl

/-- and chunk `i`'s cell of the x-neighbour one chunk's credit once send `i` is among the `k` to go (the sends to go
    are the last `k`). -/
theorem OX_xr (d c : Dev nD) (i : Fin 64) (k : ℕ) (hk : k ≤ 64) :
    OX d k (cD c (xrS i)) () = if d = xp c ∧ 63 - i.val < k then N else 0 := by
  induction k with
  | zero =>
    show OY d 64 (cD c (xrS i)) () = _
    rw [OY_apply, if_neg (fun h' => xrS_ne_yrS _ (cD_eq_iff.mp h').2), if_neg (fun h' => Nat.not_lt_zero _ h'.2)]
  | succ k ih =>
    have hk' : k % 64 = k := Nat.mod_eq_of_lt (by omega)
    have hcell : Iff (cD c (xrS i) = cD (xp d) (xrS ⟨63 - k % 64, by omega⟩) ∧ () = ()) (d = xp c ∧ 63 - i.val = k) := by
      constructor
      · rintro ⟨h', -⟩
        have h1 := cD_eq_iff.mp h'
        refine ⟨eq_xp_iff.mp h1.1, ?_⟩
        have := congrArg Fin.val (xrS_inj h1.2); simp only [hk'] at this; omega
      · rintro ⟨h1, h2⟩
        refine ⟨?_, rfl⟩
        rw [h1, xp_xp]; exact congrArg (cD c) (congrArg xrS (Fin.ext (by simp only [hk']; omega)))
    show (OX d k + tallyAt (cD (xp d) (xrS ⟨63 - k % 64, by omega⟩)) () N) (cD c (xrS i)) () = _
    rw [Pi.add_apply, Finsupp.add_apply, ih (by omega), tallyAt_apply, if_congr hcell rfl rfl]
    by_cases hd : d = xp c
    · by_cases h1 : 63 - i.val < k
      · rw [if_pos (⟨hd, h1⟩ : d = xp c ∧ 63 - i.val < k), if_neg (fun h : d = xp c ∧ 63 - i.val = k => by omega),
          if_pos (⟨hd, by omega⟩ : d = xp c ∧ 63 - i.val < k + 1), Nat.add_zero]
      · by_cases h2 : 63 - i.val = k
        · rw [if_neg (fun h : d = xp c ∧ 63 - i.val < k => h1 h.2), if_pos (⟨hd, h2⟩ : d = xp c ∧ 63 - i.val = k),
            if_pos (⟨hd, by omega⟩ : d = xp c ∧ 63 - i.val < k + 1), Nat.zero_add]
        · rw [if_neg (fun h : d = xp c ∧ 63 - i.val < k => h1 h.2), if_neg (fun h : d = xp c ∧ 63 - i.val = k => h2 h.2),
            if_neg (fun h : d = xp c ∧ 63 - i.val < k + 1 => by omega), Nat.add_zero]
    · rw [if_neg (fun h : d = xp c ∧ 63 - i.val < k => hd h.1), if_neg (fun h : d = xp c ∧ 63 - i.val = k => hd h.1),
        if_neg (fun h : d = xp c ∧ 63 - i.val < k + 1 => hd h.1), Nat.add_zero]

/-- What device `d` owes device `c`'s barrier cell at launch: a unit if it is `c`'s y-neighbour, a unit if it is its x-neighbour. -/
theorem owed_bar (d c : Dev nD) : O₀ d (cB c) () = (if d = yp c then 1 else 0) + (if d = xp c then 1 else 0) := by
  unfold O₀
  rw [Pi.add_apply, Finsupp.add_apply, Pi.add_apply, Finsupp.add_apply, OX_bar, tallyAt_apply, tallyAt_apply, Nat.zero_add]
  congr 1
  · by_cases h : d = yp c
    · rw [if_pos h, if_pos ⟨by rw [h, yp_yp], rfl⟩]
    · rw [if_neg h, if_neg (fun h' => h (eq_yp_iff.mp (cB_eq_iff.mp h'.1)))]
  · by_cases h : d = xp c
    · rw [if_pos h, if_pos ⟨by rw [h, xp_xp], rfl⟩]
    · rw [if_neg h, if_neg (fun h' => h (eq_xp_iff.mp (cB_eq_iff.mp h'.1)))]

/-- Chunk `i`'s cell of `c` is owed one chunk's credit, by `c`'s x-neighbour. -/
theorem owed_xr (d c : Dev nD) (i : Fin 64) : O₀ d (cD c (xrS i)) () = if d = xp c then N else 0 := by
  unfold O₀
  rw [Pi.add_apply, Finsupp.add_apply, Pi.add_apply, Finsupp.add_apply, OX_xr d c i 64 (Nat.le_refl _),
    tallyAt_ne_cell (cD_ne_cB _ _ _), tallyAt_ne_cell (cD_ne_cB _ _ _), Finsupp.zero_apply, Nat.add_zero, Nat.add_zero]
  by_cases h : d = xp c
  · rw [if_pos ⟨h, by omega⟩, if_pos h]
  · rw [if_neg (fun h' => h h'.1), if_neg h]

/-- The result cell of `c` is owed 64 chunks' credit, by `c`'s y-neighbour. -/
theorem owed_yr (d c : Dev nD) : O₀ d (cD c yrS) () = if d = yp c then 64 * N else 0 := by
  unfold O₀
  rw [Pi.add_apply, Finsupp.add_apply, Pi.add_apply, Finsupp.add_apply, OX_yr,
    tallyAt_ne_cell (cD_ne_cB _ _ _), tallyAt_ne_cell (cD_ne_cB _ _ _), Finsupp.zero_apply, Nat.add_zero, Nat.add_zero]

/-! ## The launch credit -/

theorem launch_bar (c : Dev nD) :
    tallyOn (cB c) (launchCredit (Pipeline.owing O₀) 0 (cB c)) = (tallyAt (cB c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]

theorem launch_xr (c : Dev nD) (i : Fin 64) :
    tallyOn (cD c (xrS i)) (launchCredit (Pipeline.owing O₀) 0 (cD c (xrS i))) = (tallyAt (cD c (xrS i)) () N : CellTallies nD τ sig Unit) := by
  unfold tallyAt; refine congrArg _ (Finsupp.ext fun u => ?_); cases u
  rw [Pipeline.launchCredit_owing, Finsupp.single_eq_same, Finset.sum_congr rfl fun d _ => owed_xr d c i, Finset.sum_ite_eq' Finset.univ (xp c) fun _ => N,
    if_pos (Finset.mem_univ _)]

theorem launch_yr (c : Dev nD) :
    tallyOn (cD c yrS) (launchCredit (Pipeline.owing O₀) 0 (cD c yrS)) = (tallyAt (cD c yrS) () (64 * N) : CellTallies nD τ sig Unit) := by
  unfold tallyAt; refine congrArg _ (Finsupp.ext fun u => ?_); cases u
  rw [Pipeline.launchCredit_owing, Finsupp.single_eq_same, Finset.sum_congr rfl fun d _ => owed_yr d c, Finset.sum_ite_eq' Finset.univ (yp c) fun _ => 64 * N,
    if_pos (Finset.mem_univ _)]

/-- The chunks' receive semaphores among a device's semaphores. -/
def xrLoc : Fin 64 ↪ SemLoc sig := ⟨fun i => .dma (xrS i), fun i j h => xrS_inj (SemLoc.dma.inj h)⟩

/-- The launch deals a device the credit of its waits: its barrier's two units, one chunk's credit on every chunk
    cell, 64 chunks' on its result cell. -/
theorem creds_intro (c : Dev nD) : (Pipeline.launchCred O₀ c : sProp 𝕄) ⊢ creds c := by
  have hsub : insert (SemLoc.dma yrS) (Finset.univ.map xrLoc) ⊆ (Finset.univ.erase (SemLoc.reg barS) : Finset (SemLoc sig)) := fun s hs => by
    refine Finset.mem_erase.mpr ⟨?_, Finset.mem_univ _⟩
    rcases Finset.mem_insert.mp hs with rfl | hs
    · exact dma_ne_reg _ _
    · obtain ⟨i, -, rfl⟩ := Finset.mem_map.mp hs; exact dma_ne_reg _ _
  have hnot : (SemLoc.dma yrS : SemLoc sig) ∉ Finset.univ.map xrLoc := fun hs => by
    obtain ⟨i, -, hi⟩ := Finset.mem_map.mp hs
    exact xrS_ne_yrS i (SemLoc.dma.inj hi)
  have hx : (bigSep (Finset.univ.map xrLoc) fun sm : SemLoc sig =>
        (cred (tallyOn ((c : Thread nD τ), sm) (launchCredit (Pipeline.owing O₀) 0 ((c : Thread nD τ), sm))) : sProp 𝕄))
      = bigSep Finset.univ fun i : Fin 64 => cred (tallyAt (cD c (xrS i)) () N) := by
    rw [bigSep_map]
    exact bigSep_congr fun i _ => congrArg cred (launch_xr c i)
  unfold Pipeline.launchCred creds
  rw [bigSep_univ_at _ (SemLoc.reg barS), launch_bar]
  refine sep_mono_right ((bigSep_subset hsub).trans ?_)
  rw [bigSep_insert hnot, hx, launch_yr]
  exact sep_symm (PROP := sProp 𝕄)

/-! ## The theorem's side conditions -/

/-- The kernel's own semaphores — the 69 DMA semaphores — are scoped and distinct; there is no staging semaphore. -/
theorem ownSemFacts : Pipeline.OwnSemFacts cfg0.spec osem :=
  ⟨by decide +kernel, fun i j h => SemLoc.dma.inj h, fun _ w => w.elim0⟩

/-- The launch's unscoped buffers are the two arrays; with the credit, the levels and the ghost state they are what a
    device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ (∃ K, ghost m K c))
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start X
  isplitl
  · isplitl [HG]; · iexact HG
    isplitl [Hc]; · iexact Hc
    isplitl [Hlev]; · iexact Hlev
    isplitl [Ha]; · iexact Ha
    iexact Hv
  · iempintro

/-- The scoped buffers that are no staging buffer are the two scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs] <;> iassumption

/-- What a device keeps of its two arrays after the body. -/
def Yfin (c : Dev nD) : sProp 𝕄 :=
  iprop((((c : Thread nD τ).loc main_arg0) ↦{rS 65} X m c) ∗ (((c : Thread nD τ).loc main_v1) ↦{fullShare} outOf c (Gsum m)))

theorem phi1_exit (c : Dev nD) :
    (dats m 0 c).Φ (Fin.last cfg0.N) ⊢ iprop(Yfin m c ∗ Pipeline.ownSems0 osem c ∗ Pipeline.scopedRest cfg0.spec c) := by
  rw [show (dats m 0 c).Φ (Fin.last cfg0.N) = Φ₁ m c from rfl, scopedRest0_eq]
  unfold Φ₁ Yfin scr Pipeline.ownSems0
  iintro ⟨Ha, Hv, Hs, Hz⟩
  isplitl [Ha Hv]
  · isplitl [Ha] <;> iassumption
  isplitl [Hz]; · iexact Hz
  iexact Hs

/-- No window, so no staging cell to wait on. -/
theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 8000 in
/-- At the compiled 2 x 2 mesh, for any float values, from any memory with zero counters — given the ghost state the
    protocol is funded with (`hfund`), the global step that allocates every device's cells at once (`hglob`) and the
    body's proof on every device (`hbody`) —: every weakly fair execution of @main terminates, and every final state
    has each device's input unchanged and its result at the reduced column block. -/
theorem run_main (G : Dev nD → sProp 𝕄) (uB : UB) (hfund : BI.own (ER uB) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ fun c => iprop(∃ K, ghost m K c))
    (hbody : ∀ c : Dev nD, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_arg0) = X m c ∧ r.2.mem ((c : Thread nD τ).loc main_v1) = outOf c (Gsum m)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G) (G' := fun c => iprop(∃ K, ghost m K c)) (u₀ := (initOf (Pipeline.cells cfgs cellOf_inj) (Pipeline.launchToks cfgs cellOf_inj), uB))
    (hu₀ := by
      iintro Hu
      ihave H := (ownU_pair _ _) $$ Hu
      icases H with ⟨HP, HX⟩
      imod hfund $$ HX with HG
      imodintro
      isplitl [HP] <;> iassumption)
    (hglob := hglob)
    (hA := fun _ w => w.elim0) (hpf := fun _ k => k.elim0)
    (X := start m) (Y := Yfin m) (Z := fun _ => iprop(emp))
    (hX := start_intro m ρ) (hin := phi0_intro m) (hout := phi1_exit m)
    (QY := fun c s => s.mem ((c : Thread nD τ).loc main_arg0) = X m c ∧ s.mem ((c : Thread nD τ).loc main_v1) = outOf c (Gsum m))
    (hY := fun c s' => by
      unfold Yfin
      iintro ⟨⟨Ha, Hv⟩, -, HSI⟩
      icombine HSI Ha gives %ha
      icombine HSI Hv gives %hv
      imodintro
      isplitr; · ipureintro; exact ⟨Buf.eq_of_forall_mem_univ ha, Buf.eq_of_forall_mem_univ hv⟩
      iexact HSI)
    (hQ := fun _ h c => (h c).2.2)

/-- info: 'Cert.KernelProof.run_main' depends on axioms: [propext, Classical.choice, Quot.sound] -/
#guard_msgs in #print axioms run_main

end Cert.KernelProof

end
-- ==== Proof.Bits.Main.lean ====
import proofs.«900299_g7700000000000300_dist_rs_v7x_xy2x2_x_m8192_n1024_f32_1_alg».proof.Proof.Bits.Body
import proofs.«900299_g7700000000000300_dist_rs_v7x_xy2x2_x_m8192_n1024_f32_1_alg».proof.Proof.Bits.LaunchGhost
import proofs.«900299_g7700000000000300_dist_rs_v7x_xy2x2_x_m8192_n1024_f32_1_alg».proof.Proof.Bits.LaunchRun

/-!
The reduce-scatter's run on the 2 x 2 mesh: the launch theorem's three premises — the ghost state the launch element
funds, the global step that puts every cell's invariant in place, and the body's proof on every device — discharged.
-/

noncomputable section

namespace Cert.KernelProof

open Cert.Kernel Cert.Kernel.Gen Cert.Kernel.Loop Cert.Kernel.Geo

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- For any float values, from any memory with zero counters: every weakly fair execution of @main on the four devices
    terminates, and every final state has each device's input unchanged and its result at its rows of the reduced column
    block — row `r` of the result of a device in mesh column `x` is row `r % 4096` of the sum device `(x, r / 4096)` formed
    of what its neighbour along x sent it and its own row half. -/
theorem run :
    θ_run defs (onTc (τ := τ) (main (F := F))) ⟨m, fun _ => 0, ρ⟩
      (fun r => ∀ c : Dev nD, r.2.mem ((c : Thread nD τ).loc main_arg0) = X m c
        ∧ r.2.mem ((c : Thread nD τ).loc main_v1) = outOf c (Gsum m)) :=
  run_main m ρ (G m) uB (fund_all m) (glob m) (body_obligation m)

/-- info: 'Cert.KernelProof.run' depends on axioms: [propext, Classical.choice, Quot.sound] -/
#guard_msgs in #print axioms run

end Cert.KernelProof

end
-- ==== Proof.lean ====
/- The proof of `Cert.Claim`: the three frames, the idealization (which rewrote nothing) and the value claim of a
   reduce-scatter on a 2 x 2 mesh. Device `2 x + y` holds block `x` of the input along its leading axis. On its own row half
   it adds the block of its neighbour along x to its own, in the columns of its own column block `x`, and the two devices of
   a mesh column hand each other their row halves of the sum, so that each ends holding column block `x` of the sum of the two
   input blocks. The reference, on one device, sums the whole input over its leading axis. Each frame is a run with the
   result's value dropped; over the extended reals the two results agree index by index, and commutativity of addition is the
   only law used. -/
import proofs.«900299_g7700000000000300_dist_rs_v7x_xy2x2_x_m8192_n1024_f32_1_alg».proof.Defs
import proofs.«900299_g7700000000000300_dist_rs_v7x_xy2x2_x_m8192_n1024_f32_1_alg».proof.Proof.Gen.Kernel
import proofs.«900299_g7700000000000300_dist_rs_v7x_xy2x2_x_m8192_n1024_f32_1_alg».proof.Proof.Gen.Kernel.Skeleton
import proofs.«900299_g7700000000000300_dist_rs_v7x_xy2x2_x_m8192_n1024_f32_1_alg».proof.Proof.Gen.Kernel.Launch
import proofs.«900299_g7700000000000300_dist_rs_v7x_xy2x2_x_m8192_n1024_f32_1_alg».proof.Proof.Gen.Kernel.Points
import proofs.«900299_g7700000000000300_dist_rs_v7x_xy2x2_x_m8192_n1024_f32_1_alg».proof.Proof.Gen.Kernel.Frame
import proofs.«900299_g7700000000000300_dist_rs_v7x_xy2x2_x_m8192_n1024_f32_1_alg».proof.Proof.Gen.KernelIdeal
import proofs.«900299_g7700000000000300_dist_rs_v7x_xy2x2_x_m8192_n1024_f32_1_alg».proof.Proof.Gen.KernelIdeal.Skeleton
import proofs.«900299_g7700000000000300_dist_rs_v7x_xy2x2_x_m8192_n1024_f32_1_alg».proof.Proof.Gen.KernelIdeal.Launch
import proofs.«900299_g7700000000000300_dist_rs_v7x_xy2x2_x_m8192_n1024_f32_1_alg».proof.Proof.Gen.KernelIdeal.Points
import proofs.«900299_g7700000000000300_dist_rs_v7x_xy2x2_x_m8192_n1024_f32_1_alg».proof.Proof.Gen.KernelIdeal.Frame
import proofs.«900299_g7700000000000300_dist_rs_v7x_xy2x2_x_m8192_n1024_f32_1_alg».proof.Proof.Gen.ReferenceIdeal
import proofs.«900299_g7700000000000300_dist_rs_v7x_xy2x2_x_m8192_n1024_f32_1_alg».proof.Proof.Gen.Pre_finite_inputs_Kernel
import proofs.«900299_g7700000000000300_dist_rs_v7x_xy2x2_x_m8192_n1024_f32_1_alg».proof.Proof.Gen.Pre_finite_inputs_ReferenceIdeal
import proofs.«900299_g7700000000000300_dist_rs_v7x_xy2x2_x_m8192_n1024_f32_1_alg».proof.Proof.Value
import proofs.«900299_g7700000000000300_dist_rs_v7x_xy2x2_x_m8192_n1024_f32_1_alg».proof.Proof.Main
import proofs.«900299_g7700000000000300_dist_rs_v7x_xy2x2_x_m8192_n1024_f32_1_alg».proof.Proof.Bits.Main
import Idealize.ShloMosaic.Adequacy
import Idealize.ShloMosaic.Init

noncomputable section

namespace Cert.Proof

open Idealize.ShloMosaic Idealize.SL.Sem Cert.Kernel

/-- The word-level kernel's run with the result's value dropped: what a device's input holds at the end is what it held. -/
theorem frame_Kernel : Cert.frame_Kernel := fun m g _ =>
  (θ_run _ _ _).mono (fun _ h c => (h c).1) (Cert.KernelProof.run (F := Bits) m g)

/-- The same of the kernel over the extended reals. -/
theorem frame_KernelIdeal : Cert.frame_KernelIdeal := fun m g _ =>
  (θ_run _ _ _).mono (fun _ h c => (h c).1) (Cert.KernelIdealProof.run (F := Ideal) m g)

/-- The reference's run with its result dropped. -/
theorem frame_ReferenceIdeal : Cert.frame_ReferenceIdeal := fun m g _ =>
  (θ_run Cert.ReferenceIdeal.defs _ _).mono (fun _ h c => (h c).2) (Cert.ReferenceIdeal.Value.run (F := Ideal) m g)

/-- Over the extended reals each device ends holding its column block of the sum, over the leading axis, of the whole input:
    the reference's result. -/
theorem algebraic : Cert.algebraic_KernelIdeal_ReferenceIdeal := by
  intro m g m' g' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · exact (θ_run _ _ _).mono
      (fun _ h c => ⟨(h c).2.trans (Cert.KernelIdealProof.out_eq_block m _ hagree c), (h c).1⟩)
      (Cert.KernelIdealProof.run (F := Ideal) m g)
  · exact (θ_run Cert.ReferenceIdeal.defs _ _).mono
      (fun _ h => ⟨(h 0).1.trans (Cert.ReferenceIdeal.Read.val_main_v0_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
